-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S4096x2048 : Shape := ⟨2, ![4096, 2048]⟩
abbrev S8192x1024 : Shape := ⟨2, ![8192, 1024]⟩
abbrev S2x256x2048 : Shape := ⟨3, ![2, 256, 2048]⟩
abbrev S16x256x1024 : Shape := ⟨3, ![16, 256, 1024]⟩
abbrev S2x256x1024 : Shape := ⟨3, ![2, 256, 1024]⟩
abbrev S2 : Shape := ⟨1, ![2]⟩
abbrev S16 : Shape := ⟨1, ![16]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩
abbrev S1x256x1024 : Shape := ⟨3, ![1, 256, 1024]⟩
abbrev S256x1024 : Shape := ⟨2, ![256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x2048, .f32⟩
  | .hbm, ⟨1, _⟩ => ⟨S8192x1024, .bf16⟩
  | .local _ .vmem, ⟨0, _⟩ => ⟨S2x256x2048, .f32⟩
  | .local _ .vmem, ⟨1, _⟩ => ⟨S16x256x1024, .bf16⟩
  | .local _ .vmem, ⟨2, _⟩ => ⟨S2x256x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 3 → Nat :=
  let c0 : Index := 0#32
  let c0_26 : Index := 0#32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c1024_i32 : BitVec 32 := 1024#32
  let v32 : BitVec 32 := Scalar.muli v9 c1024_i32
  let v33 : Index := Scalar.indexCast v32
  ![0, 0, v33.toNat]
def k0_off2 (d0 : Dev nD) (c0_i32_30 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v40 : BitVec 32 := Scalar.muli v5 c4096_i32
  let v41 : BitVec 32 := Scalar.addi v40 c0_i32_30
  let c0_i32_38 : BitVec 32 := 0#32
  ![v41.toNat, 0]
def k0_dev2 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v42 : BitVec 32 := Scalar.muli v2 c4_i32_34
  let v43 : BitVec 32 := Scalar.addi c0_i32_35 v42
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_36 : BitVec 32 := 2#32
  let v44 : BitVec 32 := Scalar.muli v9 c2_i32_36
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v46 : BitVec 32 := Scalar.muli v8 c1_i32_37
  let v47 : BitVec 32 := Scalar.addi v45 v46
  v47.toNat
def k0_off3 (d0 : Dev nD) : Fin 3 → Nat :=
  let c0_42 : Index := 0#32
  let c0_43 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_41 : BitVec 32 := 1024#32
  let v55 : BitVec 32 := Scalar.muli v5 c1024_i32_41
  let v56 : Index := Scalar.indexCast v55
  ![0, 0, v56.toNat]
def k0_off4 (d0 : Dev nD) : Fin 3 → Nat :=
  let c1 : Index := 1#32
  let c0_66 : Index := 0#32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c1024_i32_65 : BitVec 32 := 1024#32
  let v80 : BitVec 32 := Scalar.muli v9 c1024_i32_65
  let v81 : Index := Scalar.indexCast v80
  ![1, 0, v81.toNat]
def k0_dev3 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v90 : BitVec 32 := Scalar.muli v2 c4_i32_75
  let v91 : BitVec 32 := Scalar.addi c0_i32_76 v90
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_77 : BitVec 32 := 2#32
  let v92 : BitVec 32 := Scalar.muli v9 c2_i32_77
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v94 : BitVec 32 := Scalar.muli v8 c1_i32_78
  let v95 : BitVec 32 := Scalar.addi v93 v94
  v95.toNat
def k0_off5 (d0 : Dev nD) : Fin 3 → Nat :=
  let c1_83 : Index := 1#32
  let c0_84 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_82 : BitVec 32 := 1024#32
  let v103 : BitVec 32 := Scalar.muli v5 c1024_i32_82
  let v104 : Index := Scalar.indexCast v103
  ![1, 0, v104.toNat]
def k0_dev4 (d0 : Dev nD) : Nat :=
  let c0_i32_117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_116 : BitVec 32 := 4#32
  let v138 : BitVec 32 := Scalar.muli v2 c4_i32_116
  let v139 : BitVec 32 := Scalar.addi c0_i32_117 v138
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_118 : BitVec 32 := 2#32
  let v140 : BitVec 32 := Scalar.muli v9 c2_i32_118
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_119 : BitVec 32 := 1#32
  let v142 : BitVec 32 := Scalar.muli v8 c1_i32_119
  let v143 : BitVec 32 := Scalar.addi v141 v142
  v143.toNat
def k0_dev5 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v191 : BitVec 32 := Scalar.muli v2 c4_i32_162
  let v192 : BitVec 32 := Scalar.addi c0_i32_163 v191
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_164 : BitVec 32 := 2#32
  let v193 : BitVec 32 := Scalar.muli v9 c2_i32_164
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v195 : BitVec 32 := Scalar.muli v8 c1_i32_165
  let v196 : BitVec 32 := Scalar.addi v194 v195
  v196.toNat
def k0_dev6 (d0 : Dev nD) : Nat :=
  let c0_i32_209 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_208 : BitVec 32 := 4#32
  let v244 : BitVec 32 := Scalar.muli v2 c4_i32_208
  let v245 : BitVec 32 := Scalar.addi c0_i32_209 v244
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_210 : BitVec 32 := 2#32
  let v246 : BitVec 32 := Scalar.muli v9 c2_i32_210
  let v247 : BitVec 32 := Scalar.addi v245 v246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_211 : BitVec 32 := 1#32
  let v248 : BitVec 32 := Scalar.muli v8 c1_i32_211
  let v249 : BitVec 32 := Scalar.addi v247 v248
  v249.toNat
def k0_dev7 (d0 : Dev nD) : Nat :=
  let c0_i32_254 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_253 : BitVec 32 := 4#32
  let v297 : BitVec 32 := Scalar.muli v2 c4_i32_253
  let v298 : BitVec 32 := Scalar.addi c0_i32_254 v297
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_255 : BitVec 32 := 2#32
  let v299 : BitVec 32 := Scalar.muli v9 c2_i32_255
  let v300 : BitVec 32 := Scalar.addi v298 v299
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v301 : BitVec 32 := Scalar.muli v8 c1_i32_256
  let v302 : BitVec 32 := Scalar.addi v300 v301
  v302.toNat
def k0_dev8 (d0 : Dev nD) : Nat :=
  let c0_i32_299 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_298 : BitVec 32 := 4#32
  let v350 : BitVec 32 := Scalar.muli v2 c4_i32_298
  let v351 : BitVec 32 := Scalar.addi c0_i32_299 v350
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_300 : BitVec 32 := 2#32
  let v352 : BitVec 32 := Scalar.muli v9 c2_i32_300
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_301 : BitVec 32 := 1#32
  let v354 : BitVec 32 := Scalar.muli v8 c1_i32_301
  let v355 : BitVec 32 := Scalar.addi v353 v354
  v355.toNat
def k0_dev9 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v403 : BitVec 32 := Scalar.muli v2 c4_i32_343
  let v404 : BitVec 32 := Scalar.addi c0_i32_344 v403
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_345 : BitVec 32 := 2#32
  let v405 : BitVec 32 := Scalar.muli v9 c2_i32_345
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_346 : BitVec 32 := 1#32
  let v407 : BitVec 32 := Scalar.muli v8 c1_i32_346
  let v408 : BitVec 32 := Scalar.addi v406 v407
  v408.toNat
def k0_dev10 (d0 : Dev nD) : Nat :=
  let c0_i32_389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_388 : BitVec 32 := 4#32
  let v456 : BitVec 32 := Scalar.muli v2 c4_i32_388
  let v457 : BitVec 32 := Scalar.addi c0_i32_389 v456
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_390 : BitVec 32 := 2#32
  let v458 : BitVec 32 := Scalar.muli v9 c2_i32_390
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_391 : BitVec 32 := 1#32
  let v460 : BitVec 32 := Scalar.muli v8 c1_i32_391
  let v461 : BitVec 32 := Scalar.addi v459 v460
  v461.toNat
def k0_dev11 (d0 : Dev nD) : Nat :=
  let c0_i32_434 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_433 : BitVec 32 := 4#32
  let v509 : BitVec 32 := Scalar.muli v2 c4_i32_433
  let v510 : BitVec 32 := Scalar.addi c0_i32_434 v509
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_435 : BitVec 32 := 2#32
  let v511 : BitVec 32 := Scalar.muli v9 c2_i32_435
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_436 : BitVec 32 := 1#32
  let v513 : BitVec 32 := Scalar.muli v8 c1_i32_436
  let v514 : BitVec 32 := Scalar.addi v512 v513
  v514.toNat
def k0_dev12 (d0 : Dev nD) : Nat :=
  let c0_i32_479 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_478 : BitVec 32 := 4#32
  let v562 : BitVec 32 := Scalar.muli v2 c4_i32_478
  let v563 : BitVec 32 := Scalar.addi c0_i32_479 v562
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_480 : BitVec 32 := 2#32
  let v564 : BitVec 32 := Scalar.muli v9 c2_i32_480
  let v565 : BitVec 32 := Scalar.addi v563 v564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_481 : BitVec 32 := 1#32
  let v566 : BitVec 32 := Scalar.muli v8 c1_i32_481
  let v567 : BitVec 32 := Scalar.addi v565 v566
  v567.toNat
def k0_dev13 (d0 : Dev nD) : Nat :=
  let c0_i32_524 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_523 : BitVec 32 := 4#32
  let v615 : BitVec 32 := Scalar.muli v2 c4_i32_523
  let v616 : BitVec 32 := Scalar.addi c0_i32_524 v615
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_525 : BitVec 32 := 2#32
  let v617 : BitVec 32 := Scalar.muli v9 c2_i32_525
  let v618 : BitVec 32 := Scalar.addi v616 v617
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_526 : BitVec 32 := 1#32
  let v619 : BitVec 32 := Scalar.muli v8 c1_i32_526
  let v620 : BitVec 32 := Scalar.addi v618 v619
  v620.toNat
def k0_dev14 (d0 : Dev nD) : Nat :=
  let c0_i32_569 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_568 : BitVec 32 := 4#32
  let v668 : BitVec 32 := Scalar.muli v2 c4_i32_568
  let v669 : BitVec 32 := Scalar.addi c0_i32_569 v668
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_570 : BitVec 32 := 2#32
  let v670 : BitVec 32 := Scalar.muli v9 c2_i32_570
  let v671 : BitVec 32 := Scalar.addi v669 v670
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_571 : BitVec 32 := 1#32
  let v672 : BitVec 32 := Scalar.muli v8 c1_i32_571
  let v673 : BitVec 32 := Scalar.addi v671 v672
  v673.toNat
def k0_dev15 (d0 : Dev nD) : Nat :=
  let c0_i32_614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_613 : BitVec 32 := 4#32
  let v721 : BitVec 32 := Scalar.muli v2 c4_i32_613
  let v722 : BitVec 32 := Scalar.addi c0_i32_614 v721
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_615 : BitVec 32 := 2#32
  let v723 : BitVec 32 := Scalar.muli v9 c2_i32_615
  let v724 : BitVec 32 := Scalar.addi v722 v723
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_616 : BitVec 32 := 1#32
  let v725 : BitVec 32 := Scalar.muli v8 c1_i32_616
  let v726 : BitVec 32 := Scalar.addi v724 v725
  v726.toNat
def k0_dev16 (d0 : Dev nD) : Nat :=
  let c0_i32_659 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_658 : BitVec 32 := 4#32
  let v774 : BitVec 32 := Scalar.muli v2 c4_i32_658
  let v775 : BitVec 32 := Scalar.addi c0_i32_659 v774
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_660 : BitVec 32 := 2#32
  let v776 : BitVec 32 := Scalar.muli v9 c2_i32_660
  let v777 : BitVec 32 := Scalar.addi v775 v776
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_661 : BitVec 32 := 1#32
  let v778 : BitVec 32 := Scalar.muli v8 c1_i32_661
  let v779 : BitVec 32 := Scalar.addi v777 v778
  v779.toNat
def k0_dev17 (d0 : Dev nD) : Nat :=
  let c0_i32_699 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_698 : BitVec 32 := 4#32
  let v822 : BitVec 32 := Scalar.muli v2 c4_i32_698
  let v823 : BitVec 32 := Scalar.addi c0_i32_699 v822
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_700 : BitVec 32 := 2#32
  let v824 : BitVec 32 := Scalar.muli v9 c2_i32_700
  let v825 : BitVec 32 := Scalar.addi v823 v824
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_701 : BitVec 32 := 1#32
  let v826 : BitVec 32 := Scalar.muli v8 c1_i32_701
  let v827 : BitVec 32 := Scalar.addi v825 v826
  v827.toNat

class Facts₀ : Prop where
  hamt_1 : (1#32 : BitVec 32).msb = false
  inb_S2_S1_0 : ∀ a, (![0] : Fin 1 → Nat) a + S1.size a ≤ S2.size a
  squeezes_S1_S_ : S1.Squeezes S_
  inb_S2x256x2048_S1x256x2048_0_0_0 : ∀ a, (![0, 0, 0] : Fin 3 → Nat) a + S1x256x2048.size a ≤ S2x256x2048.size a
  squeezes_S1x256x2048_S256x2048 : S1x256x2048.Squeezes S256x2048
  inb_S4096x2048_S256x2048_0_0 : ∀ a, (![0, 0] : Fin 2 → Nat) a + S256x2048.size a ≤ S4096x2048.size a
  inb_S2_S1_1 : ∀ a, (![1] : Fin 1 → Nat) a + S1.size a ≤ S2.size a
  inb_S2x256x2048_S1x256x2048_1_0_0 : ∀ a, (![1, 0, 0] : Fin 3 → Nat) a + S1x256x2048.size a ≤ S2x256x2048.size a
  inb_S4096x2048_S256x2048_256_0 : ∀ a, (![256, 0] : Fin 2 → Nat) a + S256x2048.size a ≤ S4096x2048.size a
  h_S1x256x1024 : 0 < S1x256x1024.numel
  shapeCasts_S1x256x1024_S256x1024 : S1x256x1024.ShapeCasts S256x1024
  bitsLt_bf16_f32 : FTy.bits .bf16 < FTy.bits .f32
  inb_S16x256x1024_S1x256x1024_0_0_0 : ∀ a, (![0, 0, 0] : Fin 3 → Nat) a + S1x256x1024.size a ≤ S16x256x1024.size a
  shapeCasts_S256x1024_S1x256x1024 : S256x1024.ShapeCasts S1x256x1024
  packedbf16_S16x256x1024_S1x256x1024_0_0_0 : (Rect.unit (s := S16x256x1024) ![0, 0, 0] S1x256x1024.size inb_S16x256x1024_S1x256x1024_0_0_0).PackedRows (EltTy.packing .bf16)
  inb_S16_S1_0 : ∀ a, (![0] : Fin 1 → Nat) a + S1.size a ≤ S16.size a
  squeezes_S1x256x1024_S256x1024 : S1x256x1024.Squeezes S256x1024
  wordsbf16_S16x256x1024_S1x256x1024_0_0_0 : (Rect.unit (s := S16x256x1024) ![0, 0, 0] S1x256x1024.size inb_S16x256x1024_S1x256x1024_0_0_0).WholeWords (EltTy.packing .bf16)
  inb_S2x256x1024_S1x256x1024_0_0_0 : ∀ a, (![0, 0, 0] : Fin 3 → Nat) a + S1x256x1024.size a ≤ S2x256x1024.size a
  packedbf16_S2x256x1024_S1x256x1024_0_0_0 : (Rect.unit (s := S2x256x1024) ![0, 0, 0] S1x256x1024.size inb_S2x256x1024_S1x256x1024_0_0_0).PackedRows (EltTy.packing .bf16)
  wordsbf16_S2x256x1024_S1x256x1024_0_0_0 : (Rect.unit (s := S2x256x1024) ![0, 0, 0] S1x256x1024.size inb_S2x256x1024_S1x256x1024_0_0_0).WholeWords (EltTy.packing .bf16)
  inb_S4096x2048_S256x2048_512_0 : ∀ a, (![512, 0] : Fin 2 → Nat) a + S256x2048.size a ≤ S4096x2048.size a
  inb_S16x256x1024_S1x256x1024_1_0_0 : ∀ a, (![1, 0, 0] : Fin 3 → Nat) a + S1x256x1024.size a ≤ S16x256x1024.size a
  packedbf16_S16x256x1024_S1x256x1024_1_0_0 : (Rect.unit (s := S16x256x1024) ![1, 0, 0] S1x256x1024.size inb_S16x256x1024_S1x256x1024_1_0_0).PackedRows (EltTy.packing .bf16)
  inb_S16_S1_1 : ∀ a, (![1] : Fin 1 → Nat) a + S1.size a ≤ S16.size a
  wordsbf16_S16x256x1024_S1x256x1024_1_0_0 : (Rect.unit (s := S16x256x1024) ![1, 0, 0] S1x256x1024.size inb_S16x256x1024_S1x256x1024_1_0_0).WholeWords (EltTy.packing .bf16)
  inb_S2x256x1024_S1x256x1024_1_0_0 : ∀ a, (![1, 0, 0] : Fin 3 → Nat) a + S1x256x1024.size a ≤ S2x256x1024.size a
  packedbf16_S2x256x1024_S1x256x1024_1_0_0 : (Rect.unit (s := S2x256x1024) ![1, 0, 0] S1x256x1024.size inb_S2x256x1024_S1x256x1024_1_0_0).PackedRows (EltTy.packing .bf16)
  wordsbf16_S2x256x1024_S1x256x1024_1_0_0 : (Rect.unit (s := S2x256x1024) ![1, 0, 0] S1x256x1024.size inb_S2x256x1024_S1x256x1024_1_0_0).WholeWords (EltTy.packing .bf16)
  inb_S4096x2048_S256x2048_768_0 : ∀ a, (![768, 0] : Fin 2 → Nat) a + S256x2048.size a ≤ S4096x2048.size a
  inb_S16x256x1024_S1x256x1024_2_0_0 : ∀ a, (![2, 0, 0] : Fin 3 → Nat) a + S1x256x1024.size a ≤ S16x256x1024.size a
  packedbf16_S16x256x1024_S1x256x1024_2_0_0 : (Rect.unit (s := S16x256x1024) ![2, 0, 0] S1x256x1024.size inb_S16x256x1024_S1x256x1024_2_0_0).PackedRows (EltTy.packing .bf16)
  inb_S16_S1_2 : ∀ a, (![2] : Fin 1 → Nat) a + S1.size a ≤ S16.size a
  wordsbf16_S16x256x1024_S1x256x1024_2_0_0 : (Rect.unit (s := S16x256x1024) ![2, 0, 0] S1x256x1024.size inb_S16x256x1024_S1x256x1024_2_0_0).WholeWords (EltTy.packing .bf16)
  inb_S4096x2048_S256x2048_1024_0 : ∀ a, (![1024, 0] : Fin 2 → Nat) a + S256x2048.size a ≤ S4096x2048.size a
  inb_S16x256x1024_S1x256x1024_3_0_0 : ∀ a, (![3, 0, 0] : Fin 3 → Nat) a + S1x256x1024.size a ≤ S16x256x1024.size a
  packedbf16_S16x256x1024_S1x256x1024_3_0_0 : (Rect.unit (s := S16x256x1024) ![3, 0, 0] S1x256x1024.size inb_S16x256x1024_S1x256x1024_3_0_0).PackedRows (EltTy.packing .bf16)
  inb_S16_S1_3 : ∀ a, (![3] : Fin 1 → Nat) a + S1.size a ≤ S16.size a
  wordsbf16_S16x256x1024_S1x256x1024_3_0_0 : (Rect.unit (s := S16x256x1024) ![3, 0, 0] S1x256x1024.size inb_S16x256x1024_S1x256x1024_3_0_0).WholeWords (EltTy.packing .bf16)
  inb_S4096x2048_S256x2048_1280_0 : ∀ a, (![1280, 0] : Fin 2 → Nat) a + S256x2048.size a ≤ S4096x2048.size a
  inb_S16x256x1024_S1x256x1024_4_0_0 : ∀ a, (![4, 0, 0] : Fin 3 → Nat) a + S1x256x1024.size a ≤ S16x256x1024.size a
  packedbf16_S16x256x1024_S1x256x1024_4_0_0 : (Rect.unit (s := S16x256x1024) ![4, 0, 0] S1x256x1024.size inb_S16x256x1024_S1x256x1024_4_0_0).PackedRows (EltTy.packing .bf16)
  inb_S16_S1_4 : ∀ a, (![4] : Fin 1 → Nat) a + S1.size a ≤ S16.size a
  wordsbf16_S16x256x1024_S1x256x1024_4_0_0 : (Rect.unit (s := S16x256x1024) ![4, 0, 0] S1x256x1024.size inb_S16x256x1024_S1x256x1024_4_0_0).WholeWords (EltTy.packing .bf16)
  inb_S4096x2048_S256x2048_1536_0 : ∀ a, (![1536, 0] : Fin 2 → Nat) a + S256x2048.size a ≤ S4096x2048.size a
  inb_S16x256x1024_S1x256x1024_5_0_0 : ∀ a, (![5, 0, 0] : Fin 3 → Nat) a + S1x256x1024.size a ≤ S16x256x1024.size a
  packedbf16_S16x256x1024_S1x256x1024_5_0_0 : (Rect.unit (s := S16x256x1024) ![5, 0, 0] S1x256x1024.size inb_S16x256x1024_S1x256x1024_5_0_0).PackedRows (EltTy.packing .bf16)
  inb_S16_S1_5 : ∀ a, (![5] : Fin 1 → Nat) a + S1.size a ≤ S16.size a
  wordsbf16_S16x256x1024_S1x256x1024_5_0_0 : (Rect.unit (s := S16x256x1024) ![5, 0, 0] S1x256x1024.size inb_S16x256x1024_S1x256x1024_5_0_0).WholeWords (EltTy.packing .bf16)
  inb_S4096x2048_S256x2048_1792_0 : ∀ a, (![1792, 0] : Fin 2 → Nat) a + S256x2048.size a ≤ S4096x2048.size a
  inb_S16x256x1024_S1x256x1024_6_0_0 : ∀ a, (![6, 0, 0] : Fin 3 → Nat) a + S1x256x1024.size a ≤ S16x256x1024.size a
  packedbf16_S16x256x1024_S1x256x1024_6_0_0 : (Rect.unit (s := S16x256x1024) ![6, 0, 0] S1x256x1024.size inb_S16x256x1024_S1x256x1024_6_0_0).PackedRows (EltTy.packing .bf16)
  inb_S16_S1_6 : ∀ a, (![6] : Fin 1 → Nat) a + S1.size a ≤ S16.size a
  wordsbf16_S16x256x1024_S1x256x1024_6_0_0 : (Rect.unit (s := S16x256x1024) ![6, 0, 0] S1x256x1024.size inb_S16x256x1024_S1x256x1024_6_0_0).WholeWords (EltTy.packing .bf16)
  inb_S4096x2048_S256x2048_2048_0 : ∀ a, (![2048, 0] : Fin 2 → Nat) a + S256x2048.size a ≤ S4096x2048.size a
  inb_S16x256x1024_S1x256x1024_7_0_0 : ∀ a, (![7, 0, 0] : Fin 3 → Nat) a + S1x256x1024.size a ≤ S16x256x1024.size a
  packedbf16_S16x256x1024_S1x256x1024_7_0_0 : (Rect.unit (s := S16x256x1024) ![7, 0, 0] S1x256x1024.size inb_S16x256x1024_S1x256x1024_7_0_0).PackedRows (EltTy.packing .bf16)
  inb_S16_S1_7 : ∀ a, (![7] : Fin 1 → Nat) a + S1.size a ≤ S16.size a
  wordsbf16_S16x256x1024_S1x256x1024_7_0_0 : (Rect.unit (s := S16x256x1024) ![7, 0, 0] S1x256x1024.size inb_S16x256x1024_S1x256x1024_7_0_0).WholeWords (EltTy.packing .bf16)
  inb_S4096x2048_S256x2048_2304_0 : ∀ a, (![2304, 0] : Fin 2 → Nat) a + S256x2048.size a ≤ S4096x2048.size a
  inb_S16x256x1024_S1x256x1024_8_0_0 : ∀ a, (![8, 0, 0] : Fin 3 → Nat) a + S1x256x1024.size a ≤ S16x256x1024.size a
  packedbf16_S16x256x1024_S1x256x1024_8_0_0 : (Rect.unit (s := S16x256x1024) ![8, 0, 0] S1x256x1024.size inb_S16x256x1024_S1x256x1024_8_0_0).PackedRows (EltTy.packing .bf16)
  inb_S16_S1_8 : ∀ a, (![8] : Fin 1 → Nat) a + S1.size a ≤ S16.size a
  wordsbf16_S16x256x1024_S1x256x1024_8_0_0 : (Rect.unit (s := S16x256x1024) ![8, 0, 0] S1x256x1024.size inb_S16x256x1024_S1x256x1024_8_0_0).WholeWords (EltTy.packing .bf16)
  inb_S4096x2048_S256x2048_2560_0 : ∀ a, (![2560, 0] : Fin 2 → Nat) a + S256x2048.size a ≤ S4096x2048.size a
  inb_S16x256x1024_S1x256x1024_9_0_0 : ∀ a, (![9, 0, 0] : Fin 3 → Nat) a + S1x256x1024.size a ≤ S16x256x1024.size a
  packedbf16_S16x256x1024_S1x256x1024_9_0_0 : (Rect.unit (s := S16x256x1024) ![9, 0, 0] S1x256x1024.size inb_S16x256x1024_S1x256x1024_9_0_0).PackedRows (EltTy.packing .bf16)
  inb_S16_S1_9 : ∀ a, (![9] : Fin 1 → Nat) a + S1.size a ≤ S16.size a
  wordsbf16_S16x256x1024_S1x256x1024_9_0_0 : (Rect.unit (s := S16x256x1024) ![9, 0, 0] S1x256x1024.size inb_S16x256x1024_S1x256x1024_9_0_0).WholeWords (EltTy.packing .bf16)
  inb_S4096x2048_S256x2048_2816_0 : ∀ a, (![2816, 0] : Fin 2 → Nat) a + S256x2048.size a ≤ S4096x2048.size a
  inb_S16x256x1024_S1x256x1024_10_0_0 : ∀ a, (![10, 0, 0] : Fin 3 → Nat) a + S1x256x1024.size a ≤ S16x256x1024.size a
  packedbf16_S16x256x1024_S1x256x1024_10_0_0 : (Rect.unit (s := S16x256x1024) ![10, 0, 0] S1x256x1024.size inb_S16x256x1024_S1x256x1024_10_0_0).PackedRows (EltTy.packing .bf16)
  inb_S16_S1_10 : ∀ a, (![10] : Fin 1 → Nat) a + S1.size a ≤ S16.size a
  wordsbf16_S16x256x1024_S1x256x1024_10_0_0 : (Rect.unit (s := S16x256x1024) ![10, 0, 0] S1x256x1024.size inb_S16x256x1024_S1x256x1024_10_0_0).WholeWords (EltTy.packing .bf16)
  inb_S4096x2048_S256x2048_3072_0 : ∀ a, (![3072, 0] : Fin 2 → Nat) a + S256x2048.size a ≤ S4096x2048.size a
  inb_S16x256x1024_S1x256x1024_11_0_0 : ∀ a, (![11, 0, 0] : Fin 3 → Nat) a + S1x256x1024.size a ≤ S16x256x1024.size a
  packedbf16_S16x256x1024_S1x256x1024_11_0_0 : (Rect.unit (s := S16x256x1024) ![11, 0, 0] S1x256x1024.size inb_S16x256x1024_S1x256x1024_11_0_0).PackedRows (EltTy.packing .bf16)
  inb_S16_S1_11 : ∀ a, (![11] : Fin 1 → Nat) a + S1.size a ≤ S16.size a
  wordsbf16_S16x256x1024_S1x256x1024_11_0_0 : (Rect.unit (s := S16x256x1024) ![11, 0, 0] S1x256x1024.size inb_S16x256x1024_S1x256x1024_11_0_0).WholeWords (EltTy.packing .bf16)
  inb_S4096x2048_S256x2048_3328_0 : ∀ a, (![3328, 0] : Fin 2 → Nat) a + S256x2048.size a ≤ S4096x2048.size a
  inb_S16x256x1024_S1x256x1024_12_0_0 : ∀ a, (![12, 0, 0] : Fin 3 → Nat) a + S1x256x1024.size a ≤ S16x256x1024.size a
  packedbf16_S16x256x1024_S1x256x1024_12_0_0 : (Rect.unit (s := S16x256x1024) ![12, 0, 0] S1x256x1024.size inb_S16x256x1024_S1x256x1024_12_0_0).PackedRows (EltTy.packing .bf16)
  inb_S16_S1_12 : ∀ a, (![12] : Fin 1 → Nat) a + S1.size a ≤ S16.size a
  wordsbf16_S16x256x1024_S1x256x1024_12_0_0 : (Rect.unit (s := S16x256x1024) ![12, 0, 0] S1x256x1024.size inb_S16x256x1024_S1x256x1024_12_0_0).WholeWords (EltTy.packing .bf16)
  inb_S4096x2048_S256x2048_3584_0 : ∀ a, (![3584, 0] : Fin 2 → Nat) a + S256x2048.size a ≤ S4096x2048.size a
  inb_S16x256x1024_S1x256x1024_13_0_0 : ∀ a, (![13, 0, 0] : Fin 3 → Nat) a + S1x256x1024.size a ≤ S16x256x1024.size a
  packedbf16_S16x256x1024_S1x256x1024_13_0_0 : (Rect.unit (s := S16x256x1024) ![13, 0, 0] S1x256x1024.size inb_S16x256x1024_S1x256x1024_13_0_0).PackedRows (EltTy.packing .bf16)
  inb_S16_S1_13 : ∀ a, (![13] : Fin 1 → Nat) a + S1.size a ≤ S16.size a
  wordsbf16_S16x256x1024_S1x256x1024_13_0_0 : (Rect.unit (s := S16x256x1024) ![13, 0, 0] S1x256x1024.size inb_S16x256x1024_S1x256x1024_13_0_0).WholeWords (EltTy.packing .bf16)
  inb_S4096x2048_S256x2048_3840_0 : ∀ a, (![3840, 0] : Fin 2 → Nat) a + S256x2048.size a ≤ S4096x2048.size a
  inb_S16x256x1024_S1x256x1024_14_0_0 : ∀ a, (![14, 0, 0] : Fin 3 → Nat) a + S1x256x1024.size a ≤ S16x256x1024.size a
  packedbf16_S16x256x1024_S1x256x1024_14_0_0 : (Rect.unit (s := S16x256x1024) ![14, 0, 0] S1x256x1024.size inb_S16x256x1024_S1x256x1024_14_0_0).PackedRows (EltTy.packing .bf16)
  inb_S16_S1_14 : ∀ a, (![14] : Fin 1 → Nat) a + S1.size a ≤ S16.size a
  wordsbf16_S16x256x1024_S1x256x1024_14_0_0 : (Rect.unit (s := S16x256x1024) ![14, 0, 0] S1x256x1024.size inb_S16x256x1024_S1x256x1024_14_0_0).WholeWords (EltTy.packing .bf16)
  inb_S16x256x1024_S1x256x1024_15_0_0 : ∀ a, (![15, 0, 0] : Fin 3 → Nat) a + S1x256x1024.size a ≤ S16x256x1024.size a
  packedbf16_S16x256x1024_S1x256x1024_15_0_0 : (Rect.unit (s := S16x256x1024) ![15, 0, 0] S1x256x1024.size inb_S16x256x1024_S1x256x1024_15_0_0).PackedRows (EltTy.packing .bf16)
  inb_S16_S1_15 : ∀ a, (![15] : Fin 1 → Nat) a + S1.size a ≤ S16.size a
  wordsbf16_S16x256x1024_S1x256x1024_15_0_0 : (Rect.unit (s := S16x256x1024) ![15, 0, 0] S1x256x1024.size inb_S16x256x1024_S1x256x1024_15_0_0).WholeWords (EltTy.packing .bf16)
  hcc0_scratch3 : 0 + S2.numel ≤ 36
  hcc0_scratch4 : 2 + S2.numel ≤ 36
  hcc0_scratch5 : 4 + S16.numel ≤ 36
  hcc0_scratch6 : 20 + S16.numel ≤ 36
  k0_dev1_lt : ∀ d0 : Dev nD, (k0_dev1 d0) < nD
  k0_off1_inb : ∀ d0 : Dev nD, ∀ a, (k0_off1 d0) a + S1x256x1024.size a ≤ S2x256x2048.size a
  k0_off2_inb : ∀ d0 : Dev nD, ∀ (r : Fin 16), ∀ a, (k0_off2 d0 (BitVec.ofNat 32 (256 * r.val))) a + S256x1024.size a ≤ S8192x1024.size a
  k0_off2_wordsbf16 : ∀ d0 : Dev nD, ∀ (r : Fin 16), (Rect.unit (s := S8192x1024) (k0_off2 d0 (BitVec.ofNat 32 (256 * r.val))) S256x1024.size (k0_off2_inb d0 r)).WholeWords (EltTy.packing .bf16)
  k0_dev2_lt : ∀ d0 : Dev nD, (k0_dev2 d0) < nD
  k0_off3_inb : ∀ d0 : Dev nD, ∀ a, (k0_off3 d0) a + S1x256x1024.size a ≤ S2x256x2048.size a
  k0_off4_inb : ∀ d0 : Dev nD, ∀ a, (k0_off4 d0) a + S1x256x1024.size a ≤ S2x256x2048.size a
  k0_dev3_lt : ∀ d0 : Dev nD, (k0_dev3 d0) < nD
  k0_off5_inb : ∀ d0 : Dev nD, ∀ a, (k0_off5 d0) a + S1x256x1024.size a ≤ S2x256x2048.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD

variable [Facts₀]

abbrev cc0_scratch3 : DmaSems sig S2 := SemArray.consecutive 0 S2 hcc0_scratch3
abbrev cc0_scratch4 : DmaSems sig S2 := SemArray.consecutive 2 S2 hcc0_scratch4
abbrev cc0_scratch5 : DmaSems sig S16 := SemArray.consecutive 4 S16 hcc0_scratch5
abbrev cc0_scratch6 : DmaSems sig S16 := SemArray.consecutive 20 S16 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x2048 : Shape := ⟨2, ![8192, 2048]⟩

abbrev nBuf : Space → Nat
  | .hbm => 2
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Spec.lean ====
/-
  What the all-to-all computes, stated once.

  The mesh is 2 x 2 x 2; device c sits at (c / 4, c / 2 % 2, c % 2).  Its argument buffer is the block of
  4096 rows of the whole array that its middle coordinate names, and its result is the block of 1024
  columns that the same coordinate names.  The device that differs from c in the middle coordinate only
  (its peer) holds the other 4096 rows.  So row R of device c's result comes from c's own rows when R
  lies in c's row block and from the peer's rows otherwise, and column j of the result is column
  1024 * (c / 2 % 2) + j of that row, narrowed to the result's element type.
-/
import proofs.«900623_g7700000000000624_dist_a2a_v7x_xyz2x2x2_y_m4096_n1024_bf16_1_alg».proof.Proof.Gen.KernelIdeal
import Idealize.ShloMosaic.Lib.ValueIdx

noncomputable section

namespace Cert.KernelIdeal.Spec

open Cert.KernelIdeal Cert.KernelIdeal.Gen
open Idealize.ShloMosaic Idealize.ShloMosaic.TcCoe Idealize.ShloMosaic.ValueIdx

variable {F : FTy → Type} [FloatOps F]

/-- The middle (second) mesh coordinate of device c: which block of rows it holds, and which block of columns it must end with. -/
def cy (c : Dev nD) : Nat := (c.val / 2) % 2

theorem cy_lt (c : Dev nD) : cy c < 2 := Nat.mod_lt _ (by decide)

/-- The device that differs from c in the middle coordinate only. -/
def peer (c : Dev nD) : Dev nD :=
  ⟨(4 * (c.val / 4) + (c.val % 2) + 2) - 2 * ((c.val / 2) % 2), by
    have h : c.val < 8 := c.isLt
    show _ < 8
    omega⟩

theorem peer_peer (c : Dev nD) : peer (peer c) = c := by revert c; decide
theorem peer_ne (c : Dev nD) : peer c ≠ c := by revert c; decide
theorem cy_peer (c : Dev nD) : cy (peer c) = 1 - cy c := by revert c; decide

/-- The peer as a permutation of the mesh (an involution). -/
def peerEquiv : Dev nD ≃ Dev nD := ⟨peer, peer, peer_peer, peer_peer⟩

/-- Every device id the body computes (the entry signal's and each of the sixteen transfers') is the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)
theorem dev10_eq (c : Dev nD) : (⟨k0_dev10 c, k0_dev10_lt c⟩ : Dev nD) = peer c := Fin.ext (k0_dev10_eq c)
theorem dev11_eq (c : Dev nD) : (⟨k0_dev11 c, k0_dev11_lt c⟩ : Dev nD) = peer c := Fin.ext (k0_dev11_eq c)
theorem dev12_eq (c : Dev nD) : (⟨k0_dev12 c, k0_dev12_lt c⟩ : Dev nD) = peer c := Fin.ext (k0_dev12_eq c)
theorem dev13_eq (c : Dev nD) : (⟨k0_dev13 c, k0_dev13_lt c⟩ : Dev nD) = peer c := Fin.ext (k0_dev13_eq c)
theorem dev14_eq (c : Dev nD) : (⟨k0_dev14 c, k0_dev14_lt c⟩ : Dev nD) = peer c := Fin.ext (k0_dev14_eq c)
theorem dev15_eq (c : Dev nD) : (⟨k0_dev15 c, k0_dev15_lt c⟩ : Dev nD) = peer c := Fin.ext (k0_dev15_eq c)
theorem dev16_eq (c : Dev nD) : (⟨k0_dev16 c, k0_dev16_lt c⟩ : Dev nD) = peer c := Fin.ext (k0_dev16_eq c)
theorem dev17_eq (c : Dev nD) : (⟨k0_dev17 c, k0_dev17_lt c⟩ : Dev nD) = peer c := Fin.ext (k0_dev17_eq c)

variable (m : (ℓ : Loc nD τ sig) → Buf (Elt F) ℓ)

/-- Device d's argument array as launched: its 4096 rows of the whole input. -/
def xOf (d : Dev nD) : FVec F S4096x2048 .f32 := m ((d : Thread nD τ).loc main_arg0)

/-- The device whose rows hold row R of the whole input, seen from c: c itself on its own row block, the peer on the other. -/
def srcDev (c : Dev nD) (R : Nat) : Dev nD := if R / 4096 = cy c then c else peer c

/-- A rank-2 index of the argument array from two numbers in range. -/
def xIdx (r j : Nat) (hr : r < 4096) (hj : j < 2048) : S4096x2048.Idx := ix2 ⟨r, hr⟩ ⟨j, hj⟩

/-- THE RESULT: entry (R, j) of device c's result array is entry (R mod 4096, 1024 * cy c + j) of the argument array of
    the device that holds row R, narrowed to the result's element type. -/
def outFinal (c : Dev nD) : FVec F S8192x1024 .bf16 := fun idx =>
  FloatOps.truncf .bf16 bitsLt_bf16_f32
    (xOf m (srcDev c (idx 0).val)
      (xIdx ((idx 0).val % 4096) (1024 * cy c + (idx 1).val) (Nat.mod_lt _ (by decide))
        (by have h1 := cy_lt c; have h2 : (idx 1).val < 1024 := (idx 1).isLt; omega)))

end Cert.KernelIdeal.Spec

end
-- ==== Proof.Sched.lean ====
/-
  The protocol of the all-to-all, per device c with peer p (the device that differs in the middle mesh coordinate):

    barrier semaphore of c      waited once for 1 by c at entry; paid by p's entry signal.  Its landing tells c that p is
                                inside the kernel, and hands c the sixteen row bands of p's result array that c will write,
                                with the fact that p stands at round 0 of each of its receive cells.
    send semaphore i of c       waited by c at the end; paid by c's own transfer i once its source, slot i of the staging
                                scratch, has been read: the slot comes back holding what was staged.
    receive semaphore i of c    waited by c at the end; paid by p's transfer i once it has landed: the band of 256 rows
                                number i of p's row block of c's result array then holds its final contents.
    the four remaining DMA semaphores order c's own local copies only; no other device touches them.

  Every cell has one round with one duty.  A device waits on its barrier cell (level 1) while it owes only receive
  credit (level 2), and on its send and receive cells when it owes nothing.
-/
import proofs.«900623_g7700000000000624_dist_a2a_v7x_xyz2x2x2_y_m4096_n1024_bf16_1_alg».proof.Proof.Spec
import proofs.«900623_g7700000000000624_dist_a2a_v7x_xyz2x2x2_y_m4096_n1024_bf16_1_alg».proof.Proof.Gen.KernelIdeal.Skeleton
import proofs.«900623_g7700000000000624_dist_a2a_v7x_xyz2x2x2_y_m4096_n1024_bf16_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's copy (one duty a round), the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs, spelt as the body builds them, uniformly in the chunk number -/

abbrev xM : Memref sig .tc .hbm S4096x2048 .f32 := Memref.whole main_arg0
abbrev oM : Memref sig .tc .hbm S8192x1024 .bf16 := Memref.whole main_v1
abbrev xbM : Memref sig .tc .vmem S2x256x2048 .f32 := Memref.whole cc0_scratch0
abbrev stM : Memref sig .tc .vmem S16x256x1024 .bf16 := Memref.whole cc0_scratch1
abbrev lbM : Memref sig .tc .vmem S2x256x1024 .bf16 := Memref.whole cc0_scratch2

theorem inb_st (i : Fin 16) : ∀ a, (![i.val, 0, 0] : Fin 3 → Nat) a + S1x256x1024.size a ≤ S16x256x1024.size a := by
  revert i; decide

/-- Slot i of the staging scratch, as the source of transfer i. -/
abbrev stSlot (i : Fin 16) : Memref sig .tc .vmem S256x1024 .bf16 :=
  ((stM : Memref sig .tc .vmem S16x256x1024 .bf16).slice (Rect.unit (s := S16x256x1024) ![i.val, 0, 0] S1x256x1024.size (inb_st i)) (fun _ => rfl)).squeeze S256x1024 squeezes_S1x256x1024_S256x1024

/-- The band of 256 rows number i of device d's row block, in a result array: what d's transfer i writes on its peer and
    what d's local copy i writes at home. -/
abbrev outRows (d : Dev nD) (i : Fin 16) : Memref sig .tc .hbm S256x1024 .bf16 :=
  (oM : Memref sig .tc .hbm S8192x1024 .bf16).slice (Rect.unit (s := S8192x1024) (k0_off2 d (BitVec.ofNat 32 (256 * i.val))) S256x1024.size (k0_off2_inb d i)) (fun _ => rfl)

theorem inb_s16 (i : Fin 16) : ∀ a, (![i.val] : Fin 1 → Nat) a + S1.size a ≤ S16.size a := by revert i; decide

/-- The send and receive DMA semaphores of chunk i. -/
abbrev sendS (i : Fin 16) : DmaSems sig S_ := (cc0_scratch5.slice (Rect.unit (s := S16) ![i.val] S1.size (inb_s16 i))).squeeze S_ squeezes_S1_S_
abbrev recvS (i : Fin 16) : DmaSems sig S_ := (cc0_scratch6.slice (Rect.unit (s := S16) ![i.val] S1.size (inb_s16 i))).squeeze S_ squeezes_S1_S_

/-- The runtime's barrier semaphore of collective id 0 (not scoped to the launch). -/
abbrev barS : Sem sig := (SemArray.scalar (sig.barrier 0 rfl) : Sems sig S_).sem

abbrev barCell (c : Dev nD) : GSem nD τ sig := ((c : Thread nD τ), .reg barS)
abbrev sendCell (c : Dev nD) (i : Fin 16) : GSem nD τ sig := ((c : Thread nD τ), .dma (sendS i).sem)
abbrev recvCell (c : Dev nD) (i : Fin 16) : GSem nD τ sig := ((c : Thread nD τ), .dma (recvS i).sem)

/-- The credit of one chunk's transfer. -/
abbrev N : ℕ := (stSlot 0).view.dmaCredit

theorem N_pos : 0 < N := View.dmaCredit_pos _ (by decide)

/-- Where the chunks' semaphores sit among the core's 36 DMA semaphores. -/
theorem sendS_val (i : Fin 16) : ((sendS i).sem : DmaSem sig).val = 4 + i.val := by revert i; decide
theorem recvS_val (i : Fin 16) : ((recvS i).sem : DmaSem sig).val = 20 + i.val := by revert i; decide

/-- The chunk a send or receive semaphore belongs to, from its place. -/
def chunkAt (base : Nat) (q : DmaSem sig) : Fin 16 := ⟨(q.val - base) % 16, Nat.mod_lt _ (by decide)⟩
theorem chunkAt_send (i : Fin 16) : chunkAt 4 (sendS i).sem = i := by revert i; decide
theorem chunkAt_recv (i : Fin 16) : chunkAt 20 (recvS i).sem = i := by revert i; decide

/-! ## Contents -/

/-- What device c stages: entry (i, r, j) of the staging scratch is entry (256 i + r, 1024 (1 - cy c) + j) of c's argument
    array, narrowed: the peer's columns of c's rows, chunk by chunk.  One function for the whole scratch. -/
def stageVal (c : Dev nD) : FVec F S16x256x1024 .bf16 := fun idx =>
  FloatOps.truncf .bf16 bitsLt_bf16_f32
    (xOf m c (xIdx (256 * (idx 0).val + (idx 1).val) (1024 * (1 - cy c) + (idx 2).val)
      (by have h0 : (idx 0).val < 16 := (idx 0).isLt; have h1 : (idx 1).val < 256 := (idx 1).isLt; omega)
      (by have h2 : (idx 2).val < 1024 := (idx 2).isLt; have := cy_lt c; omega)))

/-! ## The schedule's payloads -/

/-- Slot i of c's staging scratch back at what c staged. -/
def sendPay (c : Dev nD) (i : Fin 16) : sProp 𝕄 :=
  (stSlot i).view.loc (c : Thread nD τ) ↦[(stSlot i).view.set]{fullShare} (stageVal m c)
/-- Band i of the peer's row block, in c's result array, at its final contents. -/
def recvPay (c : Dev nD) (i : Fin 16) : sProp 𝕄 :=
  (outRows (peer c) i).view.loc (c : Thread nD τ) ↦[(outRows (peer c) i).view.set]{fullShare} (outFinal m c)
/-- What the peer's entry signal hands c: the sixteen bands of c's row block in the PEER's result array, at some contents,
    and that the peer stands at round 0 of each of its receive cells. -/
def barPay (c : Dev nD) : sProp 𝕄 :=
  iprop((bigSep Finset.univ fun i : Fin 16 => iprop(∃ f, (outRows c i).view.loc (peer c : Thread nD τ) ↦[(outRows c i).view.set]{fullShare} f))
    ∗ bigSep Finset.univ fun i : Fin 16 => reached ER (recvCell (peer c) i) 0)

abbrev IsBar (g : GSem nD τ sig) : Prop := g.1.2 = .tc ∧ g.2 = .reg barS
abbrev IsSendQ (q : DmaSem sig) : Prop := 4 ≤ q.val ∧ q.val < 20
abbrev IsRecvQ (q : DmaSem sig) : Prop := 20 ≤ q.val ∧ q.val < 36

/-- Which cells are the protocol's: the barrier cell and the thirty-two chunk cells of a TensorCore. -/
def IsProto (g : GSem nD τ sig) : Prop :=
  g.1.2 = .tc ∧ (g.2 = .reg barS ∨ ∃ q, g.2 = .dma q ∧ 4 ≤ q.val)
instance (g : GSem nD τ sig) : Decidable (IsProto g) := by unfold IsProto; infer_instance

/-- One round, round 0, one duty in it: a barrier cell's is one unit, a chunk cell's the chunk's credit. -/
def a2aRd : Rounds.Schedule (GSem nD τ sig) Unit 𝕄 where
  duties g r := if r = 0 ∧ IsProto g then {()} else ∅
  unitless _ := False
  amount g _ _ := if g.2 = .reg barS then 1 else N
  payload g _ _ := match g.2 with
    | .reg _ => barPay g.1.1
    | .dma q => if IsSendQ q then sendPay m g.1.1 (chunkAt 4 q) else recvPay m g.1.1 (chunkAt 20 q)
  amount_pos g _ _ _ := by
    by_cases h : g.2 = .reg barS
    · rw [if_pos h]; exact Nat.one_pos
    · rw [if_neg h]; exact N_pos

instance a2aRd_payload_storable (g : GSem nD τ sig) (r : ℕ) (d : Unit) :
    BI.Storable (upEmb : UEmb _ 𝕄) ((a2aRd (F := F) m).payload g r d) := by
  show BI.Storable upEmb (match g.2 with
    | .reg _ => barPay g.1.1
    | .dma q => if IsSendQ q then sendPay m g.1.1 (chunkAt 4 q) else recvPay m g.1.1 (chunkAt 20 q))
  unfold barPay sendPay recvPay
  (repeat' split) <;> infer_instance

section Sched
variable (c : Dev nD) (i : Fin 16)

theorem send_ne_bar : (SemLoc.dma (sendS i).sem : SemLoc sig) ≠ .reg barS := fun h => by cases h
theorem recv_ne_bar : (SemLoc.dma (recvS i).sem : SemLoc sig) ≠ .reg barS := fun h => by cases h
theorem isSendQ_send : IsSendQ (sendS i).sem := by unfold IsSendQ; rw [sendS_val]; have := i.isLt; omega
theorem not_isSendQ_recv : ¬ IsSendQ (recvS i).sem := by unfold IsSendQ; rw [recvS_val]; omega

theorem isProto_bar : IsProto (barCell c) := ⟨rfl, .inl rfl⟩
theorem isProto_send : IsProto (sendCell c i) := ⟨rfl, .inr ⟨_, rfl, by rw [sendS_val]; omega⟩⟩
theorem isProto_recv : IsProto (recvCell c i) := ⟨rfl, .inr ⟨_, rfl, by rw [recvS_val]; omega⟩⟩

theorem duties_bar : (a2aRd (F := F) m).duties (barCell c) 0 = {()} := by dsimp only [a2aRd]; exact if_pos ⟨rfl, isProto_bar c⟩
theorem duties_send : (a2aRd (F := F) m).duties (sendCell c i) 0 = {()} := by dsimp only [a2aRd]; exact if_pos ⟨rfl, isProto_send c i⟩
theorem duties_recv : (a2aRd (F := F) m).duties (recvCell c i) 0 = {()} := by dsimp only [a2aRd]; exact if_pos ⟨rfl, isProto_recv c i⟩
theorem duties_later (g : GSem nD τ sig) : ∀ r, 1 ≤ r → (a2aRd (F := F) m).duties g r = ∅ :=
  fun r hr => by dsimp only [a2aRd]; rw [if_neg fun h => by omega]

theorem amount_bar (d : Unit) : (a2aRd (F := F) m).amount (barCell c) 0 d = 1 := by dsimp only [a2aRd]; exact if_pos rfl
theorem amount_send (d : Unit) : (a2aRd (F := F) m).amount (sendCell c i) 0 d = N := by dsimp only [a2aRd]; exact if_neg (send_ne_bar i)
theorem amount_recv (d : Unit) : (a2aRd (F := F) m).amount (recvCell c i) 0 d = N := by dsimp only [a2aRd]; exact if_neg (recv_ne_bar i)

theorem expect_bar : (a2aRd (F := F) m).expect (barCell c) 0 = 1 := by
  unfold Schedule.expect Schedule.amountOf; rw [duties_bar, Finset.sum_singleton, amount_bar]
theorem expect_send : (a2aRd (F := F) m).expect (sendCell c i) 0 = N := by
  unfold Schedule.expect Schedule.amountOf; rw [duties_send, Finset.sum_singleton, amount_send]
theorem expect_recv : (a2aRd (F := F) m).expect (recvCell c i) 0 = N := by
  unfold Schedule.expect Schedule.amountOf; rw [duties_recv, Finset.sum_singleton, amount_recv]

theorem payload_bar (d : Unit) : (a2aRd (F := F) m).payload (barCell c) 0 d = barPay c := rfl
theorem payload_send (d : Unit) : (a2aRd (F := F) m).payload (sendCell c i) 0 d = sendPay m c i := by
  show (if IsSendQ (sendS i).sem then sendPay m c (chunkAt 4 (sendS i).sem) else recvPay m c (chunkAt 20 (sendS i).sem)) = _
  rw [if_pos (isSendQ_send i), chunkAt_send]
theorem payload_recv (d : Unit) : (a2aRd (F := F) m).payload (recvCell c i) 0 d = recvPay m c i := by
  show (if IsSendQ (recvS i).sem then sendPay m c (chunkAt 4 (recvS i).sem) else recvPay m c (chunkAt 20 (recvS i).sem)) = _
  rw [if_neg (not_isSendQ_recv i), chunkAt_recv]

/-- The rest of a cell's one-duty round, no duty taken, is that duty's payload. -/
theorem rest_bar : bigSep ((a2aRd (F := F) m).duties (barCell c) 0 \ ∅) (fun d => (a2aRd (F := F) m).payload (barCell c) 0 d) = barPay c := by
  rw [Finset.sdiff_empty, duties_bar, bigSep_singleton, payload_bar]
theorem rest_send : bigSep ((a2aRd (F := F) m).duties (sendCell c i) 0 \ ∅) (fun d => (a2aRd (F := F) m).payload (sendCell c i) 0 d) = sendPay m c i := by
  rw [Finset.sdiff_empty, duties_send, bigSep_singleton, payload_send]
theorem rest_recv : bigSep ((a2aRd (F := F) m).duties (recvCell c i) 0 \ ∅) (fun d => (a2aRd (F := F) m).payload (recvCell c i) 0 d) = recvPay m c i := by
  rw [Finset.sdiff_empty, duties_recv, bigSep_singleton, payload_recv]

end Sched

/-! ## What each core owes at launch; the levels -/

/-- Device c owes its peer's barrier cell one unit and each of its peer's sixteen receive cells a chunk's credit. -/
def owedRecv (c : Dev nD) : CellTallies nD τ sig Unit := ∑ i : Fin 16, tallyAt (recvCell (peer c) i) () N
def O₀ (c : Dev nD) : CellTallies nD τ sig Unit := owedRecv c + tallyAt (barCell (peer c)) () 1

def L (g : GSem nD τ sig) : Finset Unit := if g.1.2 = .tc then {()} else ∅
/-- Barrier cells at 1, receive cells at 2, everything else (send cells, the local copies' cells) at 0. -/
def lv (g : GSem nD τ sig) (_ : Unit) : ℕ :=
  match g.2 with
  | .reg _ => 1
  | .dma q => if IsRecvQ q then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from -/

/-- The protocol's 33 cells of a device, as the launch allocates them: the barrier cell, the sixteen send cells, the sixteen receive cells. -/
abbrev csem : Fin 33 → SemLoc sig := fun k => if k.val = 0 then .reg barS else .dma ⟨k.val + 3, by have := k.isLt; show _ < 36; omega⟩
abbrev kcell (ck : Dev nD × Fin 33) : GSem nD τ sig := ((ck.1 : Thread nD τ), csem ck.2)
abbrev kB : Fin 33 := 0
abbrev kS (i : Fin 16) : Fin 33 := ⟨1 + i.val, by have := i.isLt; omega⟩
abbrev kR (i : Fin 16) : Fin 33 := ⟨17 + i.val, by have := i.isLt; omega⟩
theorem kcell_bar (c : Dev nD) : kcell (c, kB) = barCell c := rfl
theorem csem_kS (i : Fin 16) : csem (kS i) = .dma (sendS i).sem := by revert i; decide
theorem csem_kR (i : Fin 16) : csem (kR i) = .dma (recvS i).sem := by revert i; decide
theorem kcell_send (c : Dev nD) (i : Fin 16) : kcell (c, kS i) = sendCell c i := congrArg (Prod.mk (c : Thread nD τ)) (csem_kS i)
theorem kcell_recv (c : Dev nD) (i : Fin 16) : kcell (c, kR i) = recvCell c i := congrArg (Prod.mk (c : Thread nD τ)) (csem_kR i)

/-- The kernel's OWN (scoped) semaphores: all 36 DMA semaphores. -/
abbrev osem : Fin 36 → SemLoc sig := fun k => .dma k
/-- The four that order the local copies only (two for the input slots, two for the local output slots). -/
abbrev lsem : Fin 4 → SemLoc sig := fun k => .dma ⟨k.val, by have := k.isLt; show _ < 36; omega⟩
def localSems0 (c : Dev nD) : sProp 𝕄 := bigSep Finset.univ fun k : Fin 4 => semVal ((c : Thread nD τ), lsem k) 0

/-- The invariants device c's body opens: its own 33 cells', its peer's barrier cell's (its entry signal) and its peer's sixteen
    receive cells' (its transfers), under the names K the launch allocated them at. -/
def invs (K : Dev nD × Fin 33 → ℕ) (c : Dev nD) : sProp 𝕄 :=
  iprop(cellInv ER (a2aRd m) (K (c, kB)) (barCell c) ∗ cellInv ER (a2aRd m) (K (peer c, kB)) (barCell (peer c))
    ∗ (bigSep Finset.univ fun i : Fin 16 => cellInv ER (a2aRd m) (K (c, kS i)) (sendCell c i))
    ∗ (bigSep Finset.univ fun i : Fin 16 => cellInv ER (a2aRd m) (K (c, kR i)) (recvCell c i))
    ∗ (bigSep Finset.univ fun i : Fin 16 => cellInv ER (a2aRd m) (K (peer c, kR i)) (recvCell (peer c) i)))

instance invs_persistent (K : Dev nD × Fin 33 → ℕ) (c : Dev nD) : BI.Persistent (invs m K c) := by unfold invs; infer_instance

/-- What device c holds of the protocol's ghost state when its body starts: the invariants; its positions at round 0 of its 33
    cells; round 0 reached of the cells it pays (the peer's barrier cell, its own send cells) and of its own receive cells
    (which its entry signal passes to the peer); and the 33 duty tokens it pays with. -/
def ghost (K : Dev nD × Fin 33 → ℕ) (c : Dev nD) : sProp 𝕄 :=
  iprop(invs m K c
    ∗ atPos ER (barCell c) 0 ∅ 0
    ∗ (bigSep Finset.univ fun i : Fin 16 => atPos ER (sendCell c i) 0 ∅ 0)
    ∗ (bigSep Finset.univ fun i : Fin 16 => atPos ER (recvCell c i) 0 ∅ 0)
    ∗ reached ER (barCell (peer c)) 0
    ∗ (bigSep Finset.univ fun i : Fin 16 => reached ER (sendCell c i) 0)
    ∗ (bigSep Finset.univ fun i : Fin 16 => reached ER (recvCell c i) 0)
    ∗ dutyTok ER (barCell (peer c)) 0 ()
    ∗ (bigSep Finset.univ fun i : Fin 16 => dutyTok ER (sendCell c i) 0 ())
    ∗ (bigSep Finset.univ fun i : Fin 16 => dutyTok ER (recvCell (peer c) i) 0 ()))

/-- The credit dealt to device c at launch: what the peer owes its barrier cell and its receive cells. -/
def creds (c : Dev nD) : sProp 𝕄 :=
  iprop(cred (tallyAt (barCell c) () 1) ∗ bigSep Finset.univ fun i : Fin 16 => cred (tallyAt (recvCell c i) () N))

/-- Device c's two arrays as the region finds them. -/
def arrs0 (c : Dev nD) : sProp 𝕄 :=
  iprop((((c : Thread nD τ).loc main_arg0) ↦{fullShare} m ((c : Thread nD τ).loc main_arg0))
    ∗ (((c : Thread nD τ).loc main_v1) ↦{fullShare} m ((c : Thread nD τ).loc main_v1)))
/-- and as it leaves them: the argument unchanged, the result at outFinal. -/
def arrs1 (c : Dev nD) : sProp 𝕄 :=
  iprop((((c : Thread nD τ).loc main_arg0) ↦{fullShare} m ((c : Thread nD τ).loc main_arg0))
    ∗ (((c : Thread nD τ).loc main_v1) ↦{fullShare} (outFinal m c)))

/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What the launch routes into the region for device c (the launch theorem's X). -/
def start (c : Dev nD) : sProp 𝕄 :=
  iprop((∃ K, ghost m K c) ∗ creds c ∗ localSems0 c ∗ levAts L lv ∗ arrs0 m c)

/-- Before the one grid point, and after it: all 36 own semaphores back at zero, closed. -/
def Φ₀ (c : Dev nD) : sProp 𝕄 := iprop(start m c ∗ scratch c)
def Φ₁ (c : Dev nD) : sProp 𝕄 := iprop(arrs1 m c ∗ Pipeline.ownSems0 osem c ∗ scratch c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.A2A

end
-- ==== Proof.Rules.lean ====
/-
  The rounds library's rules at this protocol's cells, each stated once over the device c and the chunk number i with the
  rest of the program as a continuation: the entry signal to the peer's barrier cell, the wait on one's own, transfer i
  (paying one's own send cell i and the peer's receive cell i), the waits on the send and receive cells, and the closing
  of a cell whose one round is consumed.
-/
import proofs.«900623_g7700000000000624_dist_a2a_v7x_xyz2x2x2_y_m4096_n1024_bf16_1_alg».proof.Proof.Sched

noncomputable section

namespace Cert.KernelIdeal.A2A

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

/-- The entry signal: device c pays the one duty of its peer's barrier cell, handing over the sixteen bands of the peer's row
    block in c's own result array and that c stands at round 0 of its receive cells. -/
theorem wp_signal_peer (c n : Dev nD) (hn : n = peer c) {k' : ℕ} (hk' : k' = 1)
    {α : Type} {Q : α → sProp 𝕄} {k : PUnit → Prog (TpuEff nD τ sig (Elt F) Λ₀ .tc) α}
    (O : CellTallies nD τ sig Unit) (W : Waits sig Unit) :
    iprop(cellInv ER (a2aRd m) (K (peer c, kB)) (barCell (peer c))
        ∗ owes (c : Thread nD τ) (O + tallyAt (barCell (peer c)) () 1) W
        ∗ dutyTok ER (barCell (peer c)) 0 () ∗ barPay (F := F) (peer c) ∗ reached ER (barCell (peer c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk'
  exact Rounds.wp_signal 𝒱₀ ER (a2aRd m) (c : Thread nD τ) none (dst := (peer c : Thread nD τ)) (κ := K (peer c, kB)) (d := ())
    (by rw [duties_bar]; exact Finset.mem_singleton_self _) (amount_bar m (peer c) ()) () O rfl

/-- The wait on one's own barrier cell for its one unit, owing O: the peer's payload comes with it. -/
theorem wp_wait_bar (c : Dev nD) {w : TpuEff nD τ sig (Elt F) Λ₀ .tc PUnit} {k' : ℕ} (hk' : k' = 1)
    (hw : ∀ Kt : PUnit → sProp 𝕄, wpE (defs₀ (F := F)) 𝒱₀ (c : Thread nD τ) none Set.univ w Kt = waitSpec (c : Thread nD τ) Set.univ (.reg barS) k' Kt)
    {α : Type} {Q : α → sProp 𝕄} {k : PUnit → Prog (TpuEff nD τ sig (Elt F) Λ₀ .tc) α}
    (O : CellTallies nD τ sig Unit) (W : Waits sig Unit) :
    iprop(cellInv ER (a2aRd m) (K (c, kB)) (barCell c) ∗ cred (tallyAt (barCell c) () k') ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1 ∗ barPay (F := F) c)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hk'
  rw [← rest_bar m c]
  exact Rounds.wp_wait_rest_token 𝒱₀ ER (a2aRd m) (c : Thread nD τ) none (κ := K (c, kB)) hw (Set.mem_univ _) ()
    (O := O) (W := W) (R := 0) (m := 0) (T := ∅) (by rw [expect_bar])

/-- Transfer i: the staging slot at what was staged and the band of the peer's result array, owned outright, go in; the send
    cell's credit comes back and the receive cell's credit is paid off what c owes. -/
theorem wp_send_chunk (c n : Dev nD) (hn : n = peer c) (i : Fin 16)
    {hsc : (outRows c i : Memref sig (Dev.tc n : Thread nD τ).2.kind .hbm S256x1024 .bf16).view.ref.isScScratch = false}
    {hsrc : (stSlot i).view.WordExact} {hdst : (outRows c i).view.WordExact}
    {hsem : DmaTarget.Typed .vmem (.dma (recvS i).sem) (.remote (Dev.tc n : Thread nD τ) (outRows c i) (.dma (sendS i).sem) hsc)}
    {α : Type} {Q : α → sProp 𝕄} {k : PUnit → Prog (TpuEff nD τ sig (Elt F) Λ₀ .tc) α}
    (fd : Buf (Elt F) ((outRows c i).view.loc (peer c : Thread nD τ))) (O : CellTallies nD τ sig Unit) (W : Waits sig Unit)
    (hN : (outRows c i).view.amount (.dma (recvS i).sem) = N)
    (hpay₂ : ((outRows c i).view.loc (peer c : Thread nD τ) ↦[(outRows c i).view.set]{fullShare}
        ((outRows c i).view.write (Elt F) fd ((stSlot i).view.read (Elt F) (stageVal m c)) Finset.univ) : sProp 𝕄)
      ⊢ (a2aRd m).payload (recvCell (peer c) i) 0 ()) :
    iprop(cellInv ER (a2aRd m) (K (c, kS i)) (sendCell c i) ∗ cellInv ER (a2aRd m) (K (peer c, kR i)) (recvCell (peer c) i)
        ∗ ((stSlot i).view.loc (c : Thread nD τ) ↦[(stSlot i).view.set]{fullShare} (stageVal m c))
        ∗ ((outRows c i).view.loc (peer c : Thread nD τ) ↦[(outRows c i).view.set]{fullShare} fd)
        ∗ owes (c : Thread nD τ) (O + tallyAt (recvCell (peer c) i) () N) W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stSlot i) (.remote (Dev.tc n : Thread nD τ) (outRows c i) (.dma (sendS i).sem) hsc) (.dma (recvS i).sem) hsrc hdst hsem) k) Q) := by
  subst hn
  exact Rounds.wp_send_pointsTo 𝒱₀ ER (a2aRd m) (c : Thread nD τ) none (c' := (peer c : Thread nD τ)) (src := stSlot i) (dst := outRows c i)
    (q := fullShare) (fs := stageVal m c) (fd := fd)
    (κ₁ := K (c, kS i)) (κ₂ := K (peer c, kR i)) (r₁ := 0) (r₂ := 0) (d₁ := ()) (d₂ := ())
    (by rw [duties_send]; exact Finset.mem_singleton_self _) (by rw [duties_recv]; exact Finset.mem_singleton_self _)
    () () N hN (amount_send m c i ()) (amount_recv m (peer c) i ()) O rfl (W := W)
    (by rw [payload_send]; exact BI.Entails.refl _) hpay₂

/-- The wait on send cell i, owing nothing: staging slot i back at what was staged. -/
theorem wp_wait_send (c : Dev nD) (i : Fin 16) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (sendS i).sem) N Kt)
    {α : Type} {Q : α → sProp 𝕄} {k : PUnit → Prog (TpuEff nD τ sig (Elt F) Λ₀ .tc) α}
    (O : CellTallies nD τ sig Unit) (W : Waits sig Unit) :
    iprop(cellInv ER (a2aRd m) (K (c, kS i)) (sendCell c i) ∗ cred (tallyAt (sendCell c i) () N) ∗ owes (c : Thread nD τ) O W
        ∗ MayWait (c : Thread nD τ) (.dma (sendS i).sem) () O ∗ atPos ER (sendCell c i) 0 ∅ 0)
      ⊢ iprop(((owes (c : Thread nD τ) O (insert (SemLoc.dma (sendS i).sem, ()) W) ∗ atPos ER (sendCell c i) 1 ∅ 0 ∗ reached ER (sendCell c i) 1 ∗ sendPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  rw [← rest_send m c i]
  exact Rounds.wp_wait_rest_token 𝒱₀ ER (a2aRd m) (c : Thread nD τ) none (κ := K (c, kS i)) hw (Set.mem_univ _) ()
    (O := O) (W := W) (R := 0) (m := 0) (T := ∅) (by rw [Nat.zero_add, expect_send])

/-- The wait on receive cell i: band i of the peer's row block, in c's result array, at its final contents. -/
theorem wp_wait_recv (c : Dev nD) (i : Fin 16) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (recvS i).sem) N Kt)
    {α : Type} {Q : α → sProp 𝕄} {k : PUnit → Prog (TpuEff nD τ sig (Elt F) Λ₀ .tc) α}
    (O : CellTallies nD τ sig Unit) (W : Waits sig Unit) :
    iprop(cellInv ER (a2aRd m) (K (c, kR i)) (recvCell c i) ∗ cred (tallyAt (recvCell c i) () N) ∗ owes (c : Thread nD τ) O W
        ∗ MayWait (c : Thread nD τ) (.dma (recvS i).sem) () O ∗ atPos ER (recvCell c i) 0 ∅ 0)
      ⊢ iprop(((owes (c : Thread nD τ) O (insert (SemLoc.dma (recvS i).sem, ()) W) ∗ atPos ER (recvCell c i) 1 ∅ 0 ∗ reached ER (recvCell c i) 1 ∗ recvPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  rw [← rest_recv m c i]
  exact Rounds.wp_wait_rest_token 𝒱₀ ER (a2aRd m) (c : Thread nD τ) none (κ := K (c, kR i)) hw (Set.mem_univ _) ()
    (O := O) (W := W) (R := 0) (m := 0) (T := ∅) (by rw [Nat.zero_add, expect_recv])

/-- A protocol cell whose one round is consumed closes: its counter, at zero, is the core's again. -/
theorem close_send (c : Dev nD) (i : Fin 16) :
    iprop(cellInv ER (a2aRd m) (K (c, kS i)) (sendCell c i) ∗ atPos ER (sendCell c i) 1 ∅ 0) ⊢ (|={Set.univ}=> semVal (sendCell c i) 0 : sProp 𝕄) :=
  Rounds.cell_close ER (a2aRd m) (Set.mem_univ (K (c, kS i))) (fun h => h) (R := 0 + 1) (duties_later m (sendCell c i))
theorem close_recv (c : Dev nD) (i : Fin 16) :
    iprop(cellInv ER (a2aRd m) (K (c, kR i)) (recvCell c i) ∗ atPos ER (recvCell c i) 1 ∅ 0) ⊢ (|={Set.univ}=> semVal (recvCell c i) 0 : sProp 𝕄) :=
  Rounds.cell_close ER (a2aRd m) (Set.mem_univ (K (c, kR i))) (fun h => h) (R := 0 + 1) (duties_later m (recvCell c i))

end Cert.KernelIdeal.A2A

end
-- ==== Proof.Owed.lean ====
/-
  What a device still owes its peer's receive cells before transfer j: the credit of the chunks j, j + 1, …, 15.  Transfer j
  pays chunk j's off it; before the first transfer it is everything owed to the receive cells, after the last nothing.
  And a sixteen-fold separating conjunction written out, so that each chunk's resource can be named.
-/
import proofs.«900623_g7700000000000624_dist_a2a_v7x_xyz2x2x2_y_m4096_n1024_bf16_1_alg».proof.Proof.Sched

noncomputable section

namespace Cert.KernelIdeal.A2A

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The receive credit of the chunks from j on. -/
def owedFrom (c : Dev nD) (j : ℕ) : CellTallies nD τ sig Unit :=
  ∑ i ∈ (Finset.univ.filter fun i : Fin 16 => j ≤ i.val), tallyAt (recvCell (peer c) i) () N

theorem owedFrom_zero (c : Dev nD) : owedFrom c 0 = owedRecv c := by
  unfold owedFrom owedRecv
  rw [Finset.filter_true_of_mem (fun i _ => Nat.zero_le _)]

theorem owedFrom_last (c : Dev nD) : owedFrom c 16 = 0 := by
  unfold owedFrom
  rw [Finset.filter_false_of_mem (fun i _ => by have := i.isLt; omega), Finset.sum_empty]

/-- Transfer i's credit is the first summand of what is owed before it. -/
theorem owedFrom_step (c : Dev nD) (i : Fin 16) :
    owedFrom c i.val = owedFrom c (i.val + 1) + tallyAt (recvCell (peer c) i) () N := by
  unfold owedFrom
  have hsplit : (Finset.univ.filter fun k : Fin 16 => i.val ≤ k.val) = insert i (Finset.univ.filter fun k : Fin 16 => i.val + 1 ≤ k.val) := by
    ext k
    simp only [Finset.mem_filter, Finset.mem_univ, true_and, Finset.mem_insert]
    constructor
    · intro h
      by_cases hk : k = i
      · exact Or.inl hk
      · exact Or.inr (by have : k.val ≠ i.val := fun h' => hk (Fin.ext h'); omega)
    · rintro (h | h)
      · rw [h]
      · omega
  rw [hsplit, Finset.sum_insert (by simp only [Finset.mem_filter, Finset.mem_univ, true_and]; omega), add_comm]

/-- What the launch makes a device owe, as the chain the body peels: the entry signal's unit last, so first to go. -/
theorem O₀_eq (c : Dev nD) : O₀ c = owedFrom c 0 + tallyAt (barCell (peer c)) () 1 := by
  unfold O₀; rw [owedFrom_zero]

/-- A conjunction over the sixteen chunks, written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- The four local counters, written out. -/
theorem localSems0_eq (c : Dev nD) :
    (localSems0 (F := F) c : sProp 𝕄) = iprop(semVal ((c : Thread nD τ), lsem 0) 0 ∗ semVal ((c : Thread nD τ), lsem 1) 0
      ∗ semVal ((c : Thread nD τ), lsem 2) 0 ∗ semVal ((c : Thread nD τ), lsem 3) 0) := by
  unfold localSems0
  exact bigSep_univ_eq_bigSepL [0, 1, 2, 3] (by decide) (by decide) _

end Cert.KernelIdeal.A2A

end
-- ==== Proof.Contents.lean ====
/-
  The pure facts one device's body and the launch meet at: the levels' evidence at each wait, the premises of the
  transfer rule at the protocol's cells, the contents every copy and store leaves, written as equations between
  functions of indices, and the result array cut into its thirty-two bands of 256 rows and joined back.
-/
import proofs.«900623_g7700000000000624_dist_a2a_v7x_xyz2x2x2_y_m4096_n1024_bf16_1_alg».proof.Proof.Sched
import Idealize.ShloMosaic.Lib.Pipeline.Value

noncomputable section

namespace Cert.KernelIdeal.A2A

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The levels' evidence -/

/-- The receive credit a device owes is positive only at a receive cell of its peer. -/
theorem owedRecv_pos {c : Dev nD} {g : GSem nD τ sig} {u : Unit} (h : 0 < owedRecv c g u) : ∃ i, g = recvCell (peer c) i := by
  unfold owedRecv at h
  obtain ⟨i, _, hi⟩ := Pipeline.sum_pos_exists h
  exact ⟨i, (Pipeline.tallyAt_pos hi).1⟩

/-- A partial sum of the receive credit is positive only at a receive cell of the peer. -/
theorem sumRecv_pos {c : Dev nD} {S : Finset (Fin 16)} {g : GSem nD τ sig} {u : Unit}
    (h : 0 < (∑ i ∈ S, (tallyAt (recvCell (peer c) i) () N : CellTallies nD τ sig Unit)) g u) : ∃ i, g = recvCell (peer c) i := by
  obtain ⟨i, _, hi⟩ := Pipeline.sum_pos_exists h
  exact ⟨i, (Pipeline.tallyAt_pos hi).1⟩

/-- Receive cells sit at level 2. -/
theorem lv_recv (d : Dev nD) (i : Fin 16) (u : Unit) : lv (recvCell d i) u = 2 := by
  show (if IsRecvQ (recvS i).sem then 2 else 0) = 2
  rw [if_pos]; unfold IsRecvQ; rw [recvS_val]; have := i.isLt; omega

/-- Barrier cells sit at level 1. -/
theorem lv_bar (d : Dev nD) (u : Unit) : lv (barCell d) u = 1 := rfl

/-- A DMA cell that is no receive cell sits at level 0. -/
theorem lv_low (d : Dev nD) (q : DmaSem sig) (hq : ¬ IsRecvQ q) (u : Unit) : lv ((d : Thread nD τ), .dma q) u = 0 := by
  show (if IsRecvQ q then 2 else 0) = 0
  rw [if_neg hq]

/-- At its barrier wait (level 1) a device owes only receive credit (level 2). -/
theorem mayWait_bar (c : Dev nD) : (levAts L lv : sProp 𝕄) ⊢ MayWait (c : Thread nD τ) (.reg barS) () (owedRecv c) :=
  MayOwe.of_cut (L := L) (lev := lv) 1
    (fun p hp => by rw [Finset.mem_singleton.mp hp, L_tc]; exact Finset.mem_singleton_self _)
    (fun g u hg => by obtain ⟨i, rfl⟩ := owedRecv_pos hg; rw [L_tc]; exact Finset.mem_singleton_self _)
    (fun p hp => by rw [Finset.mem_singleton.mp hp]; exact le_refl _)
    (fun g u hg => by obtain ⟨i, rfl⟩ := owedRecv_pos hg; rw [lv_recv]; decide)

/-- A wait on a level-0 cell (a local copy's or a send cell) while owing any part of the receive credit. -/
theorem mayWait_low (c : Dev nD) (q : DmaSem sig) (hq : ¬ IsRecvQ q) (O : CellTallies nD τ sig Unit)
    (hO : ∀ g u, 0 < O g u → ∃ i, g = recvCell (peer c) i) :
    (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => by obtain ⟨i, rfl⟩ := hO g u hg; rw [L_tc]; exact Finset.mem_singleton_self _)
    (fun p hp => by rw [Finset.mem_singleton.mp hp, lv_low c q hq])
    (fun g u hg => by obtain ⟨i, rfl⟩ := hO g u hg; rw [lv_recv]; decide)

/-- The same while owing the whole receive credit. -/
theorem mayWait_low_owed (c : Dev nD) (q : DmaSem sig) (hq : ¬ IsRecvQ q) :
    (levAts L lv : sProp 𝕄) ⊢ MayWait (c : Thread nD τ) (.dma q) () (owedRecv c) :=
  mayWait_low c q hq _ fun _ _ h => owedRecv_pos h

/-- The same while owing the receive credit of the chunks in S. -/
theorem mayWait_low_sum (c : Dev nD) (q : DmaSem sig) (hq : ¬ IsRecvQ q) (S : Finset (Fin 16)) :
    (levAts L lv : sProp 𝕄) ⊢ MayWait (c : Thread nD τ) (.dma q) () (∑ i ∈ S, tallyAt (recvCell (peer c) i) () N) :=
  mayWait_low c q hq _ fun _ _ h => sumRecv_pos h

/-! ## The transfer rule's premises at the protocol's cells -/

/-- The credit of a band of the result array is a chunk's credit. -/
theorem amount_out (c : Dev nD) (i : Fin 16) : (outRows c i).view.amount (.dma (recvS i).sem) = N := rfl

/-- The elements of band i of device d's row block: a rectangle of the result array. -/
theorem outRows_set (d : Dev nD) (i : Fin 16) :
    (outRows d i).view.set = (Rect.unit (s := S8192x1024) (k0_off2 d (BitVec.ofNat 32 (256 * i.val))) S256x1024.size (k0_off2_inb d i)).set :=
  View.set_slice_whole _ _

/-- Band i of device d's row block holds the rows 4096 * cy d + 256 * i up to 256 more, every column. -/
theorem mem_outRows (d : Dev nD) (i : Fin 16) (x : S8192x1024.Idx) :
    x ∈ (outRows d i).view.set ↔ 4096 * cy d + 256 * i.val ≤ (x 0).val ∧ (x 0).val < 4096 * cy d + 256 * i.val + 256 := by
  rw [outRows_set, Rect.mem_set_unit, k0_off2_eq, Fin.forall_fin_two]
  have h1 : (x 1).val < 1024 := (x 1).isLt
  show (4096 * cy d + 256 * i.val ≤ (x 0).val ∧ (x 0).val < 4096 * cy d + 256 * i.val + 256) ∧ (0 ≤ (x 1).val ∧ (x 1).val < 0 + 1024) ↔ _
  omega

/-- Where the band's own index (r, j) sits in the result array: row 4096 * cy d + 256 * i + r, column j. -/
theorem outRows_emb0 (d : Dev nD) (i : Fin 16) (y : S256x1024.Idx) :
    (((outRows d i).view.emb y : S8192x1024.Idx) 0).val = 4096 * cy d + 256 * i.val + (y 0).val := by
  show k0_off2 d (BitVec.ofNat 32 (256 * i.val)) 0 + 1 * (y 0).val = _
  rw [k0_off2_eq]
  show 4096 * cy d + 256 * i.val + 1 * (y 0).val = _
  omega

theorem outRows_emb1 (d : Dev nD) (i : Fin 16) (y : S256x1024.Idx) :
    (((outRows d i).view.emb y : S8192x1024.Idx) 1).val = (y 1).val := by
  show k0_off2 d (BitVec.ofNat 32 (256 * i.val)) 1 + 1 * (y 1).val = _
  rw [k0_off2_eq]
  show 0 + 1 * (y 1).val = _
  omega

/-- An element of the band is the image of its own index: the row less the band's first row, the same column. -/
theorem outRows_emb_of_mem (d : Dev nD) (i : Fin 16) (x : S8192x1024.Idx)
    (hx : 4096 * cy d + 256 * i.val ≤ (x 0).val ∧ (x 0).val < 4096 * cy d + 256 * i.val + 256) :
    (outRows d i).view.emb (ValueIdx.ix2 (n0 := 256) (n1 := 1024) ⟨(x 0).val - (4096 * cy d + 256 * i.val), by omega⟩ (x 1)) = x := by
  funext a
  apply Fin.ext
  match a with
  | ⟨0, _⟩ =>
    refine (outRows_emb0 d i _).trans ?_
    show 4096 * cy d + 256 * i.val + ((x 0).val - (4096 * cy d + 256 * i.val)) = (x 0).val
    omega
  | ⟨1, _⟩ => exact outRows_emb1 d i _

/-- Where slot i's own index (r, j) sits in the staging scratch: at (i, r, j). -/
theorem stSlot_emb (i : Fin 16) (y : S256x1024.Idx) :
    ((stSlot i).view.emb y : S16x256x1024.Idx) = ValueIdx.ix3 (n0 := 16) (n1 := 256) (n2 := 1024) i (y 0) (y 1) := by
  show (Rect.unit (s := S16x256x1024) ![i.val, 0, 0] S1x256x1024.size (inb_st i)).emb (Shape.reshapeEquiv (s := S1x256x1024) (s' := S256x1024) _ y) = _
  rw [Shape.reshapeEquiv_cons_one]
  funext a
  apply Fin.ext
  rw [Rect.emb_apply]
  match a with
  | ⟨0, _⟩ => show i.val + 1 * 0 = i.val; omega
  | ⟨1, _⟩ => show 0 + 1 * (y 0).val = (y 0).val; omega
  | ⟨2, _⟩ => show 0 + 1 * (y 1).val = (y 1).val; omega

/-- Two narrowed entries of argument arrays agree when the devices, the rows and the columns do. -/
theorem trunc_x_congr (d d' : Dev nD) (r r' j j' : Nat) (hr : r < 4096) (hj : j < 2048) (hr' : r' < 4096) (hj' : j' < 2048)
    (hd : d = d') (hrr : r = r') (hjj : j = j') :
    FloatOps.truncf .bf16 bitsLt_bf16_f32 (xOf m d (xIdx r j hr hj)) = FloatOps.truncf .bf16 bitsLt_bf16_f32 (xOf m d' (xIdx r' j' hr' hj')) := by
  subst hd hrr hjj; rfl

/-- What device c sends is slot i of its staging scratch at what it staged. -/
theorem send_restate (c : Dev nD) (i : Fin 16) :
    ((stSlot i).view.loc (c : Thread nD τ) ↦[(stSlot i).view.set]{fullShare} (stageVal m c) : sProp 𝕄) ⊢ (a2aRd m).payload (sendCell c i) 0 () := by
  rw [payload_send]; exact Entails.refl _

/-- On band i of c's row block in the PEER's result array, what transfer i writes is the peer's final contents: entry
    (4096 * cy c + 256 * i + r, j) is the narrowed entry (256 * i + r, 1024 * (1 - cy c) + j) of c's argument array either way. -/
theorem recv_pointwise (c : Dev nD) (i : Fin 16) (fd : Buf (Elt F) ((outRows c i).view.loc (peer c : Thread nD τ)))
    (x : S8192x1024.Idx) (hx : x ∈ (outRows c i).view.set) :
    (outRows c i).view.write (Elt F) fd ((stSlot i).view.read (Elt F) (stageVal m c)) Finset.univ x = outFinal m (peer c) x := by
  rw [mem_outRows] at hx
  have hcy := cy_lt c
  have hi := i.isLt
  conv_lhs => rw [← outRows_emb_of_mem c i x hx, View.write_emb_of_mem _ _ (Finset.mem_univ _)]
  rw [View.read_apply, stSlot_emb]
  show stageVal m c _ = outFinal m (peer c) x
  unfold stageVal outFinal
  refine trunc_x_congr m _ _ _ _ _ _ _ _ _ _ ?_ ?_ ?_
  · unfold srcDev
    rw [cy_peer, peer_peer, if_neg]
    omega
  · show 256 * i.val + ((x 0).val - (4096 * cy c + 256 * i.val)) = (x 0).val % 4096
    omega
  · show 1024 * (1 - cy c) + (x 1).val = 1024 * cy (peer c) + (x 1).val
    rw [cy_peer]

/-- What transfer i lands on the peer is the peer's receive payload. -/
theorem recv_restate (c : Dev nD) (i : Fin 16) (fd : Buf (Elt F) ((outRows c i).view.loc (peer c : Thread nD τ))) :
    ((outRows c i).view.loc (peer c : Thread nD τ) ↦[(outRows c i).view.set]{fullShare}
        ((outRows c i).view.write (Elt F) fd ((stSlot i).view.read (Elt F) (stageVal m c)) Finset.univ) : sProp 𝕄)
      ⊢ (a2aRd m).payload (recvCell (peer c) i) 0 () := by
  rw [payload_recv]
  unfold recvPay
  rw [peer_peer]
  exact Entails.of_eq (pointsTo_congr fun x hx => recv_pointwise m c i fd x hx)

/-! ## Owing receive credit only -/

/-- Tallies that are positive only at receive cells of c's peer. -/
abbrev RecvOnly (c : Dev nD) (O : CellTallies nD τ sig Unit) : Prop := ∀ g u, 0 < O g u → ∃ i, g = recvCell (peer c) i

theorem recvOnly_tallyAt (c : Dev nD) (i : Fin 16) (k : ℕ) : RecvOnly c (tallyAt (recvCell (peer c) i) () k) :=
  fun _ _ h => ⟨i, (Pipeline.tallyAt_pos h).1⟩

theorem recvOnly_zero (c : Dev nD) : RecvOnly c 0 := fun _ _ h => absurd h (Nat.lt_irrefl 0)

theorem recvOnly_add {c : Dev nD} {A B : CellTallies nD τ sig Unit} (hA : RecvOnly c A) (hB : RecvOnly c B) : RecvOnly c (A + B) :=
  fun g u h => (Pipeline.add_pos_cases h).elim (hA g u) (hB g u)

theorem recvOnly_sum (c : Dev nD) (S : Finset (Fin 16)) : RecvOnly c (∑ i ∈ S, tallyAt (recvCell (peer c) i) () N) :=
  fun _ _ h => sumRecv_pos h

theorem recvOnly_owed (c : Dev nD) : RecvOnly c (owedRecv c) := fun _ _ h => owedRecv_pos h

/-! ## The result array cut into its bands -/

/-- Band i of device d's row block, as a set of indices of the result array. -/
abbrev bandSet (d : Dev nD) (i : Fin 16) : Finset S8192x1024.Idx := (outRows d i).view.set

/-- Two bands of one row block are disjoint. -/
theorem outRows_disjoint (d : Dev nD) (i j : Fin 16) (hij : i ≠ j) : Disjoint (outRows d i).view.set (outRows d j).view.set := by
  rw [Finset.disjoint_left]
  intro x hi hj
  rw [mem_outRows] at hi hj
  have : i.val ≠ j.val := fun h => hij (Fin.ext h)
  omega

/-- The sixteen bands of device d's row block are the rows of that block. -/
theorem mem_block (d : Dev nD) (x : S8192x1024.Idx) :
    x ∈ (Finset.univ : Finset (Fin 16)).biUnion (fun i => bandSet d i) ↔ (x 0).val / 4096 = cy d := by
  have h0 : (x 0).val < 8192 := (x 0).isLt
  have hcy := cy_lt d
  rw [Finset.mem_biUnion]
  constructor
  · rintro ⟨i, -, hi⟩
    rw [mem_outRows] at hi
    have := i.isLt
    omega
  · intro h
    refine ⟨⟨(x 0).val % 4096 / 256, by omega⟩, Finset.mem_univ _, ?_⟩
    rw [mem_outRows]
    show 4096 * cy d + 256 * ((x 0).val % 4096 / 256) ≤ (x 0).val ∧ (x 0).val < 4096 * cy d + 256 * ((x 0).val % 4096 / 256) + 256
    omega

/-- The result array of device c is its thirty-two bands: the sixteen of its own row block, then the sixteen of its peer's. -/
theorem out_split (c : Dev nD) (f : Buf (Elt F) ((c : Thread nD τ).loc main_v1)) :
    (((c : Thread nD τ).loc main_v1) ↦{fullShare} f : sProp 𝕄)
      = iprop((bigSep Finset.univ fun i : Fin 16 => (outRows c i).view.loc (c : Thread nD τ) ↦[(outRows c i).view.set]{fullShare} f)
          ∗ (bigSep Finset.univ fun i : Fin 16 => (outRows (peer c) i).view.loc (c : Thread nD τ) ↦[(outRows (peer c) i).view.set]{fullShare} f)) := by
  classical
  have e1 := pointsTo_biUnion (Ix := Unit) (Name := ℕ) (U := UU) (Lvl := ℕ) (ℓ := (c : Thread nD τ).loc main_v1) (q := fullShare) (f := f)
    (Finset.univ : Finset (Fin 16)) (fun i => bandSet c i) (fun i _ j _ h => outRows_disjoint c i j h)
  have e2 := pointsTo_biUnion (Ix := Unit) (Name := ℕ) (U := UU) (Lvl := ℕ) (ℓ := (c : Thread nD τ).loc main_v1) (q := fullShare) (f := f)
    (Finset.univ : Finset (Fin 16)) (fun i => bandSet (peer c) i) (fun i _ j _ h => outRows_disjoint (peer c) i j h)
  have hd : Disjoint ((Finset.univ : Finset (Fin 16)).biUnion (fun i => bandSet c i))
      ((Finset.univ : Finset (Fin 16)).biUnion (fun i => bandSet (peer c) i)) := by
    rw [Finset.disjoint_left]
    intro x hA hB
    rw [mem_block] at hA hB
    have := cy_peer c
    have := cy_lt c
    omega
  have hu : (Finset.univ : Finset (Fin 16)).biUnion (fun i => bandSet c i)
      ∪ (Finset.univ : Finset (Fin 16)).biUnion (fun i => bandSet (peer c) i) = Finset.univ := by
    ext x
    simp only [Finset.mem_union, Finset.mem_univ, iff_true]
    rw [mem_block, mem_block, cy_peer]
    have h0 : (x 0).val < 8192 := (x 0).isLt
    have := cy_lt c
    omega
  have e3 := pointsTo_union (Ix := Unit) (Name := ℕ) (U := UU) (Lvl := ℕ) (Val := Elt F) (ℓ := (c : Thread nD τ).loc main_v1) (q := fullShare) (f := f) hd
  rw [hu] at e3
  rw [BI.equiv_iff.mp ⟨e3.1, e3.2⟩, e1, e2]

/-! ## The contents the copies and stores leave -/

/-- A narrowing between two shape casts that undo each other is the narrowing, entry by entry: every value the body stores has this form. -/
theorem k0_pay_apply {s t : Shape} {φ ψ : FTy} (v : s.Idx → F φ) (h1 : s.ShapeCasts t) (hb : ψ.bits < φ.bits) (h2 : t.ShapeCasts s) (j : s.Idx) :
    shapeCast s (truncf ψ (shapeCast t v h1) hb) h2 j = FloatOps.truncf ψ hb (v j) := by
  show FloatOps.truncf ψ hb (v (Shape.reshapeEquiv h1 (Shape.reshapeEquiv h2 j))) = _
  rw [Shape.reshapeEquiv_reshapeEquiv, Shape.reshapeEquiv_self]

theorem inb_xb (s : Fin 2) : ∀ a, (![s.val, 0, 0] : Fin 3 → Nat) a + S1x256x2048.size a ≤ S2x256x2048.size a := by revert s; decide
theorem inb_lb (s : Fin 2) : ∀ a, (![s.val, 0, 0] : Fin 3 → Nat) a + S1x256x1024.size a ≤ S2x256x1024.size a := by revert s; decide
theorem inb_xrows (i : Fin 16) : ∀ a, (![256 * i.val, 0] : Fin 2 → Nat) a + S256x2048.size a ≤ S4096x2048.size a := by revert i; decide

/-- Slot s of the input scratch, as the target of an input copy. -/
abbrev xbSlot (s : Fin 2) : Memref sig .tc .vmem S256x2048 .f32 :=
  ((xbM : Memref sig .tc .vmem S2x256x2048 .f32).slice (Rect.unit (s := S2x256x2048) ![s.val, 0, 0] S1x256x2048.size (inb_xb s)) (fun _ => rfl)).squeeze S256x2048 squeezes_S1x256x2048_S256x2048
/-- Slot s of the local output scratch, as the source of a local copy. -/
abbrev lbSlot (s : Fin 2) : Memref sig .tc .vmem S256x1024 .bf16 :=
  ((lbM : Memref sig .tc .vmem S2x256x1024 .bf16).slice (Rect.unit (s := S2x256x1024) ![s.val, 0, 0] S1x256x1024.size (inb_lb s)) (fun _ => rfl)).squeeze S256x1024 squeezes_S1x256x1024_S256x1024
/-- The 256 rows of chunk i of the argument array, as the source of an input copy. -/
abbrev xRows (i : Fin 16) : Memref sig .tc .hbm S256x2048 .f32 :=
  (xM : Memref sig .tc .hbm S4096x2048 .f32).slice (Rect.unit (s := S4096x2048) ![256 * i.val, 0] S256x2048.size (inb_xrows i)) (fun _ => rfl)

theorem xbSlot_emb (s : Fin 2) (y : S256x2048.Idx) :
    ((xbSlot s).view.emb y : S2x256x2048.Idx) = ValueIdx.ix3 (n0 := 2) (n1 := 256) (n2 := 2048) s (y 0) (y 1) := by
  show (Rect.unit (s := S2x256x2048) ![s.val, 0, 0] S1x256x2048.size (inb_xb s)).emb (Shape.reshapeEquiv (s := S1x256x2048) (s' := S256x2048) _ y) = _
  rw [Shape.reshapeEquiv_cons_one]
  funext a
  apply Fin.ext
  rw [Rect.emb_apply]
  match a with
  | ⟨0, _⟩ => show s.val + 1 * 0 = s.val; omega
  | ⟨1, _⟩ => show 0 + 1 * (y 0).val = (y 0).val; omega
  | ⟨2, _⟩ => show 0 + 1 * (y 1).val = (y 1).val; omega

theorem lbSlot_emb (s : Fin 2) (y : S256x1024.Idx) :
    ((lbSlot s).view.emb y : S2x256x1024.Idx) = ValueIdx.ix3 (n0 := 2) (n1 := 256) (n2 := 1024) s (y 0) (y 1) := by
  show (Rect.unit (s := S2x256x1024) ![s.val, 0, 0] S1x256x1024.size (inb_lb s)).emb (Shape.reshapeEquiv (s := S1x256x1024) (s' := S256x1024) _ y) = _
  rw [Shape.reshapeEquiv_cons_one]
  funext a
  apply Fin.ext
  rw [Rect.emb_apply]
  match a with
  | ⟨0, _⟩ => show s.val + 1 * 0 = s.val; omega
  | ⟨1, _⟩ => show 0 + 1 * (y 0).val = (y 0).val; omega
  | ⟨2, _⟩ => show 0 + 1 * (y 1).val = (y 1).val; omega

theorem xRows_emb (i : Fin 16) (y : S256x2048.Idx) :
    ((xRows i).view.emb y : S4096x2048.Idx) = xIdx (256 * i.val + (y 0).val) (y 1).val
      (by have := i.isLt; have : (y 0).val < 256 := (y 0).isLt; omega) (y 1).isLt := by
  funext a
  apply Fin.ext
  show ((Rect.unit (s := S4096x2048) ![256 * i.val, 0] S256x2048.size (inb_xrows i)).emb y a : Nat) = _
  rw [Rect.emb_apply]
  match a with
  | ⟨0, _⟩ => show 256 * i.val + 1 * (y 0).val = 256 * i.val + (y 0).val; omega
  | ⟨1, _⟩ => show 0 + 1 * (y 1).val = (y 1).val; omega

/-- (a) The input copy of chunk i into slot s: entry (s, r, j) of the input scratch is then entry (256 * i + r, j) of the argument array. -/
theorem xb_copy_at (i : Fin 16) (s : Fin 2) (fx : S4096x2048.Idx → F .f32) (fd : S2x256x2048.Idx → F .f32) (r : Fin 256) (j : Fin 2048) :
    (xbSlot s).view.write (Elt F) fd ((xRows i).view.read (Elt F) fx) Finset.univ (ValueIdx.ix3 (n0 := 2) (n1 := 256) (n2 := 2048) s r j)
      = fx (xIdx (256 * i.val + r.val) j.val (by have := i.isLt; have := r.isLt; omega) j.isLt) := by
  have e := xbSlot_emb s (ValueIdx.ix2 (n0 := 256) (n1 := 2048) r j)
  have e' : (ValueIdx.ix3 (n0 := 2) (n1 := 256) (n2 := 2048) s r j : S2x256x2048.Idx) = (xbSlot s).view.emb (ValueIdx.ix2 (n0 := 256) (n1 := 2048) r j) := e.symm
  rw [e', View.write_emb_of_mem _ _ (Finset.mem_univ _), View.read_apply, xRows_emb]
  rfl

/-- and the other slot keeps what it held. -/
theorem xb_copy_other (i : Fin 16) (s s' : Fin 2) (hs : s' ≠ s) (fx : S4096x2048.Idx → F .f32) (fd : S2x256x2048.Idx → F .f32) (r : Fin 256) (j : Fin 2048) :
    (xbSlot s).view.write (Elt F) fd ((xRows i).view.read (Elt F) fx) Finset.univ (ValueIdx.ix3 (n0 := 2) (n1 := 256) (n2 := 2048) s' r j)
      = fd (ValueIdx.ix3 (n0 := 2) (n1 := 256) (n2 := 2048) s' r j) := by
  refine View.write_of_not_mem _ _ _ fun hmem => hs ?_
  rw [View.setOn_univ] at hmem
  obtain ⟨y, hy⟩ := View.exists_emb_of_mem_set _ hmem
  rw [xbSlot_emb] at hy
  have := congrArg (fun z : S2x256x2048.Idx => (z 0).val) hy
  exact Fin.ext this.symm

/-- The elements of slot i of the staging scratch: the entries with first coordinate i. -/
theorem mem_stSlot (i : Fin 16) (x : S16x256x1024.Idx) : x ∈ (stSlot i).view.set ↔ (x 0).val = i.val := by
  have h : (stSlot i).view.set = (Rect.unit (s := S16x256x1024) ![i.val, 0, 0] S1x256x1024.size (inb_st i)).set :=
    (View.set_reshape _ _).trans (View.set_slice_whole _ _)
  rw [h, Rect.mem_set_unit, Fin.forall_fin_succ, Fin.forall_fin_two]
  have h1 : (x 1).val < 256 := (x 1).isLt
  have h2 : (x 2).val < 1024 := (x 2).isLt
  show (i.val ≤ (x 0).val ∧ (x 0).val < i.val + 1) ∧ (0 ≤ (x 1).val ∧ (x 1).val < 0 + 256) ∧ (0 ≤ (x 2).val ∧ (x 2).val < 0 + 1024) ↔ _
  omega

/-- Slot i of the staging scratch, as a set of indices of the scratch. -/
abbrev stSet (i : Fin 16) : Finset S16x256x1024.Idx := (stSlot i).view.set

/-- The staging scratch of device c is its sixteen slots. -/
theorem stage_split (c : Dev nD) (f : Buf (Elt F) ((c : Thread nD τ).loc cc0_scratch1)) :
    (((c : Thread nD τ).loc cc0_scratch1) ↦{fullShare} f : sProp 𝕄)
      = bigSep Finset.univ fun i : Fin 16 => (stSlot i).view.loc (c : Thread nD τ) ↦[(stSlot i).view.set]{fullShare} f := by
  classical
  have e1 := pointsTo_biUnion (Ix := Unit) (Name := ℕ) (U := UU) (Lvl := ℕ) (ℓ := (c : Thread nD τ).loc cc0_scratch1) (q := fullShare) (f := f)
    (Finset.univ : Finset (Fin 16)) (fun i => stSet i) (fun i _ j _ h => by
      rw [Finset.disjoint_left]
      intro x hi hj
      rw [mem_stSlot] at hi hj
      exact h (Fin.ext (hi.symm.trans hj)))
  have hu : (Finset.univ : Finset (Fin 16)).biUnion (fun i => stSet i) = Finset.univ := by
    ext x
    simp only [Finset.mem_univ, iff_true]
    rw [Finset.mem_biUnion]
    exact ⟨x 0, Finset.mem_univ _, (mem_stSlot _ x).mpr rfl⟩
  rw [hu] at e1
  exact e1

/-- A load of 1024 columns of one slot of the input scratch: entry (0, r, j) of what it reads is entry (s, r, o + j) of the scratch. -/
theorem xb_load_at (off : Fin 3 → Nat) (inb : ∀ a, off a + S1x256x1024.size a ≤ S2x256x2048.size a) (s : Fin 2) (o : Nat) (ho : o + 1024 ≤ 2048)
    (hoff : off = ![s.val, 0, o]) (g : S2x256x2048.Idx → F .f32) (r : Fin 256) (j : Fin 1024) :
    (xbM : Memref sig .tc .vmem S2x256x2048 .f32).view.readAt (Elt F) (Rect.unit (s := S2x256x2048) off S1x256x1024.size inb).toLoadRect g
        (ValueIdx.ix3 (n0 := 1) (n1 := 256) (n2 := 1024) ⟨0, Nat.one_pos⟩ r j)
      = g (ValueIdx.ix3 (n0 := 2) (n1 := 256) (n2 := 2048) s r ⟨o + j.val, by have := j.isLt; omega⟩) := by
  subst hoff
  rw [View.readAt_apply, View.read_apply]
  show g _ = g _
  refine congrArg g ?_
  funext a
  apply Fin.ext
  match a with
  | ⟨0, _⟩ => show s.val + 1 * 0 = s.val; omega
  | ⟨1, _⟩ => show 0 + 1 * r.val = r.val; omega
  | ⟨2, _⟩ => show o + 1 * j.val = o + j.val; omega

/-- (b) What is stored into slot i of the staging scratch, when slot s of the input scratch holds chunk i and the load takes the
    PEER's columns of it: entry (0, r, j) is what device c stages at (i, r, j). -/
theorem stage_pay_at (c : Dev nD) (i : Fin 16) (s : Fin 2) (off : Fin 3 → Nat) (inb : ∀ a, off a + S1x256x1024.size a ≤ S2x256x2048.size a)
    (hoff : off = ![s.val, 0, 1024 - 1024 * cy c]) (g : S2x256x2048.Idx → F .f32)
    (hg : ∀ (r : Fin 256) (j : Fin 2048), g (ValueIdx.ix3 (n0 := 2) (n1 := 256) (n2 := 2048) s r j)
      = xOf m c (xIdx (256 * i.val + r.val) j.val (by have := i.isLt; have := r.isLt; omega) j.isLt))
    (h1 : S1x256x1024.ShapeCasts S256x1024) (hb : FTy.bits .bf16 < FTy.bits .f32) (h2 : S256x1024.ShapeCasts S1x256x1024) (r : Fin 256) (j : Fin 1024) :
    shapeCast S1x256x1024 (truncf .bf16 (shapeCast S256x1024
        ((xbM : Memref sig .tc .vmem S2x256x2048 .f32).view.readAt (Elt F) (Rect.unit (s := S2x256x2048) off S1x256x1024.size inb).toLoadRect g) h1) hb) h2
        (ValueIdx.ix3 (n0 := 1) (n1 := 256) (n2 := 1024) ⟨0, Nat.one_pos⟩ r j)
      = stageVal m c (ValueIdx.ix3 (n0 := 16) (n1 := 256) (n2 := 1024) i r j) := by
  have hcy := cy_lt c
  rw [k0_pay_apply, xb_load_at off inb s (1024 - 1024 * cy c) (by omega) hoff g r j, hg]
  unfold stageVal
  refine trunc_x_congr m _ _ _ _ _ _ _ _ _ _ rfl rfl ?_
  show 1024 - 1024 * cy c + j.val = 1024 * (1 - cy c) + j.val
  omega

/-- (c) The same for the local output scratch, the load taking c's OWN columns: entry (0, r, j) is entry (256 * i + r, 1024 * cy c + j)
    of c's argument array, narrowed. -/
theorem local_pay_at (c : Dev nD) (i : Fin 16) (s : Fin 2) (off : Fin 3 → Nat) (inb : ∀ a, off a + S1x256x1024.size a ≤ S2x256x2048.size a)
    (hoff : off = ![s.val, 0, 1024 * cy c]) (g : S2x256x2048.Idx → F .f32)
    (hg : ∀ (r : Fin 256) (j : Fin 2048), g (ValueIdx.ix3 (n0 := 2) (n1 := 256) (n2 := 2048) s r j)
      = xOf m c (xIdx (256 * i.val + r.val) j.val (by have := i.isLt; have := r.isLt; omega) j.isLt))
    (h1 : S1x256x1024.ShapeCasts S256x1024) (hb : FTy.bits .bf16 < FTy.bits .f32) (h2 : S256x1024.ShapeCasts S1x256x1024) (r : Fin 256) (j : Fin 1024) :
    shapeCast S1x256x1024 (truncf .bf16 (shapeCast S256x1024
        ((xbM : Memref sig .tc .vmem S2x256x2048 .f32).view.readAt (Elt F) (Rect.unit (s := S2x256x2048) off S1x256x1024.size inb).toLoadRect g) h1) hb) h2
        (ValueIdx.ix3 (n0 := 1) (n1 := 256) (n2 := 1024) ⟨0, Nat.one_pos⟩ r j)
      = FloatOps.truncf .bf16 bitsLt_bf16_f32 (xOf m c (xIdx (256 * i.val + r.val) (1024 * cy c + j.val)
          (by have := i.isLt; have := r.isLt; omega) (by have := cy_lt c; have := j.isLt; omega))) := by
  have hcy := cy_lt c
  rw [k0_pay_apply, xb_load_at off inb s (1024 * cy c) (by omega) hoff g r j, hg]

/-! ## The axioms the main facts rest on -/

/-- info: 'Cert.KernelIdeal.A2A.mayWait_bar' depends on axioms: [propext, Classical.choice, Quot.sound] -/
#guard_msgs in #print axioms mayWait_bar

/-- info: 'Cert.KernelIdeal.A2A.mayWait_low' depends on axioms: [propext, Classical.choice, Quot.sound] -/
#guard_msgs in #print axioms mayWait_low

/-- info: 'Cert.KernelIdeal.A2A.recv_restate' depends on axioms: [propext, Classical.choice, Quot.sound] -/
#guard_msgs in #print axioms recv_restate

/-- info: 'Cert.KernelIdeal.A2A.send_restate' depends on axioms: [propext, Classical.choice, Quot.sound] -/
#guard_msgs in #print axioms send_restate

/-- info: 'Cert.KernelIdeal.A2A.out_split' depends on axioms: [propext, Classical.choice, Quot.sound] -/
#guard_msgs in #print axioms out_split

/-- info: 'Cert.KernelIdeal.A2A.stage_split' depends on axioms: [propext, Classical.choice, Quot.sound] -/
#guard_msgs in #print axioms stage_split

/-- info: 'Cert.KernelIdeal.A2A.stage_pay_at' depends on axioms: [propext, Classical.choice, Quot.sound] -/
#guard_msgs in #print axioms stage_pay_at

/-- info: 'Cert.KernelIdeal.A2A.local_pay_at' depends on axioms: [propext, Classical.choice, Quot.sound] -/
#guard_msgs in #print axioms local_pay_at

/-- info: 'Cert.KernelIdeal.A2A.xb_copy_at' depends on axioms: [propext, Classical.choice, Quot.sound] -/
#guard_msgs in #print axioms xb_copy_at

/-- info: 'Cert.KernelIdeal.A2A.xb_copy_other' depends on axioms: [propext, Classical.choice, Quot.sound] -/
#guard_msgs in #print axioms xb_copy_other

end Cert.KernelIdeal.A2A

end
-- ==== Proof.Contents2.lean ====
/-
  More of the contents the stores and the local copies leave: a store through one slot of the staging or of the local
  output scratch read back entry by entry, and the local copy of a chunk onto its band of the result array.
-/
import proofs.«900623_g7700000000000624_dist_a2a_v7x_xyz2x2x2_y_m4096_n1024_bf16_1_alg».proof.Proof.Contents
import Idealize.ShloMosaic.Lib.Pipeline.Value

noncomputable section

namespace Cert.KernelIdeal.A2A

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A store through slot i of the staging scratch, the LAST of a list of stores: entry (i, r, j) holds the stored vector's (0, r, j), -/
theorem st_store_at (i : Fin 16) (f : S16x256x1024.Idx → F .bf16) (w : S1x256x1024.Idx → F .bf16)
    (L : List (View.Piece (Elt F) S16x256x1024 .bf16)) (r : Fin 256) (j : Fin 1024) :
    (stM : Memref sig .tc .vmem S16x256x1024 .bf16).view.writes (Elt F) f
        (⟨Rect.unit (s := S16x256x1024) ![i.val, 0, 0] S1x256x1024.size (inb_st i), w⟩ :: L)
        (ValueIdx.ix3 (n0 := 16) (n1 := 256) (n2 := 1024) i r j)
      = w (ValueIdx.ix3 (n0 := 1) (n1 := 256) (n2 := 1024) ⟨0, Nat.one_pos⟩ r j) := by
  show ((stM : Memref sig .tc .vmem S16x256x1024 .bf16).view.slice (Rect.unit (s := S16x256x1024) ![i.val, 0, 0] S1x256x1024.size (inb_st i))).write (Elt F) _ w Finset.univ _ = _
  have e : (ValueIdx.ix3 (n0 := 16) (n1 := 256) (n2 := 1024) i r j : S16x256x1024.Idx)
      = ((stM : Memref sig .tc .vmem S16x256x1024 .bf16).view.slice (Rect.unit (s := S16x256x1024) ![i.val, 0, 0] S1x256x1024.size (inb_st i))).emb
          (ValueIdx.ix3 (n0 := 1) (n1 := 256) (n2 := 1024) ⟨0, Nat.one_pos⟩ r j) := by
    show _ = (Rect.unit (s := S16x256x1024) ![i.val, 0, 0] S1x256x1024.size (inb_st i)).emb _
    funext a
    apply Fin.ext
    rw [Rect.emb_apply]
    match a with
    | ⟨0, _⟩ => show i.val = i.val + 1 * 0; omega
    | ⟨1, _⟩ => show r.val = 0 + 1 * r.val; omega
    | ⟨2, _⟩ => show j.val = 0 + 1 * j.val; omega
  rw [e, View.write_emb_of_mem _ _ (Finset.mem_univ _)]
  rfl

/-- and an entry of another slot keeps what the earlier stores left. -/
theorem st_store_other (i i' : Fin 16) (hi : i' ≠ i) (f : S16x256x1024.Idx → F .bf16) (w : S1x256x1024.Idx → F .bf16)
    (L : List (View.Piece (Elt F) S16x256x1024 .bf16)) (r : Fin 256) (j : Fin 1024) :
    (stM : Memref sig .tc .vmem S16x256x1024 .bf16).view.writes (Elt F) f
        (⟨Rect.unit (s := S16x256x1024) ![i.val, 0, 0] S1x256x1024.size (inb_st i), w⟩ :: L)
        (ValueIdx.ix3 (n0 := 16) (n1 := 256) (n2 := 1024) i' r j)
      = (stM : Memref sig .tc .vmem S16x256x1024 .bf16).view.writes (Elt F) f L (ValueIdx.ix3 (n0 := 16) (n1 := 256) (n2 := 1024) i' r j) := by
  show ((stM : Memref sig .tc .vmem S16x256x1024 .bf16).view.slice (Rect.unit (s := S16x256x1024) ![i.val, 0, 0] S1x256x1024.size (inb_st i))).write (Elt F) _ w Finset.univ _ = _
  refine View.write_of_not_mem _ _ _ ?_
  rw [View.setOn_univ, View.set_slice_whole, Rect.mem_set_unit]
  intro h
  have h0 : i.val ≤ i'.val ∧ i'.val < i.val + 1 := h 0
  exact hi (Fin.ext (by omega))

/-- The same for slot s of the local output scratch. -/
theorem lb_store_at (s : Fin 2) (f : S2x256x1024.Idx → F .bf16) (w : S1x256x1024.Idx → F .bf16)
    (L : List (View.Piece (Elt F) S2x256x1024 .bf16)) (r : Fin 256) (j : Fin 1024) :
    (lbM : Memref sig .tc .vmem S2x256x1024 .bf16).view.writes (Elt F) f
        (⟨Rect.unit (s := S2x256x1024) ![s.val, 0, 0] S1x256x1024.size (inb_lb s), w⟩ :: L)
        (ValueIdx.ix3 (n0 := 2) (n1 := 256) (n2 := 1024) s r j)
      = w (ValueIdx.ix3 (n0 := 1) (n1 := 256) (n2 := 1024) ⟨0, Nat.one_pos⟩ r j) := by
  show ((lbM : Memref sig .tc .vmem S2x256x1024 .bf16).view.slice (Rect.unit (s := S2x256x1024) ![s.val, 0, 0] S1x256x1024.size (inb_lb s))).write (Elt F) _ w Finset.univ _ = _
  have e : (ValueIdx.ix3 (n0 := 2) (n1 := 256) (n2 := 1024) s r j : S2x256x1024.Idx)
      = ((lbM : Memref sig .tc .vmem S2x256x1024 .bf16).view.slice (Rect.unit (s := S2x256x1024) ![s.val, 0, 0] S1x256x1024.size (inb_lb s))).emb
          (ValueIdx.ix3 (n0 := 1) (n1 := 256) (n2 := 1024) ⟨0, Nat.one_pos⟩ r j) := by
    show _ = (Rect.unit (s := S2x256x1024) ![s.val, 0, 0] S1x256x1024.size (inb_lb s)).emb _
    funext a
    apply Fin.ext
    rw [Rect.emb_apply]
    match a with
    | ⟨0, _⟩ => show s.val = s.val + 1 * 0; omega
    | ⟨1, _⟩ => show r.val = 0 + 1 * r.val; omega
    | ⟨2, _⟩ => show j.val = 0 + 1 * j.val; omega
  rw [e, View.write_emb_of_mem _ _ (Finset.mem_univ _)]
  rfl

theorem lb_store_other (s s' : Fin 2) (hs : s' ≠ s) (f : S2x256x1024.Idx → F .bf16) (w : S1x256x1024.Idx → F .bf16)
    (L : List (View.Piece (Elt F) S2x256x1024 .bf16)) (r : Fin 256) (j : Fin 1024) :
    (lbM : Memref sig .tc .vmem S2x256x1024 .bf16).view.writes (Elt F) f
        (⟨Rect.unit (s := S2x256x1024) ![s.val, 0, 0] S1x256x1024.size (inb_lb s), w⟩ :: L)
        (ValueIdx.ix3 (n0 := 2) (n1 := 256) (n2 := 1024) s' r j)
      = (lbM : Memref sig .tc .vmem S2x256x1024 .bf16).view.writes (Elt F) f L (ValueIdx.ix3 (n0 := 2) (n1 := 256) (n2 := 1024) s' r j) := by
  show ((lbM : Memref sig .tc .vmem S2x256x1024 .bf16).view.slice (Rect.unit (s := S2x256x1024) ![s.val, 0, 0] S1x256x1024.size (inb_lb s))).write (Elt F) _ w Finset.univ _ = _
  refine View.write_of_not_mem _ _ _ ?_
  rw [View.setOn_univ, View.set_slice_whole, Rect.mem_set_unit]
  intro h
  have h0 : s.val ≤ s'.val ∧ s'.val < s.val + 1 := h 0
  exact hs (Fin.ext (by omega))

/-- (d) The local copy of chunk i from slot s of the local output scratch: on band i of c's own row block, entry
    (4096 * cy c + 256 * i + r, j) of the result array is then entry (s, r, j) of that scratch. -/
theorem own_copy_at (c : Dev nD) (i : Fin 16) (s : Fin 2) (fd : S8192x1024.Idx → F .bf16) (flb : S2x256x1024.Idx → F .bf16) (x : S8192x1024.Idx)
    (hx : 4096 * cy c + 256 * i.val ≤ (x 0).val ∧ (x 0).val < 4096 * cy c + 256 * i.val + 256) :
    (outRows c i).view.write (Elt F) fd ((lbSlot s).view.read (Elt F) flb) Finset.univ x
      = flb (ValueIdx.ix3 (n0 := 2) (n1 := 256) (n2 := 1024) s ⟨(x 0).val - (4096 * cy c + 256 * i.val), by omega⟩ (x 1)) := by
  conv_lhs => rw [← outRows_emb_of_mem c i x hx, View.write_emb_of_mem _ _ (Finset.mem_univ _)]
  rw [View.read_apply, lbSlot_emb]
  rfl

/-- With the scratch slot at c's own columns of chunk i, narrowed, that is the final contents there. -/
theorem own_pointwise (c : Dev nD) (i : Fin 16) (s : Fin 2) (fd : S8192x1024.Idx → F .bf16) (flb : S2x256x1024.Idx → F .bf16)
    (hflb : ∀ (r : Fin 256) (j : Fin 1024), flb (ValueIdx.ix3 (n0 := 2) (n1 := 256) (n2 := 1024) s r j)
      = FloatOps.truncf .bf16 bitsLt_bf16_f32 (xOf m c (xIdx (256 * i.val + r.val) (1024 * cy c + j.val)
          (by have := i.isLt; have := r.isLt; omega) (by have := cy_lt c; have := j.isLt; omega))))
    (x : S8192x1024.Idx) (hx : x ∈ (outRows c i).view.set) :
    (outRows c i).view.write (Elt F) fd ((lbSlot s).view.read (Elt F) flb) Finset.univ x = outFinal m c x := by
  rw [mem_outRows] at hx
  have hcy := cy_lt c
  have hi := i.isLt
  rw [own_copy_at c i s fd flb x hx]
  refine (hflb ⟨(x 0).val - (4096 * cy c + 256 * i.val), by omega⟩ (x 1)).trans ?_
  unfold outFinal
  refine trunc_x_congr m _ _ _ _ _ _ _ _ _ _ ?_ ?_ rfl
  · unfold srcDev
    rw [if_pos]
    omega
  · show 256 * i.val + ((x 0).val - (4096 * cy c + 256 * i.val)) = (x 0).val % 4096
    omega

/-! ## The axioms these facts rest on -/

/-- info: 'Cert.KernelIdeal.A2A.st_store_at' depends on axioms: [propext, Classical.choice, Quot.sound] -/
#guard_msgs in #print axioms st_store_at

/-- info: 'Cert.KernelIdeal.A2A.st_store_other' depends on axioms: [propext, Classical.choice, Quot.sound] -/
#guard_msgs in #print axioms st_store_other

/-- info: 'Cert.KernelIdeal.A2A.lb_store_at' depends on axioms: [propext, Classical.choice, Quot.sound] -/
#guard_msgs in #print axioms lb_store_at

/-- info: 'Cert.KernelIdeal.A2A.lb_store_other' depends on axioms: [propext, Classical.choice, Quot.sound] -/
#guard_msgs in #print axioms lb_store_other

/-- info: 'Cert.KernelIdeal.A2A.own_copy_at' depends on axioms: [propext, Classical.choice, Quot.sound] -/
#guard_msgs in #print axioms own_copy_at

/-- info: 'Cert.KernelIdeal.A2A.own_pointwise' depends on axioms: [propext, Classical.choice, Quot.sound] -/
#guard_msgs in #print axioms own_pointwise

end Cert.KernelIdeal.A2A

end
-- ==== Proof.Contents3.lean ====
/-
  Glue between the contents and the protocol: what the entry signal hands the peer, restated as the barrier cell's payload,
  and a slot of the staging scratch after the store of what is staged there.
-/
import proofs.«900623_g7700000000000624_dist_a2a_v7x_xyz2x2x2_y_m4096_n1024_bf16_1_alg».proof.Proof.Contents2
import Idealize.ShloMosaic.Lib.Pipeline.Value

noncomputable section

namespace Cert.KernelIdeal.A2A

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Elements held at some contents are held at contents that exist. -/
theorem pointsTo_exists (ℓ : Loc nD τ sig) (S : Finset (Idx ℓ)) (f : Buf (Elt F) ℓ) :
    (ℓ ↦[S]{fullShare} f : sProp 𝕄) ⊢ iprop(∃ g, ℓ ↦[S]{fullShare} g) := by
  iintro H
  iexists f
  iexact H

/-- What the entry signal hands the peer: the sixteen bands of the peer's row block in c's own result array, at whatever they hold,
    and that c stands at round 0 of each of its receive cells. -/
theorem bar_restate (c : Dev nD) (f : Buf (Elt F) ((c : Thread nD τ).loc main_v1)) :
    iprop((bigSep Finset.univ fun i : Fin 16 => (outRows (peer c) i).view.loc (c : Thread nD τ) ↦[(outRows (peer c) i).view.set]{fullShare} f)
        ∗ bigSep Finset.univ fun i : Fin 16 => reached ER (recvCell c i) 0)
      ⊢ ((a2aRd m).payload (barCell (peer c)) 0 () : sProp 𝕄) := by
  rw [payload_bar]
  unfold barPay
  rw [peer_peer]
  exact sep_mono_left (bigSep_mono fun i _ => pointsTo_exists _ _ f)

/-- Slot i of the staging scratch after a store of what device c stages there, whatever was stored before: it holds stageVal. -/
theorem stage_slot_pointwise (c : Dev nD) (i : Fin 16) (f : S16x256x1024.Idx → F .bf16) (w : S1x256x1024.Idx → F .bf16)
    (L : List (View.Piece (Elt F) S16x256x1024 .bf16))
    (hw : ∀ (r : Fin 256) (j : Fin 1024), w (ValueIdx.ix3 (n0 := 1) (n1 := 256) (n2 := 1024) ⟨0, Nat.one_pos⟩ r j)
      = stageVal m c (ValueIdx.ix3 (n0 := 16) (n1 := 256) (n2 := 1024) i r j))
    (x : S16x256x1024.Idx) (hx : x ∈ (stSlot i).view.set) :
    (stM : Memref sig .tc .vmem S16x256x1024 .bf16).view.writes (Elt F) f
        (⟨Rect.unit (s := S16x256x1024) ![i.val, 0, 0] S1x256x1024.size (inb_st i), w⟩ :: L) x = stageVal m c x := by
  rw [mem_stSlot] at hx
  have e : x = ValueIdx.ix3 (n0 := 16) (n1 := 256) (n2 := 1024) i (x 1) (x 2) := by
    funext a
    match a with
    | ⟨0, _⟩ => exact Fin.ext hx
    | ⟨1, _⟩ => rfl
    | ⟨2, _⟩ => rfl
  rw [e]
  exact (st_store_at i f w L (x 1) (x 2)).trans (hw (x 1) (x 2))

/-! ## The axioms these facts rest on -/

/-- info: 'Cert.KernelIdeal.A2A.bar_restate' depends on axioms: [propext, Classical.choice, Quot.sound] -/
#guard_msgs in #print axioms bar_restate

/-- info: 'Cert.KernelIdeal.A2A.stage_slot_pointwise' depends on axioms: [propext, Classical.choice, Quot.sound] -/
#guard_msgs in #print axioms stage_slot_pointwise

end Cert.KernelIdeal.A2A

end
-- ==== Proof.BodyFacts.lean ====
/-
  Facts the body's proof cites, each stated once over the device c and the chunk number i.

  The ghost state's sixteen-fold conjunctions and the barrier payload written out; the schedule's payloads spelt as the
  points-to they are; a whole buffer restated through its memref's view; that the staging slots are pairwise disjoint; and the
  contents facts: what the stage store of chunk i leaves on staging slot i (the peer's columns of c's rows, narrowed), and what the
  local copy of chunk i leaves on band i of c's own row block of its result array (c's own columns, narrowed: the band's final
  contents), each from what the input scratch held on slot i mod 2 when it was loaded.
-/
import proofs.«900623_g7700000000000624_dist_a2a_v7x_xyz2x2x2_y_m4096_n1024_bf16_1_alg».proof.Proof.Sched
import proofs.«900623_g7700000000000624_dist_a2a_v7x_xyz2x2x2_y_m4096_n1024_bf16_1_alg».proof.Proof.Owed
import proofs.«900623_g7700000000000624_dist_a2a_v7x_xyz2x2x2_y_m4096_n1024_bf16_1_alg».proof.Proof.Contents
import proofs.«900623_g7700000000000624_dist_a2a_v7x_xyz2x2x2_y_m4096_n1024_bf16_1_alg».proof.Proof.Contents2
import proofs.«900623_g7700000000000624_dist_a2a_v7x_xyz2x2x2_y_m4096_n1024_bf16_1_alg».proof.Proof.Contents3

noncomputable section

namespace Cert.KernelIdeal.A2A

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sep_assoc_eq (P Q R : sProp 𝕄) : iprop((P ∗ Q) ∗ R) = iprop(P ∗ Q ∗ R) := Idealize.SL.BI.equiv_iff.mp ⟨Idealize.SL.BI.sep_assoc, Idealize.SL.BI.sep_assoc'⟩

/-- The entry signal's payload, as the signaller hands it over: the sixteen bands of the peer's row block in its own result
    array, and round 0 of its own receive cells. -/
theorem barPay_of (p c : Dev nD) (h : peer p = c) : barPay (F := F) p
    = iprop((∃ f, (outRows p 0).view.loc (c : Thread nD τ) ↦[(outRows p 0).view.set]{fullShare} f) ∗ (∃ f, (outRows p 1).view.loc (c : Thread nD τ) ↦[(outRows p 1).view.set]{fullShare} f) ∗ (∃ f, (outRows p 2).view.loc (c : Thread nD τ) ↦[(outRows p 2).view.set]{fullShare} f) ∗ (∃ f, (outRows p 3).view.loc (c : Thread nD τ) ↦[(outRows p 3).view.set]{fullShare} f) ∗ (∃ f, (outRows p 4).view.loc (c : Thread nD τ) ↦[(outRows p 4).view.set]{fullShare} f) ∗ (∃ f, (outRows p 5).view.loc (c : Thread nD τ) ↦[(outRows p 5).view.set]{fullShare} f) ∗ (∃ f, (outRows p 6).view.loc (c : Thread nD τ) ↦[(outRows p 6).view.set]{fullShare} f) ∗ (∃ f, (outRows p 7).view.loc (c : Thread nD τ) ↦[(outRows p 7).view.set]{fullShare} f) ∗ (∃ f, (outRows p 8).view.loc (c : Thread nD τ) ↦[(outRows p 8).view.set]{fullShare} f) ∗ (∃ f, (outRows p 9).view.loc (c : Thread nD τ) ↦[(outRows p 9).view.set]{fullShare} f) ∗ (∃ f, (outRows p 10).view.loc (c : Thread nD τ) ↦[(outRows p 10).view.set]{fullShare} f) ∗ (∃ f, (outRows p 11).view.loc (c : Thread nD τ) ↦[(outRows p 11).view.set]{fullShare} f) ∗ (∃ f, (outRows p 12).view.loc (c : Thread nD τ) ↦[(outRows p 12).view.set]{fullShare} f) ∗ (∃ f, (outRows p 13).view.loc (c : Thread nD τ) ↦[(outRows p 13).view.set]{fullShare} f) ∗ (∃ f, (outRows p 14).view.loc (c : Thread nD τ) ↦[(outRows p 14).view.set]{fullShare} f) ∗ (∃ f, (outRows p 15).view.loc (c : Thread nD τ) ↦[(outRows p 15).view.set]{fullShare} f)
        ∗ reached ER (recvCell c 0) 0 ∗ reached ER (recvCell c 1) 0 ∗ reached ER (recvCell c 2) 0 ∗ reached ER (recvCell c 3) 0 ∗ reached ER (recvCell c 4) 0 ∗ reached ER (recvCell c 5) 0 ∗ reached ER (recvCell c 6) 0 ∗ reached ER (recvCell c 7) 0 ∗ reached ER (recvCell c 8) 0 ∗ reached ER (recvCell c 9) 0 ∗ reached ER (recvCell c 10) 0 ∗ reached ER (recvCell c 11) 0 ∗ reached ER (recvCell c 12) 0 ∗ reached ER (recvCell c 13) 0 ∗ reached ER (recvCell c 14) 0 ∗ reached ER (recvCell c 15) 0) := by
  subst h
  unfold barPay
  rw [bigSep_fin16, bigSep_fin16]
  simp only [sep_assoc_eq]

theorem payload_bar_own (c : Dev nD) (d : Unit) : (a2aRd (F := F) m).payload (barCell c) 0 d
    = iprop((∃ f, (outRows c 0).view.loc (peer c : Thread nD τ) ↦[(outRows c 0).view.set]{fullShare} f) ∗ (∃ f, (outRows c 1).view.loc (peer c : Thread nD τ) ↦[(outRows c 1).view.set]{fullShare} f) ∗ (∃ f, (outRows c 2).view.loc (peer c : Thread nD τ) ↦[(outRows c 2).view.set]{fullShare} f) ∗ (∃ f, (outRows c 3).view.loc (peer c : Thread nD τ) ↦[(outRows c 3).view.set]{fullShare} f) ∗ (∃ f, (outRows c 4).view.loc (peer c : Thread nD τ) ↦[(outRows c 4).view.set]{fullShare} f) ∗ (∃ f, (outRows c 5).view.loc (peer c : Thread nD τ) ↦[(outRows c 5).view.set]{fullShare} f) ∗ (∃ f, (outRows c 6).view.loc (peer c : Thread nD τ) ↦[(outRows c 6).view.set]{fullShare} f) ∗ (∃ f, (outRows c 7).view.loc (peer c : Thread nD τ) ↦[(outRows c 7).view.set]{fullShare} f) ∗ (∃ f, (outRows c 8).view.loc (peer c : Thread nD τ) ↦[(outRows c 8).view.set]{fullShare} f) ∗ (∃ f, (outRows c 9).view.loc (peer c : Thread nD τ) ↦[(outRows c 9).view.set]{fullShare} f) ∗ (∃ f, (outRows c 10).view.loc (peer c : Thread nD τ) ↦[(outRows c 10).view.set]{fullShare} f) ∗ (∃ f, (outRows c 11).view.loc (peer c : Thread nD τ) ↦[(outRows c 11).view.set]{fullShare} f) ∗ (∃ f, (outRows c 12).view.loc (peer c : Thread nD τ) ↦[(outRows c 12).view.set]{fullShare} f) ∗ (∃ f, (outRows c 13).view.loc (peer c : Thread nD τ) ↦[(outRows c 13).view.set]{fullShare} f) ∗ (∃ f, (outRows c 14).view.loc (peer c : Thread nD τ) ↦[(outRows c 14).view.set]{fullShare} f) ∗ (∃ f, (outRows c 15).view.loc (peer c : Thread nD τ) ↦[(outRows c 15).view.set]{fullShare} f)
        ∗ reached ER (recvCell (peer c) 0) 0 ∗ reached ER (recvCell (peer c) 1) 0 ∗ reached ER (recvCell (peer c) 2) 0 ∗ reached ER (recvCell (peer c) 3) 0 ∗ reached ER (recvCell (peer c) 4) 0 ∗ reached ER (recvCell (peer c) 5) 0 ∗ reached ER (recvCell (peer c) 6) 0 ∗ reached ER (recvCell (peer c) 7) 0 ∗ reached ER (recvCell (peer c) 8) 0 ∗ reached ER (recvCell (peer c) 9) 0 ∗ reached ER (recvCell (peer c) 10) 0 ∗ reached ER (recvCell (peer c) 11) 0 ∗ reached ER (recvCell (peer c) 12) 0 ∗ reached ER (recvCell (peer c) 13) 0 ∗ reached ER (recvCell (peer c) 14) 0 ∗ reached ER (recvCell (peer c) 15) 0) :=
  (payload_bar m c d).trans (barPay_of c (peer c) rfl)

theorem payload_send' (c : Dev nD) (i : Fin 16) (d : Unit) : (a2aRd (F := F) m).payload (sendCell c i) 0 d
    = ((stSlot i).view.loc (c : Thread nD τ) ↦[(stSlot i).view.set]{fullShare} (stageVal m c)) := payload_send m c i d
theorem payload_recv' (c : Dev nD) (i : Fin 16) (d : Unit) : (a2aRd (F := F) m).payload (recvCell c i) 0 d
    = ((outRows (peer c) i).view.loc (c : Thread nD τ) ↦[(outRows (peer c) i).view.set]{fullShare} (outFinal m c)) := payload_recv m c i d

theorem xM_eq (c : Dev nD) (f : Buf (Elt F) ((c : Thread nD τ).loc main_arg0)) :
    (((c : Thread nD τ).loc main_arg0) ↦{fullShare} f : sProp 𝕄)
      = ((Memref.whole main_arg0 : Memref sig .tc .hbm S4096x2048 .f32).view.loc (c : Thread nD τ) ↦[Finset.univ]{fullShare} f) := rfl

theorem scratch_eq (c : Dev nD) : scratch (F := F) c
    = iprop((∃ f, (Memref.whole cc0_scratch0 : Memref sig .tc .vmem S2x256x2048 .f32).view.loc (c : Thread nD τ) ↦[Finset.univ]{fullShare} f)
      ∗ (∃ f, (Memref.whole cc0_scratch1 : Memref sig .tc .vmem S16x256x1024 .bf16).view.loc (c : Thread nD τ) ↦[Finset.univ]{fullShare} f)
      ∗ (∃ f, (Memref.whole cc0_scratch2 : Memref sig .tc .vmem S2x256x1024 .bf16).view.loc (c : Thread nD τ) ↦[Finset.univ]{fullShare} f)) := rfl

/-- An element of staging slot i lies in no other slot. -/
theorem stSlot_notMem {i k : Fin 16} (h : k ≠ i) {x : S16x256x1024.Idx} (hx : x ∈ (stSlot i).view.set) : x ∉ (stSlot k).view.set := by
  rw [mem_stSlot] at hx ⊢
  intro h'
  exact h (Fin.ext (h'.symm.trans hx))

/-- What the stage store of chunk i leaves on slot i, from what the input scratch held on slot s when it was loaded. -/
theorem stage_hw (c : Dev nD) (i : Fin 16) (s : Fin 2) (off : Fin 3 → Nat) (inb : ∀ a, off a + S1x256x1024.size a ≤ S2x256x2048.size a)
    (hoff : off = ![s.val, 0, 1024 - 1024 * cy c]) (g : S2x256x2048.Idx → F .f32)
    (hg : ∀ (r : Fin 256) (j : Fin 2048), g (ValueIdx.ix3 (n0 := 2) (n1 := 256) (n2 := 2048) s r j)
      = xOf m c (xIdx (256 * i.val + r.val) j.val (by have := i.isLt; have := r.isLt; omega) j.isLt))
    (f : S16x256x1024.Idx → F .bf16) (L : List (View.Piece (Elt F) S16x256x1024 .bf16))
    (h1 : S1x256x1024.ShapeCasts S256x1024) (hb : FTy.bits .bf16 < FTy.bits .f32) (h2 : S256x1024.ShapeCasts S1x256x1024) :
    ∀ x ∈ (stSlot i).view.set,
      (stM : Memref sig .tc .vmem S16x256x1024 .bf16).view.writes (Elt F) f
        (⟨Rect.unit (s := S16x256x1024) ![i.val, 0, 0] S1x256x1024.size (inb_st i),
          shapeCast S1x256x1024 (truncf .bf16 (shapeCast S256x1024
            ((xbM : Memref sig .tc .vmem S2x256x2048 .f32).view.readAt (Elt F) (Rect.unit (s := S2x256x2048) off S1x256x1024.size inb).toLoadRect g) h1) hb) h2⟩ :: L) x
        = stageVal m c x :=
  fun x hx => stage_slot_pointwise m c i f _ L (fun r j => stage_pay_at m c i s off inb hoff g hg h1 hb h2 r j) x hx

/-- Slot s of the input scratch right after chunk i's copy landed in it. -/
theorem xb_hg1 (c : Dev nD) (i : Fin 16) (s : Fin 2) (fd : S2x256x2048.Idx → F .f32) :
    ∀ (r : Fin 256) (j : Fin 2048), (xbSlot s).view.write (Elt F) fd ((xRows i).view.read (Elt F) (xOf m c)) Finset.univ (ValueIdx.ix3 (n0 := 2) (n1 := 256) (n2 := 2048) s r j)
      = xOf m c (xIdx (256 * i.val + r.val) j.val (by have := i.isLt; have := r.isLt; omega) j.isLt) :=
  fun r j => xb_copy_at i s (xOf m c) fd r j

/-- and after a later copy into the other slot. -/
theorem xb_hg2 (c : Dev nD) (i i' : Fin 16) (s s' : Fin 2) (hs : s ≠ s') (fd : S2x256x2048.Idx → F .f32) (fx' : S4096x2048.Idx → F .f32) :
    ∀ (r : Fin 256) (j : Fin 2048), (xbSlot s').view.write (Elt F) ((xbSlot s).view.write (Elt F) fd ((xRows i).view.read (Elt F) (xOf m c)) Finset.univ)
        ((xRows i').view.read (Elt F) fx') Finset.univ (ValueIdx.ix3 (n0 := 2) (n1 := 256) (n2 := 2048) s r j)
      = xOf m c (xIdx (256 * i.val + r.val) j.val (by have := i.isLt; have := r.isLt; omega) j.isLt) :=
  fun r j => (xb_copy_other i' s' s hs fx' _ r j).trans (xb_copy_at i s (xOf m c) fd r j)

/-- What the local copy of chunk i leaves on band i of c's own row block, from what the input scratch held on slot s when it was
    loaded and the local output scratch's store of it: the band's final contents. -/
theorem local_hw (c : Dev nD) (i : Fin 16) (s : Fin 2) (off : Fin 3 → Nat) (inb : ∀ a, off a + S1x256x1024.size a ≤ S2x256x2048.size a)
    (hoff : off = ![s.val, 0, 1024 * cy c]) (g : S2x256x2048.Idx → F .f32)
    (hg : ∀ (r : Fin 256) (j : Fin 2048), g (ValueIdx.ix3 (n0 := 2) (n1 := 256) (n2 := 2048) s r j)
      = xOf m c (xIdx (256 * i.val + r.val) j.val (by have := i.isLt; have := r.isLt; omega) j.isLt))
    (f2 : S2x256x1024.Idx → F .bf16) (L : List (View.Piece (Elt F) S2x256x1024 .bf16))
    (h1 : S1x256x1024.ShapeCasts S256x1024) (hb : FTy.bits .bf16 < FTy.bits .f32) (h2 : S256x1024.ShapeCasts S1x256x1024)
    (fd : S8192x1024.Idx → F .bf16) :
    ∀ x ∈ (outRows c i).view.set,
      (outRows c i).view.writes (Elt F) fd [⟨Rect.whole S256x1024,
        (lbSlot s).view.read (Elt F) ((lbM : Memref sig .tc .vmem S2x256x1024 .bf16).view.writes (Elt F) f2
          (⟨Rect.unit (s := S2x256x1024) ![s.val, 0, 0] S1x256x1024.size (inb_lb s),
            shapeCast S1x256x1024 (truncf .bf16 (shapeCast S256x1024
              ((xbM : Memref sig .tc .vmem S2x256x2048 .f32).view.readAt (Elt F) (Rect.unit (s := S2x256x2048) off S1x256x1024.size inb).toLoadRect g) h1) hb) h2⟩ :: L))⟩] x
        = outFinal m c x := by
  intro x hx
  exact (congrFun (View.write_univ_eq_writes_whole (Val := Elt F) (outRows c i).view fd [] _).symm x).trans
    (own_pointwise m c i s fd _ (fun r j => (lb_store_at s f2 _ L r j).trans (local_pay_at m c i s off inb hoff g hg h1 hb h2 r j)) x hx)

/-- info: 'Cert.KernelIdeal.A2A.stage_hw' depends on axioms: [propext, Classical.choice, Quot.sound] -/
#guard_msgs in #print axioms stage_hw

/-- info: 'Cert.KernelIdeal.A2A.local_hw' depends on axioms: [propext, Classical.choice, Quot.sound] -/
#guard_msgs in #print axioms local_hw

end Cert.KernelIdeal.A2A

end
-- ==== Proof.Exit.lean ====
/-
  What a device's body hands back, put together from its pieces: the 36 own semaphores at zero are the four local ones, the
  sixteen send ones and the sixteen receive ones; the result array whole at its final contents is its 32 bands at them.
-/
import proofs.«900623_g7700000000000624_dist_a2a_v7x_xyz2x2x2_y_m4096_n1024_bf16_1_alg».proof.Proof.Contents
import proofs.«900623_g7700000000000624_dist_a2a_v7x_xyz2x2x2_y_m4096_n1024_bf16_1_alg».proof.Proof.Owed
import Mathlib.Logic.Equiv.Fin.Basic

noncomputable section

namespace Cert.KernelIdeal.A2A

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A conjunction over a + b indices is the one over the first a and the one over the last b. -/
theorem sep_fin_add {a b : ℕ} (Φ : Fin (a + b) → sProp 𝕄) :
    bigSep Finset.univ Φ = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

theorem sep_assoc_eq' (A B C : sProp 𝕄) : iprop((A ∗ B) ∗ C) = iprop(A ∗ B ∗ C) := by
  refine BI.Entails.antisymm (show _ ⊢ (_ : sProp 𝕄) from ?_) (show _ ⊢ (_ : sProp 𝕄) from ?_)
  · iintro ⟨⟨H1, H2⟩, H3⟩
    isplitl [H1]; · iexact H1
    isplitl [H2] <;> iassumption
  · iintro ⟨H1, H2, H3⟩
    isplitr [H3]
    · isplitl [H1] <;> iassumption
    · iexact H3

/-- The 36 own DMA semaphores by kind: local (0 to 3), send (4 + i), receive (20 + i). -/
abbrev oL (k : Fin 4) : Fin 36 := ⟨k.val, by have := k.isLt; omega⟩
abbrev oS (i : Fin 16) : Fin 36 := ⟨4 + i.val, by have := i.isLt; omega⟩
abbrev oR (i : Fin 16) : Fin 36 := ⟨20 + i.val, by have := i.isLt; omega⟩

theorem sep_fin36 (Φ : Fin 36 → sProp 𝕄) :
    bigSep Finset.univ Φ = iprop((bigSep Finset.univ fun k : Fin 4 => Φ (oL k)) ∗ (bigSep Finset.univ fun i : Fin 16 => Φ (oS i)) ∗ bigSep Finset.univ fun i : Fin 16 => Φ (oR i)) := by
  rw [sep_fin_add (a := 20) (b := 16) Φ, sep_fin_add (a := 4) (b := 16), sep_assoc_eq']
  rfl

theorem osem_oS (i : Fin 16) : osem (oS i) = SemLoc.dma (sendS i).sem := congrArg SemLoc.dma (Fin.ext (sendS_val i).symm)
theorem osem_oR (i : Fin 16) : osem (oR i) = SemLoc.dma (recvS i).sem := congrArg SemLoc.dma (Fin.ext (recvS_val i).symm)

/-- All 36 own counters at zero: the four local ones, the sixteen send cells', the sixteen receive cells'. -/
theorem ownSems0_parts (c : Dev nD) :
    (Pipeline.ownSems0 (Ix := Unit) (Name := ℕ) (U := UU) (Lvl := ℕ) (Val := Elt F) (τ := τ) osem c : sProp 𝕄)
      = iprop(localSems0 c ∗ (bigSep Finset.univ fun i : Fin 16 => semVal (sendCell c i) 0) ∗ bigSep Finset.univ fun i : Fin 16 => semVal (recvCell c i) 0) := by
  unfold Pipeline.ownSems0 localSems0
  rw [sep_fin36 fun k => semVal ((c : Thread nD τ), osem k) 0,
    bigSep_congr (s := Finset.univ) (fun (i : Fin 16) _ => congrArg (fun sm => (semVal ((c : Thread nD τ), sm) 0 : sProp 𝕄)) (osem_oS i)),
    bigSep_congr (s := Finset.univ) (fun (i : Fin 16) _ => congrArg (fun sm => (semVal ((c : Thread nD τ), sm) 0 : sProp 𝕄)) (osem_oR i))]

/-- The body's last step: the argument array as launched, the 32 bands of the result array at their final contents, every
    own counter at zero and the scratch buffers whole are what the pipeline's invariant holds after the one point. -/
theorem phi1_intro (c : Dev nD) :
    iprop((((c : Thread nD τ).loc main_arg0) ↦{fullShare} m ((c : Thread nD τ).loc main_arg0))
        ∗ (bigSep Finset.univ fun i : Fin 16 => ((outRows c i).view.loc (c : Thread nD τ) ↦[(outRows c i).view.set]{fullShare} (outFinal m c) : sProp 𝕄))
        ∗ (bigSep Finset.univ fun i : Fin 16 => ((outRows (peer c) i).view.loc (c : Thread nD τ) ↦[(outRows (peer c) i).view.set]{fullShare} (outFinal m c) : sProp 𝕄))
        ∗ localSems0 c
        ∗ (bigSep Finset.univ fun i : Fin 16 => semVal (sendCell c i) 0)
        ∗ (bigSep Finset.univ fun i : Fin 16 => semVal (recvCell c i) 0)
        ∗ scratch c)
      ⊢ Φ₁ m c := by
  unfold Φ₁ arrs1
  rw [ownSems0_parts, out_split c (outFinal m c)]
  iintro ⟨Hx, Ho, Hp, HL, HS, HR, Hsc⟩
  isplitl [Hx Ho Hp]
  · isplitl [Hx]; · iexact Hx
    isplitl [Ho] <;> iassumption
  isplitl [HL HS HR]
  · isplitl [HL]; · iexact HL
    isplitl [HS] <;> iassumption
  iexact Hsc

/-- info: 'Cert.KernelIdeal.A2A.phi1_intro' depends on axioms: [propext, Classical.choice, Quot.sound] -/
#guard_msgs in #print axioms phi1_intro

end Cert.KernelIdeal.A2A

end
-- ==== Proof.BodyEnd.lean ====
/-
  The body's last step, by itself: from what a device holds right after its last wait (its thirty-two protocol cells each with its
  one round consumed, the argument array as launched, the thirty-two bands of its result array at their final contents, the four
  local counters at zero, the staging slots back at what was staged, the two other scratch buffers, nothing owed) the cells close
  and the pipeline's invariant after the one point holds.
-/
import proofs.«900623_g7700000000000624_dist_a2a_v7x_xyz2x2x2_y_m4096_n1024_bf16_1_alg».proof.Proof.Rules
import proofs.«900623_g7700000000000624_dist_a2a_v7x_xyz2x2x2_y_m4096_n1024_bf16_1_alg».proof.Proof.Owed
import proofs.«900623_g7700000000000624_dist_a2a_v7x_xyz2x2x2_y_m4096_n1024_bf16_1_alg».proof.Proof.BodyFacts
import proofs.«900623_g7700000000000624_dist_a2a_v7x_xyz2x2x2_y_m4096_n1024_bf16_1_alg».proof.Proof.Exit

noncomputable section

namespace Cert.KernelIdeal.A2A

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

/-- What device c holds right after its last wait. -/
def endState (c : Dev nD) (W : Waits sig Unit) : sProp 𝕄 :=
  iprop((bigSep Finset.univ fun i : Fin 16 => iprop(cellInv ER (a2aRd m) (K (c, kS i)) (sendCell c i) ∗ atPos ER (sendCell c i) 1 ∅ 0))
    ∗ (bigSep Finset.univ fun i : Fin 16 => iprop(cellInv ER (a2aRd m) (K (c, kR i)) (recvCell c i) ∗ atPos ER (recvCell c i) 1 ∅ 0))
    ∗ (((c : Thread nD τ).loc main_arg0) ↦{fullShare} m ((c : Thread nD τ).loc main_arg0))
    ∗ (bigSep Finset.univ fun i : Fin 16 => ((outRows c i).view.loc (c : Thread nD τ) ↦[(outRows c i).view.set]{fullShare} (outFinal m c) : sProp 𝕄))
    ∗ (bigSep Finset.univ fun i : Fin 16 => recvPay m c i)
    ∗ localSems0 c
    ∗ (∃ f : Buf (Elt F) ((c : Thread nD τ).loc cc0_scratch0), ((c : Thread nD τ).loc cc0_scratch0) ↦{fullShare} f)
    ∗ (bigSep Finset.univ fun i : Fin 16 => sendPay m c i)
    ∗ (∃ f : Buf (Elt F) ((c : Thread nD τ).loc cc0_scratch2), ((c : Thread nD τ).loc cc0_scratch2) ↦{fullShare} f)
    ∗ owes (c : Thread nD τ) 0 W)

/-- The cells close and the invariant after the one point holds, nothing owed. -/
theorem endgame (c : Dev nD) (W : Waits sig Unit) :
    endState m K c W ⊢ (|={Set.univ}=> iprop(Φ₁ m c ∗ (dats m 0 c).owesAt () t₀.succ) : sProp 𝕄) := by
  unfold endState
  iintro ⟨P1, P2, P3, P4, P5, P6, P7, P8, P9, P10⟩
  have hS : (bigSep Finset.univ fun i : Fin 16 => iprop(cellInv ER (a2aRd m) (K (c, kS i)) (sendCell c i) ∗ atPos ER (sendCell c i) 1 ∅ 0) : sProp 𝕄)
      ⊢ |={Set.univ}=> bigSep Finset.univ fun i : Fin 16 => semVal (sendCell c i) 0 :=
    (bigSep_mono fun i _ => close_send m K c i).trans (bigSep_fupd _ _)
  have hR : (bigSep Finset.univ fun i : Fin 16 => iprop(cellInv ER (a2aRd m) (K (c, kR i)) (recvCell c i) ∗ atPos ER (recvCell c i) 1 ∅ 0) : sProp 𝕄)
      ⊢ |={Set.univ}=> bigSep Finset.univ fun i : Fin 16 => semVal (recvCell c i) 0 :=
    (bigSep_mono fun i _ => close_recv m K c i).trans (bigSep_fupd _ _)
  imod (hS) $$ [P1] with Zs
  · iexact P1
  imod (hR) $$ [P2] with Zr
  · iexact P2
  imodintro
  isplitr [P10]
  · iapply (phi1_intro m c)
    isplitl [P3]; · iexact P3
    isplitl [P4]; · iexact P4
    isplitl [P5]; · iexact P5
    isplitl [P6]; · iexact P6
    isplitl [Zs]; · iexact Zs
    isplitl [Zr]; · iexact Zr
    unfold scratch
    isplitl [P7]; · iexact P7
    isplitl [P8]
    · iexists (stageVal m c)
      rw [stage_split c (stageVal m c)]
      iexact P8
    iexact P9
  · iexists W
    isplitr; · ipureintro; exact fun _ _ => Or.inl trivial
    iexact P10

/-- info: 'Cert.KernelIdeal.A2A.endgame' depends on axioms: [propext, Classical.choice, Quot.sound] -/
#guard_msgs in #print axioms endgame

end Cert.KernelIdeal.A2A

end
-- ==== Proof.Body.lean ====
/-
  One device's body: from what the launch routes in (the protocol's ghost state, the launch credit, the two arrays as
  launched, the scratch buffers at any contents) the body runs to its return, nothing faulting, and hands back the
  argument array unchanged, the result array at Spec.outFinal, every own semaphore at zero and nothing owed.

  The result array is cut into its thirty-two bands of 256 rows at entry: the sixteen of the peer's row block go to the peer
  with the entry signal, the sixteen of the device's own row block are the local copies' destinations.  Each of the sixteen
  chunks then goes the same way: the input copy is awaited, the peer's columns are narrowed into the chunk's staging slot,
  the slot (restated at what it holds, Spec's stageVal) goes to the peer's band by the transfer, the device's own columns are
  narrowed into a local output slot and copied to its own band, the next input copy is started.  After the last chunk the
  local copies and the thirty-two protocol cells are awaited and closed, and the bands, each at its final contents, are the
  result array again.
-/
import proofs.«900623_g7700000000000624_dist_a2a_v7x_xyz2x2x2_y_m4096_n1024_bf16_1_alg».proof.Proof.Sched
import proofs.«900623_g7700000000000624_dist_a2a_v7x_xyz2x2x2_y_m4096_n1024_bf16_1_alg».proof.Proof.Gen.KernelIdeal.Points
import proofs.«900623_g7700000000000624_dist_a2a_v7x_xyz2x2x2_y_m4096_n1024_bf16_1_alg».proof.Proof.Rules
import proofs.«900623_g7700000000000624_dist_a2a_v7x_xyz2x2x2_y_m4096_n1024_bf16_1_alg».proof.Proof.Owed
import proofs.«900623_g7700000000000624_dist_a2a_v7x_xyz2x2x2_y_m4096_n1024_bf16_1_alg».proof.Proof.BodyFacts
import proofs.«900623_g7700000000000624_dist_a2a_v7x_xyz2x2x2_y_m4096_n1024_bf16_1_alg».proof.Proof.Exit
import proofs.«900623_g7700000000000624_dist_a2a_v7x_xyz2x2x2_y_m4096_n1024_bf16_1_alg».proof.Proof.BodyEnd

noncomputable section

namespace Cert.KernelIdeal.A2A

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_send duties_recv amount_bar amount_send amount_recv expect_bar expect_send expect_recv
  payload_bar_own payload_send' payload_recv'
attribute [local sl_canon] dev1_eq dev2_eq dev3_eq dev4_eq dev5_eq dev6_eq dev7_eq dev8_eq dev9_eq dev10_eq dev11_eq dev12_eq dev13_eq dev14_eq dev15_eq dev16_eq dev17_eq

set_option maxHeartbeats 20000000 in
/-- The body on device c. -/
theorem sound_body (c : Dev nD) :
    iprop(Φ₀ m c ∗ (dats m 0 c).owesAt () t₀.castSucc)
      ⊢ wp frame (wpE (defs₀ (F := F)) 𝒱₀ c none) Set.univ (bodyAt0 (F := F) t₀)
          (fun _ => iprop(Φ₁ m c ∗ (dats m 0 c).owesAt () t₀.succ)) := by
  unfold Φ₀ start ghost invs creds localSems0
  simp only [bigSep_fin16, bigSep_fin4]
  unfold arrs0
  rw [show (dats m 0 c).owesAt () t₀.castSucc = Pipeline.owesWithin c (O₀ c) ((dats m 0 c).bound () t₀.castSucc) from rfl, O₀_eq]
  rw [scratch_eq, xM_eq c, out_split c (m ((c : Thread nD τ).loc main_v1)), bigSep_fin16, bigSep_fin16]
  iintro ⟨⟨⟨⟨%K, ⟨#Ib, #Ibp, ⟨#Is0, #Is1, #Is2, #Is3, #Is4, #Is5, #Is6, #Is7, #Is8, #Is9, #Is10, #Is11, #Is12, #Is13, #Is14, #Is15⟩, ⟨#Ir0, #Ir1, #Ir2, #Ir3, #Ir4, #Ir5, #Ir6, #Ir7, #Ir8, #Ir9, #Ir10, #Ir11, #Ir12, #Ir13, #Ir14, #Ir15⟩, ⟨#Ip0, #Ip1, #Ip2, #Ip3, #Ip4, #Ip5, #Ip6, #Ip7, #Ip8, #Ip9, #Ip10, #Ip11, #Ip12, #Ip13, #Ip14, #Ip15⟩⟩, Hab, ⟨Has0, Has1, Has2, Has3, Has4, Has5, Has6, Has7, Has8, Has9, Has10, Has11, Has12, Has13, Has14, Has15⟩, ⟨Har0, Har1, Har2, Har3, Har4, Har5, Har6, Har7, Har8, Har9, Har10, Har11, Har12, Har13, Har14, Har15⟩, #Rbp, ⟨#Rs0, #Rs1, #Rs2, #Rs3, #Rs4, #Rs5, #Rs6, #Rs7, #Rs8, #Rs9, #Rs10, #Rs11, #Rs12, #Rs13, #Rs14, #Rs15⟩, ⟨#Rr0, #Rr1, #Rr2, #Rr3, #Rr4, #Rr5, #Rr6, #Rr7, #Rr8, #Rr9, #Rr10, #Rr11, #Rr12, #Rr13, #Rr14, #Rr15⟩, Tbp, Ts, ⟨Tp0, Tp1, Tp2, Tp3, Tp4, Tp5, Tp6, Tp7, Tp8, Tp9, Tp10, Tp11, Tp12, Tp13, Tp14, Tp15⟩⟩, ⟨Cb, Cr0, Cr1, Cr2, Cr3, Cr4, Cr5, Cr6, Cr7, Cr8, Cr9, Cr10, Cr11, Cr12, Cr13, Cr14, Cr15⟩, ⟨L0, L1, L2, L3⟩, #Hlev, Hx, ⟨Bo0, Bo1, Bo2, Bo3, Bo4, Bo5, Bo6, Bo7, Bo8, Bo9, Bo10, Bo11, Bo12, Bo13, Bo14, Bo15⟩, ⟨Bp0, Bp1, Bp2, Bp3, Bp4, Bp5, Bp6, Bp7, Bp8, Bp9, Bp10, Bp11, Bp12, Bp13, Bp14, Bp15⟩⟩, ⟨%f0, S0⟩, ⟨%f1, S1⟩, ⟨%f2, S2⟩⟩, ⟨%W, %hW, HO⟩⟩
  have hmwb : (levAts L lv : sProp 𝕄) ⊢ MayWait (c : Thread nD τ) (.reg barS) () (owedFrom c 0) := by
    rw [owedFrom_zero]; exact mayWait_bar c
  have hlow : ∀ (q : DmaSem sig) (hq : ¬ IsRecvQ q) (j : ℕ), (levAts L lv : sProp 𝕄) ⊢ MayWait (c : Thread nD τ) (.dma q) () (owedFrom c j) :=
    fun q hq j => mayWait_low_sum c q hq _
  unfold bodyAt0
  sl_unfold [cc0_body]
  set_option sl_exec.dmaWindow true in
  sl_exec (disch := first | decide | simp only [dev1_eq])
  iapply (wp_signal_peer m K c (peer c) rfl (k' := (1#32).toNat) rfl (owedFrom c 0) W) $$ [HO Tbp Bp0 Bp1 Bp2 Bp3 Bp4 Bp5 Bp6 Bp7 Bp8 Bp9 Bp10 Bp11 Bp12 Bp13 Bp14 Bp15]
  · isplitr; · iexact Ibp
    isplitl [HO]; · iexact HO
    isplitl [Tbp]; · iexact Tbp
    isplitr []
    · rw [barPay_of (peer c) c (peer_peer c)]
      isplitl [Bp0]; · iexists _; iexact Bp0
      isplitl [Bp1]; · iexists _; iexact Bp1
      isplitl [Bp2]; · iexists _; iexact Bp2
      isplitl [Bp3]; · iexists _; iexact Bp3
      isplitl [Bp4]; · iexists _; iexact Bp4
      isplitl [Bp5]; · iexists _; iexact Bp5
      isplitl [Bp6]; · iexists _; iexact Bp6
      isplitl [Bp7]; · iexists _; iexact Bp7
      isplitl [Bp8]; · iexists _; iexact Bp8
      isplitl [Bp9]; · iexists _; iexact Bp9
      isplitl [Bp10]; · iexists _; iexact Bp10
      isplitl [Bp11]; · iexists _; iexact Bp11
      isplitl [Bp12]; · iexists _; iexact Bp12
      isplitl [Bp13]; · iexists _; iexact Bp13
      isplitl [Bp14]; · iexists _; iexact Bp14
      isplitl [Bp15]; · iexists _; iexact Bp15
      isplitr; · iexact Rr0
      isplitr; · iexact Rr1
      isplitr; · iexact Rr2
      isplitr; · iexact Rr3
      isplitr; · iexact Rr4
      isplitr; · iexact Rr5
      isplitr; · iexact Rr6
      isplitr; · iexact Rr7
      isplitr; · iexact Rr8
      isplitr; · iexact Rr9
      isplitr; · iexact Rr10
      isplitr; · iexact Rr11
      isplitr; · iexact Rr12
      isplitr; · iexact Rr13
      isplitr; · iexact Rr14
      iexact Rr15
    · iexact Rbp
  iintro HO
  set_option sl_exec.dmaWindow true in
  sl_exec (disch := first | decide | simp only [dev2_eq])
  -- transfer 0
  icases Ts with ⟨Ts0, Ts⟩
  ihave Hs := (pointsTo_split_subset (I := (stSlot 0).view.set) (S := Finset.univ) (Finset.subset_univ _)).1 $$ S1
  icases Hs with ⟨S1a, S1⟩
  rw [show owedFrom c 0 = owedFrom c 1 + tallyAt (recvCell (peer c) 0) () N from owedFrom_step c 0]
  iapply (wp_send_chunk m K c (peer c) rfl 0 Hab_pay1_v (owedFrom c 1) _ (amount_out c 0) (recv_restate m c 0 Hab_pay1_v)) $$ [S1a Hab_pay1 HO Ts0 Tp0 Hab_pay17]
  · isplitr; · iexact Is0
    isplitr; · iexact Ip0
    isplitl [S1a]
    · iapply (Entails.of_eq (pointsTo_congr (ℓ := (stSlot 0).view.loc (c : Thread nD τ)) (I := (stSlot 0).view.set) (q := fullShare) (g := stageVal m c) ?_))
      rotate_left
      · iexact S1a
      · exact stage_hw m c 0 0 (k0_off1 c) (k0_off1_inb c) (k0_off1_eq c) _ (xb_hg2 m c 0 1 0 1 (by decide) _ _) f1 _ _ _ _
    isplitl [Hab_pay1]; · iexact Hab_pay1
    isplitl [HO]; · iexact HO
    isplitl [Ts0]; · iexact Ts0
    isplitr; · iexact Rs0
    isplitl [Tp0]; · iexact Tp0
    iexact Hab_pay17
  iintro ⟨Cs0, HO⟩
  set_option sl_exec.dmaWindow true in
  sl_exec (disch := first | decide | simp only [dev3_eq])
  -- transfer 1
  icases Ts with ⟨Ts1, Ts⟩
  ihave Hs := (pointsTo_split_subset (I := (stSlot 1).view.set) (S := (Finset.univ \ (stSlot 0).view.set)) (fun x hx => Finset.mem_sdiff.mpr ⟨Finset.mem_univ _, stSlot_notMem (k := 0) (by decide) hx⟩)).1 $$ S1
  icases Hs with ⟨S1a, S1⟩
  rw [show owedFrom c 1 = owedFrom c 2 + tallyAt (recvCell (peer c) 1) () N from owedFrom_step c 1]
  iapply (wp_send_chunk m K c (peer c) rfl 1 Hab_pay2_v (owedFrom c 2) _ (amount_out c 1) (recv_restate m c 1 Hab_pay2_v)) $$ [S1a Hab_pay2 HO Ts1 Tp1 Hab_pay18]
  · isplitr; · iexact Is1
    isplitr; · iexact Ip1
    isplitl [S1a]
    · iapply (Entails.of_eq (pointsTo_congr (ℓ := (stSlot 1).view.loc (c : Thread nD τ)) (I := (stSlot 1).view.set) (q := fullShare) (g := stageVal m c) ?_))
      rotate_left
      · iexact S1a
      · exact stage_hw m c 1 1 (k0_off4 c) (k0_off4_inb c) (k0_off4_eq c) _ (xb_hg2 m c 1 2 1 0 (by decide) _ _) f1 _ _ _ _
    isplitl [Hab_pay2]; · iexact Hab_pay2
    isplitl [HO]; · iexact HO
    isplitl [Ts1]; · iexact Ts1
    isplitr; · iexact Rs1
    isplitl [Tp1]; · iexact Tp1
    iexact Hab_pay18
  iintro ⟨Cs1, HO⟩
  set_option sl_exec.dmaWindow true in
  sl_exec (disch := first | decide | simp only [dev4_eq])
  -- transfer 2
  icases Ts with ⟨Ts2, Ts⟩
  ihave Hs := (pointsTo_split_subset (I := (stSlot 2).view.set) (S := ((Finset.univ \ (stSlot 0).view.set) \ (stSlot 1).view.set)) (fun x hx => Finset.mem_sdiff.mpr ⟨Finset.mem_sdiff.mpr ⟨Finset.mem_univ _, stSlot_notMem (k := 0) (by decide) hx⟩, stSlot_notMem (k := 1) (by decide) hx⟩)).1 $$ S1
  icases Hs with ⟨S1a, S1⟩
  rw [show owedFrom c 2 = owedFrom c 3 + tallyAt (recvCell (peer c) 2) () N from owedFrom_step c 2]
  iapply (wp_send_chunk m K c (peer c) rfl 2 Hab_pay3_v (owedFrom c 3) _ (amount_out c 2) (recv_restate m c 2 Hab_pay3_v)) $$ [S1a Hab_pay3 HO Ts2 Tp2 Hab_pay19]
  · isplitr; · iexact Is2
    isplitr; · iexact Ip2
    isplitl [S1a]
    · iapply (Entails.of_eq (pointsTo_congr (ℓ := (stSlot 2).view.loc (c : Thread nD τ)) (I := (stSlot 2).view.set) (q := fullShare) (g := stageVal m c) ?_))
      rotate_left
      · iexact S1a
      · exact stage_hw m c 2 0 (k0_off1 c) (k0_off1_inb c) (k0_off1_eq c) _ (xb_hg2 m c 2 3 0 1 (by decide) _ _) f1 _ _ _ _
    isplitl [Hab_pay3]; · iexact Hab_pay3
    isplitl [HO]; · iexact HO
    isplitl [Ts2]; · iexact Ts2
    isplitr; · iexact Rs2
    isplitl [Tp2]; · iexact Tp2
    iexact Hab_pay19
  iintro ⟨Cs2, HO⟩
  set_option sl_exec.dmaWindow true in
  sl_exec (disch := first | decide | simp only [dev5_eq])
  -- transfer 3
  icases Ts with ⟨Ts3, Ts⟩
  ihave Hs := (pointsTo_split_subset (I := (stSlot 3).view.set) (S := (((Finset.univ \ (stSlot 0).view.set) \ (stSlot 1).view.set) \ (stSlot 2).view.set)) (fun x hx => Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩)).1 $$ S1
  icases Hs with ⟨S1a, S1⟩
  rw [show owedFrom c 3 = owedFrom c 4 + tallyAt (recvCell (peer c) 3) () N from owedFrom_step c 3]
  iapply (wp_send_chunk m K c (peer c) rfl 3 Hab_pay4_v (owedFrom c 4) _ (amount_out c 3) (recv_restate m c 3 Hab_pay4_v)) $$ [S1a Hab_pay4 HO Ts3 Tp3 Hab_pay20]
  · isplitr; · iexact Is3
    isplitr; · iexact Ip3
    isplitl [S1a]
    · iapply (Entails.of_eq (pointsTo_congr (ℓ := (stSlot 3).view.loc (c : Thread nD τ)) (I := (stSlot 3).view.set) (q := fullShare) (g := stageVal m c) ?_))
      rotate_left
      · iexact S1a
      · exact stage_hw m c 3 1 (k0_off4 c) (k0_off4_inb c) (k0_off4_eq c) _ (xb_hg2 m c 3 4 1 0 (by decide) _ _) f1 _ _ _ _
    isplitl [Hab_pay4]; · iexact Hab_pay4
    isplitl [HO]; · iexact HO
    isplitl [Ts3]; · iexact Ts3
    isplitr; · iexact Rs3
    isplitl [Tp3]; · iexact Tp3
    iexact Hab_pay20
  iintro ⟨Cs3, HO⟩
  set_option sl_exec.dmaWindow true in
  sl_exec (disch := first | decide | simp only [dev6_eq])
  -- transfer 4
  icases Ts with ⟨Ts4, Ts⟩
  ihave Hs := (pointsTo_split_subset (I := (stSlot 4).view.set) (S := ((((Finset.univ \ (stSlot 0).view.set) \ (stSlot 1).view.set) \ (stSlot 2).view.set) \ (stSlot 3).view.set)) (fun x hx => Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩)).1 $$ S1
  icases Hs with ⟨S1a, S1⟩
  rw [show owedFrom c 4 = owedFrom c 5 + tallyAt (recvCell (peer c) 4) () N from owedFrom_step c 4]
  iapply (wp_send_chunk m K c (peer c) rfl 4 Hab_pay5_v (owedFrom c 5) _ (amount_out c 4) (recv_restate m c 4 Hab_pay5_v)) $$ [S1a Hab_pay5 HO Ts4 Tp4 Hab_pay21]
  · isplitr; · iexact Is4
    isplitr; · iexact Ip4
    isplitl [S1a]
    · iapply (Entails.of_eq (pointsTo_congr (ℓ := (stSlot 4).view.loc (c : Thread nD τ)) (I := (stSlot 4).view.set) (q := fullShare) (g := stageVal m c) ?_))
      rotate_left
      · iexact S1a
      · exact stage_hw m c 4 0 (k0_off1 c) (k0_off1_inb c) (k0_off1_eq c) _ (xb_hg2 m c 4 5 0 1 (by decide) _ _) f1 _ _ _ _
    isplitl [Hab_pay5]; · iexact Hab_pay5
    isplitl [HO]; · iexact HO
    isplitl [Ts4]; · iexact Ts4
    isplitr; · iexact Rs4
    isplitl [Tp4]; · iexact Tp4
    iexact Hab_pay21
  iintro ⟨Cs4, HO⟩
  set_option sl_exec.dmaWindow true in
  sl_exec (disch := first | decide | simp only [dev7_eq])
  -- transfer 5
  icases Ts with ⟨Ts5, Ts⟩
  ihave Hs := (pointsTo_split_subset (I := (stSlot 5).view.set) (S := (((((Finset.univ \ (stSlot 0).view.set) \ (stSlot 1).view.set) \ (stSlot 2).view.set) \ (stSlot 3).view.set) \ (stSlot 4).view.set)) (fun x hx => Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩)).1 $$ S1
  icases Hs with ⟨S1a, S1⟩
  rw [show owedFrom c 5 = owedFrom c 6 + tallyAt (recvCell (peer c) 5) () N from owedFrom_step c 5]
  iapply (wp_send_chunk m K c (peer c) rfl 5 Hab_pay6_v (owedFrom c 6) _ (amount_out c 5) (recv_restate m c 5 Hab_pay6_v)) $$ [S1a Hab_pay6 HO Ts5 Tp5 Hab_pay22]
  · isplitr; · iexact Is5
    isplitr; · iexact Ip5
    isplitl [S1a]
    · iapply (Entails.of_eq (pointsTo_congr (ℓ := (stSlot 5).view.loc (c : Thread nD τ)) (I := (stSlot 5).view.set) (q := fullShare) (g := stageVal m c) ?_))
      rotate_left
      · iexact S1a
      · exact stage_hw m c 5 1 (k0_off4 c) (k0_off4_inb c) (k0_off4_eq c) _ (xb_hg2 m c 5 6 1 0 (by decide) _ _) f1 _ _ _ _
    isplitl [Hab_pay6]; · iexact Hab_pay6
    isplitl [HO]; · iexact HO
    isplitl [Ts5]; · iexact Ts5
    isplitr; · iexact Rs5
    isplitl [Tp5]; · iexact Tp5
    iexact Hab_pay22
  iintro ⟨Cs5, HO⟩
  set_option sl_exec.dmaWindow true in
  sl_exec (disch := first | decide | simp only [dev8_eq])
  -- transfer 6
  icases Ts with ⟨Ts6, Ts⟩
  ihave Hs := (pointsTo_split_subset (I := (stSlot 6).view.set) (S := ((((((Finset.univ \ (stSlot 0).view.set) \ (stSlot 1).view.set) \ (stSlot 2).view.set) \ (stSlot 3).view.set) \ (stSlot 4).view.set) \ (stSlot 5).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩)).1 $$ S1
  icases Hs with ⟨S1a, S1⟩
  rw [show owedFrom c 6 = owedFrom c 7 + tallyAt (recvCell (peer c) 6) () N from owedFrom_step c 6]
  iapply (wp_send_chunk m K c (peer c) rfl 6 Hab_pay7_v (owedFrom c 7) _ (amount_out c 6) (recv_restate m c 6 Hab_pay7_v)) $$ [S1a Hab_pay7 HO Ts6 Tp6 Hab_pay23]
  · isplitr; · iexact Is6
    isplitr; · iexact Ip6
    isplitl [S1a]
    · iapply (Entails.of_eq (pointsTo_congr (ℓ := (stSlot 6).view.loc (c : Thread nD τ)) (I := (stSlot 6).view.set) (q := fullShare) (g := stageVal m c) ?_))
      rotate_left
      · iexact S1a
      · exact stage_hw m c 6 0 (k0_off1 c) (k0_off1_inb c) (k0_off1_eq c) _ (xb_hg2 m c 6 7 0 1 (by decide) _ _) f1 _ _ _ _
    isplitl [Hab_pay7]; · iexact Hab_pay7
    isplitl [HO]; · iexact HO
    isplitl [Ts6]; · iexact Ts6
    isplitr; · iexact Rs6
    isplitl [Tp6]; · iexact Tp6
    iexact Hab_pay23
  iintro ⟨Cs6, HO⟩
  set_option sl_exec.dmaWindow true in
  sl_exec (disch := first | decide | simp only [dev9_eq])
  -- transfer 7
  icases Ts with ⟨Ts7, Ts⟩
  ihave Hs := (pointsTo_split_subset (I := (stSlot 7).view.set) (S := (((((((Finset.univ \ (stSlot 0).view.set) \ (stSlot 1).view.set) \ (stSlot 2).view.set) \ (stSlot 3).view.set) \ (stSlot 4).view.set) \ (stSlot 5).view.set) \ (stSlot 6).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩)).1 $$ S1
  icases Hs with ⟨S1a, S1⟩
  rw [show owedFrom c 7 = owedFrom c 8 + tallyAt (recvCell (peer c) 7) () N from owedFrom_step c 7]
  iapply (wp_send_chunk m K c (peer c) rfl 7 Hab_pay8_v (owedFrom c 8) _ (amount_out c 7) (recv_restate m c 7 Hab_pay8_v)) $$ [S1a Hab_pay8 HO Ts7 Tp7 Hab_pay24]
  · isplitr; · iexact Is7
    isplitr; · iexact Ip7
    isplitl [S1a]
    · iapply (Entails.of_eq (pointsTo_congr (ℓ := (stSlot 7).view.loc (c : Thread nD τ)) (I := (stSlot 7).view.set) (q := fullShare) (g := stageVal m c) ?_))
      rotate_left
      · iexact S1a
      · exact stage_hw m c 7 1 (k0_off4 c) (k0_off4_inb c) (k0_off4_eq c) _ (xb_hg2 m c 7 8 1 0 (by decide) _ _) f1 _ _ _ _
    isplitl [Hab_pay8]; · iexact Hab_pay8
    isplitl [HO]; · iexact HO
    isplitl [Ts7]; · iexact Ts7
    isplitr; · iexact Rs7
    isplitl [Tp7]; · iexact Tp7
    iexact Hab_pay24
  iintro ⟨Cs7, HO⟩
  set_option sl_exec.dmaWindow true in
  sl_exec (disch := first | decide | simp only [dev10_eq])
  -- transfer 8
  icases Ts with ⟨Ts8, Ts⟩
  ihave Hs := (pointsTo_split_subset (I := (stSlot 8).view.set) (S := ((((((((Finset.univ \ (stSlot 0).view.set) \ (stSlot 1).view.set) \ (stSlot 2).view.set) \ (stSlot 3).view.set) \ (stSlot 4).view.set) \ (stSlot 5).view.set) \ (stSlot 6).view.set) \ (stSlot 7).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩)).1 $$ S1
  icases Hs with ⟨S1a, S1⟩
  rw [show owedFrom c 8 = owedFrom c 9 + tallyAt (recvCell (peer c) 8) () N from owedFrom_step c 8]
  iapply (wp_send_chunk m K c (peer c) rfl 8 Hab_pay9_v (owedFrom c 9) _ (amount_out c 8) (recv_restate m c 8 Hab_pay9_v)) $$ [S1a Hab_pay9 HO Ts8 Tp8 Hab_pay25]
  · isplitr; · iexact Is8
    isplitr; · iexact Ip8
    isplitl [S1a]
    · iapply (Entails.of_eq (pointsTo_congr (ℓ := (stSlot 8).view.loc (c : Thread nD τ)) (I := (stSlot 8).view.set) (q := fullShare) (g := stageVal m c) ?_))
      rotate_left
      · iexact S1a
      · exact stage_hw m c 8 0 (k0_off1 c) (k0_off1_inb c) (k0_off1_eq c) _ (xb_hg2 m c 8 9 0 1 (by decide) _ _) f1 _ _ _ _
    isplitl [Hab_pay9]; · iexact Hab_pay9
    isplitl [HO]; · iexact HO
    isplitl [Ts8]; · iexact Ts8
    isplitr; · iexact Rs8
    isplitl [Tp8]; · iexact Tp8
    iexact Hab_pay25
  iintro ⟨Cs8, HO⟩
  set_option sl_exec.dmaWindow true in
  sl_exec (disch := first | decide | simp only [dev11_eq])
  -- transfer 9
  icases Ts with ⟨Ts9, Ts⟩
  ihave Hs := (pointsTo_split_subset (I := (stSlot 9).view.set) (S := (((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩)).1 $$ S1
  icases Hs with ⟨S1a, S1⟩
  rw [show owedFrom c 9 = owedFrom c 10 + tallyAt (recvCell (peer c) 9) () N from owedFrom_step c 9]
  iapply (wp_send_chunk m K c (peer c) rfl 9 Hab_pay10_v (owedFrom c 10) _ (amount_out c 9) (recv_restate m c 9 Hab_pay10_v)) $$ [S1a Hab_pay10 HO Ts9 Tp9 Hab_pay26]
  · isplitr; · iexact Is9
    isplitr; · iexact Ip9
    isplitl [S1a]
    · iapply (Entails.of_eq (pointsTo_congr (ℓ := (stSlot 9).view.loc (c : Thread nD τ)) (I := (stSlot 9).view.set) (q := fullShare) (g := stageVal m c) ?_))
      rotate_left
      · iexact S1a
      · exact stage_hw m c 9 1 (k0_off4 c) (k0_off4_inb c) (k0_off4_eq c) _ (xb_hg2 m c 9 10 1 0 (by decide) _ _) f1 _ _ _ _
    isplitl [Hab_pay10]; · iexact Hab_pay10
    isplitl [HO]; · iexact HO
    isplitl [Ts9]; · iexact Ts9
    isplitr; · iexact Rs9
    isplitl [Tp9]; · iexact Tp9
    iexact Hab_pay26
  iintro ⟨Cs9, HO⟩
  set_option sl_exec.dmaWindow true in
  sl_exec (disch := first | decide | simp only [dev12_eq])
  -- transfer 10
  icases Ts with ⟨Ts10, Ts⟩
  ihave Hs := (pointsTo_split_subset (I := (stSlot 10).view.set) (S := ((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩)).1 $$ S1
  icases Hs with ⟨S1a, S1⟩
  rw [show owedFrom c 10 = owedFrom c 11 + tallyAt (recvCell (peer c) 10) () N from owedFrom_step c 10]
  iapply (wp_send_chunk m K c (peer c) rfl 10 Hab_pay11_v (owedFrom c 11) _ (amount_out c 10) (recv_restate m c 10 Hab_pay11_v)) $$ [S1a Hab_pay11 HO Ts10 Tp10 Hab_pay27]
  · isplitr; · iexact Is10
    isplitr; · iexact Ip10
    isplitl [S1a]
    · iapply (Entails.of_eq (pointsTo_congr (ℓ := (stSlot 10).view.loc (c : Thread nD τ)) (I := (stSlot 10).view.set) (q := fullShare) (g := stageVal m c) ?_))
      rotate_left
      · iexact S1a
      · exact stage_hw m c 10 0 (k0_off1 c) (k0_off1_inb c) (k0_off1_eq c) _ (xb_hg2 m c 10 11 0 1 (by decide) _ _) f1 _ _ _ _
    isplitl [Hab_pay11]; · iexact Hab_pay11
    isplitl [HO]; · iexact HO
    isplitl [Ts10]; · iexact Ts10
    isplitr; · iexact Rs10
    isplitl [Tp10]; · iexact Tp10
    iexact Hab_pay27
  iintro ⟨Cs10, HO⟩
  set_option sl_exec.dmaWindow true in
  sl_exec (disch := first | decide | simp only [dev13_eq])
  -- transfer 11
  icases Ts with ⟨Ts11, Ts⟩
  ihave Hs := (pointsTo_split_subset (I := (stSlot 11).view.set) (S := (((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set) \ (stSlot 10).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩, stSlot_notMem (k := 10) (by decide) hx⟩)).1 $$ S1
  icases Hs with ⟨S1a, S1⟩
  rw [show owedFrom c 11 = owedFrom c 12 + tallyAt (recvCell (peer c) 11) () N from owedFrom_step c 11]
  iapply (wp_send_chunk m K c (peer c) rfl 11 Hab_pay12_v (owedFrom c 12) _ (amount_out c 11) (recv_restate m c 11 Hab_pay12_v)) $$ [S1a Hab_pay12 HO Ts11 Tp11 Hab_pay28]
  · isplitr; · iexact Is11
    isplitr; · iexact Ip11
    isplitl [S1a]
    · iapply (Entails.of_eq (pointsTo_congr (ℓ := (stSlot 11).view.loc (c : Thread nD τ)) (I := (stSlot 11).view.set) (q := fullShare) (g := stageVal m c) ?_))
      rotate_left
      · iexact S1a
      · exact stage_hw m c 11 1 (k0_off4 c) (k0_off4_inb c) (k0_off4_eq c) _ (xb_hg2 m c 11 12 1 0 (by decide) _ _) f1 _ _ _ _
    isplitl [Hab_pay12]; · iexact Hab_pay12
    isplitl [HO]; · iexact HO
    isplitl [Ts11]; · iexact Ts11
    isplitr; · iexact Rs11
    isplitl [Tp11]; · iexact Tp11
    iexact Hab_pay28
  iintro ⟨Cs11, HO⟩
  set_option sl_exec.dmaWindow true in
  sl_exec (disch := first | decide | simp only [dev14_eq])
  -- transfer 12
  icases Ts with ⟨Ts12, Ts⟩
  ihave Hs := (pointsTo_split_subset (I := (stSlot 12).view.set) (S := ((((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set) \ (stSlot 10).view.set) \ (stSlot 11).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩, stSlot_notMem (k := 10) (by decide) hx⟩, stSlot_notMem (k := 11) (by decide) hx⟩)).1 $$ S1
  icases Hs with ⟨S1a, S1⟩
  rw [show owedFrom c 12 = owedFrom c 13 + tallyAt (recvCell (peer c) 12) () N from owedFrom_step c 12]
  iapply (wp_send_chunk m K c (peer c) rfl 12 Hab_pay13_v (owedFrom c 13) _ (amount_out c 12) (recv_restate m c 12 Hab_pay13_v)) $$ [S1a Hab_pay13 HO Ts12 Tp12 Hab_pay29]
  · isplitr; · iexact Is12
    isplitr; · iexact Ip12
    isplitl [S1a]
    · iapply (Entails.of_eq (pointsTo_congr (ℓ := (stSlot 12).view.loc (c : Thread nD τ)) (I := (stSlot 12).view.set) (q := fullShare) (g := stageVal m c) ?_))
      rotate_left
      · iexact S1a
      · exact stage_hw m c 12 0 (k0_off1 c) (k0_off1_inb c) (k0_off1_eq c) _ (xb_hg2 m c 12 13 0 1 (by decide) _ _) f1 _ _ _ _
    isplitl [Hab_pay13]; · iexact Hab_pay13
    isplitl [HO]; · iexact HO
    isplitl [Ts12]; · iexact Ts12
    isplitr; · iexact Rs12
    isplitl [Tp12]; · iexact Tp12
    iexact Hab_pay29
  iintro ⟨Cs12, HO⟩
  set_option sl_exec.dmaWindow true in
  sl_exec (disch := first | decide | simp only [dev15_eq])
  -- transfer 13
  icases Ts with ⟨Ts13, Ts⟩
  ihave Hs := (pointsTo_split_subset (I := (stSlot 13).view.set) (S := (((((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set) \ (stSlot 10).view.set) \ (stSlot 11).view.set) \ (stSlot 12).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩, stSlot_notMem (k := 10) (by decide) hx⟩, stSlot_notMem (k := 11) (by decide) hx⟩, stSlot_notMem (k := 12) (by decide) hx⟩)).1 $$ S1
  icases Hs with ⟨S1a, S1⟩
  rw [show owedFrom c 13 = owedFrom c 14 + tallyAt (recvCell (peer c) 13) () N from owedFrom_step c 13]
  iapply (wp_send_chunk m K c (peer c) rfl 13 Hab_pay14_v (owedFrom c 14) _ (amount_out c 13) (recv_restate m c 13 Hab_pay14_v)) $$ [S1a Hab_pay14 HO Ts13 Tp13 Hab_pay30]
  · isplitr; · iexact Is13
    isplitr; · iexact Ip13
    isplitl [S1a]
    · iapply (Entails.of_eq (pointsTo_congr (ℓ := (stSlot 13).view.loc (c : Thread nD τ)) (I := (stSlot 13).view.set) (q := fullShare) (g := stageVal m c) ?_))
      rotate_left
      · iexact S1a
      · exact stage_hw m c 13 1 (k0_off4 c) (k0_off4_inb c) (k0_off4_eq c) _ (xb_hg2 m c 13 14 1 0 (by decide) _ _) f1 _ _ _ _
    isplitl [Hab_pay14]; · iexact Hab_pay14
    isplitl [HO]; · iexact HO
    isplitl [Ts13]; · iexact Ts13
    isplitr; · iexact Rs13
    isplitl [Tp13]; · iexact Tp13
    iexact Hab_pay30
  iintro ⟨Cs13, HO⟩
  set_option sl_exec.dmaWindow true in
  sl_exec (disch := first | decide | simp only [dev16_eq])
  -- transfer 14
  icases Ts with ⟨Ts14, Ts⟩
  ihave Hs := (pointsTo_split_subset (I := (stSlot 14).view.set) (S := ((((((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set) \ (stSlot 10).view.set) \ (stSlot 11).view.set) \ (stSlot 12).view.set) \ (stSlot 13).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩, stSlot_notMem (k := 10) (by decide) hx⟩, stSlot_notMem (k := 11) (by decide) hx⟩, stSlot_notMem (k := 12) (by decide) hx⟩, stSlot_notMem (k := 13) (by decide) hx⟩)).1 $$ S1
  icases Hs with ⟨S1a, S1⟩
  rw [show owedFrom c 14 = owedFrom c 15 + tallyAt (recvCell (peer c) 14) () N from owedFrom_step c 14]
  iapply (wp_send_chunk m K c (peer c) rfl 14 Hab_pay15_v (owedFrom c 15) _ (amount_out c 14) (recv_restate m c 14 Hab_pay15_v)) $$ [S1a Hab_pay15 HO Ts14 Tp14 Hab_pay31]
  · isplitr; · iexact Is14
    isplitr; · iexact Ip14
    isplitl [S1a]
    · iapply (Entails.of_eq (pointsTo_congr (ℓ := (stSlot 14).view.loc (c : Thread nD τ)) (I := (stSlot 14).view.set) (q := fullShare) (g := stageVal m c) ?_))
      rotate_left
      · iexact S1a
      · exact stage_hw m c 14 0 (k0_off1 c) (k0_off1_inb c) (k0_off1_eq c) _ (xb_hg2 m c 14 15 0 1 (by decide) _ _) f1 _ _ _ _
    isplitl [Hab_pay15]; · iexact Hab_pay15
    isplitl [HO]; · iexact HO
    isplitl [Ts14]; · iexact Ts14
    isplitr; · iexact Rs14
    isplitl [Tp14]; · iexact Tp14
    iexact Hab_pay31
  iintro ⟨Cs14, HO⟩
  ihave TT : (iprop(dutyTok ER (sendCell c 15) 0 () ∗ dutyTok ER (recvCell (peer c) 15) 0 ()) : sProp 𝕄) $$ [Ts Tp15]
  · isplitl [Ts]; · iexact Ts
    iexact Tp15
  set_option sl_exec.dmaWindow true in
  sl_exec (disch := first | decide | simp only [dev17_eq])
  -- transfer 15
  icases TT with ⟨Ts15, Tp15⟩
  ihave Hs := (pointsTo_split_subset (I := (stSlot 15).view.set) (S := (((((((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set) \ (stSlot 10).view.set) \ (stSlot 11).view.set) \ (stSlot 12).view.set) \ (stSlot 13).view.set) \ (stSlot 14).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩, stSlot_notMem (k := 10) (by decide) hx⟩, stSlot_notMem (k := 11) (by decide) hx⟩, stSlot_notMem (k := 12) (by decide) hx⟩, stSlot_notMem (k := 13) (by decide) hx⟩, stSlot_notMem (k := 14) (by decide) hx⟩)).1 $$ S1
  icases Hs with ⟨S1a, S1⟩
  rw [show owedFrom c 15 = owedFrom c 16 + tallyAt (recvCell (peer c) 15) () N from owedFrom_step c 15]
  iapply (wp_send_chunk m K c (peer c) rfl 15 Hab_pay16_v (owedFrom c 16) _ (amount_out c 15) (recv_restate m c 15 Hab_pay16_v)) $$ [S1a Hab_pay16 HO Ts15 Tp15 Hab_pay32]
  · isplitr; · iexact Is15
    isplitr; · iexact Ip15
    isplitl [S1a]
    · iapply (Entails.of_eq (pointsTo_congr (ℓ := (stSlot 15).view.loc (c : Thread nD τ)) (I := (stSlot 15).view.set) (q := fullShare) (g := stageVal m c) ?_))
      rotate_left
      · iexact S1a
      · exact stage_hw m c 15 1 (k0_off4 c) (k0_off4_inb c) (k0_off4_eq c) _ (xb_hg1 m c 15 1 _) f1 _ _ _ _
    isplitl [Hab_pay16]; · iexact Hab_pay16
    isplitl [HO]; · iexact HO
    isplitl [Ts15]; · iexact Ts15
    isplitr; · iexact Rs15
    isplitl [Tp15]; · iexact Tp15
    iexact Hab_pay32
  iintro ⟨Cs15, HO⟩
  rw [owedFrom_last]
  set_option sl_exec.dmaWindow true in
  sl_exec (disch := first | decide | simp only [dev17_eq])
  -- what is held after the last wait, folded into the end state; its cells close and the invariant after the point holds
  imod (endgame m K c _) $$ [Has0 Has1 Has2 Has3 Has4 Has5 Has6 Has7 Has8 Has9 Has10 Has11 Has12 Has13 Has14 Has15 Har0 Har1 Har2 Har3 Har4 Har5 Har6 Har7 Har8 Har9 Har10 Har11 Har12 Har13 Har14 Har15 Hx Bo0 Bo1 Bo2 Bo3 Bo4 Bo5 Bo6 Bo7 Bo8 Bo9 Bo10 Bo11 Bo12 Bo13 Bo14 Bo15 Har0_pay1 Har1_pay1 Har2_pay1 Har3_pay1 Har4_pay1 Har5_pay1 Har6_pay1 Har7_pay1 Har8_pay1 Har9_pay1 Har10_pay1 Har11_pay1 Har12_pay1 Har13_pay1 Har14_pay1 Har15_pay1 L0 L1 L2 L3 S0 Has0_pay1 Has1_pay1 Has2_pay1 Has3_pay1 Has4_pay1 Has5_pay1 Has6_pay1 Has7_pay1 Has8_pay1 Has9_pay1 Has10_pay1 Has11_pay1 Has12_pay1 Has13_pay1 Has14_pay1 Has15_pay1 S2 HO] with Hpost
  · unfold endState
    isplitl [Has0 Has1 Has2 Has3 Has4 Has5 Has6 Has7 Has8 Has9 Has10 Has11 Has12 Has13 Has14 Has15]
    · rw [bigSep_fin16]
      isplitl [Has0]
      · isplitr; · iexact Is0
        iexact Has0
      isplitl [Has1]
      · isplitr; · iexact Is1
        iexact Has1
      isplitl [Has2]
      · isplitr; · iexact Is2
        iexact Has2
      isplitl [Has3]
      · isplitr; · iexact Is3
        iexact Has3
      isplitl [Has4]
      · isplitr; · iexact Is4
        iexact Has4
      isplitl [Has5]
      · isplitr; · iexact Is5
        iexact Has5
      isplitl [Has6]
      · isplitr; · iexact Is6
        iexact Has6
      isplitl [Has7]
      · isplitr; · iexact Is7
        iexact Has7
      isplitl [Has8]
      · isplitr; · iexact Is8
        iexact Has8
      isplitl [Has9]
      · isplitr; · iexact Is9
        iexact Has9
      isplitl [Has10]
      · isplitr; · iexact Is10
        iexact Has10
      isplitl [Has11]
      · isplitr; · iexact Is11
        iexact Has11
      isplitl [Has12]
      · isplitr; · iexact Is12
        iexact Has12
      isplitl [Has13]
      · isplitr; · iexact Is13
        iexact Has13
      isplitl [Has14]
      · isplitr; · iexact Is14
        iexact Has14
      isplitr; · iexact Is15
      iexact Has15
    isplitl [Har0 Har1 Har2 Har3 Har4 Har5 Har6 Har7 Har8 Har9 Har10 Har11 Har12 Har13 Har14 Har15]
    · rw [bigSep_fin16]
      isplitl [Har0]
      · isplitr; · iexact Ir0
        iexact Har0
      isplitl [Har1]
      · isplitr; · iexact Ir1
        iexact Har1
      isplitl [Har2]
      · isplitr; · iexact Ir2
        iexact Har2
      isplitl [Har3]
      · isplitr; · iexact Ir3
        iexact Har3
      isplitl [Har4]
      · isplitr; · iexact Ir4
        iexact Har4
      isplitl [Har5]
      · isplitr; · iexact Ir5
        iexact Har5
      isplitl [Har6]
      · isplitr; · iexact Ir6
        iexact Har6
      isplitl [Har7]
      · isplitr; · iexact Ir7
        iexact Har7
      isplitl [Har8]
      · isplitr; · iexact Ir8
        iexact Har8
      isplitl [Har9]
      · isplitr; · iexact Ir9
        iexact Har9
      isplitl [Har10]
      · isplitr; · iexact Ir10
        iexact Har10
      isplitl [Har11]
      · isplitr; · iexact Ir11
        iexact Har11
      isplitl [Har12]
      · isplitr; · iexact Ir12
        iexact Har12
      isplitl [Har13]
      · isplitr; · iexact Ir13
        iexact Har13
      isplitl [Har14]
      · isplitr; · iexact Ir14
        iexact Har14
      isplitr; · iexact Ir15
      iexact Har15
    isplitl [Hx]; · iexact Hx
    isplitl [Bo0 Bo1 Bo2 Bo3 Bo4 Bo5 Bo6 Bo7 Bo8 Bo9 Bo10 Bo11 Bo12 Bo13 Bo14 Bo15]
    · rw [bigSep_fin16]
      isplitl [Bo0]
      · iapply (Entails.of_eq (pointsTo_congr (ℓ := (outRows c 0).view.loc (c : Thread nD τ)) (I := (outRows c 0).view.set) (q := fullShare) (g := outFinal m c) ?_))
        rotate_left
        · iexact Bo0
        · exact local_hw m c 0 0 (k0_off3 c) (k0_off3_inb c) (k0_off3_eq c) _ (xb_hg2 m c 0 1 0 1 (by decide) _ _) f2 _ _ _ _ _
      isplitl [Bo1]
      · iapply (Entails.of_eq (pointsTo_congr (ℓ := (outRows c 1).view.loc (c : Thread nD τ)) (I := (outRows c 1).view.set) (q := fullShare) (g := outFinal m c) ?_))
        rotate_left
        · iexact Bo1
        · exact local_hw m c 1 1 (k0_off5 c) (k0_off5_inb c) (k0_off5_eq c) _ (xb_hg2 m c 1 2 1 0 (by decide) _ _) f2 _ _ _ _ _
      isplitl [Bo2]
      · iapply (Entails.of_eq (pointsTo_congr (ℓ := (outRows c 2).view.loc (c : Thread nD τ)) (I := (outRows c 2).view.set) (q := fullShare) (g := outFinal m c) ?_))
        rotate_left
        · iexact Bo2
        · exact local_hw m c 2 0 (k0_off3 c) (k0_off3_inb c) (k0_off3_eq c) _ (xb_hg2 m c 2 3 0 1 (by decide) _ _) f2 _ _ _ _ _
      isplitl [Bo3]
      · iapply (Entails.of_eq (pointsTo_congr (ℓ := (outRows c 3).view.loc (c : Thread nD τ)) (I := (outRows c 3).view.set) (q := fullShare) (g := outFinal m c) ?_))
        rotate_left
        · iexact Bo3
        · exact local_hw m c 3 1 (k0_off5 c) (k0_off5_inb c) (k0_off5_eq c) _ (xb_hg2 m c 3 4 1 0 (by decide) _ _) f2 _ _ _ _ _
      isplitl [Bo4]
      · iapply (Entails.of_eq (pointsTo_congr (ℓ := (outRows c 4).view.loc (c : Thread nD τ)) (I := (outRows c 4).view.set) (q := fullShare) (g := outFinal m c) ?_))
        rotate_left
        · iexact Bo4
        · exact local_hw m c 4 0 (k0_off3 c) (k0_off3_inb c) (k0_off3_eq c) _ (xb_hg2 m c 4 5 0 1 (by decide) _ _) f2 _ _ _ _ _
      isplitl [Bo5]
      · iapply (Entails.of_eq (pointsTo_congr (ℓ := (outRows c 5).view.loc (c : Thread nD τ)) (I := (outRows c 5).view.set) (q := fullShare) (g := outFinal m c) ?_))
        rotate_left
        · iexact Bo5
        · exact local_hw m c 5 1 (k0_off5 c) (k0_off5_inb c) (k0_off5_eq c) _ (xb_hg2 m c 5 6 1 0 (by decide) _ _) f2 _ _ _ _ _
      isplitl [Bo6]
      · iapply (Entails.of_eq (pointsTo_congr (ℓ := (outRows c 6).view.loc (c : Thread nD τ)) (I := (outRows c 6).view.set) (q := fullShare) (g := outFinal m c) ?_))
        rotate_left
        · iexact Bo6
        · exact local_hw m c 6 0 (k0_off3 c) (k0_off3_inb c) (k0_off3_eq c) _ (xb_hg2 m c 6 7 0 1 (by decide) _ _) f2 _ _ _ _ _
      isplitl [Bo7]
      · iapply (Entails.of_eq (pointsTo_congr (ℓ := (outRows c 7).view.loc (c : Thread nD τ)) (I := (outRows c 7).view.set) (q := fullShare) (g := outFinal m c) ?_))
        rotate_left
        · iexact Bo7
        · exact local_hw m c 7 1 (k0_off5 c) (k0_off5_inb c) (k0_off5_eq c) _ (xb_hg2 m c 7 8 1 0 (by decide) _ _) f2 _ _ _ _ _
      isplitl [Bo8]
      · iapply (Entails.of_eq (pointsTo_congr (ℓ := (outRows c 8).view.loc (c : Thread nD τ)) (I := (outRows c 8).view.set) (q := fullShare) (g := outFinal m c) ?_))
        rotate_left
        · iexact Bo8
        · exact local_hw m c 8 0 (k0_off3 c) (k0_off3_inb c) (k0_off3_eq c) _ (xb_hg2 m c 8 9 0 1 (by decide) _ _) f2 _ _ _ _ _
      isplitl [Bo9]
      · iapply (Entails.of_eq (pointsTo_congr (ℓ := (outRows c 9).view.loc (c : Thread nD τ)) (I := (outRows c 9).view.set) (q := fullShare) (g := outFinal m c) ?_))
        rotate_left
        · iexact Bo9
        · exact local_hw m c 9 1 (k0_off5 c) (k0_off5_inb c) (k0_off5_eq c) _ (xb_hg2 m c 9 10 1 0 (by decide) _ _) f2 _ _ _ _ _
      isplitl [Bo10]
      · iapply (Entails.of_eq (pointsTo_congr (ℓ := (outRows c 10).view.loc (c : Thread nD τ)) (I := (outRows c 10).view.set) (q := fullShare) (g := outFinal m c) ?_))
        rotate_left
        · iexact Bo10
        · exact local_hw m c 10 0 (k0_off3 c) (k0_off3_inb c) (k0_off3_eq c) _ (xb_hg2 m c 10 11 0 1 (by decide) _ _) f2 _ _ _ _ _
      isplitl [Bo11]
      · iapply (Entails.of_eq (pointsTo_congr (ℓ := (outRows c 11).view.loc (c : Thread nD τ)) (I := (outRows c 11).view.set) (q := fullShare) (g := outFinal m c) ?_))
        rotate_left
        · iexact Bo11
        · exact local_hw m c 11 1 (k0_off5 c) (k0_off5_inb c) (k0_off5_eq c) _ (xb_hg2 m c 11 12 1 0 (by decide) _ _) f2 _ _ _ _ _
      isplitl [Bo12]
      · iapply (Entails.of_eq (pointsTo_congr (ℓ := (outRows c 12).view.loc (c : Thread nD τ)) (I := (outRows c 12).view.set) (q := fullShare) (g := outFinal m c) ?_))
        rotate_left
        · iexact Bo12
        · exact local_hw m c 12 0 (k0_off3 c) (k0_off3_inb c) (k0_off3_eq c) _ (xb_hg2 m c 12 13 0 1 (by decide) _ _) f2 _ _ _ _ _
      isplitl [Bo13]
      · iapply (Entails.of_eq (pointsTo_congr (ℓ := (outRows c 13).view.loc (c : Thread nD τ)) (I := (outRows c 13).view.set) (q := fullShare) (g := outFinal m c) ?_))
        rotate_left
        · iexact Bo13
        · exact local_hw m c 13 1 (k0_off5 c) (k0_off5_inb c) (k0_off5_eq c) _ (xb_hg2 m c 13 14 1 0 (by decide) _ _) f2 _ _ _ _ _
      isplitl [Bo14]
      · iapply (Entails.of_eq (pointsTo_congr (ℓ := (outRows c 14).view.loc (c : Thread nD τ)) (I := (outRows c 14).view.set) (q := fullShare) (g := outFinal m c) ?_))
        rotate_left
        · iexact Bo14
        · exact local_hw m c 14 0 (k0_off3 c) (k0_off3_inb c) (k0_off3_eq c) _ (xb_hg2 m c 14 15 0 1 (by decide) _ _) f2 _ _ _ _ _
      · iapply (Entails.of_eq (pointsTo_congr (ℓ := (outRows c 15).view.loc (c : Thread nD τ)) (I := (outRows c 15).view.set) (q := fullShare) (g := outFinal m c) ?_))
        rotate_left
        · iexact Bo15
        · exact local_hw m c 15 1 (k0_off5 c) (k0_off5_inb c) (k0_off5_eq c) _ (xb_hg1 m c 15 1 _) f2 _ _ _ _ _
    isplitl [Har0_pay1 Har1_pay1 Har2_pay1 Har3_pay1 Har4_pay1 Har5_pay1 Har6_pay1 Har7_pay1 Har8_pay1 Har9_pay1 Har10_pay1 Har11_pay1 Har12_pay1 Har13_pay1 Har14_pay1 Har15_pay1]
    · rw [bigSep_fin16]
      unfold recvPay
      isplitl [Har0_pay1]; · iexact Har0_pay1
      isplitl [Har1_pay1]; · iexact Har1_pay1
      isplitl [Har2_pay1]; · iexact Har2_pay1
      isplitl [Har3_pay1]; · iexact Har3_pay1
      isplitl [Har4_pay1]; · iexact Har4_pay1
      isplitl [Har5_pay1]; · iexact Har5_pay1
      isplitl [Har6_pay1]; · iexact Har6_pay1
      isplitl [Har7_pay1]; · iexact Har7_pay1
      isplitl [Har8_pay1]; · iexact Har8_pay1
      isplitl [Har9_pay1]; · iexact Har9_pay1
      isplitl [Har10_pay1]; · iexact Har10_pay1
      isplitl [Har11_pay1]; · iexact Har11_pay1
      isplitl [Har12_pay1]; · iexact Har12_pay1
      isplitl [Har13_pay1]; · iexact Har13_pay1
      isplitl [Har14_pay1]; · iexact Har14_pay1
      iexact Har15_pay1
    isplitl [L0 L1 L2 L3]
    · rw [localSems0_eq]
      isplitl [L0]; · iexact L0
      isplitl [L1]; · iexact L1
      isplitl [L2]; · iexact L2
      iexact L3
    isplitl [S0]; · iexists _; iexact S0
    isplitl [Has0_pay1 Has1_pay1 Has2_pay1 Has3_pay1 Has4_pay1 Has5_pay1 Has6_pay1 Has7_pay1 Has8_pay1 Has9_pay1 Has10_pay1 Has11_pay1 Has12_pay1 Has13_pay1 Has14_pay1 Has15_pay1]
    · rw [bigSep_fin16]
      unfold sendPay
      isplitl [Has0_pay1]; · iexact Has0_pay1
      isplitl [Has1_pay1]; · iexact Has1_pay1
      isplitl [Has2_pay1]; · iexact Has2_pay1
      isplitl [Has3_pay1]; · iexact Has3_pay1
      isplitl [Has4_pay1]; · iexact Has4_pay1
      isplitl [Has5_pay1]; · iexact Has5_pay1
      isplitl [Has6_pay1]; · iexact Has6_pay1
      isplitl [Has7_pay1]; · iexact Has7_pay1
      isplitl [Has8_pay1]; · iexact Has8_pay1
      isplitl [Has9_pay1]; · iexact Has9_pay1
      isplitl [Has10_pay1]; · iexact Has10_pay1
      isplitl [Has11_pay1]; · iexact Has11_pay1
      isplitl [Has12_pay1]; · iexact Has12_pay1
      isplitl [Has13_pay1]; · iexact Has13_pay1
      isplitl [Has14_pay1]; · iexact Has14_pay1
      iexact Has15_pay1
    isplitl [S2]; · iexists _; iexact S2
    iexact HO
  sl_step
  iexact Hpost

/-- The library's body obligation on core c (the pipeline has no window: nothing is staged around the body). -/
theorem body_obligation (c : Dev nD) : BodyObligation (dats (F := F) m 0 c) (defs₀ (F := F)) 𝒱₀ () Set.univ := fun t => by
  rw [fin_N t]
  have hW : (Finset.univ : Finset (Fin cfg0.W)) = ∅ := Finset.univ_eq_empty
  simp only [hW, bigSep_empty]
  show iprop(Φ₀ m c ∗ (dats m 0 c).owesAt () t₀.castSucc ∗ emp) ⊢ wp frame (wpE (defs₀ (F := F)) 𝒱₀ c none) Set.univ (bodyAt0 (F := F) t₀) (fun _ => iprop(Φ₁ m c ∗ (dats m 0 c).owesAt () t₀.succ ∗ emp))
  refine (sep_mono_right (sep_emp (PROP := sProp 𝕄)).1).trans ((sound_body m c).trans (wp_mono _ _ _ fun _ => ?_))
  exact sep_mono_right (sep_emp (PROP := sProp 𝕄)).2

/-- info: 'Cert.KernelIdeal.A2A.body_obligation' depends on axioms: [propext, Classical.choice, Quot.sound] -/
#guard_msgs in #print axioms body_obligation

end Cert.KernelIdeal.A2A

end
-- ==== Proof.Launch.lean ====
/-
  The launch: from each device's body the run of @main on all eight devices.
-/
import proofs.«900623_g7700000000000624_dist_a2a_v7x_xyz2x2x2_y_m4096_n1024_bf16_1_alg».proof.Proof.Body
import Mathlib.Logic.Equiv.Fin.Basic

noncomputable section

namespace Cert.KernelIdeal.A2A

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Layout facts -/

theorem ownSemFacts : Pipeline.OwnSemFacts cfg0.spec osem := by decide

theorem share_eq (c : Dev nD) (w : Fin cfg0.W) : (dats m 0 c).share w = fullShare := w.elim0

/-! ## The protocol's cells and tokens -/

/-- The index of a protocol cell from its semaphore. -/
def kOf : SemLoc sig → Fin 33
  | .reg _ => 0
  | .dma q => ⟨(q.val - 3) % 33, Nat.mod_lt _ (by decide)⟩

theorem kOf_csem : ∀ k : Fin 33, kOf (csem k) = k := by decide

theorem csem_injective : Function.Injective (csem : Fin 33 → SemLoc sig) :=
  Function.LeftInverse.injective kOf_csem

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

def protoCells : Finset (GSem nD τ sig) := Finset.univ.map ⟨kcell, kcell_injective⟩

/-- Each cell's one duty token as minted. -/
abbrev tokOf (ck : Dev nD × Fin 33) : GSem nD τ sig × ℕ × Unit := (kcell ck, 0, ())
theorem tokOf_injective : Function.Injective (tokOf : Dev nD × Fin 33 → GSem nD τ sig × ℕ × Unit) :=
  fun a b h => kcell_injective (congrArg Prod.fst h)
def protoToks : Finset (GSem nD τ sig × ℕ × Unit) := Finset.univ.map ⟨tokOf, tokOf_injective⟩

/-- The launch element: the pipeline library's copy (no cell), the protocol's copy, the counters' unit. -/
def u₀ : UU :=
  (initOf (Pipeline.cells cfgs cellOf_inj) (Pipeline.launchToks cfgs cellOf_inj), (initOf protoCells protoToks, (1 : Counters)))

/-- The duty tokens of device c's own cells. -/
def toks (c : Dev nD) : sProp 𝕄 := bigSep Finset.univ fun k : Fin 33 => dutyTok ER (kcell (c, k)) 0 ()

/-- What the launch element deals device c. -/
def G (c : Dev nD) : sProp 𝕄 :=
  iprop((bigSep Finset.univ fun k : Fin 33 => roundState ER (a2aRd m) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop((∃ K, ghost m K c) ∗ localSems0 c)

/-! ## Splitting a product over 33 or 36 indices into its bands -/

theorem bigSep_fin_add {a b : ℕ} (Φ : Fin (a + b) → sProp 𝕄) :
    bigSep Finset.univ Φ = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

theorem sep_assoc_launch (A B C : sProp 𝕄) : iprop((A ∗ B) ∗ C) = iprop(A ∗ B ∗ C) := by
  refine BI.Entails.antisymm (show _ ⊢ (_ : sProp 𝕄) from ?_) (show _ ⊢ (_ : sProp 𝕄) from ?_)
  · iintro ⟨⟨H1, H2⟩, H3⟩
    isplitl [H1]; · iexact H1
    isplitl [H2] <;> iassumption
  · iintro ⟨H1, H2, H3⟩
    isplitr [H3]
    · isplitl [H1] <;> iassumption
    · iexact H3

theorem bigSep_fin33 (Φ : Fin 33 → sProp 𝕄) :
    bigSep Finset.univ Φ = iprop(Φ kB ∗ (bigSep Finset.univ fun i : Fin 16 => Φ (kS i)) ∗ bigSep Finset.univ fun i : Fin 16 => Φ (kR i)) := by
  rw [bigSep_fin_add (a := 17) (b := 16) Φ, bigSep_fin_add (a := 1) (b := 16), bigSep_univ_of_subsingleton (0 : Fin 1), sep_assoc_launch]
  rfl

/-- The 36 own semaphores: the four local ones, the sixteen send ones, the sixteen receive ones. -/
abbrev q4 (k : Fin 4) : Fin 36 := ⟨k.val, by have := k.isLt; omega⟩
abbrev qS (i : Fin 16) : Fin 36 := ⟨4 + i.val, by have := i.isLt; omega⟩
abbrev qR (i : Fin 16) : Fin 36 := ⟨20 + i.val, by have := i.isLt; omega⟩

theorem bigSep_fin36 (Φ : Fin 36 → sProp 𝕄) :
    bigSep Finset.univ Φ = iprop((bigSep Finset.univ fun k : Fin 4 => Φ (q4 k)) ∗ (bigSep Finset.univ fun i : Fin 16 => Φ (qS i)) ∗ bigSep Finset.univ fun i : Fin 16 => Φ (qR i)) := by
  rw [bigSep_fin_add (a := 20) (b := 16) Φ, bigSep_fin_add (a := 4) (b := 16), sep_assoc_launch]
  rfl

theorem osem_qS (i : Fin 16) : osem (qS i) = SemLoc.dma (sendS i).sem := congrArg SemLoc.dma (Fin.ext (sendS_val i).symm)
theorem osem_qR (i : Fin 16) : osem (qR i) = SemLoc.dma (recvS i).sem := congrArg SemLoc.dma (Fin.ext (recvS_val i).symm)

/-- A product over a device's 33 cells, by kind. -/
theorem bigSep_cells (c : Dev nD) (Φ : GSem nD τ sig → sProp 𝕄) :
    (bigSep Finset.univ fun k : Fin 33 => Φ (kcell (c, k)))
      = iprop(Φ (barCell c) ∗ (bigSep Finset.univ fun i : Fin 16 => Φ (sendCell c i)) ∗ bigSep Finset.univ fun i : Fin 16 => Φ (recvCell c i)) := by
  rw [bigSep_fin33 fun k => Φ (kcell (c, k)), kcell_bar,
    bigSep_congr (s := Finset.univ) (fun (i : Fin 16) _ => congrArg Φ (kcell_send c i)),
    bigSep_congr (s := Finset.univ) (fun (i : Fin 16) _ => congrArg Φ (kcell_recv c i))]

/-! ## Funding the protocol's copy -/

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 33 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]; rfl
  iintro HX
  imod (Rounds.fund ER (a2aRd m) protoCells protoToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, sorted -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The 36 own counters and the barrier's: the protocol's 33 and the four local ones. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 33 => semVal (kcell (c, k)) 0 : sProp 𝕄) ∗ localSems0 c) := by
  rw [unscopedSems0_eq, bigSep_cells c fun g => semVal g 0]
  unfold Pipeline.ownSems0 localSems0
  rw [bigSep_fin36 fun k => semVal ((c : Thread nD τ), osem k) 0,
    bigSep_congr (s := Finset.univ) (fun (i : Fin 16) _ => congrArg (fun sm => (semVal ((c : Thread nD τ), sm) 0 : sProp 𝕄)) (osem_qS i)),
    bigSep_congr (s := Finset.univ) (fun (i : Fin 16) _ => congrArg (fun sm => (semVal ((c : Thread nD τ), sm) 0 : sProp 𝕄)) (osem_qR i))]
  iintro ⟨⟨HL, HS, HV⟩, HB⟩
  isplitr [HL]
  · isplitl [HB]; · iexact HB
    isplitl [HS] <;> iassumption
  · iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (a2aRd m) κ (kcell (c, k))))
          ∗ (bigSep Finset.univ fun k : Fin 33 => iprop(atPos ER (kcell (c, k)) 0 ∅ 0 ∗ reached ER (kcell (c, k)) 0)) ∗ toks c ∗ localSems0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 33 => semVal (kcell (c, k)) 0) ∗ bigSep Finset.univ fun k : Fin 33 => roundState ER (a2aRd m) (kcell (c, k)) 0)
      ⊢ (|={Set.univ}=> bigSep Finset.univ fun k : Fin 33 => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## From every device's cells to each device's ghost state -/

def records (K : Dev nD × Fin 33 → ℕ) : sProp 𝕄 :=
  iprop((bigSep Finset.univ fun ck : Dev nD × Fin 33 => cellInv ER (a2aRd m) (K ck) (kcell ck))
    ∗ bigSep Finset.univ fun ck : Dev nD × Fin 33 => reached ER (kcell ck) 0)

instance records_persistent (K : Dev nD × Fin 33 → ℕ) : BI.Persistent (records m K) := by unfold records; infer_instance

theorem pers_bigSep {I : Type} [DecidableEq I] {R : sProp 𝕄} [BI.Persistent R] (S : Finset I) (Φ : I → sProp 𝕄) (h : ∀ i, R ⊢ Φ i) :
    R ⊢ bigSep S Φ :=
  (BI.bigSep_of_persistent S R).trans (bigSep_mono fun i _ => h i)

theorem inv_at (K : Dev nD × Fin 33 → ℕ) (ck : Dev nD × Fin 33) :
    (bigSep Finset.univ fun ck : Dev nD × Fin 33 => (cellInv ER (a2aRd m) (K ck) (kcell ck) : sProp 𝕄)) ⊢ cellInv ER (a2aRd m) (K ck) (kcell ck) :=
  bigSep_elim (Finset.mem_univ ck)
theorem reached_at (ck : Dev nD × Fin 33) :
    (bigSep Finset.univ fun ck : Dev nD × Fin 33 => (reached ER (kcell ck) 0 : sProp 𝕄)) ⊢ reached ER (kcell ck) 0 :=
  bigSep_elim (Finset.mem_univ ck)

theorem inv_send (K : Dev nD × Fin 33 → ℕ) (c : Dev nD) :
    (bigSep Finset.univ fun ck : Dev nD × Fin 33 => (cellInv ER (a2aRd m) (K ck) (kcell ck) : sProp 𝕄))
      ⊢ bigSep Finset.univ fun i : Fin 16 => cellInv ER (a2aRd m) (K (c, kS i)) (sendCell c i) :=
  pers_bigSep _ _ fun i => by rw [← kcell_send c i]; exact inv_at m K (c, kS i)
theorem inv_recv (K : Dev nD × Fin 33 → ℕ) (c : Dev nD) :
    (bigSep Finset.univ fun ck : Dev nD × Fin 33 => (cellInv ER (a2aRd m) (K ck) (kcell ck) : sProp 𝕄))
      ⊢ bigSep Finset.univ fun i : Fin 16 => cellInv ER (a2aRd m) (K (c, kR i)) (recvCell c i) :=
  pers_bigSep _ _ fun i => by rw [← kcell_recv c i]; exact inv_at m K (c, kR i)
theorem reached_send (c : Dev nD) :
    (bigSep Finset.univ fun ck : Dev nD × Fin 33 => (reached ER (kcell ck) 0 : sProp 𝕄)) ⊢ bigSep Finset.univ fun i : Fin 16 => reached ER (sendCell c i) 0 :=
  pers_bigSep _ _ fun i => by rw [← kcell_send c i]; exact reached_at (c, kS i)
theorem reached_recv (c : Dev nD) :
    (bigSep Finset.univ fun ck : Dev nD × Fin 33 => (reached ER (kcell ck) 0 : sProp 𝕄)) ⊢ bigSep Finset.univ fun i : Fin 16 => reached ER (recvCell c i) 0 :=
  pers_bigSep _ _ fun i => by rw [← kcell_recv c i]; exact reached_at (c, kR i)

/-- What stays with device c: its positions, the tokens of the duties IT pays, its four local counters. -/
def payToks (c : Dev nD) : sProp 𝕄 :=
  iprop(dutyTok ER (barCell (peer c)) 0 () ∗ (bigSep Finset.univ fun i : Fin 16 => dutyTok ER (sendCell c i) 0 ())
    ∗ bigSep Finset.univ fun i : Fin 16 => dutyTok ER (recvCell (peer c) i) 0 ())
def linear (c : Dev nD) : sProp 𝕄 :=
  iprop((atPos ER (barCell c) 0 ∅ 0 ∗ (bigSep Finset.univ fun i : Fin 16 => atPos ER (sendCell c i) 0 ∅ 0)
      ∗ bigSep Finset.univ fun i : Fin 16 => atPos ER (recvCell c i) 0 ∅ 0) ∗ payToks c ∗ localSems0 c)

theorem ghost_intro (K : Dev nD × Fin 33 → ℕ) (c : Dev nD) : iprop(records m K ∗ linear c) ⊢ G' m c := by
  unfold records linear payToks G' ghost invs
  iintro ⟨⟨#HI, #HR⟩, ⟨HaB, HaS, HaV⟩, ⟨HtB, HtS, HtV⟩, Hloc⟩
  isplitr [Hloc]
  · iexists K
    isplitr
    · isplitr; · iapply (inv_at m K (c, kB)); iexact HI
      isplitr; · iapply (inv_at m K (peer c, kB)); iexact HI
      isplitr; · iapply (inv_send m K c); iexact HI
      isplitr; · iapply (inv_recv m K c); iexact HI
      iapply (inv_recv m K (peer c)); iexact HI
    isplitl [HaB]; · iexact HaB
    isplitl [HaS]; · iexact HaS
    isplitl [HaV]; · iexact HaV
    isplitr; · iapply (reached_at (F := F) (peer c, kB)); iexact HR
    isplitr; · iapply (reached_send (F := F) c); iexact HR
    isplitr; · iapply (reached_recv (F := F) c); iexact HR
    isplitl [HtB]; · iexact HtB
    isplitl [HtS]; · iexact HtS
    iexact HtV
  · iexact Hloc

/-- The tokens dealt around: a barrier cell's and a receive cell's go to the peer, a send cell's stays. -/
theorem toks_around : (bigSep Finset.univ fun c : Dev nD => (toks c : sProp 𝕄)) ⊢ bigSep Finset.univ fun c : Dev nD => payToks c := by
  unfold toks payToks
  rw [bigSep_congr (s := Finset.univ) (fun (c : Dev nD) _ => bigSep_cells c fun g => (dutyTok ER g 0 () : sProp 𝕄)),
    bigSep_sep', bigSep_sep', bigSep_sep', bigSep_sep',
    bigSep_univ_equiv peerEquiv (fun c : Dev nD => (dutyTok ER (barCell c) 0 () : sProp 𝕄)),
    bigSep_univ_equiv peerEquiv (fun c : Dev nD => (bigSep Finset.univ fun i : Fin 16 => dutyTok ER (recvCell c i) 0 () : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 33 => iprop(∃ κ : ℕ, cellInv ER (a2aRd m) κ (kcell (c, k))))
          ∗ (bigSep Finset.univ fun k : Fin 33 => iprop(atPos ER (kcell (c, k)) 0 ∅ 0 ∗ reached ER (kcell (c, k)) 0)) ∗ toks c ∗ localSems0 c) : sProp 𝕄)
      ⊢ bigSep Finset.univ (G' m) := by
  rw [bigSep_sep', bigSep_sep', bigSep_sep', ← bigSep_univ_prod (fun ck : Dev nD × Fin 33 => iprop(∃ κ : ℕ, cellInv ER (a2aRd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok, Hloc⟩
  ihave HK := (BI.bigSep_exists_pi Finset.univ (fun (ck : Dev nD × Fin 33) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => bigSep Finset.univ fun k : Fin 33 => (atPos ER (kcell (c, k)) 0 ∅ 0 : sProp 𝕄)) (fun c => iprop(payToks c ∗ localSems0 c))).symm)).trans
      (bigSep_mono fun c _ => show _ ⊢ linear c from Entails.of_eq (by unfold linear; rw [bigSep_cells c fun g => (atPos ER g 0 ∅ 0 : sProp 𝕄)])))
    isplitl [Hat]; · iexact Hat
    rw [bigSep_sep']
    isplitl [Htk]; · iexact Htk
    iexact Hloc

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem creds_intro (c : Dev nD) : (Pipeline.launchCred O₀ c : sProp 𝕄) ⊢ creds c := by
  have h1 : (Pipeline.launchCred O₀ c : sProp 𝕄)
      = iprop(Pipeline.launchCred (fun d : Dev nD => ∑ i : Fin 16, tallyAt (recvCell (peer d) i) () N) c
          ∗ Pipeline.launchCred (fun d : Dev nD => tallyAt (barCell (peer d)) () 1) c) :=
    Pipeline.launchCred_add (fun d : Dev nD => ∑ i : Fin 16, tallyAt (recvCell (peer d) i) () N) (fun d : Dev nD => tallyAt (barCell (peer d)) () 1) c
  have h2 : (Pipeline.launchCred (fun d : Dev nD => ∑ i : Fin 16, tallyAt (recvCell (peer d) i) () N) c : sProp 𝕄)
      = bigSep Finset.univ fun i : Fin 16 => Pipeline.launchCred (fun d : Dev nD => tallyAt (recvCell (peer d) i) () N) c :=
    Pipeline.launchCred_sum Finset.univ (fun (i : Fin 16) (d : Dev nD) => tallyAt (recvCell (peer d) i) () N) c
  have hB : (Pipeline.launchCred (fun d : Dev nD => tallyAt (barCell (peer d)) () 1) c : sProp 𝕄) ⊢ cred (tallyAt (barCell c) () 1) :=
    Pipeline.launchCred_tallyAt (SemLoc.reg barS) peer peer peer_peer peer_peer () 1 c
  have hR : (bigSep Finset.univ fun i : Fin 16 => (Pipeline.launchCred (fun d : Dev nD => tallyAt (recvCell (peer d) i) () N) c : sProp 𝕄))
      ⊢ bigSep Finset.univ fun i : Fin 16 => (cred (tallyAt (recvCell c i) () N) : sProp 𝕄) :=
    bigSep_mono fun i _ => Pipeline.launchCred_tallyAt (SemLoc.dma (recvS i).sem) peer peer peer_peer peer_peer () N c
  rw [h1, h2]
  unfold creds
  iintro ⟨HR, HB⟩
  isplitl [HB]
  · iapply hB; iexact HB
  · iapply hR; iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨Harr, Hlev, Hcr, -, HG, Hloc⟩
  ihave Hc := (creds_intro (F := F) c) $$ Hcr
  imodintro
  unfold start arrs0
  isplitl
  · isplitl [HG]; · iexact HG
    isplitl [Hc]; · iexact Hc
    isplitl [Hloc]; · iexact Hloc
    isplitl [Hlev]; · iexact Hlev
    iexact Harr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(arrs1 m c ∗ Pipeline.ownSems0 osem c ∗ Pipeline.scopedRest cfg0.spec c) := by
  rw [show (dats m 0 c).Φ (Fin.last cfg0.N) = Φ₁ m c from rfl, scopedRest0_eq]
  unfold Φ₁ scratch
  exact .rfl

theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 16384 in
/-- The run from the body obligation of every device: what the launch itself contributes. -/
theorem run_main_of (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outFinal m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_proto m) $$ HR with HG
      imodintro
      isplitl [HP] <;> iassumption)
    (hglob := glob m)
    (hA := fun _ w => w.elim0) (hpf := fun _ k => k.elim0)
    (X := start m) (Y := arrs1 m) (Z := fun _ => iprop(emp))
    (hX := start_intro m ρ) (hin := phi0_intro m) (hout := phi1_exit m)
    (QY := fun c s => s.mem ((c.tc : Thread nD τ).loc main_v1) = outFinal m c
      ∧ s.mem ((c.tc : Thread nD τ).loc main_arg0) = m ((c.tc : Thread nD τ).loc main_arg0))
    (hY := fun c s' => by
      unfold arrs1
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => (h c).2.2)

/-- At the compiled mesh of eight devices, for any float values, from any memory with zero counters: every weakly fair
    execution of @main terminates, nothing faulting, and every final state has each device's result array at
    Spec.outFinal and its argument array unchanged. -/
theorem run_main : θ_run defs (onTc (τ := τ) (main (F := F))) ⟨m, fun _ => 0, ρ⟩ (fun r => ∀ c : Dev nD,
    r.2.mem ((c.tc : Thread nD τ).loc main_v1) = outFinal m c
    ∧ r.2.mem ((c.tc : Thread nD τ).loc main_arg0) = m ((c.tc : Thread nD τ).loc main_arg0)) :=
  run_main_of m ρ (body_obligation m)

/-- info: 'Cert.KernelIdeal.A2A.run_main_of' depends on axioms: [propext, Classical.choice, Quot.sound] -/
#guard_msgs in #print axioms run_main_of

/-- info: 'Cert.KernelIdeal.A2A.run_main' depends on axioms: [propext, Classical.choice, Quot.sound] -/
#guard_msgs in #print axioms run_main

end Cert.KernelIdeal.A2A

end
-- ==== Proof.Word.Spec.lean ====
/-
  What the all-to-all computes, stated once.

  The mesh is 2 x 2 x 2; device c sits at (c / 4, c / 2 % 2, c % 2).  Its argument buffer is the block of
  4096 rows of the whole array that its middle coordinate names, and its result is the block of 1024
  columns that the same coordinate names.  The device that differs from c in the middle coordinate only
  (its peer) holds the other 4096 rows.  So row R of device c's result comes from c's own rows when R
  lies in c's row block and from the peer's rows otherwise, and column j of the result is column
  1024 * (c / 2 % 2) + j of that row, narrowed to the result's element type.
-/
import proofs.«900623_g7700000000000624_dist_a2a_v7x_xyz2x2x2_y_m4096_n1024_bf16_1_alg».proof.Proof.Gen.Kernel
import Idealize.ShloMosaic.Lib.ValueIdx

noncomputable section

namespace Cert.Kernel.Spec

open Cert.Kernel Cert.Kernel.Gen
open Idealize.ShloMosaic Idealize.ShloMosaic.TcCoe Idealize.ShloMosaic.ValueIdx

variable {F : FTy → Type} [FloatOps F]

/-- The middle (second) mesh coordinate of device c: which block of rows it holds, and which block of columns it must end with. -/
def cy (c : Dev nD) : Nat := (c.val / 2) % 2

theorem cy_lt (c : Dev nD) : cy c < 2 := Nat.mod_lt _ (by decide)

/-- The device that differs from c in the middle coordinate only. -/
def peer (c : Dev nD) : Dev nD :=
  ⟨(4 * (c.val / 4) + (c.val % 2) + 2) - 2 * ((c.val / 2) % 2), by
    have h : c.val < 8 := c.isLt
    show _ < 8
    omega⟩

theorem peer_peer (c : Dev nD) : peer (peer c) = c := by revert c; decide
theorem peer_ne (c : Dev nD) : peer c ≠ c := by revert c; decide
theorem cy_peer (c : Dev nD) : cy (peer c) = 1 - cy c := by revert c; decide

/-- The peer as a permutation of the mesh (an involution). -/
def peerEquiv : Dev nD ≃ Dev nD := ⟨peer, peer, peer_peer, peer_peer⟩

/-- Every device id the body computes (the entry signal's and each of the sixteen transfers') is the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)
theorem dev10_eq (c : Dev nD) : (⟨k0_dev10 c, k0_dev10_lt c⟩ : Dev nD) = peer c := Fin.ext (k0_dev10_eq c)
theorem dev11_eq (c : Dev nD) : (⟨k0_dev11 c, k0_dev11_lt c⟩ : Dev nD) = peer c := Fin.ext (k0_dev11_eq c)
theorem dev12_eq (c : Dev nD) : (⟨k0_dev12 c, k0_dev12_lt c⟩ : Dev nD) = peer c := Fin.ext (k0_dev12_eq c)
theorem dev13_eq (c : Dev nD) : (⟨k0_dev13 c, k0_dev13_lt c⟩ : Dev nD) = peer c := Fin.ext (k0_dev13_eq c)
theorem dev14_eq (c : Dev nD) : (⟨k0_dev14 c, k0_dev14_lt c⟩ : Dev nD) = peer c := Fin.ext (k0_dev14_eq c)
theorem dev15_eq (c : Dev nD) : (⟨k0_dev15 c, k0_dev15_lt c⟩ : Dev nD) = peer c := Fin.ext (k0_dev15_eq c)
theorem dev16_eq (c : Dev nD) : (⟨k0_dev16 c, k0_dev16_lt c⟩ : Dev nD) = peer c := Fin.ext (k0_dev16_eq c)
theorem dev17_eq (c : Dev nD) : (⟨k0_dev17 c, k0_dev17_lt c⟩ : Dev nD) = peer c := Fin.ext (k0_dev17_eq c)

variable (m : (ℓ : Loc nD τ sig) → Buf (Elt F) ℓ)

/-- Device d's argument array as launched: its 4096 rows of the whole input. -/
def xOf (d : Dev nD) : FVec F S4096x2048 .f32 := m ((d : Thread nD τ).loc main_arg0)

/-- The device whose rows hold row R of the whole input, seen from c: c itself on its own row block, the peer on the other. -/
def srcDev (c : Dev nD) (R : Nat) : Dev nD := if R / 4096 = cy c then c else peer c

/-- A rank-2 index of the argument array from two numbers in range. -/
def xIdx (r j : Nat) (hr : r < 4096) (hj : j < 2048) : S4096x2048.Idx := ix2 ⟨r, hr⟩ ⟨j, hj⟩

/-- THE RESULT: entry (R, j) of device c's result array is entry (R mod 4096, 1024 * cy c + j) of the argument array of
    the device that holds row R, narrowed to the result's element type. -/
def outFinal (c : Dev nD) : FVec F S8192x1024 .bf16 := fun idx =>
  FloatOps.truncf .bf16 bitsLt_bf16_f32
    (xOf m (srcDev c (idx 0).val)
      (xIdx ((idx 0).val % 4096) (1024 * cy c + (idx 1).val) (Nat.mod_lt _ (by decide))
        (by have h1 := cy_lt c; have h2 : (idx 1).val < 1024 := (idx 1).isLt; omega)))

end Cert.Kernel.Spec

end
-- ==== Proof.Word.Sched.lean ====
/-
  The protocol of the all-to-all, per device c with peer p (the device that differs in the middle mesh coordinate):

    barrier semaphore of c      waited once for 1 by c at entry; paid by p's entry signal.  Its landing tells c that p is
                                inside the kernel, and hands c the sixteen row bands of p's result array that c will write,
                                with the fact that p stands at round 0 of each of its receive cells.
    send semaphore i of c       waited by c at the end; paid by c's own transfer i once its source, slot i of the staging
                                scratch, has been read: the slot comes back holding what was staged.
    receive semaphore i of c    waited by c at the end; paid by p's transfer i once it has landed: the band of 256 rows
                                number i of p's row block of c's result array then holds its final contents.
    the four remaining DMA semaphores order c's own local copies only; no other device touches them.

  Every cell has one round with one duty.  A device waits on its barrier cell (level 1) while it owes only receive
  credit (level 2), and on its send and receive cells when it owes nothing.
-/
import proofs.«900623_g7700000000000624_dist_a2a_v7x_xyz2x2x2_y_m4096_n1024_bf16_1_alg».proof.Proof.Word.Spec
import proofs.«900623_g7700000000000624_dist_a2a_v7x_xyz2x2x2_y_m4096_n1024_bf16_1_alg».proof.Proof.Gen.Kernel.Skeleton
import proofs.«900623_g7700000000000624_dist_a2a_v7x_xyz2x2x2_y_m4096_n1024_bf16_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's copy (one duty a round), the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs, spelt as the body builds them, uniformly in the chunk number -/

abbrev xM : Memref sig .tc .hbm S4096x2048 .f32 := Memref.whole main_arg0
abbrev oM : Memref sig .tc .hbm S8192x1024 .bf16 := Memref.whole main_v1
abbrev xbM : Memref sig .tc .vmem S2x256x2048 .f32 := Memref.whole cc0_scratch0
abbrev stM : Memref sig .tc .vmem S16x256x1024 .bf16 := Memref.whole cc0_scratch1
abbrev lbM : Memref sig .tc .vmem S2x256x1024 .bf16 := Memref.whole cc0_scratch2

theorem inb_st (i : Fin 16) : ∀ a, (![i.val, 0, 0] : Fin 3 → Nat) a + S1x256x1024.size a ≤ S16x256x1024.size a := by
  revert i; decide

/-- Slot i of the staging scratch, as the source of transfer i. -/
abbrev stSlot (i : Fin 16) : Memref sig .tc .vmem S256x1024 .bf16 :=
  ((stM : Memref sig .tc .vmem S16x256x1024 .bf16).slice (Rect.unit (s := S16x256x1024) ![i.val, 0, 0] S1x256x1024.size (inb_st i)) (fun _ => rfl)).squeeze S256x1024 squeezes_S1x256x1024_S256x1024

/-- The band of 256 rows number i of device d's row block, in a result array: what d's transfer i writes on its peer and
    what d's local copy i writes at home. -/
abbrev outRows (d : Dev nD) (i : Fin 16) : Memref sig .tc .hbm S256x1024 .bf16 :=
  (oM : Memref sig .tc .hbm S8192x1024 .bf16).slice (Rect.unit (s := S8192x1024) (k0_off2 d (BitVec.ofNat 32 (256 * i.val))) S256x1024.size (k0_off2_inb d i)) (fun _ => rfl)

theorem inb_s16 (i : Fin 16) : ∀ a, (![i.val] : Fin 1 → Nat) a + S1.size a ≤ S16.size a := by revert i; decide

/-- The send and receive DMA semaphores of chunk i. -/
abbrev sendS (i : Fin 16) : DmaSems sig S_ := (cc0_scratch5.slice (Rect.unit (s := S16) ![i.val] S1.size (inb_s16 i))).squeeze S_ squeezes_S1_S_
abbrev recvS (i : Fin 16) : DmaSems sig S_ := (cc0_scratch6.slice (Rect.unit (s := S16) ![i.val] S1.size (inb_s16 i))).squeeze S_ squeezes_S1_S_

/-- The runtime's barrier semaphore of collective id 0 (not scoped to the launch). -/
abbrev barS : Sem sig := (SemArray.scalar (sig.barrier 0 rfl) : Sems sig S_).sem

abbrev barCell (c : Dev nD) : GSem nD τ sig := ((c : Thread nD τ), .reg barS)
abbrev sendCell (c : Dev nD) (i : Fin 16) : GSem nD τ sig := ((c : Thread nD τ), .dma (sendS i).sem)
abbrev recvCell (c : Dev nD) (i : Fin 16) : GSem nD τ sig := ((c : Thread nD τ), .dma (recvS i).sem)

/-- The credit of one chunk's transfer. -/
abbrev N : ℕ := (stSlot 0).view.dmaCredit

theorem N_pos : 0 < N := View.dmaCredit_pos _ (by decide)

/-- Where the chunks' semaphores sit among the core's 36 DMA semaphores. -/
theorem sendS_val (i : Fin 16) : ((sendS i).sem : DmaSem sig).val = 4 + i.val := by revert i; decide
theorem recvS_val (i : Fin 16) : ((recvS i).sem : DmaSem sig).val = 20 + i.val := by revert i; decide

/-- The chunk a send or receive semaphore belongs to, from its place. -/
def chunkAt (base : Nat) (q : DmaSem sig) : Fin 16 := ⟨(q.val - base) % 16, Nat.mod_lt _ (by decide)⟩
theorem chunkAt_send (i : Fin 16) : chunkAt 4 (sendS i).sem = i := by revert i; decide
theorem chunkAt_recv (i : Fin 16) : chunkAt 20 (recvS i).sem = i := by revert i; decide

/-! ## Contents -/

/-- What device c stages: entry (i, r, j) of the staging scratch is entry (256 i + r, 1024 (1 - cy c) + j) of c's argument
    array, narrowed: the peer's columns of c's rows, chunk by chunk.  One function for the whole scratch. -/
def stageVal (c : Dev nD) : FVec F S16x256x1024 .bf16 := fun idx =>
  FloatOps.truncf .bf16 bitsLt_bf16_f32
    (xOf m c (xIdx (256 * (idx 0).val + (idx 1).val) (1024 * (1 - cy c) + (idx 2).val)
      (by have h0 : (idx 0).val < 16 := (idx 0).isLt; have h1 : (idx 1).val < 256 := (idx 1).isLt; omega)
      (by have h2 : (idx 2).val < 1024 := (idx 2).isLt; have := cy_lt c; omega)))

/-! ## The schedule's payloads -/

/-- Slot i of c's staging scratch back at what c staged. -/
def sendPay (c : Dev nD) (i : Fin 16) : sProp 𝕄 :=
  (stSlot i).view.loc (c : Thread nD τ) ↦[(stSlot i).view.set]{fullShare} (stageVal m c)
/-- Band i of the peer's row block, in c's result array, at its final contents. -/
def recvPay (c : Dev nD) (i : Fin 16) : sProp 𝕄 :=
  (outRows (peer c) i).view.loc (c : Thread nD τ) ↦[(outRows (peer c) i).view.set]{fullShare} (outFinal m c)
/-- What the peer's entry signal hands c: the sixteen bands of c's row block in the PEER's result array, at some contents,
    and that the peer stands at round 0 of each of its receive cells. -/
def barPay (c : Dev nD) : sProp 𝕄 :=
  iprop((bigSep Finset.univ fun i : Fin 16 => iprop(∃ f, (outRows c i).view.loc (peer c : Thread nD τ) ↦[(outRows c i).view.set]{fullShare} f))
    ∗ bigSep Finset.univ fun i : Fin 16 => reached ER (recvCell (peer c) i) 0)

abbrev IsBar (g : GSem nD τ sig) : Prop := g.1.2 = .tc ∧ g.2 = .reg barS
abbrev IsSendQ (q : DmaSem sig) : Prop := 4 ≤ q.val ∧ q.val < 20
abbrev IsRecvQ (q : DmaSem sig) : Prop := 20 ≤ q.val ∧ q.val < 36

/-- Which cells are the protocol's: the barrier cell and the thirty-two chunk cells of a TensorCore. -/
def IsProto (g : GSem nD τ sig) : Prop :=
  g.1.2 = .tc ∧ (g.2 = .reg barS ∨ ∃ q, g.2 = .dma q ∧ 4 ≤ q.val)
instance (g : GSem nD τ sig) : Decidable (IsProto g) := by unfold IsProto; infer_instance

/-- One round, round 0, one duty in it: a barrier cell's is one unit, a chunk cell's the chunk's credit. -/
def a2aRd : Rounds.Schedule (GSem nD τ sig) Unit 𝕄 where
  duties g r := if r = 0 ∧ IsProto g then {()} else ∅
  unitless _ := False
  amount g _ _ := if g.2 = .reg barS then 1 else N
  payload g _ _ := match g.2 with
    | .reg _ => barPay g.1.1
    | .dma q => if IsSendQ q then sendPay m g.1.1 (chunkAt 4 q) else recvPay m g.1.1 (chunkAt 20 q)
  amount_pos g _ _ _ := by
    by_cases h : g.2 = .reg barS
    · rw [if_pos h]; exact Nat.one_pos
    · rw [if_neg h]; exact N_pos

instance a2aRd_payload_storable (g : GSem nD τ sig) (r : ℕ) (d : Unit) :
    BI.Storable (upEmb : UEmb _ 𝕄) ((a2aRd (F := F) m).payload g r d) := by
  show BI.Storable upEmb (match g.2 with
    | .reg _ => barPay g.1.1
    | .dma q => if IsSendQ q then sendPay m g.1.1 (chunkAt 4 q) else recvPay m g.1.1 (chunkAt 20 q))
  unfold barPay sendPay recvPay
  (repeat' split) <;> infer_instance

section Sched
variable (c : Dev nD) (i : Fin 16)

theorem send_ne_bar : (SemLoc.dma (sendS i).sem : SemLoc sig) ≠ .reg barS := fun h => by cases h
theorem recv_ne_bar : (SemLoc.dma (recvS i).sem : SemLoc sig) ≠ .reg barS := fun h => by cases h
theorem isSendQ_send : IsSendQ (sendS i).sem := by unfold IsSendQ; rw [sendS_val]; have := i.isLt; omega
theorem not_isSendQ_recv : ¬ IsSendQ (recvS i).sem := by unfold IsSendQ; rw [recvS_val]; omega

theorem isProto_bar : IsProto (barCell c) := ⟨rfl, .inl rfl⟩
theorem isProto_send : IsProto (sendCell c i) := ⟨rfl, .inr ⟨_, rfl, by rw [sendS_val]; omega⟩⟩
theorem isProto_recv : IsProto (recvCell c i) := ⟨rfl, .inr ⟨_, rfl, by rw [recvS_val]; omega⟩⟩

theorem duties_bar : (a2aRd (F := F) m).duties (barCell c) 0 = {()} := by dsimp only [a2aRd]; exact if_pos ⟨rfl, isProto_bar c⟩
theorem duties_send : (a2aRd (F := F) m).duties (sendCell c i) 0 = {()} := by dsimp only [a2aRd]; exact if_pos ⟨rfl, isProto_send c i⟩
theorem duties_recv : (a2aRd (F := F) m).duties (recvCell c i) 0 = {()} := by dsimp only [a2aRd]; exact if_pos ⟨rfl, isProto_recv c i⟩
theorem duties_later (g : GSem nD τ sig) : ∀ r, 1 ≤ r → (a2aRd (F := F) m).duties g r = ∅ :=
  fun r hr => by dsimp only [a2aRd]; rw [if_neg fun h => by omega]

theorem amount_bar (d : Unit) : (a2aRd (F := F) m).amount (barCell c) 0 d = 1 := by dsimp only [a2aRd]; exact if_pos rfl
theorem amount_send (d : Unit) : (a2aRd (F := F) m).amount (sendCell c i) 0 d = N := by dsimp only [a2aRd]; exact if_neg (send_ne_bar i)
theorem amount_recv (d : Unit) : (a2aRd (F := F) m).amount (recvCell c i) 0 d = N := by dsimp only [a2aRd]; exact if_neg (recv_ne_bar i)

theorem expect_bar : (a2aRd (F := F) m).expect (barCell c) 0 = 1 := by
  unfold Schedule.expect Schedule.amountOf; rw [duties_bar, Finset.sum_singleton, amount_bar]
theorem expect_send : (a2aRd (F := F) m).expect (sendCell c i) 0 = N := by
  unfold Schedule.expect Schedule.amountOf; rw [duties_send, Finset.sum_singleton, amount_send]
theorem expect_recv : (a2aRd (F := F) m).expect (recvCell c i) 0 = N := by
  unfold Schedule.expect Schedule.amountOf; rw [duties_recv, Finset.sum_singleton, amount_recv]

theorem payload_bar (d : Unit) : (a2aRd (F := F) m).payload (barCell c) 0 d = barPay c := rfl
theorem payload_send (d : Unit) : (a2aRd (F := F) m).payload (sendCell c i) 0 d = sendPay m c i := by
  show (if IsSendQ (sendS i).sem then sendPay m c (chunkAt 4 (sendS i).sem) else recvPay m c (chunkAt 20 (sendS i).sem)) = _
  rw [if_pos (isSendQ_send i), chunkAt_send]
theorem payload_recv (d : Unit) : (a2aRd (F := F) m).payload (recvCell c i) 0 d = recvPay m c i := by
  show (if IsSendQ (recvS i).sem then sendPay m c (chunkAt 4 (recvS i).sem) else recvPay m c (chunkAt 20 (recvS i).sem)) = _
  rw [if_neg (not_isSendQ_recv i), chunkAt_recv]

/-- The rest of a cell's one-duty round, no duty taken, is that duty's payload. -/
theorem rest_bar : bigSep ((a2aRd (F := F) m).duties (barCell c) 0 \ ∅) (fun d => (a2aRd (F := F) m).payload (barCell c) 0 d) = barPay c := by
  rw [Finset.sdiff_empty, duties_bar, bigSep_singleton, payload_bar]
theorem rest_send : bigSep ((a2aRd (F := F) m).duties (sendCell c i) 0 \ ∅) (fun d => (a2aRd (F := F) m).payload (sendCell c i) 0 d) = sendPay m c i := by
  rw [Finset.sdiff_empty, duties_send, bigSep_singleton, payload_send]
theorem rest_recv : bigSep ((a2aRd (F := F) m).duties (recvCell c i) 0 \ ∅) (fun d => (a2aRd (F := F) m).payload (recvCell c i) 0 d) = recvPay m c i := by
  rw [Finset.sdiff_empty, duties_recv, bigSep_singleton, payload_recv]

end Sched

/-! ## What each core owes at launch; the levels -/

/-- Device c owes its peer's barrier cell one unit and each of its peer's sixteen receive cells a chunk's credit. -/
def owedRecv (c : Dev nD) : CellTallies nD τ sig Unit := ∑ i : Fin 16, tallyAt (recvCell (peer c) i) () N
def O₀ (c : Dev nD) : CellTallies nD τ sig Unit := owedRecv c + tallyAt (barCell (peer c)) () 1

def L (g : GSem nD τ sig) : Finset Unit := if g.1.2 = .tc then {()} else ∅
/-- Barrier cells at 1, receive cells at 2, everything else (send cells, the local copies' cells) at 0. -/
def lv (g : GSem nD τ sig) (_ : Unit) : ℕ :=
  match g.2 with
  | .reg _ => 1
  | .dma q => if IsRecvQ q then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from -/

/-- The protocol's 33 cells of a device, as the launch allocates them: the barrier cell, the sixteen send cells, the sixteen receive cells. -/
abbrev csem : Fin 33 → SemLoc sig := fun k => if k.val = 0 then .reg barS else .dma ⟨k.val + 3, by have := k.isLt; show _ < 36; omega⟩
abbrev kcell (ck : Dev nD × Fin 33) : GSem nD τ sig := ((ck.1 : Thread nD τ), csem ck.2)
abbrev kB : Fin 33 := 0
abbrev kS (i : Fin 16) : Fin 33 := ⟨1 + i.val, by have := i.isLt; omega⟩
abbrev kR (i : Fin 16) : Fin 33 := ⟨17 + i.val, by have := i.isLt; omega⟩
theorem kcell_bar (c : Dev nD) : kcell (c, kB) = barCell c := rfl
theorem csem_kS (i : Fin 16) : csem (kS i) = .dma (sendS i).sem := by revert i; decide
theorem csem_kR (i : Fin 16) : csem (kR i) = .dma (recvS i).sem := by revert i; decide
theorem kcell_send (c : Dev nD) (i : Fin 16) : kcell (c, kS i) = sendCell c i := congrArg (Prod.mk (c : Thread nD τ)) (csem_kS i)
theorem kcell_recv (c : Dev nD) (i : Fin 16) : kcell (c, kR i) = recvCell c i := congrArg (Prod.mk (c : Thread nD τ)) (csem_kR i)

/-- The kernel's OWN (scoped) semaphores: all 36 DMA semaphores. -/
abbrev osem : Fin 36 → SemLoc sig := fun k => .dma k
/-- The four that order the local copies only (two for the input slots, two for the local output slots). -/
abbrev lsem : Fin 4 → SemLoc sig := fun k => .dma ⟨k.val, by have := k.isLt; show _ < 36; omega⟩
def localSems0 (c : Dev nD) : sProp 𝕄 := bigSep Finset.univ fun k : Fin 4 => semVal ((c : Thread nD τ), lsem k) 0

/-- The invariants device c's body opens: its own 33 cells', its peer's barrier cell's (its entry signal) and its peer's sixteen
    receive cells' (its transfers), under the names K the launch allocated them at. -/
def invs (K : Dev nD × Fin 33 → ℕ) (c : Dev nD) : sProp 𝕄 :=
  iprop(cellInv ER (a2aRd m) (K (c, kB)) (barCell c) ∗ cellInv ER (a2aRd m) (K (peer c, kB)) (barCell (peer c))
    ∗ (bigSep Finset.univ fun i : Fin 16 => cellInv ER (a2aRd m) (K (c, kS i)) (sendCell c i))
    ∗ (bigSep Finset.univ fun i : Fin 16 => cellInv ER (a2aRd m) (K (c, kR i)) (recvCell c i))
    ∗ (bigSep Finset.univ fun i : Fin 16 => cellInv ER (a2aRd m) (K (peer c, kR i)) (recvCell (peer c) i)))

instance invs_persistent (K : Dev nD × Fin 33 → ℕ) (c : Dev nD) : BI.Persistent (invs m K c) := by unfold invs; infer_instance

/-- What device c holds of the protocol's ghost state when its body starts: the invariants; its positions at round 0 of its 33
    cells; round 0 reached of the cells it pays (the peer's barrier cell, its own send cells) and of its own receive cells
    (which its entry signal passes to the peer); and the 33 duty tokens it pays with. -/
def ghost (K : Dev nD × Fin 33 → ℕ) (c : Dev nD) : sProp 𝕄 :=
  iprop(invs m K c
    ∗ atPos ER (barCell c) 0 ∅ 0
    ∗ (bigSep Finset.univ fun i : Fin 16 => atPos ER (sendCell c i) 0 ∅ 0)
    ∗ (bigSep Finset.univ fun i : Fin 16 => atPos ER (recvCell c i) 0 ∅ 0)
    ∗ reached ER (barCell (peer c)) 0
    ∗ (bigSep Finset.univ fun i : Fin 16 => reached ER (sendCell c i) 0)
    ∗ (bigSep Finset.univ fun i : Fin 16 => reached ER (recvCell c i) 0)
    ∗ dutyTok ER (barCell (peer c)) 0 ()
    ∗ (bigSep Finset.univ fun i : Fin 16 => dutyTok ER (sendCell c i) 0 ())
    ∗ (bigSep Finset.univ fun i : Fin 16 => dutyTok ER (recvCell (peer c) i) 0 ()))

/-- The credit dealt to device c at launch: what the peer owes its barrier cell and its receive cells. -/
def creds (c : Dev nD) : sProp 𝕄 :=
  iprop(cred (tallyAt (barCell c) () 1) ∗ bigSep Finset.univ fun i : Fin 16 => cred (tallyAt (recvCell c i) () N))

/-- Device c's two arrays as the region finds them. -/
def arrs0 (c : Dev nD) : sProp 𝕄 :=
  iprop((((c : Thread nD τ).loc main_arg0) ↦{fullShare} m ((c : Thread nD τ).loc main_arg0))
    ∗ (((c : Thread nD τ).loc main_v1) ↦{fullShare} m ((c : Thread nD τ).loc main_v1)))
/-- and as it leaves them: the argument unchanged, the result at outFinal. -/
def arrs1 (c : Dev nD) : sProp 𝕄 :=
  iprop((((c : Thread nD τ).loc main_arg0) ↦{fullShare} m ((c : Thread nD τ).loc main_arg0))
    ∗ (((c : Thread nD τ).loc main_v1) ↦{fullShare} (outFinal m c)))

/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What the launch routes into the region for device c (the launch theorem's X). -/
def start (c : Dev nD) : sProp 𝕄 :=
  iprop((∃ K, ghost m K c) ∗ creds c ∗ localSems0 c ∗ levAts L lv ∗ arrs0 m c)

/-- Before the one grid point, and after it: all 36 own semaphores back at zero, closed. -/
def Φ₀ (c : Dev nD) : sProp 𝕄 := iprop(start m c ∗ scratch c)
def Φ₁ (c : Dev nD) : sProp 𝕄 := iprop(arrs1 m c ∗ Pipeline.ownSems0 osem c ∗ scratch c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.A2A

end
-- ==== Proof.Word.Rules.lean ====
/-
  The rounds library's rules at this protocol's cells, each stated once over the device c and the chunk number i with the
  rest of the program as a continuation: the entry signal to the peer's barrier cell, the wait on one's own, transfer i
  (paying one's own send cell i and the peer's receive cell i), the waits on the send and receive cells, and the closing
  of a cell whose one round is consumed.
-/
import proofs.«900623_g7700000000000624_dist_a2a_v7x_xyz2x2x2_y_m4096_n1024_bf16_1_alg».proof.Proof.Word.Sched

noncomputable section

namespace Cert.Kernel.A2A

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

/-- The entry signal: device c pays the one duty of its peer's barrier cell, handing over the sixteen bands of the peer's row
    block in c's own result array and that c stands at round 0 of its receive cells. -/
theorem wp_signal_peer (c n : Dev nD) (hn : n = peer c) {k' : ℕ} (hk' : k' = 1)
    {α : Type} {Q : α → sProp 𝕄} {k : PUnit → Prog (TpuEff nD τ sig (Elt F) Λ₀ .tc) α}
    (O : CellTallies nD τ sig Unit) (W : Waits sig Unit) :
    iprop(cellInv ER (a2aRd m) (K (peer c, kB)) (barCell (peer c))
        ∗ owes (c : Thread nD τ) (O + tallyAt (barCell (peer c)) () 1) W
        ∗ dutyTok ER (barCell (peer c)) 0 () ∗ barPay (F := F) (peer c) ∗ reached ER (barCell (peer c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk'
  exact Rounds.wp_signal 𝒱₀ ER (a2aRd m) (c : Thread nD τ) none (dst := (peer c : Thread nD τ)) (κ := K (peer c, kB)) (d := ())
    (by rw [duties_bar]; exact Finset.mem_singleton_self _) (amount_bar m (peer c) ()) () O rfl

/-- The wait on one's own barrier cell for its one unit, owing O: the peer's payload comes with it. -/
theorem wp_wait_bar (c : Dev nD) {w : TpuEff nD τ sig (Elt F) Λ₀ .tc PUnit} {k' : ℕ} (hk' : k' = 1)
    (hw : ∀ Kt : PUnit → sProp 𝕄, wpE (defs₀ (F := F)) 𝒱₀ (c : Thread nD τ) none Set.univ w Kt = waitSpec (c : Thread nD τ) Set.univ (.reg barS) k' Kt)
    {α : Type} {Q : α → sProp 𝕄} {k : PUnit → Prog (TpuEff nD τ sig (Elt F) Λ₀ .tc) α}
    (O : CellTallies nD τ sig Unit) (W : Waits sig Unit) :
    iprop(cellInv ER (a2aRd m) (K (c, kB)) (barCell c) ∗ cred (tallyAt (barCell c) () k') ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1 ∗ barPay (F := F) c)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hk'
  rw [← rest_bar m c]
  exact Rounds.wp_wait_rest_token 𝒱₀ ER (a2aRd m) (c : Thread nD τ) none (κ := K (c, kB)) hw (Set.mem_univ _) ()
    (O := O) (W := W) (R := 0) (m := 0) (T := ∅) (by rw [expect_bar])

/-- Transfer i: the staging slot at what was staged and the band of the peer's result array, owned outright, go in; the send
    cell's credit comes back and the receive cell's credit is paid off what c owes. -/
theorem wp_send_chunk (c n : Dev nD) (hn : n = peer c) (i : Fin 16)
    {hsc : (outRows c i : Memref sig (Dev.tc n : Thread nD τ).2.kind .hbm S256x1024 .bf16).view.ref.isScScratch = false}
    {hsrc : (stSlot i).view.WordExact} {hdst : (outRows c i).view.WordExact}
    {hsem : DmaTarget.Typed .vmem (.dma (recvS i).sem) (.remote (Dev.tc n : Thread nD τ) (outRows c i) (.dma (sendS i).sem) hsc)}
    {α : Type} {Q : α → sProp 𝕄} {k : PUnit → Prog (TpuEff nD τ sig (Elt F) Λ₀ .tc) α}
    (fd : Buf (Elt F) ((outRows c i).view.loc (peer c : Thread nD τ))) (O : CellTallies nD τ sig Unit) (W : Waits sig Unit)
    (hN : (outRows c i).view.amount (.dma (recvS i).sem) = N)
    (hpay₂ : ((outRows c i).view.loc (peer c : Thread nD τ) ↦[(outRows c i).view.set]{fullShare}
        ((outRows c i).view.write (Elt F) fd ((stSlot i).view.read (Elt F) (stageVal m c)) Finset.univ) : sProp 𝕄)
      ⊢ (a2aRd m).payload (recvCell (peer c) i) 0 ()) :
    iprop(cellInv ER (a2aRd m) (K (c, kS i)) (sendCell c i) ∗ cellInv ER (a2aRd m) (K (peer c, kR i)) (recvCell (peer c) i)
        ∗ ((stSlot i).view.loc (c : Thread nD τ) ↦[(stSlot i).view.set]{fullShare} (stageVal m c))
        ∗ ((outRows c i).view.loc (peer c : Thread nD τ) ↦[(outRows c i).view.set]{fullShare} fd)
        ∗ owes (c : Thread nD τ) (O + tallyAt (recvCell (peer c) i) () N) W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stSlot i) (.remote (Dev.tc n : Thread nD τ) (outRows c i) (.dma (sendS i).sem) hsc) (.dma (recvS i).sem) hsrc hdst hsem) k) Q) := by
  subst hn
  exact Rounds.wp_send_pointsTo 𝒱₀ ER (a2aRd m) (c : Thread nD τ) none (c' := (peer c : Thread nD τ)) (src := stSlot i) (dst := outRows c i)
    (q := fullShare) (fs := stageVal m c) (fd := fd)
    (κ₁ := K (c, kS i)) (κ₂ := K (peer c, kR i)) (r₁ := 0) (r₂ := 0) (d₁ := ()) (d₂ := ())
    (by rw [duties_send]; exact Finset.mem_singleton_self _) (by rw [duties_recv]; exact Finset.mem_singleton_self _)
    () () N hN (amount_send m c i ()) (amount_recv m (peer c) i ()) O rfl (W := W)
    (by rw [payload_send]; exact BI.Entails.refl _) hpay₂

/-- The wait on send cell i, owing nothing: staging slot i back at what was staged. -/
theorem wp_wait_send (c : Dev nD) (i : Fin 16) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (sendS i).sem) N Kt)
    {α : Type} {Q : α → sProp 𝕄} {k : PUnit → Prog (TpuEff nD τ sig (Elt F) Λ₀ .tc) α}
    (O : CellTallies nD τ sig Unit) (W : Waits sig Unit) :
    iprop(cellInv ER (a2aRd m) (K (c, kS i)) (sendCell c i) ∗ cred (tallyAt (sendCell c i) () N) ∗ owes (c : Thread nD τ) O W
        ∗ MayWait (c : Thread nD τ) (.dma (sendS i).sem) () O ∗ atPos ER (sendCell c i) 0 ∅ 0)
      ⊢ iprop(((owes (c : Thread nD τ) O (insert (SemLoc.dma (sendS i).sem, ()) W) ∗ atPos ER (sendCell c i) 1 ∅ 0 ∗ reached ER (sendCell c i) 1 ∗ sendPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  rw [← rest_send m c i]
  exact Rounds.wp_wait_rest_token 𝒱₀ ER (a2aRd m) (c : Thread nD τ) none (κ := K (c, kS i)) hw (Set.mem_univ _) ()
    (O := O) (W := W) (R := 0) (m := 0) (T := ∅) (by rw [Nat.zero_add, expect_send])

/-- The wait on receive cell i: band i of the peer's row block, in c's result array, at its final contents. -/
theorem wp_wait_recv (c : Dev nD) (i : Fin 16) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (recvS i).sem) N Kt)
    {α : Type} {Q : α → sProp 𝕄} {k : PUnit → Prog (TpuEff nD τ sig (Elt F) Λ₀ .tc) α}
    (O : CellTallies nD τ sig Unit) (W : Waits sig Unit) :
    iprop(cellInv ER (a2aRd m) (K (c, kR i)) (recvCell c i) ∗ cred (tallyAt (recvCell c i) () N) ∗ owes (c : Thread nD τ) O W
        ∗ MayWait (c : Thread nD τ) (.dma (recvS i).sem) () O ∗ atPos ER (recvCell c i) 0 ∅ 0)
      ⊢ iprop(((owes (c : Thread nD τ) O (insert (SemLoc.dma (recvS i).sem, ()) W) ∗ atPos ER (recvCell c i) 1 ∅ 0 ∗ reached ER (recvCell c i) 1 ∗ recvPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  rw [← rest_recv m c i]
  exact Rounds.wp_wait_rest_token 𝒱₀ ER (a2aRd m) (c : Thread nD τ) none (κ := K (c, kR i)) hw (Set.mem_univ _) ()
    (O := O) (W := W) (R := 0) (m := 0) (T := ∅) (by rw [Nat.zero_add, expect_recv])

/-- A protocol cell whose one round is consumed closes: its counter, at zero, is the core's again. -/
theorem close_send (c : Dev nD) (i : Fin 16) :
    iprop(cellInv ER (a2aRd m) (K (c, kS i)) (sendCell c i) ∗ atPos ER (sendCell c i) 1 ∅ 0) ⊢ (|={Set.univ}=> semVal (sendCell c i) 0 : sProp 𝕄) :=
  Rounds.cell_close ER (a2aRd m) (Set.mem_univ (K (c, kS i))) (fun h => h) (R := 0 + 1) (duties_later m (sendCell c i))
theorem close_recv (c : Dev nD) (i : Fin 16) :
    iprop(cellInv ER (a2aRd m) (K (c, kR i)) (recvCell c i) ∗ atPos ER (recvCell c i) 1 ∅ 0) ⊢ (|={Set.univ}=> semVal (recvCell c i) 0 : sProp 𝕄) :=
  Rounds.cell_close ER (a2aRd m) (Set.mem_univ (K (c, kR i))) (fun h => h) (R := 0 + 1) (duties_later m (recvCell c i))

end Cert.Kernel.A2A

end
-- ==== Proof.Word.Owed.lean ====
/-
  What a device still owes its peer's receive cells before transfer j: the credit of the chunks j, j + 1, …, 15.  Transfer j
  pays chunk j's off it; before the first transfer it is everything owed to the receive cells, after the last nothing.
  And a sixteen-fold separating conjunction written out, so that each chunk's resource can be named.
-/
import proofs.«900623_g7700000000000624_dist_a2a_v7x_xyz2x2x2_y_m4096_n1024_bf16_1_alg».proof.Proof.Word.Sched

noncomputable section

namespace Cert.Kernel.A2A

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The receive credit of the chunks from j on. -/
def owedFrom (c : Dev nD) (j : ℕ) : CellTallies nD τ sig Unit :=
  ∑ i ∈ (Finset.univ.filter fun i : Fin 16 => j ≤ i.val), tallyAt (recvCell (peer c) i) () N

theorem owedFrom_zero (c : Dev nD) : owedFrom c 0 = owedRecv c := by
  unfold owedFrom owedRecv
  rw [Finset.filter_true_of_mem (fun i _ => Nat.zero_le _)]

theorem owedFrom_last (c : Dev nD) : owedFrom c 16 = 0 := by
  unfold owedFrom
  rw [Finset.filter_false_of_mem (fun i _ => by have := i.isLt; omega), Finset.sum_empty]

/-- Transfer i's credit is the first summand of what is owed before it. -/
theorem owedFrom_step (c : Dev nD) (i : Fin 16) :
    owedFrom c i.val = owedFrom c (i.val + 1) + tallyAt (recvCell (peer c) i) () N := by
  unfold owedFrom
  have hsplit : (Finset.univ.filter fun k : Fin 16 => i.val ≤ k.val) = insert i (Finset.univ.filter fun k : Fin 16 => i.val + 1 ≤ k.val) := by
    ext k
    simp only [Finset.mem_filter, Finset.mem_univ, true_and, Finset.mem_insert]
    constructor
    · intro h
      by_cases hk : k = i
      · exact Or.inl hk
      · exact Or.inr (by have : k.val ≠ i.val := fun h' => hk (Fin.ext h'); omega)
    · rintro (h | h)
      · rw [h]
      · omega
  rw [hsplit, Finset.sum_insert (by simp only [Finset.mem_filter, Finset.mem_univ, true_and]; omega), add_comm]

/-- What the launch makes a device owe, as the chain the body peels: the entry signal's unit last, so first to go. -/
theorem O₀_eq (c : Dev nD) : O₀ c = owedFrom c 0 + tallyAt (barCell (peer c)) () 1 := by
  unfold O₀; rw [owedFrom_zero]

/-- A conjunction over the sixteen chunks, written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- The four local counters, written out. -/
theorem localSems0_eq (c : Dev nD) :
    (localSems0 (F := F) c : sProp 𝕄) = iprop(semVal ((c : Thread nD τ), lsem 0) 0 ∗ semVal ((c : Thread nD τ), lsem 1) 0
      ∗ semVal ((c : Thread nD τ), lsem 2) 0 ∗ semVal ((c : Thread nD τ), lsem 3) 0) := by
  unfold localSems0
  exact bigSep_univ_eq_bigSepL [0, 1, 2, 3] (by decide) (by decide) _

end Cert.Kernel.A2A

end
-- ==== Proof.Word.Contents.lean ====
/-
  The pure facts one device's body and the launch meet at: the levels' evidence at each wait, the premises of the
  transfer rule at the protocol's cells, the contents every copy and store leaves, written as equations between
  functions of indices, and the result array cut into its thirty-two bands of 256 rows and joined back.
-/
import proofs.«900623_g7700000000000624_dist_a2a_v7x_xyz2x2x2_y_m4096_n1024_bf16_1_alg».proof.Proof.Word.Sched
import Idealize.ShloMosaic.Lib.Pipeline.Value

noncomputable section

namespace Cert.Kernel.A2A

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The levels' evidence -/

/-- The receive credit a device owes is positive only at a receive cell of its peer. -/
theorem owedRecv_pos {c : Dev nD} {g : GSem nD τ sig} {u : Unit} (h : 0 < owedRecv c g u) : ∃ i, g = recvCell (peer c) i := by
  unfold owedRecv at h
  obtain ⟨i, _, hi⟩ := Pipeline.sum_pos_exists h
  exact ⟨i, (Pipeline.tallyAt_pos hi).1⟩

/-- A partial sum of the receive credit is positive only at a receive cell of the peer. -/
theorem sumRecv_pos {c : Dev nD} {S : Finset (Fin 16)} {g : GSem nD τ sig} {u : Unit}
    (h : 0 < (∑ i ∈ S, (tallyAt (recvCell (peer c) i) () N : CellTallies nD τ sig Unit)) g u) : ∃ i, g = recvCell (peer c) i := by
  obtain ⟨i, _, hi⟩ := Pipeline.sum_pos_exists h
  exact ⟨i, (Pipeline.tallyAt_pos hi).1⟩

/-- Receive cells sit at level 2. -/
theorem lv_recv (d : Dev nD) (i : Fin 16) (u : Unit) : lv (recvCell d i) u = 2 := by
  show (if IsRecvQ (recvS i).sem then 2 else 0) = 2
  rw [if_pos]; unfold IsRecvQ; rw [recvS_val]; have := i.isLt; omega

/-- Barrier cells sit at level 1. -/
theorem lv_bar (d : Dev nD) (u : Unit) : lv (barCell d) u = 1 := rfl

/-- A DMA cell that is no receive cell sits at level 0. -/
theorem lv_low (d : Dev nD) (q : DmaSem sig) (hq : ¬ IsRecvQ q) (u : Unit) : lv ((d : Thread nD τ), .dma q) u = 0 := by
  show (if IsRecvQ q then 2 else 0) = 0
  rw [if_neg hq]

/-- At its barrier wait (level 1) a device owes only receive credit (level 2). -/
theorem mayWait_bar (c : Dev nD) : (levAts L lv : sProp 𝕄) ⊢ MayWait (c : Thread nD τ) (.reg barS) () (owedRecv c) :=
  MayOwe.of_cut (L := L) (lev := lv) 1
    (fun p hp => by rw [Finset.mem_singleton.mp hp, L_tc]; exact Finset.mem_singleton_self _)
    (fun g u hg => by obtain ⟨i, rfl⟩ := owedRecv_pos hg; rw [L_tc]; exact Finset.mem_singleton_self _)
    (fun p hp => by rw [Finset.mem_singleton.mp hp]; exact le_refl _)
    (fun g u hg => by obtain ⟨i, rfl⟩ := owedRecv_pos hg; rw [lv_recv]; decide)

/-- A wait on a level-0 cell (a local copy's or a send cell) while owing any part of the receive credit. -/
theorem mayWait_low (c : Dev nD) (q : DmaSem sig) (hq : ¬ IsRecvQ q) (O : CellTallies nD τ sig Unit)
    (hO : ∀ g u, 0 < O g u → ∃ i, g = recvCell (peer c) i) :
    (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => by obtain ⟨i, rfl⟩ := hO g u hg; rw [L_tc]; exact Finset.mem_singleton_self _)
    (fun p hp => by rw [Finset.mem_singleton.mp hp, lv_low c q hq])
    (fun g u hg => by obtain ⟨i, rfl⟩ := hO g u hg; rw [lv_recv]; decide)

/-- The same while owing the whole receive credit. -/
theorem mayWait_low_owed (c : Dev nD) (q : DmaSem sig) (hq : ¬ IsRecvQ q) :
    (levAts L lv : sProp 𝕄) ⊢ MayWait (c : Thread nD τ) (.dma q) () (owedRecv c) :=
  mayWait_low c q hq _ fun _ _ h => owedRecv_pos h

/-- The same while owing the receive credit of the chunks in S. -/
theorem mayWait_low_sum (c : Dev nD) (q : DmaSem sig) (hq : ¬ IsRecvQ q) (S : Finset (Fin 16)) :
    (levAts L lv : sProp 𝕄) ⊢ MayWait (c : Thread nD τ) (.dma q) () (∑ i ∈ S, tallyAt (recvCell (peer c) i) () N) :=
  mayWait_low c q hq _ fun _ _ h => sumRecv_pos h

/-! ## The transfer rule's premises at the protocol's cells -/

/-- The credit of a band of the result array is a chunk's credit. -/
theorem amount_out (c : Dev nD) (i : Fin 16) : (outRows c i).view.amount (.dma (recvS i).sem) = N := rfl

/-- The elements of band i of device d's row block: a rectangle of the result array. -/
theorem outRows_set (d : Dev nD) (i : Fin 16) :
    (outRows d i).view.set = (Rect.unit (s := S8192x1024) (k0_off2 d (BitVec.ofNat 32 (256 * i.val))) S256x1024.size (k0_off2_inb d i)).set :=
  View.set_slice_whole _ _

/-- Band i of device d's row block holds the rows 4096 * cy d + 256 * i up to 256 more, every column. -/
theorem mem_outRows (d : Dev nD) (i : Fin 16) (x : S8192x1024.Idx) :
    x ∈ (outRows d i).view.set ↔ 4096 * cy d + 256 * i.val ≤ (x 0).val ∧ (x 0).val < 4096 * cy d + 256 * i.val + 256 := by
  rw [outRows_set, Rect.mem_set_unit, k0_off2_eq, Fin.forall_fin_two]
  have h1 : (x 1).val < 1024 := (x 1).isLt
  show (4096 * cy d + 256 * i.val ≤ (x 0).val ∧ (x 0).val < 4096 * cy d + 256 * i.val + 256) ∧ (0 ≤ (x 1).val ∧ (x 1).val < 0 + 1024) ↔ _
  omega

/-- Where the band's own index (r, j) sits in the result array: row 4096 * cy d + 256 * i + r, column j. -/
theorem outRows_emb0 (d : Dev nD) (i : Fin 16) (y : S256x1024.Idx) :
    (((outRows d i).view.emb y : S8192x1024.Idx) 0).val = 4096 * cy d + 256 * i.val + (y 0).val := by
  show k0_off2 d (BitVec.ofNat 32 (256 * i.val)) 0 + 1 * (y 0).val = _
  rw [k0_off2_eq]
  show 4096 * cy d + 256 * i.val + 1 * (y 0).val = _
  omega

theorem outRows_emb1 (d : Dev nD) (i : Fin 16) (y : S256x1024.Idx) :
    (((outRows d i).view.emb y : S8192x1024.Idx) 1).val = (y 1).val := by
  show k0_off2 d (BitVec.ofNat 32 (256 * i.val)) 1 + 1 * (y 1).val = _
  rw [k0_off2_eq]
  show 0 + 1 * (y 1).val = _
  omega

/-- An element of the band is the image of its own index: the row less the band's first row, the same column. -/
theorem outRows_emb_of_mem (d : Dev nD) (i : Fin 16) (x : S8192x1024.Idx)
    (hx : 4096 * cy d + 256 * i.val ≤ (x 0).val ∧ (x 0).val < 4096 * cy d + 256 * i.val + 256) :
    (outRows d i).view.emb (ValueIdx.ix2 (n0 := 256) (n1 := 1024) ⟨(x 0).val - (4096 * cy d + 256 * i.val), by omega⟩ (x 1)) = x := by
  funext a
  apply Fin.ext
  match a with
  | ⟨0, _⟩ =>
    refine (outRows_emb0 d i _).trans ?_
    show 4096 * cy d + 256 * i.val + ((x 0).val - (4096 * cy d + 256 * i.val)) = (x 0).val
    omega
  | ⟨1, _⟩ => exact outRows_emb1 d i _

/-- Where slot i's own index (r, j) sits in the staging scratch: at (i, r, j). -/
theorem stSlot_emb (i : Fin 16) (y : S256x1024.Idx) :
    ((stSlot i).view.emb y : S16x256x1024.Idx) = ValueIdx.ix3 (n0 := 16) (n1 := 256) (n2 := 1024) i (y 0) (y 1) := by
  show (Rect.unit (s := S16x256x1024) ![i.val, 0, 0] S1x256x1024.size (inb_st i)).emb (Shape.reshapeEquiv (s := S1x256x1024) (s' := S256x1024) _ y) = _
  rw [Shape.reshapeEquiv_cons_one]
  funext a
  apply Fin.ext
  rw [Rect.emb_apply]
  match a with
  | ⟨0, _⟩ => show i.val + 1 * 0 = i.val; omega
  | ⟨1, _⟩ => show 0 + 1 * (y 0).val = (y 0).val; omega
  | ⟨2, _⟩ => show 0 + 1 * (y 1).val = (y 1).val; omega

/-- Two narrowed entries of argument arrays agree when the devices, the rows and the columns do. -/
theorem trunc_x_congr (d d' : Dev nD) (r r' j j' : Nat) (hr : r < 4096) (hj : j < 2048) (hr' : r' < 4096) (hj' : j' < 2048)
    (hd : d = d') (hrr : r = r') (hjj : j = j') :
    FloatOps.truncf .bf16 bitsLt_bf16_f32 (xOf m d (xIdx r j hr hj)) = FloatOps.truncf .bf16 bitsLt_bf16_f32 (xOf m d' (xIdx r' j' hr' hj')) := by
  subst hd hrr hjj; rfl

/-- What device c sends is slot i of its staging scratch at what it staged. -/
theorem send_restate (c : Dev nD) (i : Fin 16) :
    ((stSlot i).view.loc (c : Thread nD τ) ↦[(stSlot i).view.set]{fullShare} (stageVal m c) : sProp 𝕄) ⊢ (a2aRd m).payload (sendCell c i) 0 () := by
  rw [payload_send]; exact Entails.refl _

/-- On band i of c's row block in the PEER's result array, what transfer i writes is the peer's final contents: entry
    (4096 * cy c + 256 * i + r, j) is the narrowed entry (256 * i + r, 1024 * (1 - cy c) + j) of c's argument array either way. -/
theorem recv_pointwise (c : Dev nD) (i : Fin 16) (fd : Buf (Elt F) ((outRows c i).view.loc (peer c : Thread nD τ)))
    (x : S8192x1024.Idx) (hx : x ∈ (outRows c i).view.set) :
    (outRows c i).view.write (Elt F) fd ((stSlot i).view.read (Elt F) (stageVal m c)) Finset.univ x = outFinal m (peer c) x := by
  rw [mem_outRows] at hx
  have hcy := cy_lt c
  have hi := i.isLt
  conv_lhs => rw [← outRows_emb_of_mem c i x hx, View.write_emb_of_mem _ _ (Finset.mem_univ _)]
  rw [View.read_apply, stSlot_emb]
  show stageVal m c _ = outFinal m (peer c) x
  unfold stageVal outFinal
  refine trunc_x_congr m _ _ _ _ _ _ _ _ _ _ ?_ ?_ ?_
  · unfold srcDev
    rw [cy_peer, peer_peer, if_neg]
    omega
  · show 256 * i.val + ((x 0).val - (4096 * cy c + 256 * i.val)) = (x 0).val % 4096
    omega
  · show 1024 * (1 - cy c) + (x 1).val = 1024 * cy (peer c) + (x 1).val
    rw [cy_peer]

/-- What transfer i lands on the peer is the peer's receive payload. -/
theorem recv_restate (c : Dev nD) (i : Fin 16) (fd : Buf (Elt F) ((outRows c i).view.loc (peer c : Thread nD τ))) :
    ((outRows c i).view.loc (peer c : Thread nD τ) ↦[(outRows c i).view.set]{fullShare}
        ((outRows c i).view.write (Elt F) fd ((stSlot i).view.read (Elt F) (stageVal m c)) Finset.univ) : sProp 𝕄)
      ⊢ (a2aRd m).payload (recvCell (peer c) i) 0 () := by
  rw [payload_recv]
  unfold recvPay
  rw [peer_peer]
  exact Entails.of_eq (pointsTo_congr fun x hx => recv_pointwise m c i fd x hx)

/-! ## Owing receive credit only -/

/-- Tallies that are positive only at receive cells of c's peer. -/
abbrev RecvOnly (c : Dev nD) (O : CellTallies nD τ sig Unit) : Prop := ∀ g u, 0 < O g u → ∃ i, g = recvCell (peer c) i

theorem recvOnly_tallyAt (c : Dev nD) (i : Fin 16) (k : ℕ) : RecvOnly c (tallyAt (recvCell (peer c) i) () k) :=
  fun _ _ h => ⟨i, (Pipeline.tallyAt_pos h).1⟩

theorem recvOnly_zero (c : Dev nD) : RecvOnly c 0 := fun _ _ h => absurd h (Nat.lt_irrefl 0)

theorem recvOnly_add {c : Dev nD} {A B : CellTallies nD τ sig Unit} (hA : RecvOnly c A) (hB : RecvOnly c B) : RecvOnly c (A + B) :=
  fun g u h => (Pipeline.add_pos_cases h).elim (hA g u) (hB g u)

theorem recvOnly_sum (c : Dev nD) (S : Finset (Fin 16)) : RecvOnly c (∑ i ∈ S, tallyAt (recvCell (peer c) i) () N) :=
  fun _ _ h => sumRecv_pos h

theorem recvOnly_owed (c : Dev nD) : RecvOnly c (owedRecv c) := fun _ _ h => owedRecv_pos h

/-! ## The result array cut into its bands -/

/-- Band i of device d's row block, as a set of indices of the result array. -/
abbrev bandSet (d : Dev nD) (i : Fin 16) : Finset S8192x1024.Idx := (outRows d i).view.set

/-- Two bands of one row block are disjoint. -/
theorem outRows_disjoint (d : Dev nD) (i j : Fin 16) (hij : i ≠ j) : Disjoint (outRows d i).view.set (outRows d j).view.set := by
  rw [Finset.disjoint_left]
  intro x hi hj
  rw [mem_outRows] at hi hj
  have : i.val ≠ j.val := fun h => hij (Fin.ext h)
  omega

/-- The sixteen bands of device d's row block are the rows of that block. -/
theorem mem_block (d : Dev nD) (x : S8192x1024.Idx) :
    x ∈ (Finset.univ : Finset (Fin 16)).biUnion (fun i => bandSet d i) ↔ (x 0).val / 4096 = cy d := by
  have h0 : (x 0).val < 8192 := (x 0).isLt
  have hcy := cy_lt d
  rw [Finset.mem_biUnion]
  constructor
  · rintro ⟨i, -, hi⟩
    rw [mem_outRows] at hi
    have := i.isLt
    omega
  · intro h
    refine ⟨⟨(x 0).val % 4096 / 256, by omega⟩, Finset.mem_univ _, ?_⟩
    rw [mem_outRows]
    show 4096 * cy d + 256 * ((x 0).val % 4096 / 256) ≤ (x 0).val ∧ (x 0).val < 4096 * cy d + 256 * ((x 0).val % 4096 / 256) + 256
    omega

/-- The result array of device c is its thirty-two bands: the sixteen of its own row block, then the sixteen of its peer's. -/
theorem out_split (c : Dev nD) (f : Buf (Elt F) ((c : Thread nD τ).loc main_v1)) :
    (((c : Thread nD τ).loc main_v1) ↦{fullShare} f : sProp 𝕄)
      = iprop((bigSep Finset.univ fun i : Fin 16 => (outRows c i).view.loc (c : Thread nD τ) ↦[(outRows c i).view.set]{fullShare} f)
          ∗ (bigSep Finset.univ fun i : Fin 16 => (outRows (peer c) i).view.loc (c : Thread nD τ) ↦[(outRows (peer c) i).view.set]{fullShare} f)) := by
  classical
  have e1 := pointsTo_biUnion (Ix := Unit) (Name := ℕ) (U := UU) (Lvl := ℕ) (ℓ := (c : Thread nD τ).loc main_v1) (q := fullShare) (f := f)
    (Finset.univ : Finset (Fin 16)) (fun i => bandSet c i) (fun i _ j _ h => outRows_disjoint c i j h)
  have e2 := pointsTo_biUnion (Ix := Unit) (Name := ℕ) (U := UU) (Lvl := ℕ) (ℓ := (c : Thread nD τ).loc main_v1) (q := fullShare) (f := f)
    (Finset.univ : Finset (Fin 16)) (fun i => bandSet (peer c) i) (fun i _ j _ h => outRows_disjoint (peer c) i j h)
  have hd : Disjoint ((Finset.univ : Finset (Fin 16)).biUnion (fun i => bandSet c i))
      ((Finset.univ : Finset (Fin 16)).biUnion (fun i => bandSet (peer c) i)) := by
    rw [Finset.disjoint_left]
    intro x hA hB
    rw [mem_block] at hA hB
    have := cy_peer c
    have := cy_lt c
    omega
  have hu : (Finset.univ : Finset (Fin 16)).biUnion (fun i => bandSet c i)
      ∪ (Finset.univ : Finset (Fin 16)).biUnion (fun i => bandSet (peer c) i) = Finset.univ := by
    ext x
    simp only [Finset.mem_union, Finset.mem_univ, iff_true]
    rw [mem_block, mem_block, cy_peer]
    have h0 : (x 0).val < 8192 := (x 0).isLt
    have := cy_lt c
    omega
  have e3 := pointsTo_union (Ix := Unit) (Name := ℕ) (U := UU) (Lvl := ℕ) (Val := Elt F) (ℓ := (c : Thread nD τ).loc main_v1) (q := fullShare) (f := f) hd
  rw [hu] at e3
  rw [BI.equiv_iff.mp ⟨e3.1, e3.2⟩, e1, e2]

/-! ## The contents the copies and stores leave -/

/-- A narrowing between two shape casts that undo each other is the narrowing, entry by entry: every value the body stores has this form. -/
theorem k0_pay_apply {s t : Shape} {φ ψ : FTy} (v : s.Idx → F φ) (h1 : s.ShapeCasts t) (hb : ψ.bits < φ.bits) (h2 : t.ShapeCasts s) (j : s.Idx) :
    shapeCast s (truncf ψ (shapeCast t v h1) hb) h2 j = FloatOps.truncf ψ hb (v j) := by
  show FloatOps.truncf ψ hb (v (Shape.reshapeEquiv h1 (Shape.reshapeEquiv h2 j))) = _
  rw [Shape.reshapeEquiv_reshapeEquiv, Shape.reshapeEquiv_self]

theorem inb_xb (s : Fin 2) : ∀ a, (![s.val, 0, 0] : Fin 3 → Nat) a + S1x256x2048.size a ≤ S2x256x2048.size a := by revert s; decide
theorem inb_lb (s : Fin 2) : ∀ a, (![s.val, 0, 0] : Fin 3 → Nat) a + S1x256x1024.size a ≤ S2x256x1024.size a := by revert s; decide
theorem inb_xrows (i : Fin 16) : ∀ a, (![256 * i.val, 0] : Fin 2 → Nat) a + S256x2048.size a ≤ S4096x2048.size a := by revert i; decide

/-- Slot s of the input scratch, as the target of an input copy. -/
abbrev xbSlot (s : Fin 2) : Memref sig .tc .vmem S256x2048 .f32 :=
  ((xbM : Memref sig .tc .vmem S2x256x2048 .f32).slice (Rect.unit (s := S2x256x2048) ![s.val, 0, 0] S1x256x2048.size (inb_xb s)) (fun _ => rfl)).squeeze S256x2048 squeezes_S1x256x2048_S256x2048
/-- Slot s of the local output scratch, as the source of a local copy. -/
abbrev lbSlot (s : Fin 2) : Memref sig .tc .vmem S256x1024 .bf16 :=
  ((lbM : Memref sig .tc .vmem S2x256x1024 .bf16).slice (Rect.unit (s := S2x256x1024) ![s.val, 0, 0] S1x256x1024.size (inb_lb s)) (fun _ => rfl)).squeeze S256x1024 squeezes_S1x256x1024_S256x1024
/-- The 256 rows of chunk i of the argument array, as the source of an input copy. -/
abbrev xRows (i : Fin 16) : Memref sig .tc .hbm S256x2048 .f32 :=
  (xM : Memref sig .tc .hbm S4096x2048 .f32).slice (Rect.unit (s := S4096x2048) ![256 * i.val, 0] S256x2048.size (inb_xrows i)) (fun _ => rfl)

theorem xbSlot_emb (s : Fin 2) (y : S256x2048.Idx) :
    ((xbSlot s).view.emb y : S2x256x2048.Idx) = ValueIdx.ix3 (n0 := 2) (n1 := 256) (n2 := 2048) s (y 0) (y 1) := by
  show (Rect.unit (s := S2x256x2048) ![s.val, 0, 0] S1x256x2048.size (inb_xb s)).emb (Shape.reshapeEquiv (s := S1x256x2048) (s' := S256x2048) _ y) = _
  rw [Shape.reshapeEquiv_cons_one]
  funext a
  apply Fin.ext
  rw [Rect.emb_apply]
  match a with
  | ⟨0, _⟩ => show s.val + 1 * 0 = s.val; omega
  | ⟨1, _⟩ => show 0 + 1 * (y 0).val = (y 0).val; omega
  | ⟨2, _⟩ => show 0 + 1 * (y 1).val = (y 1).val; omega

theorem lbSlot_emb (s : Fin 2) (y : S256x1024.Idx) :
    ((lbSlot s).view.emb y : S2x256x1024.Idx) = ValueIdx.ix3 (n0 := 2) (n1 := 256) (n2 := 1024) s (y 0) (y 1) := by
  show (Rect.unit (s := S2x256x1024) ![s.val, 0, 0] S1x256x1024.size (inb_lb s)).emb (Shape.reshapeEquiv (s := S1x256x1024) (s' := S256x1024) _ y) = _
  rw [Shape.reshapeEquiv_cons_one]
  funext a
  apply Fin.ext
  rw [Rect.emb_apply]
  match a with
  | ⟨0, _⟩ => show s.val + 1 * 0 = s.val; omega
  | ⟨1, _⟩ => show 0 + 1 * (y 0).val = (y 0).val; omega
  | ⟨2, _⟩ => show 0 + 1 * (y 1).val = (y 1).val; omega

theorem xRows_emb (i : Fin 16) (y : S256x2048.Idx) :
    ((xRows i).view.emb y : S4096x2048.Idx) = xIdx (256 * i.val + (y 0).val) (y 1).val
      (by have := i.isLt; have : (y 0).val < 256 := (y 0).isLt; omega) (y 1).isLt := by
  funext a
  apply Fin.ext
  show ((Rect.unit (s := S4096x2048) ![256 * i.val, 0] S256x2048.size (inb_xrows i)).emb y a : Nat) = _
  rw [Rect.emb_apply]
  match a with
  | ⟨0, _⟩ => show 256 * i.val + 1 * (y 0).val = 256 * i.val + (y 0).val; omega
  | ⟨1, _⟩ => show 0 + 1 * (y 1).val = (y 1).val; omega

/-- (a) The input copy of chunk i into slot s: entry (s, r, j) of the input scratch is then entry (256 * i + r, j) of the argument array. -/
theorem xb_copy_at (i : Fin 16) (s : Fin 2) (fx : S4096x2048.Idx → F .f32) (fd : S2x256x2048.Idx → F .f32) (r : Fin 256) (j : Fin 2048) :
    (xbSlot s).view.write (Elt F) fd ((xRows i).view.read (Elt F) fx) Finset.univ (ValueIdx.ix3 (n0 := 2) (n1 := 256) (n2 := 2048) s r j)
      = fx (xIdx (256 * i.val + r.val) j.val (by have := i.isLt; have := r.isLt; omega) j.isLt) := by
  have e := xbSlot_emb s (ValueIdx.ix2 (n0 := 256) (n1 := 2048) r j)
  have e' : (ValueIdx.ix3 (n0 := 2) (n1 := 256) (n2 := 2048) s r j : S2x256x2048.Idx) = (xbSlot s).view.emb (ValueIdx.ix2 (n0 := 256) (n1 := 2048) r j) := e.symm
  rw [e', View.write_emb_of_mem _ _ (Finset.mem_univ _), View.read_apply, xRows_emb]
  rfl

/-- and the other slot keeps what it held. -/
theorem xb_copy_other (i : Fin 16) (s s' : Fin 2) (hs : s' ≠ s) (fx : S4096x2048.Idx → F .f32) (fd : S2x256x2048.Idx → F .f32) (r : Fin 256) (j : Fin 2048) :
    (xbSlot s).view.write (Elt F) fd ((xRows i).view.read (Elt F) fx) Finset.univ (ValueIdx.ix3 (n0 := 2) (n1 := 256) (n2 := 2048) s' r j)
      = fd (ValueIdx.ix3 (n0 := 2) (n1 := 256) (n2 := 2048) s' r j) := by
  refine View.write_of_not_mem _ _ _ fun hmem => hs ?_
  rw [View.setOn_univ] at hmem
  obtain ⟨y, hy⟩ := View.exists_emb_of_mem_set _ hmem
  rw [xbSlot_emb] at hy
  have := congrArg (fun z : S2x256x2048.Idx => (z 0).val) hy
  exact Fin.ext this.symm

/-- The elements of slot i of the staging scratch: the entries with first coordinate i. -/
theorem mem_stSlot (i : Fin 16) (x : S16x256x1024.Idx) : x ∈ (stSlot i).view.set ↔ (x 0).val = i.val := by
  have h : (stSlot i).view.set = (Rect.unit (s := S16x256x1024) ![i.val, 0, 0] S1x256x1024.size (inb_st i)).set :=
    (View.set_reshape _ _).trans (View.set_slice_whole _ _)
  rw [h, Rect.mem_set_unit, Fin.forall_fin_succ, Fin.forall_fin_two]
  have h1 : (x 1).val < 256 := (x 1).isLt
  have h2 : (x 2).val < 1024 := (x 2).isLt
  show (i.val ≤ (x 0).val ∧ (x 0).val < i.val + 1) ∧ (0 ≤ (x 1).val ∧ (x 1).val < 0 + 256) ∧ (0 ≤ (x 2).val ∧ (x 2).val < 0 + 1024) ↔ _
  omega

/-- Slot i of the staging scratch, as a set of indices of the scratch. -/
abbrev stSet (i : Fin 16) : Finset S16x256x1024.Idx := (stSlot i).view.set

/-- The staging scratch of device c is its sixteen slots. -/
theorem stage_split (c : Dev nD) (f : Buf (Elt F) ((c : Thread nD τ).loc cc0_scratch1)) :
    (((c : Thread nD τ).loc cc0_scratch1) ↦{fullShare} f : sProp 𝕄)
      = bigSep Finset.univ fun i : Fin 16 => (stSlot i).view.loc (c : Thread nD τ) ↦[(stSlot i).view.set]{fullShare} f := by
  classical
  have e1 := pointsTo_biUnion (Ix := Unit) (Name := ℕ) (U := UU) (Lvl := ℕ) (ℓ := (c : Thread nD τ).loc cc0_scratch1) (q := fullShare) (f := f)
    (Finset.univ : Finset (Fin 16)) (fun i => stSet i) (fun i _ j _ h => by
      rw [Finset.disjoint_left]
      intro x hi hj
      rw [mem_stSlot] at hi hj
      exact h (Fin.ext (hi.symm.trans hj)))
  have hu : (Finset.univ : Finset (Fin 16)).biUnion (fun i => stSet i) = Finset.univ := by
    ext x
    simp only [Finset.mem_univ, iff_true]
    rw [Finset.mem_biUnion]
    exact ⟨x 0, Finset.mem_univ _, (mem_stSlot _ x).mpr rfl⟩
  rw [hu] at e1
  exact e1

/-- A load of 1024 columns of one slot of the input scratch: entry (0, r, j) of what it reads is entry (s, r, o + j) of the scratch. -/
theorem xb_load_at (off : Fin 3 → Nat) (inb : ∀ a, off a + S1x256x1024.size a ≤ S2x256x2048.size a) (s : Fin 2) (o : Nat) (ho : o + 1024 ≤ 2048)
    (hoff : off = ![s.val, 0, o]) (g : S2x256x2048.Idx → F .f32) (r : Fin 256) (j : Fin 1024) :
    (xbM : Memref sig .tc .vmem S2x256x2048 .f32).view.readAt (Elt F) (Rect.unit (s := S2x256x2048) off S1x256x1024.size inb).toLoadRect g
        (ValueIdx.ix3 (n0 := 1) (n1 := 256) (n2 := 1024) ⟨0, Nat.one_pos⟩ r j)
      = g (ValueIdx.ix3 (n0 := 2) (n1 := 256) (n2 := 2048) s r ⟨o + j.val, by have := j.isLt; omega⟩) := by
  subst hoff
  rw [View.readAt_apply, View.read_apply]
  show g _ = g _
  refine congrArg g ?_
  funext a
  apply Fin.ext
  match a with
  | ⟨0, _⟩ => show s.val + 1 * 0 = s.val; omega
  | ⟨1, _⟩ => show 0 + 1 * r.val = r.val; omega
  | ⟨2, _⟩ => show o + 1 * j.val = o + j.val; omega

/-- (b) What is stored into slot i of the staging scratch, when slot s of the input scratch holds chunk i and the load takes the
    PEER's columns of it: entry (0, r, j) is what device c stages at (i, r, j). -/
theorem stage_pay_at (c : Dev nD) (i : Fin 16) (s : Fin 2) (off : Fin 3 → Nat) (inb : ∀ a, off a + S1x256x1024.size a ≤ S2x256x2048.size a)
    (hoff : off = ![s.val, 0, 1024 - 1024 * cy c]) (g : S2x256x2048.Idx → F .f32)
    (hg : ∀ (r : Fin 256) (j : Fin 2048), g (ValueIdx.ix3 (n0 := 2) (n1 := 256) (n2 := 2048) s r j)
      = xOf m c (xIdx (256 * i.val + r.val) j.val (by have := i.isLt; have := r.isLt; omega) j.isLt))
    (h1 : S1x256x1024.ShapeCasts S256x1024) (hb : FTy.bits .bf16 < FTy.bits .f32) (h2 : S256x1024.ShapeCasts S1x256x1024) (r : Fin 256) (j : Fin 1024) :
    shapeCast S1x256x1024 (truncf .bf16 (shapeCast S256x1024
        ((xbM : Memref sig .tc .vmem S2x256x2048 .f32).view.readAt (Elt F) (Rect.unit (s := S2x256x2048) off S1x256x1024.size inb).toLoadRect g) h1) hb) h2
        (ValueIdx.ix3 (n0 := 1) (n1 := 256) (n2 := 1024) ⟨0, Nat.one_pos⟩ r j)
      = stageVal m c (ValueIdx.ix3 (n0 := 16) (n1 := 256) (n2 := 1024) i r j) := by
  have hcy := cy_lt c
  rw [k0_pay_apply, xb_load_at off inb s (1024 - 1024 * cy c) (by omega) hoff g r j, hg]
  unfold stageVal
  refine trunc_x_congr m _ _ _ _ _ _ _ _ _ _ rfl rfl ?_
  show 1024 - 1024 * cy c + j.val = 1024 * (1 - cy c) + j.val
  omega

/-- (c) The same for the local output scratch, the load taking c's OWN columns: entry (0, r, j) is entry (256 * i + r, 1024 * cy c + j)
    of c's argument array, narrowed. -/
theorem local_pay_at (c : Dev nD) (i : Fin 16) (s : Fin 2) (off : Fin 3 → Nat) (inb : ∀ a, off a + S1x256x1024.size a ≤ S2x256x2048.size a)
    (hoff : off = ![s.val, 0, 1024 * cy c]) (g : S2x256x2048.Idx → F .f32)
    (hg : ∀ (r : Fin 256) (j : Fin 2048), g (ValueIdx.ix3 (n0 := 2) (n1 := 256) (n2 := 2048) s r j)
      = xOf m c (xIdx (256 * i.val + r.val) j.val (by have := i.isLt; have := r.isLt; omega) j.isLt))
    (h1 : S1x256x1024.ShapeCasts S256x1024) (hb : FTy.bits .bf16 < FTy.bits .f32) (h2 : S256x1024.ShapeCasts S1x256x1024) (r : Fin 256) (j : Fin 1024) :
    shapeCast S1x256x1024 (truncf .bf16 (shapeCast S256x1024
        ((xbM : Memref sig .tc .vmem S2x256x2048 .f32).view.readAt (Elt F) (Rect.unit (s := S2x256x2048) off S1x256x1024.size inb).toLoadRect g) h1) hb) h2
        (ValueIdx.ix3 (n0 := 1) (n1 := 256) (n2 := 1024) ⟨0, Nat.one_pos⟩ r j)
      = FloatOps.truncf .bf16 bitsLt_bf16_f32 (xOf m c (xIdx (256 * i.val + r.val) (1024 * cy c + j.val)
          (by have := i.isLt; have := r.isLt; omega) (by have := cy_lt c; have := j.isLt; omega))) := by
  have hcy := cy_lt c
  rw [k0_pay_apply, xb_load_at off inb s (1024 * cy c) (by omega) hoff g r j, hg]

/-! ## The axioms the main facts rest on -/

/-- info: 'Cert.Kernel.A2A.mayWait_bar' depends on axioms: [propext, Classical.choice, Quot.sound] -/
#guard_msgs in #print axioms mayWait_bar

/-- info: 'Cert.Kernel.A2A.mayWait_low' depends on axioms: [propext, Classical.choice, Quot.sound] -/
#guard_msgs in #print axioms mayWait_low

/-- info: 'Cert.Kernel.A2A.recv_restate' depends on axioms: [propext, Classical.choice, Quot.sound] -/
#guard_msgs in #print axioms recv_restate

/-- info: 'Cert.Kernel.A2A.send_restate' depends on axioms: [propext, Classical.choice, Quot.sound] -/
#guard_msgs in #print axioms send_restate

/-- info: 'Cert.Kernel.A2A.out_split' depends on axioms: [propext, Classical.choice, Quot.sound] -/
#guard_msgs in #print axioms out_split

/-- info: 'Cert.Kernel.A2A.stage_split' depends on axioms: [propext, Classical.choice, Quot.sound] -/
#guard_msgs in #print axioms stage_split

/-- info: 'Cert.Kernel.A2A.stage_pay_at' depends on axioms: [propext, Classical.choice, Quot.sound] -/
#guard_msgs in #print axioms stage_pay_at

/-- info: 'Cert.Kernel.A2A.local_pay_at' depends on axioms: [propext, Classical.choice, Quot.sound] -/
#guard_msgs in #print axioms local_pay_at

/-- info: 'Cert.Kernel.A2A.xb_copy_at' depends on axioms: [propext, Classical.choice, Quot.sound] -/
#guard_msgs in #print axioms xb_copy_at

/-- info: 'Cert.Kernel.A2A.xb_copy_other' depends on axioms: [propext, Classical.choice, Quot.sound] -/
#guard_msgs in #print axioms xb_copy_other

end Cert.Kernel.A2A

end
-- ==== Proof.Word.Contents2.lean ====
/-
  More of the contents the stores and the local copies leave: a store through one slot of the staging or of the local
  output scratch read back entry by entry, and the local copy of a chunk onto its band of the result array.
-/
import proofs.«900623_g7700000000000624_dist_a2a_v7x_xyz2x2x2_y_m4096_n1024_bf16_1_alg».proof.Proof.Word.Contents
import Idealize.ShloMosaic.Lib.Pipeline.Value

noncomputable section

namespace Cert.Kernel.A2A

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A store through slot i of the staging scratch, the LAST of a list of stores: entry (i, r, j) holds the stored vector's (0, r, j), -/
theorem st_store_at (i : Fin 16) (f : S16x256x1024.Idx → F .bf16) (w : S1x256x1024.Idx → F .bf16)
    (L : List (View.Piece (Elt F) S16x256x1024 .bf16)) (r : Fin 256) (j : Fin 1024) :
    (stM : Memref sig .tc .vmem S16x256x1024 .bf16).view.writes (Elt F) f
        (⟨Rect.unit (s := S16x256x1024) ![i.val, 0, 0] S1x256x1024.size (inb_st i), w⟩ :: L)
        (ValueIdx.ix3 (n0 := 16) (n1 := 256) (n2 := 1024) i r j)
      = w (ValueIdx.ix3 (n0 := 1) (n1 := 256) (n2 := 1024) ⟨0, Nat.one_pos⟩ r j) := by
  show ((stM : Memref sig .tc .vmem S16x256x1024 .bf16).view.slice (Rect.unit (s := S16x256x1024) ![i.val, 0, 0] S1x256x1024.size (inb_st i))).write (Elt F) _ w Finset.univ _ = _
  have e : (ValueIdx.ix3 (n0 := 16) (n1 := 256) (n2 := 1024) i r j : S16x256x1024.Idx)
      = ((stM : Memref sig .tc .vmem S16x256x1024 .bf16).view.slice (Rect.unit (s := S16x256x1024) ![i.val, 0, 0] S1x256x1024.size (inb_st i))).emb
          (ValueIdx.ix3 (n0 := 1) (n1 := 256) (n2 := 1024) ⟨0, Nat.one_pos⟩ r j) := by
    show _ = (Rect.unit (s := S16x256x1024) ![i.val, 0, 0] S1x256x1024.size (inb_st i)).emb _
    funext a
    apply Fin.ext
    rw [Rect.emb_apply]
    match a with
    | ⟨0, _⟩ => show i.val = i.val + 1 * 0; omega
    | ⟨1, _⟩ => show r.val = 0 + 1 * r.val; omega
    | ⟨2, _⟩ => show j.val = 0 + 1 * j.val; omega
  rw [e, View.write_emb_of_mem _ _ (Finset.mem_univ _)]
  rfl

/-- and an entry of another slot keeps what the earlier stores left. -/
theorem st_store_other (i i' : Fin 16) (hi : i' ≠ i) (f : S16x256x1024.Idx → F .bf16) (w : S1x256x1024.Idx → F .bf16)
    (L : List (View.Piece (Elt F) S16x256x1024 .bf16)) (r : Fin 256) (j : Fin 1024) :
    (stM : Memref sig .tc .vmem S16x256x1024 .bf16).view.writes (Elt F) f
        (⟨Rect.unit (s := S16x256x1024) ![i.val, 0, 0] S1x256x1024.size (inb_st i), w⟩ :: L)
        (ValueIdx.ix3 (n0 := 16) (n1 := 256) (n2 := 1024) i' r j)
      = (stM : Memref sig .tc .vmem S16x256x1024 .bf16).view.writes (Elt F) f L (ValueIdx.ix3 (n0 := 16) (n1 := 256) (n2 := 1024) i' r j) := by
  show ((stM : Memref sig .tc .vmem S16x256x1024 .bf16).view.slice (Rect.unit (s := S16x256x1024) ![i.val, 0, 0] S1x256x1024.size (inb_st i))).write (Elt F) _ w Finset.univ _ = _
  refine View.write_of_not_mem _ _ _ ?_
  rw [View.setOn_univ, View.set_slice_whole, Rect.mem_set_unit]
  intro h
  have h0 : i.val ≤ i'.val ∧ i'.val < i.val + 1 := h 0
  exact hi (Fin.ext (by omega))

/-- The same for slot s of the local output scratch. -/
theorem lb_store_at (s : Fin 2) (f : S2x256x1024.Idx → F .bf16) (w : S1x256x1024.Idx → F .bf16)
    (L : List (View.Piece (Elt F) S2x256x1024 .bf16)) (r : Fin 256) (j : Fin 1024) :
    (lbM : Memref sig .tc .vmem S2x256x1024 .bf16).view.writes (Elt F) f
        (⟨Rect.unit (s := S2x256x1024) ![s.val, 0, 0] S1x256x1024.size (inb_lb s), w⟩ :: L)
        (ValueIdx.ix3 (n0 := 2) (n1 := 256) (n2 := 1024) s r j)
      = w (ValueIdx.ix3 (n0 := 1) (n1 := 256) (n2 := 1024) ⟨0, Nat.one_pos⟩ r j) := by
  show ((lbM : Memref sig .tc .vmem S2x256x1024 .bf16).view.slice (Rect.unit (s := S2x256x1024) ![s.val, 0, 0] S1x256x1024.size (inb_lb s))).write (Elt F) _ w Finset.univ _ = _
  have e : (ValueIdx.ix3 (n0 := 2) (n1 := 256) (n2 := 1024) s r j : S2x256x1024.Idx)
      = ((lbM : Memref sig .tc .vmem S2x256x1024 .bf16).view.slice (Rect.unit (s := S2x256x1024) ![s.val, 0, 0] S1x256x1024.size (inb_lb s))).emb
          (ValueIdx.ix3 (n0 := 1) (n1 := 256) (n2 := 1024) ⟨0, Nat.one_pos⟩ r j) := by
    show _ = (Rect.unit (s := S2x256x1024) ![s.val, 0, 0] S1x256x1024.size (inb_lb s)).emb _
    funext a
    apply Fin.ext
    rw [Rect.emb_apply]
    match a with
    | ⟨0, _⟩ => show s.val = s.val + 1 * 0; omega
    | ⟨1, _⟩ => show r.val = 0 + 1 * r.val; omega
    | ⟨2, _⟩ => show j.val = 0 + 1 * j.val; omega
  rw [e, View.write_emb_of_mem _ _ (Finset.mem_univ _)]
  rfl

theorem lb_store_other (s s' : Fin 2) (hs : s' ≠ s) (f : S2x256x1024.Idx → F .bf16) (w : S1x256x1024.Idx → F .bf16)
    (L : List (View.Piece (Elt F) S2x256x1024 .bf16)) (r : Fin 256) (j : Fin 1024) :
    (lbM : Memref sig .tc .vmem S2x256x1024 .bf16).view.writes (Elt F) f
        (⟨Rect.unit (s := S2x256x1024) ![s.val, 0, 0] S1x256x1024.size (inb_lb s), w⟩ :: L)
        (ValueIdx.ix3 (n0 := 2) (n1 := 256) (n2 := 1024) s' r j)
      = (lbM : Memref sig .tc .vmem S2x256x1024 .bf16).view.writes (Elt F) f L (ValueIdx.ix3 (n0 := 2) (n1 := 256) (n2 := 1024) s' r j) := by
  show ((lbM : Memref sig .tc .vmem S2x256x1024 .bf16).view.slice (Rect.unit (s := S2x256x1024) ![s.val, 0, 0] S1x256x1024.size (inb_lb s))).write (Elt F) _ w Finset.univ _ = _
  refine View.write_of_not_mem _ _ _ ?_
  rw [View.setOn_univ, View.set_slice_whole, Rect.mem_set_unit]
  intro h
  have h0 : s.val ≤ s'.val ∧ s'.val < s.val + 1 := h 0
  exact hs (Fin.ext (by omega))

/-- (d) The local copy of chunk i from slot s of the local output scratch: on band i of c's own row block, entry
    (4096 * cy c + 256 * i + r, j) of the result array is then entry (s, r, j) of that scratch. -/
theorem own_copy_at (c : Dev nD) (i : Fin 16) (s : Fin 2) (fd : S8192x1024.Idx → F .bf16) (flb : S2x256x1024.Idx → F .bf16) (x : S8192x1024.Idx)
    (hx : 4096 * cy c + 256 * i.val ≤ (x 0).val ∧ (x 0).val < 4096 * cy c + 256 * i.val + 256) :
    (outRows c i).view.write (Elt F) fd ((lbSlot s).view.read (Elt F) flb) Finset.univ x
      = flb (ValueIdx.ix3 (n0 := 2) (n1 := 256) (n2 := 1024) s ⟨(x 0).val - (4096 * cy c + 256 * i.val), by omega⟩ (x 1)) := by
  conv_lhs => rw [← outRows_emb_of_mem c i x hx, View.write_emb_of_mem _ _ (Finset.mem_univ _)]
  rw [View.read_apply, lbSlot_emb]
  rfl

/-- With the scratch slot at c's own columns of chunk i, narrowed, that is the final contents there. -/
theorem own_pointwise (c : Dev nD) (i : Fin 16) (s : Fin 2) (fd : S8192x1024.Idx → F .bf16) (flb : S2x256x1024.Idx → F .bf16)
    (hflb : ∀ (r : Fin 256) (j : Fin 1024), flb (ValueIdx.ix3 (n0 := 2) (n1 := 256) (n2 := 1024) s r j)
      = FloatOps.truncf .bf16 bitsLt_bf16_f32 (xOf m c (xIdx (256 * i.val + r.val) (1024 * cy c + j.val)
          (by have := i.isLt; have := r.isLt; omega) (by have := cy_lt c; have := j.isLt; omega))))
    (x : S8192x1024.Idx) (hx : x ∈ (outRows c i).view.set) :
    (outRows c i).view.write (Elt F) fd ((lbSlot s).view.read (Elt F) flb) Finset.univ x = outFinal m c x := by
  rw [mem_outRows] at hx
  have hcy := cy_lt c
  have hi := i.isLt
  rw [own_copy_at c i s fd flb x hx]
  refine (hflb ⟨(x 0).val - (4096 * cy c + 256 * i.val), by omega⟩ (x 1)).trans ?_
  unfold outFinal
  refine trunc_x_congr m _ _ _ _ _ _ _ _ _ _ ?_ ?_ rfl
  · unfold srcDev
    rw [if_pos]
    omega
  · show 256 * i.val + ((x 0).val - (4096 * cy c + 256 * i.val)) = (x 0).val % 4096
    omega

/-! ## The axioms these facts rest on -/

/-- info: 'Cert.Kernel.A2A.st_store_at' depends on axioms: [propext, Classical.choice, Quot.sound] -/
#guard_msgs in #print axioms st_store_at

/-- info: 'Cert.Kernel.A2A.st_store_other' depends on axioms: [propext, Classical.choice, Quot.sound] -/
#guard_msgs in #print axioms st_store_other

/-- info: 'Cert.Kernel.A2A.lb_store_at' depends on axioms: [propext, Classical.choice, Quot.sound] -/
#guard_msgs in #print axioms lb_store_at

/-- info: 'Cert.Kernel.A2A.lb_store_other' depends on axioms: [propext, Classical.choice, Quot.sound] -/
#guard_msgs in #print axioms lb_store_other

/-- info: 'Cert.Kernel.A2A.own_copy_at' depends on axioms: [propext, Classical.choice, Quot.sound] -/
#guard_msgs in #print axioms own_copy_at

/-- info: 'Cert.Kernel.A2A.own_pointwise' depends on axioms: [propext, Classical.choice, Quot.sound] -/
#guard_msgs in #print axioms own_pointwise

end Cert.Kernel.A2A

end
-- ==== Proof.Word.Contents3.lean ====
/-
  Glue between the contents and the protocol: what the entry signal hands the peer, restated as the barrier cell's payload,
  and a slot of the staging scratch after the store of what is staged there.
-/
import proofs.«900623_g7700000000000624_dist_a2a_v7x_xyz2x2x2_y_m4096_n1024_bf16_1_alg».proof.Proof.Word.Contents2
import Idealize.ShloMosaic.Lib.Pipeline.Value

noncomputable section

namespace Cert.Kernel.A2A

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Elements held at some contents are held at contents that exist. -/
theorem pointsTo_exists (ℓ : Loc nD τ sig) (S : Finset (Idx ℓ)) (f : Buf (Elt F) ℓ) :
    (ℓ ↦[S]{fullShare} f : sProp 𝕄) ⊢ iprop(∃ g, ℓ ↦[S]{fullShare} g) := by
  iintro H
  iexists f
  iexact H

/-- What the entry signal hands the peer: the sixteen bands of the peer's row block in c's own result array, at whatever they hold,
    and that c stands at round 0 of each of its receive cells. -/
theorem bar_restate (c : Dev nD) (f : Buf (Elt F) ((c : Thread nD τ).loc main_v1)) :
    iprop((bigSep Finset.univ fun i : Fin 16 => (outRows (peer c) i).view.loc (c : Thread nD τ) ↦[(outRows (peer c) i).view.set]{fullShare} f)
        ∗ bigSep Finset.univ fun i : Fin 16 => reached ER (recvCell c i) 0)
      ⊢ ((a2aRd m).payload (barCell (peer c)) 0 () : sProp 𝕄) := by
  rw [payload_bar]
  unfold barPay
  rw [peer_peer]
  exact sep_mono_left (bigSep_mono fun i _ => pointsTo_exists _ _ f)

/-- Slot i of the staging scratch after a store of what device c stages there, whatever was stored before: it holds stageVal. -/
theorem stage_slot_pointwise (c : Dev nD) (i : Fin 16) (f : S16x256x1024.Idx → F .bf16) (w : S1x256x1024.Idx → F .bf16)
    (L : List (View.Piece (Elt F) S16x256x1024 .bf16))
    (hw : ∀ (r : Fin 256) (j : Fin 1024), w (ValueIdx.ix3 (n0 := 1) (n1 := 256) (n2 := 1024) ⟨0, Nat.one_pos⟩ r j)
      = stageVal m c (ValueIdx.ix3 (n0 := 16) (n1 := 256) (n2 := 1024) i r j))
    (x : S16x256x1024.Idx) (hx : x ∈ (stSlot i).view.set) :
    (stM : Memref sig .tc .vmem S16x256x1024 .bf16).view.writes (Elt F) f
        (⟨Rect.unit (s := S16x256x1024) ![i.val, 0, 0] S1x256x1024.size (inb_st i), w⟩ :: L) x = stageVal m c x := by
  rw [mem_stSlot] at hx
  have e : x = ValueIdx.ix3 (n0 := 16) (n1 := 256) (n2 := 1024) i (x 1) (x 2) := by
    funext a
    match a with
    | ⟨0, _⟩ => exact Fin.ext hx
    | ⟨1, _⟩ => rfl
    | ⟨2, _⟩ => rfl
  rw [e]
  exact (st_store_at i f w L (x 1) (x 2)).trans (hw (x 1) (x 2))

/-! ## The axioms these facts rest on -/

/-- info: 'Cert.Kernel.A2A.bar_restate' depends on axioms: [propext, Classical.choice, Quot.sound] -/
#guard_msgs in #print axioms bar_restate

/-- info: 'Cert.Kernel.A2A.stage_slot_pointwise' depends on axioms: [propext, Classical.choice, Quot.sound] -/
#guard_msgs in #print axioms stage_slot_pointwise

end Cert.Kernel.A2A

end
-- ==== Proof.Word.BodyFacts.lean ====
/-
  Facts the body's proof cites, each stated once over the device c and the chunk number i.

  The ghost state's sixteen-fold conjunctions and the barrier payload written out; the schedule's payloads spelt as the
  points-to they are; a whole buffer restated through its memref's view; that the staging slots are pairwise disjoint; and the
  contents facts: what the stage store of chunk i leaves on staging slot i (the peer's columns of c's rows, narrowed), and what the
  local copy of chunk i leaves on band i of c's own row block of its result array (c's own columns, narrowed: the band's final
  contents), each from what the input scratch held on slot i mod 2 when it was loaded.
-/
import proofs.«900623_g7700000000000624_dist_a2a_v7x_xyz2x2x2_y_m4096_n1024_bf16_1_alg».proof.Proof.Word.Sched
import proofs.«900623_g7700000000000624_dist_a2a_v7x_xyz2x2x2_y_m4096_n1024_bf16_1_alg».proof.Proof.Word.Owed
import proofs.«900623_g7700000000000624_dist_a2a_v7x_xyz2x2x2_y_m4096_n1024_bf16_1_alg».proof.Proof.Word.Contents
import proofs.«900623_g7700000000000624_dist_a2a_v7x_xyz2x2x2_y_m4096_n1024_bf16_1_alg».proof.Proof.Word.Contents2
import proofs.«900623_g7700000000000624_dist_a2a_v7x_xyz2x2x2_y_m4096_n1024_bf16_1_alg».proof.Proof.Word.Contents3

noncomputable section

namespace Cert.Kernel.A2A

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sep_assoc_eq (P Q R : sProp 𝕄) : iprop((P ∗ Q) ∗ R) = iprop(P ∗ Q ∗ R) := Idealize.SL.BI.equiv_iff.mp ⟨Idealize.SL.BI.sep_assoc, Idealize.SL.BI.sep_assoc'⟩

/-- The entry signal's payload, as the signaller hands it over: the sixteen bands of the peer's row block in its own result
    array, and round 0 of its own receive cells. -/
theorem barPay_of (p c : Dev nD) (h : peer p = c) : barPay (F := F) p
    = iprop((∃ f, (outRows p 0).view.loc (c : Thread nD τ) ↦[(outRows p 0).view.set]{fullShare} f) ∗ (∃ f, (outRows p 1).view.loc (c : Thread nD τ) ↦[(outRows p 1).view.set]{fullShare} f) ∗ (∃ f, (outRows p 2).view.loc (c : Thread nD τ) ↦[(outRows p 2).view.set]{fullShare} f) ∗ (∃ f, (outRows p 3).view.loc (c : Thread nD τ) ↦[(outRows p 3).view.set]{fullShare} f) ∗ (∃ f, (outRows p 4).view.loc (c : Thread nD τ) ↦[(outRows p 4).view.set]{fullShare} f) ∗ (∃ f, (outRows p 5).view.loc (c : Thread nD τ) ↦[(outRows p 5).view.set]{fullShare} f) ∗ (∃ f, (outRows p 6).view.loc (c : Thread nD τ) ↦[(outRows p 6).view.set]{fullShare} f) ∗ (∃ f, (outRows p 7).view.loc (c : Thread nD τ) ↦[(outRows p 7).view.set]{fullShare} f) ∗ (∃ f, (outRows p 8).view.loc (c : Thread nD τ) ↦[(outRows p 8).view.set]{fullShare} f) ∗ (∃ f, (outRows p 9).view.loc (c : Thread nD τ) ↦[(outRows p 9).view.set]{fullShare} f) ∗ (∃ f, (outRows p 10).view.loc (c : Thread nD τ) ↦[(outRows p 10).view.set]{fullShare} f) ∗ (∃ f, (outRows p 11).view.loc (c : Thread nD τ) ↦[(outRows p 11).view.set]{fullShare} f) ∗ (∃ f, (outRows p 12).view.loc (c : Thread nD τ) ↦[(outRows p 12).view.set]{fullShare} f) ∗ (∃ f, (outRows p 13).view.loc (c : Thread nD τ) ↦[(outRows p 13).view.set]{fullShare} f) ∗ (∃ f, (outRows p 14).view.loc (c : Thread nD τ) ↦[(outRows p 14).view.set]{fullShare} f) ∗ (∃ f, (outRows p 15).view.loc (c : Thread nD τ) ↦[(outRows p 15).view.set]{fullShare} f)
        ∗ reached ER (recvCell c 0) 0 ∗ reached ER (recvCell c 1) 0 ∗ reached ER (recvCell c 2) 0 ∗ reached ER (recvCell c 3) 0 ∗ reached ER (recvCell c 4) 0 ∗ reached ER (recvCell c 5) 0 ∗ reached ER (recvCell c 6) 0 ∗ reached ER (recvCell c 7) 0 ∗ reached ER (recvCell c 8) 0 ∗ reached ER (recvCell c 9) 0 ∗ reached ER (recvCell c 10) 0 ∗ reached ER (recvCell c 11) 0 ∗ reached ER (recvCell c 12) 0 ∗ reached ER (recvCell c 13) 0 ∗ reached ER (recvCell c 14) 0 ∗ reached ER (recvCell c 15) 0) := by
  subst h
  unfold barPay
  rw [bigSep_fin16, bigSep_fin16]
  simp only [sep_assoc_eq]

theorem payload_bar_own (c : Dev nD) (d : Unit) : (a2aRd (F := F) m).payload (barCell c) 0 d
    = iprop((∃ f, (outRows c 0).view.loc (peer c : Thread nD τ) ↦[(outRows c 0).view.set]{fullShare} f) ∗ (∃ f, (outRows c 1).view.loc (peer c : Thread nD τ) ↦[(outRows c 1).view.set]{fullShare} f) ∗ (∃ f, (outRows c 2).view.loc (peer c : Thread nD τ) ↦[(outRows c 2).view.set]{fullShare} f) ∗ (∃ f, (outRows c 3).view.loc (peer c : Thread nD τ) ↦[(outRows c 3).view.set]{fullShare} f) ∗ (∃ f, (outRows c 4).view.loc (peer c : Thread nD τ) ↦[(outRows c 4).view.set]{fullShare} f) ∗ (∃ f, (outRows c 5).view.loc (peer c : Thread nD τ) ↦[(outRows c 5).view.set]{fullShare} f) ∗ (∃ f, (outRows c 6).view.loc (peer c : Thread nD τ) ↦[(outRows c 6).view.set]{fullShare} f) ∗ (∃ f, (outRows c 7).view.loc (peer c : Thread nD τ) ↦[(outRows c 7).view.set]{fullShare} f) ∗ (∃ f, (outRows c 8).view.loc (peer c : Thread nD τ) ↦[(outRows c 8).view.set]{fullShare} f) ∗ (∃ f, (outRows c 9).view.loc (peer c : Thread nD τ) ↦[(outRows c 9).view.set]{fullShare} f) ∗ (∃ f, (outRows c 10).view.loc (peer c : Thread nD τ) ↦[(outRows c 10).view.set]{fullShare} f) ∗ (∃ f, (outRows c 11).view.loc (peer c : Thread nD τ) ↦[(outRows c 11).view.set]{fullShare} f) ∗ (∃ f, (outRows c 12).view.loc (peer c : Thread nD τ) ↦[(outRows c 12).view.set]{fullShare} f) ∗ (∃ f, (outRows c 13).view.loc (peer c : Thread nD τ) ↦[(outRows c 13).view.set]{fullShare} f) ∗ (∃ f, (outRows c 14).view.loc (peer c : Thread nD τ) ↦[(outRows c 14).view.set]{fullShare} f) ∗ (∃ f, (outRows c 15).view.loc (peer c : Thread nD τ) ↦[(outRows c 15).view.set]{fullShare} f)
        ∗ reached ER (recvCell (peer c) 0) 0 ∗ reached ER (recvCell (peer c) 1) 0 ∗ reached ER (recvCell (peer c) 2) 0 ∗ reached ER (recvCell (peer c) 3) 0 ∗ reached ER (recvCell (peer c) 4) 0 ∗ reached ER (recvCell (peer c) 5) 0 ∗ reached ER (recvCell (peer c) 6) 0 ∗ reached ER (recvCell (peer c) 7) 0 ∗ reached ER (recvCell (peer c) 8) 0 ∗ reached ER (recvCell (peer c) 9) 0 ∗ reached ER (recvCell (peer c) 10) 0 ∗ reached ER (recvCell (peer c) 11) 0 ∗ reached ER (recvCell (peer c) 12) 0 ∗ reached ER (recvCell (peer c) 13) 0 ∗ reached ER (recvCell (peer c) 14) 0 ∗ reached ER (recvCell (peer c) 15) 0) :=
  (payload_bar m c d).trans (barPay_of c (peer c) rfl)

theorem payload_send' (c : Dev nD) (i : Fin 16) (d : Unit) : (a2aRd (F := F) m).payload (sendCell c i) 0 d
    = ((stSlot i).view.loc (c : Thread nD τ) ↦[(stSlot i).view.set]{fullShare} (stageVal m c)) := payload_send m c i d
theorem payload_recv' (c : Dev nD) (i : Fin 16) (d : Unit) : (a2aRd (F := F) m).payload (recvCell c i) 0 d
    = ((outRows (peer c) i).view.loc (c : Thread nD τ) ↦[(outRows (peer c) i).view.set]{fullShare} (outFinal m c)) := payload_recv m c i d

theorem xM_eq (c : Dev nD) (f : Buf (Elt F) ((c : Thread nD τ).loc main_arg0)) :
    (((c : Thread nD τ).loc main_arg0) ↦{fullShare} f : sProp 𝕄)
      = ((Memref.whole main_arg0 : Memref sig .tc .hbm S4096x2048 .f32).view.loc (c : Thread nD τ) ↦[Finset.univ]{fullShare} f) := rfl

theorem scratch_eq (c : Dev nD) : scratch (F := F) c
    = iprop((∃ f, (Memref.whole cc0_scratch0 : Memref sig .tc .vmem S2x256x2048 .f32).view.loc (c : Thread nD τ) ↦[Finset.univ]{fullShare} f)
      ∗ (∃ f, (Memref.whole cc0_scratch1 : Memref sig .tc .vmem S16x256x1024 .bf16).view.loc (c : Thread nD τ) ↦[Finset.univ]{fullShare} f)
      ∗ (∃ f, (Memref.whole cc0_scratch2 : Memref sig .tc .vmem S2x256x1024 .bf16).view.loc (c : Thread nD τ) ↦[Finset.univ]{fullShare} f)) := rfl

/-- An element of staging slot i lies in no other slot. -/
theorem stSlot_notMem {i k : Fin 16} (h : k ≠ i) {x : S16x256x1024.Idx} (hx : x ∈ (stSlot i).view.set) : x ∉ (stSlot k).view.set := by
  rw [mem_stSlot] at hx ⊢
  intro h'
  exact h (Fin.ext (h'.symm.trans hx))

/-- What the stage store of chunk i leaves on slot i, from what the input scratch held on slot s when it was loaded. -/
theorem stage_hw (c : Dev nD) (i : Fin 16) (s : Fin 2) (off : Fin 3 → Nat) (inb : ∀ a, off a + S1x256x1024.size a ≤ S2x256x2048.size a)
    (hoff : off = ![s.val, 0, 1024 - 1024 * cy c]) (g : S2x256x2048.Idx → F .f32)
    (hg : ∀ (r : Fin 256) (j : Fin 2048), g (ValueIdx.ix3 (n0 := 2) (n1 := 256) (n2 := 2048) s r j)
      = xOf m c (xIdx (256 * i.val + r.val) j.val (by have := i.isLt; have := r.isLt; omega) j.isLt))
    (f : S16x256x1024.Idx → F .bf16) (L : List (View.Piece (Elt F) S16x256x1024 .bf16))
    (h1 : S1x256x1024.ShapeCasts S256x1024) (hb : FTy.bits .bf16 < FTy.bits .f32) (h2 : S256x1024.ShapeCasts S1x256x1024) :
    ∀ x ∈ (stSlot i).view.set,
      (stM : Memref sig .tc .vmem S16x256x1024 .bf16).view.writes (Elt F) f
        (⟨Rect.unit (s := S16x256x1024) ![i.val, 0, 0] S1x256x1024.size (inb_st i),
          shapeCast S1x256x1024 (truncf .bf16 (shapeCast S256x1024
            ((xbM : Memref sig .tc .vmem S2x256x2048 .f32).view.readAt (Elt F) (Rect.unit (s := S2x256x2048) off S1x256x1024.size inb).toLoadRect g) h1) hb) h2⟩ :: L) x
        = stageVal m c x :=
  fun x hx => stage_slot_pointwise m c i f _ L (fun r j => stage_pay_at m c i s off inb hoff g hg h1 hb h2 r j) x hx

/-- Slot s of the input scratch right after chunk i's copy landed in it. -/
theorem xb_hg1 (c : Dev nD) (i : Fin 16) (s : Fin 2) (fd : S2x256x2048.Idx → F .f32) :
    ∀ (r : Fin 256) (j : Fin 2048), (xbSlot s).view.write (Elt F) fd ((xRows i).view.read (Elt F) (xOf m c)) Finset.univ (ValueIdx.ix3 (n0 := 2) (n1 := 256) (n2 := 2048) s r j)
      = xOf m c (xIdx (256 * i.val + r.val) j.val (by have := i.isLt; have := r.isLt; omega) j.isLt) :=
  fun r j => xb_copy_at i s (xOf m c) fd r j

/-- and after a later copy into the other slot. -/
theorem xb_hg2 (c : Dev nD) (i i' : Fin 16) (s s' : Fin 2) (hs : s ≠ s') (fd : S2x256x2048.Idx → F .f32) (fx' : S4096x2048.Idx → F .f32) :
    ∀ (r : Fin 256) (j : Fin 2048), (xbSlot s').view.write (Elt F) ((xbSlot s).view.write (Elt F) fd ((xRows i).view.read (Elt F) (xOf m c)) Finset.univ)
        ((xRows i').view.read (Elt F) fx') Finset.univ (ValueIdx.ix3 (n0 := 2) (n1 := 256) (n2 := 2048) s r j)
      = xOf m c (xIdx (256 * i.val + r.val) j.val (by have := i.isLt; have := r.isLt; omega) j.isLt) :=
  fun r j => (xb_copy_other i' s' s hs fx' _ r j).trans (xb_copy_at i s (xOf m c) fd r j)

/-- What the local copy of chunk i leaves on band i of c's own row block, from what the input scratch held on slot s when it was
    loaded and the local output scratch's store of it: the band's final contents. -/
theorem local_hw (c : Dev nD) (i : Fin 16) (s : Fin 2) (off : Fin 3 → Nat) (inb : ∀ a, off a + S1x256x1024.size a ≤ S2x256x2048.size a)
    (hoff : off = ![s.val, 0, 1024 * cy c]) (g : S2x256x2048.Idx → F .f32)
    (hg : ∀ (r : Fin 256) (j : Fin 2048), g (ValueIdx.ix3 (n0 := 2) (n1 := 256) (n2 := 2048) s r j)
      = xOf m c (xIdx (256 * i.val + r.val) j.val (by have := i.isLt; have := r.isLt; omega) j.isLt))
    (f2 : S2x256x1024.Idx → F .bf16) (L : List (View.Piece (Elt F) S2x256x1024 .bf16))
    (h1 : S1x256x1024.ShapeCasts S256x1024) (hb : FTy.bits .bf16 < FTy.bits .f32) (h2 : S256x1024.ShapeCasts S1x256x1024)
    (fd : S8192x1024.Idx → F .bf16) :
    ∀ x ∈ (outRows c i).view.set,
      (outRows c i).view.writes (Elt F) fd [⟨Rect.whole S256x1024,
        (lbSlot s).view.read (Elt F) ((lbM : Memref sig .tc .vmem S2x256x1024 .bf16).view.writes (Elt F) f2
          (⟨Rect.unit (s := S2x256x1024) ![s.val, 0, 0] S1x256x1024.size (inb_lb s),
            shapeCast S1x256x1024 (truncf .bf16 (shapeCast S256x1024
              ((xbM : Memref sig .tc .vmem S2x256x2048 .f32).view.readAt (Elt F) (Rect.unit (s := S2x256x2048) off S1x256x1024.size inb).toLoadRect g) h1) hb) h2⟩ :: L))⟩] x
        = outFinal m c x := by
  intro x hx
  exact (congrFun (View.write_univ_eq_writes_whole (Val := Elt F) (outRows c i).view fd [] _).symm x).trans
    (own_pointwise m c i s fd _ (fun r j => (lb_store_at s f2 _ L r j).trans (local_pay_at m c i s off inb hoff g hg h1 hb h2 r j)) x hx)

/-- info: 'Cert.Kernel.A2A.stage_hw' depends on axioms: [propext, Classical.choice, Quot.sound] -/
#guard_msgs in #print axioms stage_hw

/-- info: 'Cert.Kernel.A2A.local_hw' depends on axioms: [propext, Classical.choice, Quot.sound] -/
#guard_msgs in #print axioms local_hw

end Cert.Kernel.A2A

end
-- ==== Proof.Word.Exit.lean ====
/-
  What a device's body hands back, put together from its pieces: the 36 own semaphores at zero are the four local ones, the
  sixteen send ones and the sixteen receive ones; the result array whole at its final contents is its 32 bands at them.
-/
import proofs.«900623_g7700000000000624_dist_a2a_v7x_xyz2x2x2_y_m4096_n1024_bf16_1_alg».proof.Proof.Word.Contents
import proofs.«900623_g7700000000000624_dist_a2a_v7x_xyz2x2x2_y_m4096_n1024_bf16_1_alg».proof.Proof.Word.Owed
import Mathlib.Logic.Equiv.Fin.Basic

noncomputable section

namespace Cert.Kernel.A2A

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A conjunction over a + b indices is the one over the first a and the one over the last b. -/
theorem sep_fin_add {a b : ℕ} (Φ : Fin (a + b) → sProp 𝕄) :
    bigSep Finset.univ Φ = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

theorem sep_assoc_eq' (A B C : sProp 𝕄) : iprop((A ∗ B) ∗ C) = iprop(A ∗ B ∗ C) := by
  refine BI.Entails.antisymm (show _ ⊢ (_ : sProp 𝕄) from ?_) (show _ ⊢ (_ : sProp 𝕄) from ?_)
  · iintro ⟨⟨H1, H2⟩, H3⟩
    isplitl [H1]; · iexact H1
    isplitl [H2] <;> iassumption
  · iintro ⟨H1, H2, H3⟩
    isplitr [H3]
    · isplitl [H1] <;> iassumption
    · iexact H3

/-- The 36 own DMA semaphores by kind: local (0 to 3), send (4 + i), receive (20 + i). -/
abbrev oL (k : Fin 4) : Fin 36 := ⟨k.val, by have := k.isLt; omega⟩
abbrev oS (i : Fin 16) : Fin 36 := ⟨4 + i.val, by have := i.isLt; omega⟩
abbrev oR (i : Fin 16) : Fin 36 := ⟨20 + i.val, by have := i.isLt; omega⟩

theorem sep_fin36 (Φ : Fin 36 → sProp 𝕄) :
    bigSep Finset.univ Φ = iprop((bigSep Finset.univ fun k : Fin 4 => Φ (oL k)) ∗ (bigSep Finset.univ fun i : Fin 16 => Φ (oS i)) ∗ bigSep Finset.univ fun i : Fin 16 => Φ (oR i)) := by
  rw [sep_fin_add (a := 20) (b := 16) Φ, sep_fin_add (a := 4) (b := 16), sep_assoc_eq']
  rfl

theorem osem_oS (i : Fin 16) : osem (oS i) = SemLoc.dma (sendS i).sem := congrArg SemLoc.dma (Fin.ext (sendS_val i).symm)
theorem osem_oR (i : Fin 16) : osem (oR i) = SemLoc.dma (recvS i).sem := congrArg SemLoc.dma (Fin.ext (recvS_val i).symm)

/-- All 36 own counters at zero: the four local ones, the sixteen send cells', the sixteen receive cells'. -/
theorem ownSems0_parts (c : Dev nD) :
    (Pipeline.ownSems0 (Ix := Unit) (Name := ℕ) (U := UU) (Lvl := ℕ) (Val := Elt F) (τ := τ) osem c : sProp 𝕄)
      = iprop(localSems0 c ∗ (bigSep Finset.univ fun i : Fin 16 => semVal (sendCell c i) 0) ∗ bigSep Finset.univ fun i : Fin 16 => semVal (recvCell c i) 0) := by
  unfold Pipeline.ownSems0 localSems0
  rw [sep_fin36 fun k => semVal ((c : Thread nD τ), osem k) 0,
    bigSep_congr (s := Finset.univ) (fun (i : Fin 16) _ => congrArg (fun sm => (semVal ((c : Thread nD τ), sm) 0 : sProp 𝕄)) (osem_oS i)),
    bigSep_congr (s := Finset.univ) (fun (i : Fin 16) _ => congrArg (fun sm => (semVal ((c : Thread nD τ), sm) 0 : sProp 𝕄)) (osem_oR i))]

/-- The body's last step: the argument array as launched, the 32 bands of the result array at their final contents, every
    own counter at zero and the scratch buffers whole are what the pipeline's invariant holds after the one point. -/
theorem phi1_intro (c : Dev nD) :
    iprop((((c : Thread nD τ).loc main_arg0) ↦{fullShare} m ((c : Thread nD τ).loc main_arg0))
        ∗ (bigSep Finset.univ fun i : Fin 16 => ((outRows c i).view.loc (c : Thread nD τ) ↦[(outRows c i).view.set]{fullShare} (outFinal m c) : sProp 𝕄))
        ∗ (bigSep Finset.univ fun i : Fin 16 => ((outRows (peer c) i).view.loc (c : Thread nD τ) ↦[(outRows (peer c) i).view.set]{fullShare} (outFinal m c) : sProp 𝕄))
        ∗ localSems0 c
        ∗ (bigSep Finset.univ fun i : Fin 16 => semVal (sendCell c i) 0)
        ∗ (bigSep Finset.univ fun i : Fin 16 => semVal (recvCell c i) 0)
        ∗ scratch c)
      ⊢ Φ₁ m c := by
  unfold Φ₁ arrs1
  rw [ownSems0_parts, out_split c (outFinal m c)]
  iintro ⟨Hx, Ho, Hp, HL, HS, HR, Hsc⟩
  isplitl [Hx Ho Hp]
  · isplitl [Hx]; · iexact Hx
    isplitl [Ho] <;> iassumption
  isplitl [HL HS HR]
  · isplitl [HL]; · iexact HL
    isplitl [HS] <;> iassumption
  iexact Hsc

/-- info: 'Cert.Kernel.A2A.phi1_intro' depends on axioms: [propext, Classical.choice, Quot.sound] -/
#guard_msgs in #print axioms phi1_intro

end Cert.Kernel.A2A

end
-- ==== Proof.Word.BodyEnd.lean ====
/-
  The body's last step, by itself: from what a device holds right after its last wait (its thirty-two protocol cells each with its
  one round consumed, the argument array as launched, the thirty-two bands of its result array at their final contents, the four
  local counters at zero, the staging slots back at what was staged, the two other scratch buffers, nothing owed) the cells close
  and the pipeline's invariant after the one point holds.
-/
import proofs.«900623_g7700000000000624_dist_a2a_v7x_xyz2x2x2_y_m4096_n1024_bf16_1_alg».proof.Proof.Word.Rules
import proofs.«900623_g7700000000000624_dist_a2a_v7x_xyz2x2x2_y_m4096_n1024_bf16_1_alg».proof.Proof.Word.Owed
import proofs.«900623_g7700000000000624_dist_a2a_v7x_xyz2x2x2_y_m4096_n1024_bf16_1_alg».proof.Proof.Word.BodyFacts
import proofs.«900623_g7700000000000624_dist_a2a_v7x_xyz2x2x2_y_m4096_n1024_bf16_1_alg».proof.Proof.Word.Exit

noncomputable section

namespace Cert.Kernel.A2A

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 33 → ℕ)

/-- What device c holds right after its last wait. -/
def endState (c : Dev nD) (W : Waits sig Unit) : sProp 𝕄 :=
  iprop((bigSep Finset.univ fun i : Fin 16 => iprop(cellInv ER (a2aRd m) (K (c, kS i)) (sendCell c i) ∗ atPos ER (sendCell c i) 1 ∅ 0))
    ∗ (bigSep Finset.univ fun i : Fin 16 => iprop(cellInv ER (a2aRd m) (K (c, kR i)) (recvCell c i) ∗ atPos ER (recvCell c i) 1 ∅ 0))
    ∗ (((c : Thread nD τ).loc main_arg0) ↦{fullShare} m ((c : Thread nD τ).loc main_arg0))
    ∗ (bigSep Finset.univ fun i : Fin 16 => ((outRows c i).view.loc (c : Thread nD τ) ↦[(outRows c i).view.set]{fullShare} (outFinal m c) : sProp 𝕄))
    ∗ (bigSep Finset.univ fun i : Fin 16 => recvPay m c i)
    ∗ localSems0 c
    ∗ (∃ f : Buf (Elt F) ((c : Thread nD τ).loc cc0_scratch0), ((c : Thread nD τ).loc cc0_scratch0) ↦{fullShare} f)
    ∗ (bigSep Finset.univ fun i : Fin 16 => sendPay m c i)
    ∗ (∃ f : Buf (Elt F) ((c : Thread nD τ).loc cc0_scratch2), ((c : Thread nD τ).loc cc0_scratch2) ↦{fullShare} f)
    ∗ owes (c : Thread nD τ) 0 W)

/-- The cells close and the invariant after the one point holds, nothing owed. -/
theorem endgame (c : Dev nD) (W : Waits sig Unit) :
    endState m K c W ⊢ (|={Set.univ}=> iprop(Φ₁ m c ∗ (dats m 0 c).owesAt () t₀.succ) : sProp 𝕄) := by
  unfold endState
  iintro ⟨P1, P2, P3, P4, P5, P6, P7, P8, P9, P10⟩
  have hS : (bigSep Finset.univ fun i : Fin 16 => iprop(cellInv ER (a2aRd m) (K (c, kS i)) (sendCell c i) ∗ atPos ER (sendCell c i) 1 ∅ 0) : sProp 𝕄)
      ⊢ |={Set.univ}=> bigSep Finset.univ fun i : Fin 16 => semVal (sendCell c i) 0 :=
    (bigSep_mono fun i _ => close_send m K c i).trans (bigSep_fupd _ _)
  have hR : (bigSep Finset.univ fun i : Fin 16 => iprop(cellInv ER (a2aRd m) (K (c, kR i)) (recvCell c i) ∗ atPos ER (recvCell c i) 1 ∅ 0) : sProp 𝕄)
      ⊢ |={Set.univ}=> bigSep Finset.univ fun i : Fin 16 => semVal (recvCell c i) 0 :=
    (bigSep_mono fun i _ => close_recv m K c i).trans (bigSep_fupd _ _)
  imod (hS) $$ [P1] with Zs
  · iexact P1
  imod (hR) $$ [P2] with Zr
  · iexact P2
  imodintro
  isplitr [P10]
  · iapply (phi1_intro m c)
    isplitl [P3]; · iexact P3
    isplitl [P4]; · iexact P4
    isplitl [P5]; · iexact P5
    isplitl [P6]; · iexact P6
    isplitl [Zs]; · iexact Zs
    isplitl [Zr]; · iexact Zr
    unfold scratch
    isplitl [P7]; · iexact P7
    isplitl [P8]
    · iexists (stageVal m c)
      rw [stage_split c (stageVal m c)]
      iexact P8
    iexact P9
  · iexists W
    isplitr; · ipureintro; exact fun _ _ => Or.inl trivial
    iexact P10

/-- info: 'Cert.Kernel.A2A.endgame' depends on axioms: [propext, Classical.choice, Quot.sound] -/
#guard_msgs in #print axioms endgame

end Cert.Kernel.A2A

end
-- ==== Proof.Word.Body.lean ====
/-
  One device's body: from what the launch routes in (the protocol's ghost state, the launch credit, the two arrays as
  launched, the scratch buffers at any contents) the body runs to its return, nothing faulting, and hands back the
  argument array unchanged, the result array at Spec.outFinal, every own semaphore at zero and nothing owed.

  The result array is cut into its thirty-two bands of 256 rows at entry: the sixteen of the peer's row block go to the peer
  with the entry signal, the sixteen of the device's own row block are the local copies' destinations.  Each of the sixteen
  chunks then goes the same way: the input copy is awaited, the peer's columns are narrowed into the chunk's staging slot,
  the slot (restated at what it holds, Spec's stageVal) goes to the peer's band by the transfer, the device's own columns are
  narrowed into a local output slot and copied to its own band, the next input copy is started.  After the last chunk the
  local copies and the thirty-two protocol cells are awaited and closed, and the bands, each at its final contents, are the
  result array again.
-/
import proofs.«900623_g7700000000000624_dist_a2a_v7x_xyz2x2x2_y_m4096_n1024_bf16_1_alg».proof.Proof.Word.Sched
import proofs.«900623_g7700000000000624_dist_a2a_v7x_xyz2x2x2_y_m4096_n1024_bf16_1_alg».proof.Proof.Gen.Kernel.Points
import proofs.«900623_g7700000000000624_dist_a2a_v7x_xyz2x2x2_y_m4096_n1024_bf16_1_alg».proof.Proof.Word.Rules
import proofs.«900623_g7700000000000624_dist_a2a_v7x_xyz2x2x2_y_m4096_n1024_bf16_1_alg».proof.Proof.Word.Owed
import proofs.«900623_g7700000000000624_dist_a2a_v7x_xyz2x2x2_y_m4096_n1024_bf16_1_alg».proof.Proof.Word.BodyFacts
import proofs.«900623_g7700000000000624_dist_a2a_v7x_xyz2x2x2_y_m4096_n1024_bf16_1_alg».proof.Proof.Word.Exit
import proofs.«900623_g7700000000000624_dist_a2a_v7x_xyz2x2x2_y_m4096_n1024_bf16_1_alg».proof.Proof.Word.BodyEnd

noncomputable section

namespace Cert.Kernel.A2A

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_send duties_recv amount_bar amount_send amount_recv expect_bar expect_send expect_recv
  payload_bar_own payload_send' payload_recv'
attribute [local sl_canon] dev1_eq dev2_eq dev3_eq dev4_eq dev5_eq dev6_eq dev7_eq dev8_eq dev9_eq dev10_eq dev11_eq dev12_eq dev13_eq dev14_eq dev15_eq dev16_eq dev17_eq

set_option maxHeartbeats 20000000 in
/-- The body on device c. -/
theorem sound_body (c : Dev nD) :
    iprop(Φ₀ m c ∗ (dats m 0 c).owesAt () t₀.castSucc)
      ⊢ wp frame (wpE (defs₀ (F := F)) 𝒱₀ c none) Set.univ (bodyAt0 (F := F) t₀)
          (fun _ => iprop(Φ₁ m c ∗ (dats m 0 c).owesAt () t₀.succ)) := by
  unfold Φ₀ start ghost invs creds localSems0
  simp only [bigSep_fin16, bigSep_fin4]
  unfold arrs0
  rw [show (dats m 0 c).owesAt () t₀.castSucc = Pipeline.owesWithin c (O₀ c) ((dats m 0 c).bound () t₀.castSucc) from rfl, O₀_eq]
  rw [scratch_eq, xM_eq c, out_split c (m ((c : Thread nD τ).loc main_v1)), bigSep_fin16, bigSep_fin16]
  iintro ⟨⟨⟨⟨%K, ⟨#Ib, #Ibp, ⟨#Is0, #Is1, #Is2, #Is3, #Is4, #Is5, #Is6, #Is7, #Is8, #Is9, #Is10, #Is11, #Is12, #Is13, #Is14, #Is15⟩, ⟨#Ir0, #Ir1, #Ir2, #Ir3, #Ir4, #Ir5, #Ir6, #Ir7, #Ir8, #Ir9, #Ir10, #Ir11, #Ir12, #Ir13, #Ir14, #Ir15⟩, ⟨#Ip0, #Ip1, #Ip2, #Ip3, #Ip4, #Ip5, #Ip6, #Ip7, #Ip8, #Ip9, #Ip10, #Ip11, #Ip12, #Ip13, #Ip14, #Ip15⟩⟩, Hab, ⟨Has0, Has1, Has2, Has3, Has4, Has5, Has6, Has7, Has8, Has9, Has10, Has11, Has12, Has13, Has14, Has15⟩, ⟨Har0, Har1, Har2, Har3, Har4, Har5, Har6, Har7, Har8, Har9, Har10, Har11, Har12, Har13, Har14, Har15⟩, #Rbp, ⟨#Rs0, #Rs1, #Rs2, #Rs3, #Rs4, #Rs5, #Rs6, #Rs7, #Rs8, #Rs9, #Rs10, #Rs11, #Rs12, #Rs13, #Rs14, #Rs15⟩, ⟨#Rr0, #Rr1, #Rr2, #Rr3, #Rr4, #Rr5, #Rr6, #Rr7, #Rr8, #Rr9, #Rr10, #Rr11, #Rr12, #Rr13, #Rr14, #Rr15⟩, Tbp, Ts, ⟨Tp0, Tp1, Tp2, Tp3, Tp4, Tp5, Tp6, Tp7, Tp8, Tp9, Tp10, Tp11, Tp12, Tp13, Tp14, Tp15⟩⟩, ⟨Cb, Cr0, Cr1, Cr2, Cr3, Cr4, Cr5, Cr6, Cr7, Cr8, Cr9, Cr10, Cr11, Cr12, Cr13, Cr14, Cr15⟩, ⟨L0, L1, L2, L3⟩, #Hlev, Hx, ⟨Bo0, Bo1, Bo2, Bo3, Bo4, Bo5, Bo6, Bo7, Bo8, Bo9, Bo10, Bo11, Bo12, Bo13, Bo14, Bo15⟩, ⟨Bp0, Bp1, Bp2, Bp3, Bp4, Bp5, Bp6, Bp7, Bp8, Bp9, Bp10, Bp11, Bp12, Bp13, Bp14, Bp15⟩⟩, ⟨%f0, S0⟩, ⟨%f1, S1⟩, ⟨%f2, S2⟩⟩, ⟨%W, %hW, HO⟩⟩
  have hmwb : (levAts L lv : sProp 𝕄) ⊢ MayWait (c : Thread nD τ) (.reg barS) () (owedFrom c 0) := by
    rw [owedFrom_zero]; exact mayWait_bar c
  have hlow : ∀ (q : DmaSem sig) (hq : ¬ IsRecvQ q) (j : ℕ), (levAts L lv : sProp 𝕄) ⊢ MayWait (c : Thread nD τ) (.dma q) () (owedFrom c j) :=
    fun q hq j => mayWait_low_sum c q hq _
  unfold bodyAt0
  sl_unfold [cc0_body]
  set_option sl_exec.dmaWindow true in
  sl_exec (disch := first | decide | simp only [dev1_eq])
  iapply (wp_signal_peer m K c (peer c) rfl (k' := (1#32).toNat) rfl (owedFrom c 0) W) $$ [HO Tbp Bp0 Bp1 Bp2 Bp3 Bp4 Bp5 Bp6 Bp7 Bp8 Bp9 Bp10 Bp11 Bp12 Bp13 Bp14 Bp15]
  · isplitr; · iexact Ibp
    isplitl [HO]; · iexact HO
    isplitl [Tbp]; · iexact Tbp
    isplitr []
    · rw [barPay_of (peer c) c (peer_peer c)]
      isplitl [Bp0]; · iexists _; iexact Bp0
      isplitl [Bp1]; · iexists _; iexact Bp1
      isplitl [Bp2]; · iexists _; iexact Bp2
      isplitl [Bp3]; · iexists _; iexact Bp3
      isplitl [Bp4]; · iexists _; iexact Bp4
      isplitl [Bp5]; · iexists _; iexact Bp5
      isplitl [Bp6]; · iexists _; iexact Bp6
      isplitl [Bp7]; · iexists _; iexact Bp7
      isplitl [Bp8]; · iexists _; iexact Bp8
      isplitl [Bp9]; · iexists _; iexact Bp9
      isplitl [Bp10]; · iexists _; iexact Bp10
      isplitl [Bp11]; · iexists _; iexact Bp11
      isplitl [Bp12]; · iexists _; iexact Bp12
      isplitl [Bp13]; · iexists _; iexact Bp13
      isplitl [Bp14]; · iexists _; iexact Bp14
      isplitl [Bp15]; · iexists _; iexact Bp15
      isplitr; · iexact Rr0
      isplitr; · iexact Rr1
      isplitr; · iexact Rr2
      isplitr; · iexact Rr3
      isplitr; · iexact Rr4
      isplitr; · iexact Rr5
      isplitr; · iexact Rr6
      isplitr; · iexact Rr7
      isplitr; · iexact Rr8
      isplitr; · iexact Rr9
      isplitr; · iexact Rr10
      isplitr; · iexact Rr11
      isplitr; · iexact Rr12
      isplitr; · iexact Rr13
      isplitr; · iexact Rr14
      iexact Rr15
    · iexact Rbp
  iintro HO
  set_option sl_exec.dmaWindow true in
  sl_exec (disch := first | decide | simp only [dev2_eq])
  -- transfer 0
  icases Ts with ⟨Ts0, Ts⟩
  ihave Hs := (pointsTo_split_subset (I := (stSlot 0).view.set) (S := Finset.univ) (Finset.subset_univ _)).1 $$ S1
  icases Hs with ⟨S1a, S1⟩
  rw [show owedFrom c 0 = owedFrom c 1 + tallyAt (recvCell (peer c) 0) () N from owedFrom_step c 0]
  iapply (wp_send_chunk m K c (peer c) rfl 0 Hab_pay1_v (owedFrom c 1) _ (amount_out c 0) (recv_restate m c 0 Hab_pay1_v)) $$ [S1a Hab_pay1 HO Ts0 Tp0 Hab_pay17]
  · isplitr; · iexact Is0
    isplitr; · iexact Ip0
    isplitl [S1a]
    · iapply (Entails.of_eq (pointsTo_congr (ℓ := (stSlot 0).view.loc (c : Thread nD τ)) (I := (stSlot 0).view.set) (q := fullShare) (g := stageVal m c) ?_))
      rotate_left
      · iexact S1a
      · exact stage_hw m c 0 0 (k0_off1 c) (k0_off1_inb c) (k0_off1_eq c) _ (xb_hg2 m c 0 1 0 1 (by decide) _ _) f1 _ _ _ _
    isplitl [Hab_pay1]; · iexact Hab_pay1
    isplitl [HO]; · iexact HO
    isplitl [Ts0]; · iexact Ts0
    isplitr; · iexact Rs0
    isplitl [Tp0]; · iexact Tp0
    iexact Hab_pay17
  iintro ⟨Cs0, HO⟩
  set_option sl_exec.dmaWindow true in
  sl_exec (disch := first | decide | simp only [dev3_eq])
  -- transfer 1
  icases Ts with ⟨Ts1, Ts⟩
  ihave Hs := (pointsTo_split_subset (I := (stSlot 1).view.set) (S := (Finset.univ \ (stSlot 0).view.set)) (fun x hx => Finset.mem_sdiff.mpr ⟨Finset.mem_univ _, stSlot_notMem (k := 0) (by decide) hx⟩)).1 $$ S1
  icases Hs with ⟨S1a, S1⟩
  rw [show owedFrom c 1 = owedFrom c 2 + tallyAt (recvCell (peer c) 1) () N from owedFrom_step c 1]
  iapply (wp_send_chunk m K c (peer c) rfl 1 Hab_pay2_v (owedFrom c 2) _ (amount_out c 1) (recv_restate m c 1 Hab_pay2_v)) $$ [S1a Hab_pay2 HO Ts1 Tp1 Hab_pay18]
  · isplitr; · iexact Is1
    isplitr; · iexact Ip1
    isplitl [S1a]
    · iapply (Entails.of_eq (pointsTo_congr (ℓ := (stSlot 1).view.loc (c : Thread nD τ)) (I := (stSlot 1).view.set) (q := fullShare) (g := stageVal m c) ?_))
      rotate_left
      · iexact S1a
      · exact stage_hw m c 1 1 (k0_off4 c) (k0_off4_inb c) (k0_off4_eq c) _ (xb_hg2 m c 1 2 1 0 (by decide) _ _) f1 _ _ _ _
    isplitl [Hab_pay2]; · iexact Hab_pay2
    isplitl [HO]; · iexact HO
    isplitl [Ts1]; · iexact Ts1
    isplitr; · iexact Rs1
    isplitl [Tp1]; · iexact Tp1
    iexact Hab_pay18
  iintro ⟨Cs1, HO⟩
  set_option sl_exec.dmaWindow true in
  sl_exec (disch := first | decide | simp only [dev4_eq])
  -- transfer 2
  icases Ts with ⟨Ts2, Ts⟩
  ihave Hs := (pointsTo_split_subset (I := (stSlot 2).view.set) (S := ((Finset.univ \ (stSlot 0).view.set) \ (stSlot 1).view.set)) (fun x hx => Finset.mem_sdiff.mpr ⟨Finset.mem_sdiff.mpr ⟨Finset.mem_univ _, stSlot_notMem (k := 0) (by decide) hx⟩, stSlot_notMem (k := 1) (by decide) hx⟩)).1 $$ S1
  icases Hs with ⟨S1a, S1⟩
  rw [show owedFrom c 2 = owedFrom c 3 + tallyAt (recvCell (peer c) 2) () N from owedFrom_step c 2]
  iapply (wp_send_chunk m K c (peer c) rfl 2 Hab_pay3_v (owedFrom c 3) _ (amount_out c 2) (recv_restate m c 2 Hab_pay3_v)) $$ [S1a Hab_pay3 HO Ts2 Tp2 Hab_pay19]
  · isplitr; · iexact Is2
    isplitr; · iexact Ip2
    isplitl [S1a]
    · iapply (Entails.of_eq (pointsTo_congr (ℓ := (stSlot 2).view.loc (c : Thread nD τ)) (I := (stSlot 2).view.set) (q := fullShare) (g := stageVal m c) ?_))
      rotate_left
      · iexact S1a
      · exact stage_hw m c 2 0 (k0_off1 c) (k0_off1_inb c) (k0_off1_eq c) _ (xb_hg2 m c 2 3 0 1 (by decide) _ _) f1 _ _ _ _
    isplitl [Hab_pay3]; · iexact Hab_pay3
    isplitl [HO]; · iexact HO
    isplitl [Ts2]; · iexact Ts2
    isplitr; · iexact Rs2
    isplitl [Tp2]; · iexact Tp2
    iexact Hab_pay19
  iintro ⟨Cs2, HO⟩
  set_option sl_exec.dmaWindow true in
  sl_exec (disch := first | decide | simp only [dev5_eq])
  -- transfer 3
  icases Ts with ⟨Ts3, Ts⟩
  ihave Hs := (pointsTo_split_subset (I := (stSlot 3).view.set) (S := (((Finset.univ \ (stSlot 0).view.set) \ (stSlot 1).view.set) \ (stSlot 2).view.set)) (fun x hx => Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩)).1 $$ S1
  icases Hs with ⟨S1a, S1⟩
  rw [show owedFrom c 3 = owedFrom c 4 + tallyAt (recvCell (peer c) 3) () N from owedFrom_step c 3]
  iapply (wp_send_chunk m K c (peer c) rfl 3 Hab_pay4_v (owedFrom c 4) _ (amount_out c 3) (recv_restate m c 3 Hab_pay4_v)) $$ [S1a Hab_pay4 HO Ts3 Tp3 Hab_pay20]
  · isplitr; · iexact Is3
    isplitr; · iexact Ip3
    isplitl [S1a]
    · iapply (Entails.of_eq (pointsTo_congr (ℓ := (stSlot 3).view.loc (c : Thread nD τ)) (I := (stSlot 3).view.set) (q := fullShare) (g := stageVal m c) ?_))
      rotate_left
      · iexact S1a
      · exact stage_hw m c 3 1 (k0_off4 c) (k0_off4_inb c) (k0_off4_eq c) _ (xb_hg2 m c 3 4 1 0 (by decide) _ _) f1 _ _ _ _
    isplitl [Hab_pay4]; · iexact Hab_pay4
    isplitl [HO]; · iexact HO
    isplitl [Ts3]; · iexact Ts3
    isplitr; · iexact Rs3
    isplitl [Tp3]; · iexact Tp3
    iexact Hab_pay20
  iintro ⟨Cs3, HO⟩
  set_option sl_exec.dmaWindow true in
  sl_exec (disch := first | decide | simp only [dev6_eq])
  -- transfer 4
  icases Ts with ⟨Ts4, Ts⟩
  ihave Hs := (pointsTo_split_subset (I := (stSlot 4).view.set) (S := ((((Finset.univ \ (stSlot 0).view.set) \ (stSlot 1).view.set) \ (stSlot 2).view.set) \ (stSlot 3).view.set)) (fun x hx => Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩)).1 $$ S1
  icases Hs with ⟨S1a, S1⟩
  rw [show owedFrom c 4 = owedFrom c 5 + tallyAt (recvCell (peer c) 4) () N from owedFrom_step c 4]
  iapply (wp_send_chunk m K c (peer c) rfl 4 Hab_pay5_v (owedFrom c 5) _ (amount_out c 4) (recv_restate m c 4 Hab_pay5_v)) $$ [S1a Hab_pay5 HO Ts4 Tp4 Hab_pay21]
  · isplitr; · iexact Is4
    isplitr; · iexact Ip4
    isplitl [S1a]
    · iapply (Entails.of_eq (pointsTo_congr (ℓ := (stSlot 4).view.loc (c : Thread nD τ)) (I := (stSlot 4).view.set) (q := fullShare) (g := stageVal m c) ?_))
      rotate_left
      · iexact S1a
      · exact stage_hw m c 4 0 (k0_off1 c) (k0_off1_inb c) (k0_off1_eq c) _ (xb_hg2 m c 4 5 0 1 (by decide) _ _) f1 _ _ _ _
    isplitl [Hab_pay5]; · iexact Hab_pay5
    isplitl [HO]; · iexact HO
    isplitl [Ts4]; · iexact Ts4
    isplitr; · iexact Rs4
    isplitl [Tp4]; · iexact Tp4
    iexact Hab_pay21
  iintro ⟨Cs4, HO⟩
  set_option sl_exec.dmaWindow true in
  sl_exec (disch := first | decide | simp only [dev7_eq])
  -- transfer 5
  icases Ts with ⟨Ts5, Ts⟩
  ihave Hs := (pointsTo_split_subset (I := (stSlot 5).view.set) (S := (((((Finset.univ \ (stSlot 0).view.set) \ (stSlot 1).view.set) \ (stSlot 2).view.set) \ (stSlot 3).view.set) \ (stSlot 4).view.set)) (fun x hx => Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩)).1 $$ S1
  icases Hs with ⟨S1a, S1⟩
  rw [show owedFrom c 5 = owedFrom c 6 + tallyAt (recvCell (peer c) 5) () N from owedFrom_step c 5]
  iapply (wp_send_chunk m K c (peer c) rfl 5 Hab_pay6_v (owedFrom c 6) _ (amount_out c 5) (recv_restate m c 5 Hab_pay6_v)) $$ [S1a Hab_pay6 HO Ts5 Tp5 Hab_pay22]
  · isplitr; · iexact Is5
    isplitr; · iexact Ip5
    isplitl [S1a]
    · iapply (Entails.of_eq (pointsTo_congr (ℓ := (stSlot 5).view.loc (c : Thread nD τ)) (I := (stSlot 5).view.set) (q := fullShare) (g := stageVal m c) ?_))
      rotate_left
      · iexact S1a
      · exact stage_hw m c 5 1 (k0_off4 c) (k0_off4_inb c) (k0_off4_eq c) _ (xb_hg2 m c 5 6 1 0 (by decide) _ _) f1 _ _ _ _
    isplitl [Hab_pay6]; · iexact Hab_pay6
    isplitl [HO]; · iexact HO
    isplitl [Ts5]; · iexact Ts5
    isplitr; · iexact Rs5
    isplitl [Tp5]; · iexact Tp5
    iexact Hab_pay22
  iintro ⟨Cs5, HO⟩
  set_option sl_exec.dmaWindow true in
  sl_exec (disch := first | decide | simp only [dev8_eq])
  -- transfer 6
  icases Ts with ⟨Ts6, Ts⟩
  ihave Hs := (pointsTo_split_subset (I := (stSlot 6).view.set) (S := ((((((Finset.univ \ (stSlot 0).view.set) \ (stSlot 1).view.set) \ (stSlot 2).view.set) \ (stSlot 3).view.set) \ (stSlot 4).view.set) \ (stSlot 5).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩)).1 $$ S1
  icases Hs with ⟨S1a, S1⟩
  rw [show owedFrom c 6 = owedFrom c 7 + tallyAt (recvCell (peer c) 6) () N from owedFrom_step c 6]
  iapply (wp_send_chunk m K c (peer c) rfl 6 Hab_pay7_v (owedFrom c 7) _ (amount_out c 6) (recv_restate m c 6 Hab_pay7_v)) $$ [S1a Hab_pay7 HO Ts6 Tp6 Hab_pay23]
  · isplitr; · iexact Is6
    isplitr; · iexact Ip6
    isplitl [S1a]
    · iapply (Entails.of_eq (pointsTo_congr (ℓ := (stSlot 6).view.loc (c : Thread nD τ)) (I := (stSlot 6).view.set) (q := fullShare) (g := stageVal m c) ?_))
      rotate_left
      · iexact S1a
      · exact stage_hw m c 6 0 (k0_off1 c) (k0_off1_inb c) (k0_off1_eq c) _ (xb_hg2 m c 6 7 0 1 (by decide) _ _) f1 _ _ _ _
    isplitl [Hab_pay7]; · iexact Hab_pay7
    isplitl [HO]; · iexact HO
    isplitl [Ts6]; · iexact Ts6
    isplitr; · iexact Rs6
    isplitl [Tp6]; · iexact Tp6
    iexact Hab_pay23
  iintro ⟨Cs6, HO⟩
  set_option sl_exec.dmaWindow true in
  sl_exec (disch := first | decide | simp only [dev9_eq])
  -- transfer 7
  icases Ts with ⟨Ts7, Ts⟩
  ihave Hs := (pointsTo_split_subset (I := (stSlot 7).view.set) (S := (((((((Finset.univ \ (stSlot 0).view.set) \ (stSlot 1).view.set) \ (stSlot 2).view.set) \ (stSlot 3).view.set) \ (stSlot 4).view.set) \ (stSlot 5).view.set) \ (stSlot 6).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩)).1 $$ S1
  icases Hs with ⟨S1a, S1⟩
  rw [show owedFrom c 7 = owedFrom c 8 + tallyAt (recvCell (peer c) 7) () N from owedFrom_step c 7]
  iapply (wp_send_chunk m K c (peer c) rfl 7 Hab_pay8_v (owedFrom c 8) _ (amount_out c 7) (recv_restate m c 7 Hab_pay8_v)) $$ [S1a Hab_pay8 HO Ts7 Tp7 Hab_pay24]
  · isplitr; · iexact Is7
    isplitr; · iexact Ip7
    isplitl [S1a]
    · iapply (Entails.of_eq (pointsTo_congr (ℓ := (stSlot 7).view.loc (c : Thread nD τ)) (I := (stSlot 7).view.set) (q := fullShare) (g := stageVal m c) ?_))
      rotate_left
      · iexact S1a
      · exact stage_hw m c 7 1 (k0_off4 c) (k0_off4_inb c) (k0_off4_eq c) _ (xb_hg2 m c 7 8 1 0 (by decide) _ _) f1 _ _ _ _
    isplitl [Hab_pay8]; · iexact Hab_pay8
    isplitl [HO]; · iexact HO
    isplitl [Ts7]; · iexact Ts7
    isplitr; · iexact Rs7
    isplitl [Tp7]; · iexact Tp7
    iexact Hab_pay24
  iintro ⟨Cs7, HO⟩
  set_option sl_exec.dmaWindow true in
  sl_exec (disch := first | decide | simp only [dev10_eq])
  -- transfer 8
  icases Ts with ⟨Ts8, Ts⟩
  ihave Hs := (pointsTo_split_subset (I := (stSlot 8).view.set) (S := ((((((((Finset.univ \ (stSlot 0).view.set) \ (stSlot 1).view.set) \ (stSlot 2).view.set) \ (stSlot 3).view.set) \ (stSlot 4).view.set) \ (stSlot 5).view.set) \ (stSlot 6).view.set) \ (stSlot 7).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩)).1 $$ S1
  icases Hs with ⟨S1a, S1⟩
  rw [show owedFrom c 8 = owedFrom c 9 + tallyAt (recvCell (peer c) 8) () N from owedFrom_step c 8]
  iapply (wp_send_chunk m K c (peer c) rfl 8 Hab_pay9_v (owedFrom c 9) _ (amount_out c 8) (recv_restate m c 8 Hab_pay9_v)) $$ [S1a Hab_pay9 HO Ts8 Tp8 Hab_pay25]
  · isplitr; · iexact Is8
    isplitr; · iexact Ip8
    isplitl [S1a]
    · iapply (Entails.of_eq (pointsTo_congr (ℓ := (stSlot 8).view.loc (c : Thread nD τ)) (I := (stSlot 8).view.set) (q := fullShare) (g := stageVal m c) ?_))
      rotate_left
      · iexact S1a
      · exact stage_hw m c 8 0 (k0_off1 c) (k0_off1_inb c) (k0_off1_eq c) _ (xb_hg2 m c 8 9 0 1 (by decide) _ _) f1 _ _ _ _
    isplitl [Hab_pay9]; · iexact Hab_pay9
    isplitl [HO]; · iexact HO
    isplitl [Ts8]; · iexact Ts8
    isplitr; · iexact Rs8
    isplitl [Tp8]; · iexact Tp8
    iexact Hab_pay25
  iintro ⟨Cs8, HO⟩
  set_option sl_exec.dmaWindow true in
  sl_exec (disch := first | decide | simp only [dev11_eq])
  -- transfer 9
  icases Ts with ⟨Ts9, Ts⟩
  ihave Hs := (pointsTo_split_subset (I := (stSlot 9).view.set) (S := (((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩)).1 $$ S1
  icases Hs with ⟨S1a, S1⟩
  rw [show owedFrom c 9 = owedFrom c 10 + tallyAt (recvCell (peer c) 9) () N from owedFrom_step c 9]
  iapply (wp_send_chunk m K c (peer c) rfl 9 Hab_pay10_v (owedFrom c 10) _ (amount_out c 9) (recv_restate m c 9 Hab_pay10_v)) $$ [S1a Hab_pay10 HO Ts9 Tp9 Hab_pay26]
  · isplitr; · iexact Is9
    isplitr; · iexact Ip9
    isplitl [S1a]
    · iapply (Entails.of_eq (pointsTo_congr (ℓ := (stSlot 9).view.loc (c : Thread nD τ)) (I := (stSlot 9).view.set) (q := fullShare) (g := stageVal m c) ?_))
      rotate_left
      · iexact S1a
      · exact stage_hw m c 9 1 (k0_off4 c) (k0_off4_inb c) (k0_off4_eq c) _ (xb_hg2 m c 9 10 1 0 (by decide) _ _) f1 _ _ _ _
    isplitl [Hab_pay10]; · iexact Hab_pay10
    isplitl [HO]; · iexact HO
    isplitl [Ts9]; · iexact Ts9
    isplitr; · iexact Rs9
    isplitl [Tp9]; · iexact Tp9
    iexact Hab_pay26
  iintro ⟨Cs9, HO⟩
  set_option sl_exec.dmaWindow true in
  sl_exec (disch := first | decide | simp only [dev12_eq])
  -- transfer 10
  icases Ts with ⟨Ts10, Ts⟩
  ihave Hs := (pointsTo_split_subset (I := (stSlot 10).view.set) (S := ((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩)).1 $$ S1
  icases Hs with ⟨S1a, S1⟩
  rw [show owedFrom c 10 = owedFrom c 11 + tallyAt (recvCell (peer c) 10) () N from owedFrom_step c 10]
  iapply (wp_send_chunk m K c (peer c) rfl 10 Hab_pay11_v (owedFrom c 11) _ (amount_out c 10) (recv_restate m c 10 Hab_pay11_v)) $$ [S1a Hab_pay11 HO Ts10 Tp10 Hab_pay27]
  · isplitr; · iexact Is10
    isplitr; · iexact Ip10
    isplitl [S1a]
    · iapply (Entails.of_eq (pointsTo_congr (ℓ := (stSlot 10).view.loc (c : Thread nD τ)) (I := (stSlot 10).view.set) (q := fullShare) (g := stageVal m c) ?_))
      rotate_left
      · iexact S1a
      · exact stage_hw m c 10 0 (k0_off1 c) (k0_off1_inb c) (k0_off1_eq c) _ (xb_hg2 m c 10 11 0 1 (by decide) _ _) f1 _ _ _ _
    isplitl [Hab_pay11]; · iexact Hab_pay11
    isplitl [HO]; · iexact HO
    isplitl [Ts10]; · iexact Ts10
    isplitr; · iexact Rs10
    isplitl [Tp10]; · iexact Tp10
    iexact Hab_pay27
  iintro ⟨Cs10, HO⟩
  set_option sl_exec.dmaWindow true in
  sl_exec (disch := first | decide | simp only [dev13_eq])
  -- transfer 11
  icases Ts with ⟨Ts11, Ts⟩
  ihave Hs := (pointsTo_split_subset (I := (stSlot 11).view.set) (S := (((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set) \ (stSlot 10).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩, stSlot_notMem (k := 10) (by decide) hx⟩)).1 $$ S1
  icases Hs with ⟨S1a, S1⟩
  rw [show owedFrom c 11 = owedFrom c 12 + tallyAt (recvCell (peer c) 11) () N from owedFrom_step c 11]
  iapply (wp_send_chunk m K c (peer c) rfl 11 Hab_pay12_v (owedFrom c 12) _ (amount_out c 11) (recv_restate m c 11 Hab_pay12_v)) $$ [S1a Hab_pay12 HO Ts11 Tp11 Hab_pay28]
  · isplitr; · iexact Is11
    isplitr; · iexact Ip11
    isplitl [S1a]
    · iapply (Entails.of_eq (pointsTo_congr (ℓ := (stSlot 11).view.loc (c : Thread nD τ)) (I := (stSlot 11).view.set) (q := fullShare) (g := stageVal m c) ?_))
      rotate_left
      · iexact S1a
      · exact stage_hw m c 11 1 (k0_off4 c) (k0_off4_inb c) (k0_off4_eq c) _ (xb_hg2 m c 11 12 1 0 (by decide) _ _) f1 _ _ _ _
    isplitl [Hab_pay12]; · iexact Hab_pay12
    isplitl [HO]; · iexact HO
    isplitl [Ts11]; · iexact Ts11
    isplitr; · iexact Rs11
    isplitl [Tp11]; · iexact Tp11
    iexact Hab_pay28
  iintro ⟨Cs11, HO⟩
  set_option sl_exec.dmaWindow true in
  sl_exec (disch := first | decide | simp only [dev14_eq])
  -- transfer 12
  icases Ts with ⟨Ts12, Ts⟩
  ihave Hs := (pointsTo_split_subset (I := (stSlot 12).view.set) (S := ((((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set) \ (stSlot 10).view.set) \ (stSlot 11).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩, stSlot_notMem (k := 10) (by decide) hx⟩, stSlot_notMem (k := 11) (by decide) hx⟩)).1 $$ S1
  icases Hs with ⟨S1a, S1⟩
  rw [show owedFrom c 12 = owedFrom c 13 + tallyAt (recvCell (peer c) 12) () N from owedFrom_step c 12]
  iapply (wp_send_chunk m K c (peer c) rfl 12 Hab_pay13_v (owedFrom c 13) _ (amount_out c 12) (recv_restate m c 12 Hab_pay13_v)) $$ [S1a Hab_pay13 HO Ts12 Tp12 Hab_pay29]
  · isplitr; · iexact Is12
    isplitr; · iexact Ip12
    isplitl [S1a]
    · iapply (Entails.of_eq (pointsTo_congr (ℓ := (stSlot 12).view.loc (c : Thread nD τ)) (I := (stSlot 12).view.set) (q := fullShare) (g := stageVal m c) ?_))
      rotate_left
      · iexact S1a
      · exact stage_hw m c 12 0 (k0_off1 c) (k0_off1_inb c) (k0_off1_eq c) _ (xb_hg2 m c 12 13 0 1 (by decide) _ _) f1 _ _ _ _
    isplitl [Hab_pay13]; · iexact Hab_pay13
    isplitl [HO]; · iexact HO
    isplitl [Ts12]; · iexact Ts12
    isplitr; · iexact Rs12
    isplitl [Tp12]; · iexact Tp12
    iexact Hab_pay29
  iintro ⟨Cs12, HO⟩
  set_option sl_exec.dmaWindow true in
  sl_exec (disch := first | decide | simp only [dev15_eq])
  -- transfer 13
  icases Ts with ⟨Ts13, Ts⟩
  ihave Hs := (pointsTo_split_subset (I := (stSlot 13).view.set) (S := (((((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set) \ (stSlot 10).view.set) \ (stSlot 11).view.set) \ (stSlot 12).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩, stSlot_notMem (k := 10) (by decide) hx⟩, stSlot_notMem (k := 11) (by decide) hx⟩, stSlot_notMem (k := 12) (by decide) hx⟩)).1 $$ S1
  icases Hs with ⟨S1a, S1⟩
  rw [show owedFrom c 13 = owedFrom c 14 + tallyAt (recvCell (peer c) 13) () N from owedFrom_step c 13]
  iapply (wp_send_chunk m K c (peer c) rfl 13 Hab_pay14_v (owedFrom c 14) _ (amount_out c 13) (recv_restate m c 13 Hab_pay14_v)) $$ [S1a Hab_pay14 HO Ts13 Tp13 Hab_pay30]
  · isplitr; · iexact Is13
    isplitr; · iexact Ip13
    isplitl [S1a]
    · iapply (Entails.of_eq (pointsTo_congr (ℓ := (stSlot 13).view.loc (c : Thread nD τ)) (I := (stSlot 13).view.set) (q := fullShare) (g := stageVal m c) ?_))
      rotate_left
      · iexact S1a
      · exact stage_hw m c 13 1 (k0_off4 c) (k0_off4_inb c) (k0_off4_eq c) _ (xb_hg2 m c 13 14 1 0 (by decide) _ _) f1 _ _ _ _
    isplitl [Hab_pay14]; · iexact Hab_pay14
    isplitl [HO]; · iexact HO
    isplitl [Ts13]; · iexact Ts13
    isplitr; · iexact Rs13
    isplitl [Tp13]; · iexact Tp13
    iexact Hab_pay30
  iintro ⟨Cs13, HO⟩
  set_option sl_exec.dmaWindow true in
  sl_exec (disch := first | decide | simp only [dev16_eq])
  -- transfer 14
  icases Ts with ⟨Ts14, Ts⟩
  ihave Hs := (pointsTo_split_subset (I := (stSlot 14).view.set) (S := ((((((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set) \ (stSlot 10).view.set) \ (stSlot 11).view.set) \ (stSlot 12).view.set) \ (stSlot 13).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩, stSlot_notMem (k := 10) (by decide) hx⟩, stSlot_notMem (k := 11) (by decide) hx⟩, stSlot_notMem (k := 12) (by decide) hx⟩, stSlot_notMem (k := 13) (by decide) hx⟩)).1 $$ S1
  icases Hs with ⟨S1a, S1⟩
  rw [show owedFrom c 14 = owedFrom c 15 + tallyAt (recvCell (peer c) 14) () N from owedFrom_step c 14]
  iapply (wp_send_chunk m K c (peer c) rfl 14 Hab_pay15_v (owedFrom c 15) _ (amount_out c 14) (recv_restate m c 14 Hab_pay15_v)) $$ [S1a Hab_pay15 HO Ts14 Tp14 Hab_pay31]
  · isplitr; · iexact Is14
    isplitr; · iexact Ip14
    isplitl [S1a]
    · iapply (Entails.of_eq (pointsTo_congr (ℓ := (stSlot 14).view.loc (c : Thread nD τ)) (I := (stSlot 14).view.set) (q := fullShare) (g := stageVal m c) ?_))
      rotate_left
      · iexact S1a
      · exact stage_hw m c 14 0 (k0_off1 c) (k0_off1_inb c) (k0_off1_eq c) _ (xb_hg2 m c 14 15 0 1 (by decide) _ _) f1 _ _ _ _
    isplitl [Hab_pay15]; · iexact Hab_pay15
    isplitl [HO]; · iexact HO
    isplitl [Ts14]; · iexact Ts14
    isplitr; · iexact Rs14
    isplitl [Tp14]; · iexact Tp14
    iexact Hab_pay31
  iintro ⟨Cs14, HO⟩
  ihave TT : (iprop(dutyTok ER (sendCell c 15) 0 () ∗ dutyTok ER (recvCell (peer c) 15) 0 ()) : sProp 𝕄) $$ [Ts Tp15]
  · isplitl [Ts]; · iexact Ts
    iexact Tp15
  set_option sl_exec.dmaWindow true in
  sl_exec (disch := first | decide | simp only [dev17_eq])
  -- transfer 15
  icases TT with ⟨Ts15, Tp15⟩
  ihave Hs := (pointsTo_split_subset (I := (stSlot 15).view.set) (S := (((((((((((((((Finset.univ \ (stSlot 0).view.set) \ (stSlot 1).view.set) \ (stSlot 2).view.set) \ (stSlot 3).view.set) \ (stSlot 4).view.set) \ (stSlot 5).view.set) \ (stSlot 6).view.set) \ (stSlot 7).view.set) \ (stSlot 8).view.set) \ (stSlot 9).view.set) \ (stSlot 10).view.set) \ (stSlot 11).view.set) \ (stSlot 12).view.set) \ (stSlot 13).view.set) \ (stSlot 14).view.set)) (fun x hx => Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_sdiff.mpr ⟨Finset.mem_univ _, stSlot_notMem (k := 0) (by decide) hx⟩, stSlot_notMem (k := 1) (by decide) hx⟩, stSlot_notMem (k := 2) (by decide) hx⟩, stSlot_notMem (k := 3) (by decide) hx⟩, stSlot_notMem (k := 4) (by decide) hx⟩, stSlot_notMem (k := 5) (by decide) hx⟩, stSlot_notMem (k := 6) (by decide) hx⟩, stSlot_notMem (k := 7) (by decide) hx⟩, stSlot_notMem (k := 8) (by decide) hx⟩, stSlot_notMem (k := 9) (by decide) hx⟩, stSlot_notMem (k := 10) (by decide) hx⟩, stSlot_notMem (k := 11) (by decide) hx⟩, stSlot_notMem (k := 12) (by decide) hx⟩, stSlot_notMem (k := 13) (by decide) hx⟩, stSlot_notMem (k := 14) (by decide) hx⟩)).1 $$ S1
  icases Hs with ⟨S1a, S1⟩
  rw [show owedFrom c 15 = owedFrom c 16 + tallyAt (recvCell (peer c) 15) () N from owedFrom_step c 15]
  iapply (wp_send_chunk m K c (peer c) rfl 15 Hab_pay16_v (owedFrom c 16) _ (amount_out c 15) (recv_restate m c 15 Hab_pay16_v)) $$ [S1a Hab_pay16 HO Ts15 Tp15 Hab_pay32]
  · isplitr; · iexact Is15
    isplitr; · iexact Ip15
    isplitl [S1a]
    · iapply (Entails.of_eq (pointsTo_congr (ℓ := (stSlot 15).view.loc (c : Thread nD τ)) (I := (stSlot 15).view.set) (q := fullShare) (g := stageVal m c) ?_))
      rotate_left
      · iexact S1a
      · exact stage_hw m c 15 1 (k0_off4 c) (k0_off4_inb c) (k0_off4_eq c) _ (xb_hg1 m c 15 1 _) f1 _ _ _ _
    isplitl [Hab_pay16]; · iexact Hab_pay16
    isplitl [HO]; · iexact HO
    isplitl [Ts15]; · iexact Ts15
    isplitr; · iexact Rs15
    isplitl [Tp15]; · iexact Tp15
    iexact Hab_pay32
  iintro ⟨Cs15, HO⟩
  rw [owedFrom_last]
  set_option sl_exec.dmaWindow true in
  sl_exec (disch := first | decide | simp only [dev17_eq])
  -- what is held after the last wait, folded into the end state; its cells close and the invariant after the point holds
  imod (endgame m K c _) $$ [Has0 Has1 Has2 Has3 Has4 Has5 Has6 Has7 Has8 Has9 Has10 Has11 Has12 Has13 Has14 Has15 Har0 Har1 Har2 Har3 Har4 Har5 Har6 Har7 Har8 Har9 Har10 Har11 Har12 Har13 Har14 Har15 Hx Bo0 Bo1 Bo2 Bo3 Bo4 Bo5 Bo6 Bo7 Bo8 Bo9 Bo10 Bo11 Bo12 Bo13 Bo14 Bo15 Har0_pay1 Har1_pay1 Har2_pay1 Har3_pay1 Har4_pay1 Har5_pay1 Har6_pay1 Har7_pay1 Har8_pay1 Har9_pay1 Har10_pay1 Har11_pay1 Har12_pay1 Har13_pay1 Har14_pay1 Har15_pay1 L0 L1 L2 L3 S0 Has0_pay1 Has1_pay1 Has2_pay1 Has3_pay1 Has4_pay1 Has5_pay1 Has6_pay1 Has7_pay1 Has8_pay1 Has9_pay1 Has10_pay1 Has11_pay1 Has12_pay1 Has13_pay1 Has14_pay1 Has15_pay1 S2 HO] with Hpost
  · unfold endState
    isplitl [Has0 Has1 Has2 Has3 Has4 Has5 Has6 Has7 Has8 Has9 Has10 Has11 Has12 Has13 Has14 Has15]
    · rw [bigSep_fin16]
      isplitl [Has0]
      · isplitr; · iexact Is0
        iexact Has0
      isplitl [Has1]
      · isplitr; · iexact Is1
        iexact Has1
      isplitl [Has2]
      · isplitr; · iexact Is2
        iexact Has2
      isplitl [Has3]
      · isplitr; · iexact Is3
        iexact Has3
      isplitl [Has4]
      · isplitr; · iexact Is4
        iexact Has4
      isplitl [Has5]
      · isplitr; · iexact Is5
        iexact Has5
      isplitl [Has6]
      · isplitr; · iexact Is6
        iexact Has6
      isplitl [Has7]
      · isplitr; · iexact Is7
        iexact Has7
      isplitl [Has8]
      · isplitr; · iexact Is8
        iexact Has8
      isplitl [Has9]
      · isplitr; · iexact Is9
        iexact Has9
      isplitl [Has10]
      · isplitr; · iexact Is10
        iexact Has10
      isplitl [Has11]
      · isplitr; · iexact Is11
        iexact Has11
      isplitl [Has12]
      · isplitr; · iexact Is12
        iexact Has12
      isplitl [Has13]
      · isplitr; · iexact Is13
        iexact Has13
      isplitl [Has14]
      · isplitr; · iexact Is14
        iexact Has14
      isplitr; · iexact Is15
      iexact Has15
    isplitl [Har0 Har1 Har2 Har3 Har4 Har5 Har6 Har7 Har8 Har9 Har10 Har11 Har12 Har13 Har14 Har15]
    · rw [bigSep_fin16]
      isplitl [Har0]
      · isplitr; · iexact Ir0
        iexact Har0
      isplitl [Har1]
      · isplitr; · iexact Ir1
        iexact Har1
      isplitl [Har2]
      · isplitr; · iexact Ir2
        iexact Har2
      isplitl [Har3]
      · isplitr; · iexact Ir3
        iexact Har3
      isplitl [Har4]
      · isplitr; · iexact Ir4
        iexact Har4
      isplitl [Har5]
      · isplitr; · iexact Ir5
        iexact Har5
      isplitl [Har6]
      · isplitr; · iexact Ir6
        iexact Har6
      isplitl [Har7]
      · isplitr; · iexact Ir7
        iexact Har7
      isplitl [Har8]
      · isplitr; · iexact Ir8
        iexact Har8
      isplitl [Har9]
      · isplitr; · iexact Ir9
        iexact Har9
      isplitl [Har10]
      · isplitr; · iexact Ir10
        iexact Har10
      isplitl [Har11]
      · isplitr; · iexact Ir11
        iexact Har11
      isplitl [Har12]
      · isplitr; · iexact Ir12
        iexact Har12
      isplitl [Har13]
      · isplitr; · iexact Ir13
        iexact Har13
      isplitl [Har14]
      · isplitr; · iexact Ir14
        iexact Har14
      isplitr; · iexact Ir15
      iexact Har15
    isplitl [Hx]; · iexact Hx
    isplitl [Bo0 Bo1 Bo2 Bo3 Bo4 Bo5 Bo6 Bo7 Bo8 Bo9 Bo10 Bo11 Bo12 Bo13 Bo14 Bo15]
    · rw [bigSep_fin16]
      isplitl [Bo0]
      · iapply (Entails.of_eq (pointsTo_congr (ℓ := (outRows c 0).view.loc (c : Thread nD τ)) (I := (outRows c 0).view.set) (q := fullShare) (g := outFinal m c) ?_))
        rotate_left
        · iexact Bo0
        · exact local_hw m c 0 0 (k0_off3 c) (k0_off3_inb c) (k0_off3_eq c) _ (xb_hg2 m c 0 1 0 1 (by decide) _ _) f2 _ _ _ _ _
      isplitl [Bo1]
      · iapply (Entails.of_eq (pointsTo_congr (ℓ := (outRows c 1).view.loc (c : Thread nD τ)) (I := (outRows c 1).view.set) (q := fullShare) (g := outFinal m c) ?_))
        rotate_left
        · iexact Bo1
        · exact local_hw m c 1 1 (k0_off5 c) (k0_off5_inb c) (k0_off5_eq c) _ (xb_hg2 m c 1 2 1 0 (by decide) _ _) f2 _ _ _ _ _
      isplitl [Bo2]
      · iapply (Entails.of_eq (pointsTo_congr (ℓ := (outRows c 2).view.loc (c : Thread nD τ)) (I := (outRows c 2).view.set) (q := fullShare) (g := outFinal m c) ?_))
        rotate_left
        · iexact Bo2
        · exact local_hw m c 2 0 (k0_off3 c) (k0_off3_inb c) (k0_off3_eq c) _ (xb_hg2 m c 2 3 0 1 (by decide) _ _) f2 _ _ _ _ _
      isplitl [Bo3]
      · iapply (Entails.of_eq (pointsTo_congr (ℓ := (outRows c 3).view.loc (c : Thread nD τ)) (I := (outRows c 3).view.set) (q := fullShare) (g := outFinal m c) ?_))
        rotate_left
        · iexact Bo3
        · exact local_hw m c 3 1 (k0_off5 c) (k0_off5_inb c) (k0_off5_eq c) _ (xb_hg2 m c 3 4 1 0 (by decide) _ _) f2 _ _ _ _ _
      isplitl [Bo4]
      · iapply (Entails.of_eq (pointsTo_congr (ℓ := (outRows c 4).view.loc (c : Thread nD τ)) (I := (outRows c 4).view.set) (q := fullShare) (g := outFinal m c) ?_))
        rotate_left
        · iexact Bo4
        · exact local_hw m c 4 0 (k0_off3 c) (k0_off3_inb c) (k0_off3_eq c) _ (xb_hg2 m c 4 5 0 1 (by decide) _ _) f2 _ _ _ _ _
      isplitl [Bo5]
      · iapply (Entails.of_eq (pointsTo_congr (ℓ := (outRows c 5).view.loc (c : Thread nD τ)) (I := (outRows c 5).view.set) (q := fullShare) (g := outFinal m c) ?_))
        rotate_left
        · iexact Bo5
        · exact local_hw m c 5 1 (k0_off5 c) (k0_off5_inb c) (k0_off5_eq c) _ (xb_hg2 m c 5 6 1 0 (by decide) _ _) f2 _ _ _ _ _
      isplitl [Bo6]
      · iapply (Entails.of_eq (pointsTo_congr (ℓ := (outRows c 6).view.loc (c : Thread nD τ)) (I := (outRows c 6).view.set) (q := fullShare) (g := outFinal m c) ?_))
        rotate_left
        · iexact Bo6
        · exact local_hw m c 6 0 (k0_off3 c) (k0_off3_inb c) (k0_off3_eq c) _ (xb_hg2 m c 6 7 0 1 (by decide) _ _) f2 _ _ _ _ _
      isplitl [Bo7]
      · iapply (Entails.of_eq (pointsTo_congr (ℓ := (outRows c 7).view.loc (c : Thread nD τ)) (I := (outRows c 7).view.set) (q := fullShare) (g := outFinal m c) ?_))
        rotate_left
        · iexact Bo7
        · exact local_hw m c 7 1 (k0_off5 c) (k0_off5_inb c) (k0_off5_eq c) _ (xb_hg2 m c 7 8 1 0 (by decide) _ _) f2 _ _ _ _ _
      isplitl [Bo8]
      · iapply (Entails.of_eq (pointsTo_congr (ℓ := (outRows c 8).view.loc (c : Thread nD τ)) (I := (outRows c 8).view.set) (q := fullShare) (g := outFinal m c) ?_))
        rotate_left
        · iexact Bo8
        · exact local_hw m c 8 0 (k0_off3 c) (k0_off3_inb c) (k0_off3_eq c) _ (xb_hg2 m c 8 9 0 1 (by decide) _ _) f2 _ _ _ _ _
      isplitl [Bo9]
      · iapply (Entails.of_eq (pointsTo_congr (ℓ := (outRows c 9).view.loc (c : Thread nD τ)) (I := (outRows c 9).view.set) (q := fullShare) (g := outFinal m c) ?_))
        rotate_left
        · iexact Bo9
        · exact local_hw m c 9 1 (k0_off5 c) (k0_off5_inb c) (k0_off5_eq c) _ (xb_hg2 m c 9 10 1 0 (by decide) _ _) f2 _ _ _ _ _
      isplitl [Bo10]
      · iapply (Entails.of_eq (pointsTo_congr (ℓ := (outRows c 10).view.loc (c : Thread nD τ)) (I := (outRows c 10).view.set) (q := fullShare) (g := outFinal m c) ?_))
        rotate_left
        · iexact Bo10
        · exact local_hw m c 10 0 (k0_off3 c) (k0_off3_inb c) (k0_off3_eq c) _ (xb_hg2 m c 10 11 0 1 (by decide) _ _) f2 _ _ _ _ _
      isplitl [Bo11]
      · iapply (Entails.of_eq (pointsTo_congr (ℓ := (outRows c 11).view.loc (c : Thread nD τ)) (I := (outRows c 11).view.set) (q := fullShare) (g := outFinal m c) ?_))
        rotate_left
        · iexact Bo11
        · exact local_hw m c 11 1 (k0_off5 c) (k0_off5_inb c) (k0_off5_eq c) _ (xb_hg2 m c 11 12 1 0 (by decide) _ _) f2 _ _ _ _ _
      isplitl [Bo12]
      · iapply (Entails.of_eq (pointsTo_congr (ℓ := (outRows c 12).view.loc (c : Thread nD τ)) (I := (outRows c 12).view.set) (q := fullShare) (g := outFinal m c) ?_))
        rotate_left
        · iexact Bo12
        · exact local_hw m c 12 0 (k0_off3 c) (k0_off3_inb c) (k0_off3_eq c) _ (xb_hg2 m c 12 13 0 1 (by decide) _ _) f2 _ _ _ _ _
      isplitl [Bo13]
      · iapply (Entails.of_eq (pointsTo_congr (ℓ := (outRows c 13).view.loc (c : Thread nD τ)) (I := (outRows c 13).view.set) (q := fullShare) (g := outFinal m c) ?_))
        rotate_left
        · iexact Bo13
        · exact local_hw m c 13 1 (k0_off5 c) (k0_off5_inb c) (k0_off5_eq c) _ (xb_hg2 m c 13 14 1 0 (by decide) _ _) f2 _ _ _ _ _
      isplitl [Bo14]
      · iapply (Entails.of_eq (pointsTo_congr (ℓ := (outRows c 14).view.loc (c : Thread nD τ)) (I := (outRows c 14).view.set) (q := fullShare) (g := outFinal m c) ?_))
        rotate_left
        · iexact Bo14
        · exact local_hw m c 14 0 (k0_off3 c) (k0_off3_inb c) (k0_off3_eq c) _ (xb_hg2 m c 14 15 0 1 (by decide) _ _) f2 _ _ _ _ _
      · iapply (Entails.of_eq (pointsTo_congr (ℓ := (outRows c 15).view.loc (c : Thread nD τ)) (I := (outRows c 15).view.set) (q := fullShare) (g := outFinal m c) ?_))
        rotate_left
        · iexact Bo15
        · exact local_hw m c 15 1 (k0_off5 c) (k0_off5_inb c) (k0_off5_eq c) _ (xb_hg1 m c 15 1 _) f2 _ _ _ _ _
    isplitl [Har0_pay1 Har1_pay1 Har2_pay1 Har3_pay1 Har4_pay1 Har5_pay1 Har6_pay1 Har7_pay1 Har8_pay1 Har9_pay1 Har10_pay1 Har11_pay1 Har12_pay1 Har13_pay1 Har14_pay1 Har15_pay1]
    · rw [bigSep_fin16]
      unfold recvPay
      isplitl [Har0_pay1]; · iexact Har0_pay1
      isplitl [Har1_pay1]; · iexact Har1_pay1
      isplitl [Har2_pay1]; · iexact Har2_pay1
      isplitl [Har3_pay1]; · iexact Har3_pay1
      isplitl [Har4_pay1]; · iexact Har4_pay1
      isplitl [Har5_pay1]; · iexact Har5_pay1
      isplitl [Har6_pay1]; · iexact Har6_pay1
      isplitl [Har7_pay1]; · iexact Har7_pay1
      isplitl [Har8_pay1]; · iexact Har8_pay1
      isplitl [Har9_pay1]; · iexact Har9_pay1
      isplitl [Har10_pay1]; · iexact Har10_pay1
      isplitl [Har11_pay1]; · iexact Har11_pay1
      isplitl [Har12_pay1]; · iexact Har12_pay1
      isplitl [Har13_pay1]; · iexact Har13_pay1
      isplitl [Har14_pay1]; · iexact Har14_pay1
      iexact Har15_pay1
    isplitl [L0 L1 L2 L3]
    · rw [localSems0_eq]
      isplitl [L0]; · iexact L0
      isplitl [L1]; · iexact L1
      isplitl [L2]; · iexact L2
      iexact L3
    isplitl [S0]; · iexists _; iexact S0
    isplitl [Has0_pay1 Has1_pay1 Has2_pay1 Has3_pay1 Has4_pay1 Has5_pay1 Has6_pay1 Has7_pay1 Has8_pay1 Has9_pay1 Has10_pay1 Has11_pay1 Has12_pay1 Has13_pay1 Has14_pay1 Has15_pay1]
    · rw [bigSep_fin16]
      unfold sendPay
      isplitl [Has0_pay1]; · iexact Has0_pay1
      isplitl [Has1_pay1]; · iexact Has1_pay1
      isplitl [Has2_pay1]; · iexact Has2_pay1
      isplitl [Has3_pay1]; · iexact Has3_pay1
      isplitl [Has4_pay1]; · iexact Has4_pay1
      isplitl [Has5_pay1]; · iexact Has5_pay1
      isplitl [Has6_pay1]; · iexact Has6_pay1
      isplitl [Has7_pay1]; · iexact Has7_pay1
      isplitl [Has8_pay1]; · iexact Has8_pay1
      isplitl [Has9_pay1]; · iexact Has9_pay1
      isplitl [Has10_pay1]; · iexact Has10_pay1
      isplitl [Has11_pay1]; · iexact Has11_pay1
      isplitl [Has12_pay1]; · iexact Has12_pay1
      isplitl [Has13_pay1]; · iexact Has13_pay1
      isplitl [Has14_pay1]; · iexact Has14_pay1
      iexact Has15_pay1
    isplitl [S2]; · iexists _; iexact S2
    iexact HO
  sl_step
  iexact Hpost

/-- The library's body obligation on core c (the pipeline has no window: nothing is staged around the body). -/
theorem body_obligation (c : Dev nD) : BodyObligation (dats (F := F) m 0 c) (defs₀ (F := F)) 𝒱₀ () Set.univ := fun t => by
  rw [fin_N t]
  have hW : (Finset.univ : Finset (Fin cfg0.W)) = ∅ := Finset.univ_eq_empty
  simp only [hW, bigSep_empty]
  show iprop(Φ₀ m c ∗ (dats m 0 c).owesAt () t₀.castSucc ∗ emp) ⊢ wp frame (wpE (defs₀ (F := F)) 𝒱₀ c none) Set.univ (bodyAt0 (F := F) t₀) (fun _ => iprop(Φ₁ m c ∗ (dats m 0 c).owesAt () t₀.succ ∗ emp))
  refine (sep_mono_right (sep_emp (PROP := sProp 𝕄)).1).trans ((sound_body m c).trans (wp_mono _ _ _ fun _ => ?_))
  exact sep_mono_right (sep_emp (PROP := sProp 𝕄)).2

/-- info: 'Cert.Kernel.A2A.body_obligation' depends on axioms: [propext, Classical.choice, Quot.sound] -/
#guard_msgs in #print axioms body_obligation

end Cert.Kernel.A2A

end
-- ==== Proof.Word.Launch.lean ====
/-
  The launch: from each device's body the run of @main on all eight devices.
-/
import proofs.«900623_g7700000000000624_dist_a2a_v7x_xyz2x2x2_y_m4096_n1024_bf16_1_alg».proof.Proof.Word.Body
import Mathlib.Logic.Equiv.Fin.Basic

noncomputable section

namespace Cert.Kernel.A2A

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Layout facts -/

theorem ownSemFacts : Pipeline.OwnSemFacts cfg0.spec osem := by decide

theorem share_eq (c : Dev nD) (w : Fin cfg0.W) : (dats m 0 c).share w = fullShare := w.elim0

/-! ## The protocol's cells and tokens -/

/-- The index of a protocol cell from its semaphore. -/
def kOf : SemLoc sig → Fin 33
  | .reg _ => 0
  | .dma q => ⟨(q.val - 3) % 33, Nat.mod_lt _ (by decide)⟩

theorem kOf_csem : ∀ k : Fin 33, kOf (csem k) = k := by decide

theorem csem_injective : Function.Injective (csem : Fin 33 → SemLoc sig) :=
  Function.LeftInverse.injective kOf_csem

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

def protoCells : Finset (GSem nD τ sig) := Finset.univ.map ⟨kcell, kcell_injective⟩

/-- Each cell's one duty token as minted. -/
abbrev tokOf (ck : Dev nD × Fin 33) : GSem nD τ sig × ℕ × Unit := (kcell ck, 0, ())
theorem tokOf_injective : Function.Injective (tokOf : Dev nD × Fin 33 → GSem nD τ sig × ℕ × Unit) :=
  fun a b h => kcell_injective (congrArg Prod.fst h)
def protoToks : Finset (GSem nD τ sig × ℕ × Unit) := Finset.univ.map ⟨tokOf, tokOf_injective⟩

/-- The launch element: the pipeline library's copy (no cell), the protocol's copy, the counters' unit. -/
def u₀ : UU :=
  (initOf (Pipeline.cells cfgs cellOf_inj) (Pipeline.launchToks cfgs cellOf_inj), (initOf protoCells protoToks, (1 : Counters)))

/-- The duty tokens of device c's own cells. -/
def toks (c : Dev nD) : sProp 𝕄 := bigSep Finset.univ fun k : Fin 33 => dutyTok ER (kcell (c, k)) 0 ()

/-- What the launch element deals device c. -/
def G (c : Dev nD) : sProp 𝕄 :=
  iprop((bigSep Finset.univ fun k : Fin 33 => roundState ER (a2aRd m) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop((∃ K, ghost m K c) ∗ localSems0 c)

/-! ## Splitting a product over 33 or 36 indices into its bands -/

theorem bigSep_fin_add {a b : ℕ} (Φ : Fin (a + b) → sProp 𝕄) :
    bigSep Finset.univ Φ = iprop((bigSep Finset.univ fun i : Fin a => Φ (Fin.castAdd b i)) ∗ bigSep Finset.univ fun j : Fin b => Φ (Fin.natAdd a j)) := by
  rw [bigSep_univ_equiv finSumFinEquiv Φ, bigSep_univ_sum]
  rfl

theorem sep_assoc_launch (A B C : sProp 𝕄) : iprop((A ∗ B) ∗ C) = iprop(A ∗ B ∗ C) := by
  refine BI.Entails.antisymm (show _ ⊢ (_ : sProp 𝕄) from ?_) (show _ ⊢ (_ : sProp 𝕄) from ?_)
  · iintro ⟨⟨H1, H2⟩, H3⟩
    isplitl [H1]; · iexact H1
    isplitl [H2] <;> iassumption
  · iintro ⟨H1, H2, H3⟩
    isplitr [H3]
    · isplitl [H1] <;> iassumption
    · iexact H3

theorem bigSep_fin33 (Φ : Fin 33 → sProp 𝕄) :
    bigSep Finset.univ Φ = iprop(Φ kB ∗ (bigSep Finset.univ fun i : Fin 16 => Φ (kS i)) ∗ bigSep Finset.univ fun i : Fin 16 => Φ (kR i)) := by
  rw [bigSep_fin_add (a := 17) (b := 16) Φ, bigSep_fin_add (a := 1) (b := 16), bigSep_univ_of_subsingleton (0 : Fin 1), sep_assoc_launch]
  rfl

/-- The 36 own semaphores: the four local ones, the sixteen send ones, the sixteen receive ones. -/
abbrev q4 (k : Fin 4) : Fin 36 := ⟨k.val, by have := k.isLt; omega⟩
abbrev qS (i : Fin 16) : Fin 36 := ⟨4 + i.val, by have := i.isLt; omega⟩
abbrev qR (i : Fin 16) : Fin 36 := ⟨20 + i.val, by have := i.isLt; omega⟩

theorem bigSep_fin36 (Φ : Fin 36 → sProp 𝕄) :
    bigSep Finset.univ Φ = iprop((bigSep Finset.univ fun k : Fin 4 => Φ (q4 k)) ∗ (bigSep Finset.univ fun i : Fin 16 => Φ (qS i)) ∗ bigSep Finset.univ fun i : Fin 16 => Φ (qR i)) := by
  rw [bigSep_fin_add (a := 20) (b := 16) Φ, bigSep_fin_add (a := 4) (b := 16), sep_assoc_launch]
  rfl

theorem osem_qS (i : Fin 16) : osem (qS i) = SemLoc.dma (sendS i).sem := congrArg SemLoc.dma (Fin.ext (sendS_val i).symm)
theorem osem_qR (i : Fin 16) : osem (qR i) = SemLoc.dma (recvS i).sem := congrArg SemLoc.dma (Fin.ext (recvS_val i).symm)

/-- A product over a device's 33 cells, by kind. -/
theorem bigSep_cells (c : Dev nD) (Φ : GSem nD τ sig → sProp 𝕄) :
    (bigSep Finset.univ fun k : Fin 33 => Φ (kcell (c, k)))
      = iprop(Φ (barCell c) ∗ (bigSep Finset.univ fun i : Fin 16 => Φ (sendCell c i)) ∗ bigSep Finset.univ fun i : Fin 16 => Φ (recvCell c i)) := by
  rw [bigSep_fin33 fun k => Φ (kcell (c, k)), kcell_bar,
    bigSep_congr (s := Finset.univ) (fun (i : Fin 16) _ => congrArg Φ (kcell_send c i)),
    bigSep_congr (s := Finset.univ) (fun (i : Fin 16) _ => congrArg Φ (kcell_recv c i))]

/-! ## Funding the protocol's copy -/

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 33 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]; rfl
  iintro HX
  imod (Rounds.fund ER (a2aRd m) protoCells protoToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, sorted -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The 36 own counters and the barrier's: the protocol's 33 and the four local ones. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 33 => semVal (kcell (c, k)) 0 : sProp 𝕄) ∗ localSems0 c) := by
  rw [unscopedSems0_eq, bigSep_cells c fun g => semVal g 0]
  unfold Pipeline.ownSems0 localSems0
  rw [bigSep_fin36 fun k => semVal ((c : Thread nD τ), osem k) 0,
    bigSep_congr (s := Finset.univ) (fun (i : Fin 16) _ => congrArg (fun sm => (semVal ((c : Thread nD τ), sm) 0 : sProp 𝕄)) (osem_qS i)),
    bigSep_congr (s := Finset.univ) (fun (i : Fin 16) _ => congrArg (fun sm => (semVal ((c : Thread nD τ), sm) 0 : sProp 𝕄)) (osem_qR i))]
  iintro ⟨⟨HL, HS, HV⟩, HB⟩
  isplitr [HL]
  · isplitl [HB]; · iexact HB
    isplitl [HS] <;> iassumption
  · iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (a2aRd m) κ (kcell (c, k))))
          ∗ (bigSep Finset.univ fun k : Fin 33 => iprop(atPos ER (kcell (c, k)) 0 ∅ 0 ∗ reached ER (kcell (c, k)) 0)) ∗ toks c ∗ localSems0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 33 => semVal (kcell (c, k)) 0) ∗ bigSep Finset.univ fun k : Fin 33 => roundState ER (a2aRd m) (kcell (c, k)) 0)
      ⊢ (|={Set.univ}=> bigSep Finset.univ fun k : Fin 33 => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## From every device's cells to each device's ghost state -/

def records (K : Dev nD × Fin 33 → ℕ) : sProp 𝕄 :=
  iprop((bigSep Finset.univ fun ck : Dev nD × Fin 33 => cellInv ER (a2aRd m) (K ck) (kcell ck))
    ∗ bigSep Finset.univ fun ck : Dev nD × Fin 33 => reached ER (kcell ck) 0)

instance records_persistent (K : Dev nD × Fin 33 → ℕ) : BI.Persistent (records m K) := by unfold records; infer_instance

theorem pers_bigSep {I : Type} [DecidableEq I] {R : sProp 𝕄} [BI.Persistent R] (S : Finset I) (Φ : I → sProp 𝕄) (h : ∀ i, R ⊢ Φ i) :
    R ⊢ bigSep S Φ :=
  (BI.bigSep_of_persistent S R).trans (bigSep_mono fun i _ => h i)

theorem inv_at (K : Dev nD × Fin 33 → ℕ) (ck : Dev nD × Fin 33) :
    (bigSep Finset.univ fun ck : Dev nD × Fin 33 => (cellInv ER (a2aRd m) (K ck) (kcell ck) : sProp 𝕄)) ⊢ cellInv ER (a2aRd m) (K ck) (kcell ck) :=
  bigSep_elim (Finset.mem_univ ck)
theorem reached_at (ck : Dev nD × Fin 33) :
    (bigSep Finset.univ fun ck : Dev nD × Fin 33 => (reached ER (kcell ck) 0 : sProp 𝕄)) ⊢ reached ER (kcell ck) 0 :=
  bigSep_elim (Finset.mem_univ ck)

theorem inv_send (K : Dev nD × Fin 33 → ℕ) (c : Dev nD) :
    (bigSep Finset.univ fun ck : Dev nD × Fin 33 => (cellInv ER (a2aRd m) (K ck) (kcell ck) : sProp 𝕄))
      ⊢ bigSep Finset.univ fun i : Fin 16 => cellInv ER (a2aRd m) (K (c, kS i)) (sendCell c i) :=
  pers_bigSep _ _ fun i => by rw [← kcell_send c i]; exact inv_at m K (c, kS i)
theorem inv_recv (K : Dev nD × Fin 33 → ℕ) (c : Dev nD) :
    (bigSep Finset.univ fun ck : Dev nD × Fin 33 => (cellInv ER (a2aRd m) (K ck) (kcell ck) : sProp 𝕄))
      ⊢ bigSep Finset.univ fun i : Fin 16 => cellInv ER (a2aRd m) (K (c, kR i)) (recvCell c i) :=
  pers_bigSep _ _ fun i => by rw [← kcell_recv c i]; exact inv_at m K (c, kR i)
theorem reached_send (c : Dev nD) :
    (bigSep Finset.univ fun ck : Dev nD × Fin 33 => (reached ER (kcell ck) 0 : sProp 𝕄)) ⊢ bigSep Finset.univ fun i : Fin 16 => reached ER (sendCell c i) 0 :=
  pers_bigSep _ _ fun i => by rw [← kcell_send c i]; exact reached_at (c, kS i)
theorem reached_recv (c : Dev nD) :
    (bigSep Finset.univ fun ck : Dev nD × Fin 33 => (reached ER (kcell ck) 0 : sProp 𝕄)) ⊢ bigSep Finset.univ fun i : Fin 16 => reached ER (recvCell c i) 0 :=
  pers_bigSep _ _ fun i => by rw [← kcell_recv c i]; exact reached_at (c, kR i)

/-- What stays with device c: its positions, the tokens of the duties IT pays, its four local counters. -/
def payToks (c : Dev nD) : sProp 𝕄 :=
  iprop(dutyTok ER (barCell (peer c)) 0 () ∗ (bigSep Finset.univ fun i : Fin 16 => dutyTok ER (sendCell c i) 0 ())
    ∗ bigSep Finset.univ fun i : Fin 16 => dutyTok ER (recvCell (peer c) i) 0 ())
def linear (c : Dev nD) : sProp 𝕄 :=
  iprop((atPos ER (barCell c) 0 ∅ 0 ∗ (bigSep Finset.univ fun i : Fin 16 => atPos ER (sendCell c i) 0 ∅ 0)
      ∗ bigSep Finset.univ fun i : Fin 16 => atPos ER (recvCell c i) 0 ∅ 0) ∗ payToks c ∗ localSems0 c)

theorem ghost_intro (K : Dev nD × Fin 33 → ℕ) (c : Dev nD) : iprop(records m K ∗ linear c) ⊢ G' m c := by
  unfold records linear payToks G' ghost invs
  iintro ⟨⟨#HI, #HR⟩, ⟨HaB, HaS, HaV⟩, ⟨HtB, HtS, HtV⟩, Hloc⟩
  isplitr [Hloc]
  · iexists K
    isplitr
    · isplitr; · iapply (inv_at m K (c, kB)); iexact HI
      isplitr; · iapply (inv_at m K (peer c, kB)); iexact HI
      isplitr; · iapply (inv_send m K c); iexact HI
      isplitr; · iapply (inv_recv m K c); iexact HI
      iapply (inv_recv m K (peer c)); iexact HI
    isplitl [HaB]; · iexact HaB
    isplitl [HaS]; · iexact HaS
    isplitl [HaV]; · iexact HaV
    isplitr; · iapply (reached_at (F := F) (peer c, kB)); iexact HR
    isplitr; · iapply (reached_send (F := F) c); iexact HR
    isplitr; · iapply (reached_recv (F := F) c); iexact HR
    isplitl [HtB]; · iexact HtB
    isplitl [HtS]; · iexact HtS
    iexact HtV
  · iexact Hloc

/-- The tokens dealt around: a barrier cell's and a receive cell's go to the peer, a send cell's stays. -/
theorem toks_around : (bigSep Finset.univ fun c : Dev nD => (toks c : sProp 𝕄)) ⊢ bigSep Finset.univ fun c : Dev nD => payToks c := by
  unfold toks payToks
  rw [bigSep_congr (s := Finset.univ) (fun (c : Dev nD) _ => bigSep_cells c fun g => (dutyTok ER g 0 () : sProp 𝕄)),
    bigSep_sep', bigSep_sep', bigSep_sep', bigSep_sep',
    bigSep_univ_equiv peerEquiv (fun c : Dev nD => (dutyTok ER (barCell c) 0 () : sProp 𝕄)),
    bigSep_univ_equiv peerEquiv (fun c : Dev nD => (bigSep Finset.univ fun i : Fin 16 => dutyTok ER (recvCell c i) 0 () : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 33 => iprop(∃ κ : ℕ, cellInv ER (a2aRd m) κ (kcell (c, k))))
          ∗ (bigSep Finset.univ fun k : Fin 33 => iprop(atPos ER (kcell (c, k)) 0 ∅ 0 ∗ reached ER (kcell (c, k)) 0)) ∗ toks c ∗ localSems0 c) : sProp 𝕄)
      ⊢ bigSep Finset.univ (G' m) := by
  rw [bigSep_sep', bigSep_sep', bigSep_sep', ← bigSep_univ_prod (fun ck : Dev nD × Fin 33 => iprop(∃ κ : ℕ, cellInv ER (a2aRd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok, Hloc⟩
  ihave HK := (BI.bigSep_exists_pi Finset.univ (fun (ck : Dev nD × Fin 33) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => bigSep Finset.univ fun k : Fin 33 => (atPos ER (kcell (c, k)) 0 ∅ 0 : sProp 𝕄)) (fun c => iprop(payToks c ∗ localSems0 c))).symm)).trans
      (bigSep_mono fun c _ => show _ ⊢ linear c from Entails.of_eq (by unfold linear; rw [bigSep_cells c fun g => (atPos ER g 0 ∅ 0 : sProp 𝕄)])))
    isplitl [Hat]; · iexact Hat
    rw [bigSep_sep']
    isplitl [Htk]; · iexact Htk
    iexact Hloc

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem creds_intro (c : Dev nD) : (Pipeline.launchCred O₀ c : sProp 𝕄) ⊢ creds c := by
  have h1 : (Pipeline.launchCred O₀ c : sProp 𝕄)
      = iprop(Pipeline.launchCred (fun d : Dev nD => ∑ i : Fin 16, tallyAt (recvCell (peer d) i) () N) c
          ∗ Pipeline.launchCred (fun d : Dev nD => tallyAt (barCell (peer d)) () 1) c) :=
    Pipeline.launchCred_add (fun d : Dev nD => ∑ i : Fin 16, tallyAt (recvCell (peer d) i) () N) (fun d : Dev nD => tallyAt (barCell (peer d)) () 1) c
  have h2 : (Pipeline.launchCred (fun d : Dev nD => ∑ i : Fin 16, tallyAt (recvCell (peer d) i) () N) c : sProp 𝕄)
      = bigSep Finset.univ fun i : Fin 16 => Pipeline.launchCred (fun d : Dev nD => tallyAt (recvCell (peer d) i) () N) c :=
    Pipeline.launchCred_sum Finset.univ (fun (i : Fin 16) (d : Dev nD) => tallyAt (recvCell (peer d) i) () N) c
  have hB : (Pipeline.launchCred (fun d : Dev nD => tallyAt (barCell (peer d)) () 1) c : sProp 𝕄) ⊢ cred (tallyAt (barCell c) () 1) :=
    Pipeline.launchCred_tallyAt (SemLoc.reg barS) peer peer peer_peer peer_peer () 1 c
  have hR : (bigSep Finset.univ fun i : Fin 16 => (Pipeline.launchCred (fun d : Dev nD => tallyAt (recvCell (peer d) i) () N) c : sProp 𝕄))
      ⊢ bigSep Finset.univ fun i : Fin 16 => (cred (tallyAt (recvCell c i) () N) : sProp 𝕄) :=
    bigSep_mono fun i _ => Pipeline.launchCred_tallyAt (SemLoc.dma (recvS i).sem) peer peer peer_peer peer_peer () N c
  rw [h1, h2]
  unfold creds
  iintro ⟨HR, HB⟩
  isplitl [HB]
  · iapply hB; iexact HB
  · iapply hR; iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨Harr, Hlev, Hcr, -, HG, Hloc⟩
  ihave Hc := (creds_intro (F := F) c) $$ Hcr
  imodintro
  unfold start arrs0
  isplitl
  · isplitl [HG]; · iexact HG
    isplitl [Hc]; · iexact Hc
    isplitl [Hloc]; · iexact Hloc
    isplitl [Hlev]; · iexact Hlev
    iexact Harr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(arrs1 m c ∗ Pipeline.ownSems0 osem c ∗ Pipeline.scopedRest cfg0.spec c) := by
  rw [show (dats m 0 c).Φ (Fin.last cfg0.N) = Φ₁ m c from rfl, scopedRest0_eq]
  unfold Φ₁ scratch
  exact .rfl

theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 16384 in
/-- The run from the body obligation of every device: what the launch itself contributes. -/
theorem run_main_of (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outFinal m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_proto m) $$ HR with HG
      imodintro
      isplitl [HP] <;> iassumption)
    (hglob := glob m)
    (hA := fun _ w => w.elim0) (hpf := fun _ k => k.elim0)
    (X := start m) (Y := arrs1 m) (Z := fun _ => iprop(emp))
    (hX := start_intro m ρ) (hin := phi0_intro m) (hout := phi1_exit m)
    (QY := fun c s => s.mem ((c.tc : Thread nD τ).loc main_v1) = outFinal m c
      ∧ s.mem ((c.tc : Thread nD τ).loc main_arg0) = m ((c.tc : Thread nD τ).loc main_arg0))
    (hY := fun c s' => by
      unfold arrs1
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => (h c).2.2)

/-- At the compiled mesh of eight devices, for any float values, from any memory with zero counters: every weakly fair
    execution of @main terminates, nothing faulting, and every final state has each device's result array at
    Spec.outFinal and its argument array unchanged. -/
theorem run_main : θ_run defs (onTc (τ := τ) (main (F := F))) ⟨m, fun _ => 0, ρ⟩ (fun r => ∀ c : Dev nD,
    r.2.mem ((c.tc : Thread nD τ).loc main_v1) = outFinal m c
    ∧ r.2.mem ((c.tc : Thread nD τ).loc main_arg0) = m ((c.tc : Thread nD τ).loc main_arg0)) :=
  run_main_of m ρ (body_obligation m)

/-- info: 'Cert.Kernel.A2A.run_main_of' depends on axioms: [propext, Classical.choice, Quot.sound] -/
#guard_msgs in #print axioms run_main_of

/-- info: 'Cert.Kernel.A2A.run_main' depends on axioms: [propext, Classical.choice, Quot.sound] -/
#guard_msgs in #print axioms run_main

end Cert.Kernel.A2A

end
-- ==== Proof.Value.lean ====
/-
  The value side: the result array of device c, as Spec.outFinal states it, is device c's block of columns
  of what the one-device reference computes from the whole input.
-/
import proofs.«900623_g7700000000000624_dist_a2a_v7x_xyz2x2x2_y_m4096_n1024_bf16_1_alg».proof.Defs
import proofs.«900623_g7700000000000624_dist_a2a_v7x_xyz2x2x2_y_m4096_n1024_bf16_1_alg».proof.Proof.Spec
import proofs.«900623_g7700000000000624_dist_a2a_v7x_xyz2x2x2_y_m4096_n1024_bf16_1_alg».proof.Proof.Gen.ReferenceIdeal.Run
import proofs.«900623_g7700000000000624_dist_a2a_v7x_xyz2x2x2_y_m4096_n1024_bf16_1_alg».proof.Proof.Gen.ReferenceIdeal.Read
import proofs.«900623_g7700000000000624_dist_a2a_v7x_xyz2x2x2_y_m4096_n1024_bf16_1_alg».proof.Proof.Gen.Pre_finite_inputs_ReferenceIdeal
import Idealize.ShloMosaic.Lib.Layout
import Idealize.ShloMosaic.Lib.ValueIdx

noncomputable section

namespace Cert.Proof.A2AValue

open Idealize.ShloMosaic Idealize.ShloMosaic.TcCoe Idealize.ShloMosaic.ValueIdx Idealize.SL.Sem

variable {F : FTy → Type} [FloatOps F]

/-- On the 2 x 2 x 2 mesh a dimension cut along the middle axis alone puts device d at block (d / 2) % 2. -/
theorem meshLin_mid (d : Nat) : Layout.meshLin [2, 2, 2] d [1] = (d / 2) % 2 := by
  simp [Layout.meshLin, Layout.meshCoord, Layout.cutSize]

/-- A dimension that is not cut is one block: every device is at block 0. -/
theorem meshLin_nil (d : Nat) : Layout.meshLin [2, 2, 2] d [] = 0 := rfl

open Cert.KernelIdeal.Spec in
/-- The device that holds row R of the whole input (seen from c) has middle coordinate R / 4096. -/
theorem cy_srcDev (c : Dev Cert.KernelIdeal.nD) (R : Nat) (hR : R < 8192) : cy (srcDev c R) = R / 4096 := by
  unfold srcDev
  split
  · next h => exact h.symm
  · next h =>
    rw [cy_peer]
    have h2 := cy_lt c
    omega

open Cert.KernelIdeal.Spec in
/-- Device c's result, as the specification states it, is block (0, cy c) of the narrowed whole input: both sides read
    the whole input at row R and column 1024 * cy c + j. -/
theorem outFinal_block
    (m : (ℓ : Loc Cert.KernelIdeal.nD Cert.KernelIdeal.τ Cert.KernelIdeal.sig) → Buf (Elt F) ℓ)
    (X : Buf (Elt F) (((0 : Dev Cert.ReferenceIdeal.nD).tc : Thread Cert.ReferenceIdeal.nD Cert.ReferenceIdeal.τ).loc Cert.ReferenceIdeal.main_arg0))
    (hx : ∀ c : Dev Cert.KernelIdeal.nD, m ((c.tc : Thread Cert.KernelIdeal.nD Cert.KernelIdeal.τ).loc Cert.KernelIdeal.main_arg0)
            = Layout.blockN ⟨2, ![4096, 2048]⟩ ⟨2, ![8192, 2048]⟩ (Layout.meshBlock [2, 2, 2] ![[1], []] c) X)
    (c : Dev Cert.KernelIdeal.nD) :
    Cert.KernelIdeal.Spec.outFinal m c
      = Layout.blockN ⟨2, ![8192, 1024]⟩ ⟨2, ![8192, 2048]⟩ (Layout.meshBlock [2, 2, 2] ![[], [1]] c) (truncf .bf16 X Cert.ReferenceIdeal.Gen.bitsLt_bf16_f32) := by
  funext idx
  rw [Layout.blockN_apply]
  unfold Cert.KernelIdeal.Spec.outFinal Cert.KernelIdeal.Spec.xOf
  rw [hx, Layout.blockN_apply]
  refine congrArg (fun i => FloatOps.truncf FTy.bf16 Cert.KernelIdeal.Gen.bitsLt_bf16_f32 (X i)) ?_
  have hR : (idx 0).val < 8192 := (idx 0).isLt
  funext b
  apply Fin.ext
  rw [Layout.TilesN.idx_val, Layout.TilesN.idx_val, Layout.meshBlock_val, Layout.meshBlock_val]
  match b with
  | ⟨0, _⟩ =>
    show Layout.meshLin [2, 2, 2] (srcDev c (idx 0).val).val [1] * 4096 + (idx 0).val % 4096
      = Layout.meshLin [2, 2, 2] c.val [] * 8192 + (idx 0).val
    rw [meshLin_mid, meshLin_nil]
    have h := cy_srcDev c (idx 0).val hR
    unfold cy at h
    omega
  | ⟨1, _⟩ =>
    show Layout.meshLin [2, 2, 2] (srcDev c (idx 0).val).val [] * 2048 + (1024 * cy c + (idx 1).val)
      = Layout.meshLin [2, 2, 2] c.val [1] * 1024 + (idx 1).val
    rw [meshLin_mid, meshLin_nil]
    unfold cy
    omega

/-- The one-device reference runs and leaves its argument array as launched: the second half of what its run states. -/
theorem ref_frame : Cert.frame_ReferenceIdeal := fun m ρ _ =>
  (θ_run Cert.ReferenceIdeal.defs _ _).mono (fun _ h c => (h c).2) (Cert.ReferenceIdeal.Value.run (F := Ideal) m ρ)

/-- The one-device reference runs, its result ending at the narrowed whole input and its argument as launched:
    its run, read at its one device. -/
theorem ref_value (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v0)
          = truncf (F := Ideal) (s := Cert.ReferenceIdeal.S8192x2048) (φ := .f32) .bf16
              (m' (((0 : Dev Cert.ReferenceIdeal.nD).tc : Thread Cert.ReferenceIdeal.nD Cert.ReferenceIdeal.τ).loc Cert.ReferenceIdeal.main_arg0))
              Cert.ReferenceIdeal.Gen.bitsLt_bf16_f32
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' g')

end Cert.Proof.A2AValue

end
-- ==== Proof.lean ====
/-
  An all-to-all along the middle axis of a 2 x 2 x 2 mesh, against the identity on the whole array.

  Each of the eight devices holds 4096 of the 8192 rows of a 2048-column array (the row block its middle mesh
  coordinate names) and must end with 1024 of the 2048 columns of ALL 8192 rows (the column block the same coordinate
  names), narrowed to the result's element type.  The kernel moves, chunk of 256 rows by chunk, the peer's half of the
  columns of its own rows into the peer's result array (a remote copy) and its own half into its own result array (a
  local copy); the peer is the device that differs in the middle coordinate only, and the two devices rendezvous on the
  runtime's barrier semaphore before the first remote copy.  So a device's result rows come half from itself and half
  from its peer (Spec.outFinal), and that array is the device's column block of the whole array narrowed (Value.outFinal_block):
  over the extended reals narrowing changes no value, and the one-device reference narrows the whole array.

  The three frames and the value claim are one run of @main on all devices (Launch.run_main, for the idealized program
  and, the same text over the word-level program's names, for the program as printed): every weakly fair execution
  terminates without a fault with the argument arrays unchanged and each result array at Spec.outFinal.  The ideal pass
  rewrote nothing, so the idealization's ledger is empty.
-/
import proofs.«900623_g7700000000000624_dist_a2a_v7x_xyz2x2x2_y_m4096_n1024_bf16_1_alg».proof.Defs
import proofs.«900623_g7700000000000624_dist_a2a_v7x_xyz2x2x2_y_m4096_n1024_bf16_1_alg».proof.Proof.Gen.Kernel
import proofs.«900623_g7700000000000624_dist_a2a_v7x_xyz2x2x2_y_m4096_n1024_bf16_1_alg».proof.Proof.Gen.KernelIdeal
import proofs.«900623_g7700000000000624_dist_a2a_v7x_xyz2x2x2_y_m4096_n1024_bf16_1_alg».proof.Proof.Gen.ReferenceIdeal
import proofs.«900623_g7700000000000624_dist_a2a_v7x_xyz2x2x2_y_m4096_n1024_bf16_1_alg».proof.Proof.Gen.Pre_finite_inputs_Kernel
import proofs.«900623_g7700000000000624_dist_a2a_v7x_xyz2x2x2_y_m4096_n1024_bf16_1_alg».proof.Proof.Gen.Pre_finite_inputs_ReferenceIdeal
import proofs.«900623_g7700000000000624_dist_a2a_v7x_xyz2x2x2_y_m4096_n1024_bf16_1_alg».proof.Proof.Launch
import proofs.«900623_g7700000000000624_dist_a2a_v7x_xyz2x2x2_y_m4096_n1024_bf16_1_alg».proof.Proof.Word.Launch
import proofs.«900623_g7700000000000624_dist_a2a_v7x_xyz2x2x2_y_m4096_n1024_bf16_1_alg».proof.Proof.Value
import Idealize.ShloMosaic.Adequacy
import Idealize.ShloMosaic.Init

noncomputable section

namespace Cert.Proof

open Idealize.ShloMosaic Idealize.ShloMosaic.TcCoe Idealize.SL.Sem

/-- The program as printed runs on all devices and leaves every argument array as launched. -/
theorem frame_word : Cert.frame_Kernel := fun m g _ =>
  (θ_run (Cert.Kernel.defs (F := Bits)) _ _).mono (fun _ h c => (h c).2) (Cert.Kernel.A2A.run_main (F := Bits) m g)

/-- So does the idealized program. -/
theorem frame_ideal : Cert.frame_KernelIdeal := fun m g _ =>
  (θ_run (Cert.KernelIdeal.defs (F := Ideal)) _ _).mono (fun _ h c => (h c).2) (Cert.KernelIdeal.A2A.run_main (F := Ideal) m g)

/-- Over the extended reals, from memories in which each device holds its row block of the reference's whole array: the
    reference ends with the whole array narrowed, and each device ends with its column block of that. -/
theorem algebraic : Cert.algebraic_KernelIdeal_ReferenceIdeal := by
  intro m g m' g' _ hagree
  refine ⟨_, ?_, Cert.Proof.A2AValue.ref_value m' g'⟩
  exact (θ_run (Cert.KernelIdeal.defs (F := Ideal)) _ _).mono
    (fun _ h c => ⟨(h c).1.trans (Cert.Proof.A2AValue.outFinal_block (F := Ideal) m _ hagree c), (h c).2⟩)
    (Cert.KernelIdeal.A2A.run_main (F := Ideal) m g)

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_word, frame_ideal, Cert.Proof.A2AValue.ref_frame, trivial, algebraic⟩

end Cert.Proof

end
